-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S128 .f32) (main_arg17 : FVec F S128x16 .f32) (main_arg18 : FVec F S16 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x16 .f32 := Host.absf main_arg17
  let main_cst_28 : FVec F S_ .f32 := constant S_ .f32 0x7F800000#32
  let main_v75 : FVec F S128x16 .f32 := broadcastInDim S128x16 ![] bcast_S_S128x16 main_cst_28
  let main_v76 : IVec S128x16 1 := cmpf .olt main_v74 main_v75
  let main_c_29 : IVec S_ 1 := constantI S_ 1 1#1
  let main_v77 : IVec S_ 1 := (fun x v => Host.reduce IntOp.andi x v reducesTo_S128x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x128 .f32) (main_arg16 : FVec F S128 .f32) (main_arg17 : FVec F S128x16 .f32) (main_arg18 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x16 .f32) (main_arg18 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x16 .f32) (main_arg18 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x1 .f32) (main_arg1 : IVec S2x1600000 32) (main_arg2 : IVec S100000 32) (main_arg3 : FVec F S1x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x16 .f32) (main_arg18 : FVec F S16 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x1 : Shape := ⟨2, ![5000, 1]⟩
abbrev S5000x128 : Shape := ⟨2, ![5000, 128]⟩
abbrev S1700000x128 : Shape := ⟨2, ![1700000, 128]⟩
abbrev S64x128 : Shape := ⟨2, ![64, 128]⟩
abbrev S64x1 : Shape := ⟨2, ![64, 1]⟩
abbrev S1x64 : Shape := ⟨2, ![1, 64]⟩
abbrev S5000x64 : Shape := ⟨2, ![5000, 64]⟩
abbrev S64x16 : Shape := ⟨2, ![64, 16]⟩
abbrev S1x16 : Shape := ⟨2, ![1, 16]⟩

abbrev nBuf : Space → Nat
  | .hbm => 186
  | .vmem => 57
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x16, .f32⟩
  | 18 => ⟨S16, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S100000x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x1, .f32⟩

abbrev hbmTy0_1 (i : Nat) : BufTy := match i % 128 with
  | 0 => ⟨S1x128, .f32⟩
  | 1 => ⟨S1x128, .f32⟩
  | 2 => ⟨S100000x128, .f32⟩
  | 3 => ⟨S100000x128, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x1, .f32⟩
  | 14 => ⟨S1700000x128, .f32⟩
  | 15 => ⟨S1700000x128, .f32⟩
  | 16 => ⟨S_, .f32⟩
  | 17 => ⟨S100000x128, .f32⟩
  | 18 => ⟨S1700000x1, .i32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S100000x128, .f32⟩
  | 39 => ⟨S100000x1, .i32⟩
  | 40 => ⟨S64x128, .f32⟩
  | 41 => ⟨S64x1, .f32⟩
  | 42 => ⟨S_, .f32⟩
  | 43 => ⟨S64x1, .f32⟩
  | 44 => ⟨S64x1, .f32⟩
  | 45 => ⟨S64x128, .f32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S_, .f32⟩
  | 52 => ⟨S64x128, .f32⟩
  | 53 => ⟨S64x128, .f32⟩
  | 54 => ⟨S64x16, .f32⟩
  | 55 => ⟨S1x16, .f32⟩
  | 56 => ⟨S64x16, .f32⟩
  | 57 => ⟨S64x16, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x1, .i32⟩
  | .local _ .vmem, ⟨54, _⟩ => ⟨S5000x1, .i32⟩
  | .local _ .vmem, ⟨55, _⟩ => ⟨S64x128, .f32⟩
  | .local _ .vmem, ⟨56, _⟩ => ⟨S64x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_12 : Ref sig .tc := ⟨.hbm, 96, rfl⟩
abbrev main_v60 : Ref sig .tc := ⟨.hbm, 97, rfl⟩
abbrev main_v61 : Ref sig .tc := ⟨.hbm, 98, rfl⟩
abbrev main_c_13 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76_0 : Ref sig .tc := ⟨.hbm, 115, rfl⟩
abbrev main_v76_1 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_17 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105_0 : Ref sig .tc := ⟨.hbm, 151, rfl⟩
abbrev main_v105_1 : Ref sig .tc := ⟨.hbm, 152, rfl⟩
abbrev main_cst_21 : Ref sig .tc := ⟨.hbm, 153, rfl⟩
abbrev main_v106 : Ref sig .tc := ⟨.hbm, 154, rfl⟩
abbrev main_v107 : Ref sig .tc := ⟨.hbm, 155, rfl⟩
abbrev main_cst_22 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_23 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118_0 : Ref sig .tc := ⟨.hbm, 168, rfl⟩
abbrev main_v118_1 : Ref sig .tc := ⟨.hbm, 169, rfl⟩
abbrev main_cst_24 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_call1_cst : Ref sig .tc := ⟨.hbm, 179, rfl⟩
abbrev main_call1_v0 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg1_1 : Ref sig .tc := ⟨.vmem, 54, rfl⟩
abbrev cc9_stg2_0 : Ref sig .tc := ⟨.vmem, 55, rfl⟩
abbrev cc9_stg3_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem3_0 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  shapeCasts_S64x128_S64x128 : S64x128.ShapeCasts S64x128
  shapeCasts_S64x1_S64x1 : S64x1.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x1_S1x128_S5000x128_1_0_0_1_n_n_wf : DotDims.WF S5000x1 S1x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .i32 = 32 ∨ (Rect.block (s := S100000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x1.size a ≤ S64x1.size a
  hwx9_3 : ∀ i : grid9.Coords, EltTy.bits .f32 = 32 ∨ (Rect.block (s := S64x1) S64x1.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v104) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v115) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v116) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v116) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v118_0) S64x128.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v118_1) S64x1.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S64 : Shape := ⟨1, ![64]⟩
abbrev S64x128 : Shape := ⟨2, ![64, 128]⟩
abbrev S64x1 : Shape := ⟨2, ![64, 1]⟩
abbrev S64x16 : Shape := ⟨2, ![64, 16]⟩
abbrev S1x16 : Shape := ⟨2, ![1, 16]⟩

abbrev nBuf : Space → Nat
  | .hbm => 245
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x16, .f32⟩
  | 18 => ⟨S16, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x1, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x128, .f32⟩
  | 47 => ⟨S1700000x1, .f32⟩
  | 48 => ⟨S1700000x128, .f32⟩
  | 49 => ⟨S1700000x128, .f32⟩
  | 50 => ⟨S_, .f32⟩
  | 51 => ⟨S100000x128, .f32⟩
  | 52 => ⟨S1700000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S100000, .f32⟩
  | 92 => ⟨S_, .f32⟩
  | 93 => ⟨S64, .f32⟩
  | 94 => ⟨S100000x1, .i32⟩
  | 95 => ⟨S64, .f32⟩
  | 96 => ⟨S_, .f32⟩
  | 97 => ⟨S64x128, .f32⟩
  | 98 => ⟨S100000x1, .i32⟩
  | 99 => ⟨S64x128, .f32⟩
  | 100 => ⟨S_, .f32⟩
  | 101 => ⟨S64, .f32⟩
  | 102 => ⟨S64, .f32⟩
  | 103 => ⟨S64x1, .f32⟩
  | 104 => ⟨S64x128, .f32⟩
  | 105 => ⟨S64x128, .f32⟩
  | 106 => ⟨S64x128, .f32⟩
  | 107 => ⟨S1x128, .f32⟩
  | 108 => ⟨S64x128, .f32⟩
  | 109 => ⟨S64x128, .f32⟩
  | 110 => ⟨S_, .f32⟩
  | 111 => ⟨S64x128, .f32⟩
  | 112 => ⟨S64x128, .f32⟩
  | 113 => ⟨S64x16, .f32⟩
  | 114 => ⟨S1x16, .f32⟩
  | 115 => ⟨S64x16, .f32⟩
  | 116 => ⟨S64x16, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call1_cst : Ref sig .tc := ⟨.hbm, 109, rfl⟩
abbrev main_call1_v0 : Ref sig .tc := ⟨.hbm, 110, rfl⟩
abbrev main_v72 : Ref sig .tc := ⟨.hbm, 111, rfl⟩
abbrev main_v73 : Ref sig .tc := ⟨.hbm, 112, rfl⟩
abbrev main_c_14 : Ref sig .tc := ⟨.hbm, 113, rfl⟩
abbrev main_v74 : Ref sig .tc := ⟨.hbm, 114, rfl⟩
abbrev main_v75 : Ref sig .tc := ⟨.hbm, 115, rfl⟩
abbrev main_c_15 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_17 : Ref sig .tc := ⟨.hbm, 132, rfl⟩
abbrev main_v90 : Ref sig .tc := ⟨.hbm, 133, rfl⟩
abbrev main_cst_18 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_19 : Ref sig .tc := ⟨.hbm, 141, rfl⟩
abbrev main_v97 : Ref sig .tc := ⟨.hbm, 142, rfl⟩
abbrev main_cst_20 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_call2_cst : Ref sig .tc := ⟨.hbm, 162, rfl⟩
abbrev main_call2_v0 : Ref sig .tc := ⟨.hbm, 163, rfl⟩
abbrev main_v115 : Ref sig .tc := ⟨.hbm, 164, rfl⟩
abbrev main_v116 : Ref sig .tc := ⟨.hbm, 165, rfl⟩
abbrev main_c_22 : Ref sig .tc := ⟨.hbm, 166, rfl⟩
abbrev main_v117 : Ref sig .tc := ⟨.hbm, 167, rfl⟩
abbrev main_v118 : Ref sig .tc := ⟨.hbm, 168, rfl⟩
abbrev main_c_23 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_24 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_cst_26 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_27 : Ref sig .tc := ⟨.hbm, 194, rfl⟩
abbrev main_v140 : Ref sig .tc := ⟨.hbm, 195, rfl⟩
abbrev main_cst_28 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_29 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_call3_cst : Ref sig .tc := ⟨.hbm, 215, rfl⟩
abbrev main_call3_v0 : Ref sig .tc := ⟨.hbm, 216, rfl⟩
abbrev main_v158 : Ref sig .tc := ⟨.hbm, 217, rfl⟩
abbrev main_cst_30 : Ref sig .tc := ⟨.hbm, 218, rfl⟩
abbrev main_v159 : Ref sig .tc := ⟨.hbm, 219, rfl⟩
abbrev main_cst_31 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_32 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_33 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_call4_cst : Ref sig .tc := ⟨.hbm, 238, rfl⟩
abbrev main_call4_v0 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x128_S100000x128_1_0_0_1_n_n_wf : DotDims.WF S100000x1 S1x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Carry.lean ====
/-
  "Not written": a tactic that decides that a literal reference is the result of no operation of a literal list of
  host operations (each operation writes exactly its result reference, and two literal references differ by computation).
  With the fold's own lemma `StableHlo.after_of_forall_not_mem` it carries a buffer's contents across a stretch of host operations.
-/
import proofs.«420901_j2903397892205_1_alg».proof.Proof.Gen.KernelIdeal.Frame

set_option maxRecDepth 16384

namespace Cert.KernelIdeal.Gen

open Idealize.ShloMosaic

/-- Decides `∀ op ∈ ops, b ∉ op.writes` for a literal list `ops` and a literal reference `b`. -/
macro "nw " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

end Cert.KernelIdeal.Gen
-- ==== Proof.Kept.lean ====
import proofs.«420901_j2903397892205_1_alg».proof.Proof.Carry

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- `main_arg0` holds at boundary 3 what it held at the launch: no segment between writes it. -/
theorem kept_main_arg0_W3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (by nw hostOps0_2)
    _ = W1 m ρ c (Proc.devRef .tc main_arg0) := StableHlo.after_of_forall_not_mem (b := Proc.devRef .tc main_arg0) _ _ (by nw hostOps0_1)
    _ = W0 m ρ c (Proc.devRef .tc main_arg0) := StableHlo.after_of_forall_not_mem (b := Proc.devRef .tc main_arg0) _ _ (by nw hostOps0)
    _ = m ((c : Thread nD τ).loc main_arg0) := rfl

/-- `main_arg3` holds at boundary 3 what it held at the launch: no segment between writes it. -/
theorem kept_main_arg3_W3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (by nw hostOps0_2)
    _ = W1 m ρ c (Proc.devRef .tc main_arg3) := StableHlo.after_of_forall_not_mem (b := Proc.devRef .tc main_arg3) _ _ (by nw hostOps0_1)
    _ = W0 m ρ c (Proc.devRef .tc main_arg3) := StableHlo.after_of_forall_not_mem (b := Proc.devRef .tc main_arg3) _ _ (by nw hostOps0)
    _ = m ((c : Thread nD τ).loc main_arg3) := rfl

/-- `main_arg4` holds at boundary 4 what it held at the launch: no segment between writes it. -/
theorem kept_main_arg4_W4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by nw hostOps0_2)
    _ = W1 m ρ c (Proc.devRef .tc main_arg4) := StableHlo.after_of_forall_not_mem (b := Proc.devRef .tc main_arg4) _ _ (by nw hostOps0_1)
    _ = W0 m ρ c (Proc.devRef .tc main_arg4) := StableHlo.after_of_forall_not_mem (b := Proc.devRef .tc main_arg4) _ _ (by nw hostOps0)
    _ = m ((c : Thread nD τ).loc main_arg4) := rfl

/-- `main_v3` holds at boundary 4 what it held at boundary 3: no segment between writes it. -/
theorem kept_main_v3_W4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v6` holds at boundary 4 what it held at boundary 3: no segment between writes it. -/
theorem kept_main_v6_W4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v29` holds at boundary 4 what it held at boundary 3: no segment between writes it. -/
theorem kept_main_v29_W4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- `main_arg5` holds at boundary 6 what it held at the launch: no segment between writes it. -/
theorem kept_main_arg5_W6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by nw hostOps1)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by nw hostOps0_2)
    _ = W1 m ρ c (Proc.devRef .tc main_arg5) := StableHlo.after_of_forall_not_mem (b := Proc.devRef .tc main_arg5) _ _ (by nw hostOps0_1)
    _ = W0 m ρ c (Proc.devRef .tc main_arg5) := StableHlo.after_of_forall_not_mem (b := Proc.devRef .tc main_arg5) _ _ (by nw hostOps0)
    _ = m ((c : Thread nD τ).loc main_arg5) := rfl

/-- `main_arg6` holds at boundary 6 what it held at the launch: no segment between writes it. -/
theorem kept_main_arg6_W6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by nw hostOps1)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by nw hostOps0_2)
    _ = W1 m ρ c (Proc.devRef .tc main_arg6) := StableHlo.after_of_forall_not_mem (b := Proc.devRef .tc main_arg6) _ _ (by nw hostOps0_1)
    _ = W0 m ρ c (Proc.devRef .tc main_arg6) := StableHlo.after_of_forall_not_mem (b := Proc.devRef .tc main_arg6) _ _ (by nw hostOps0)
    _ = m ((c : Thread nD τ).loc main_arg6) := rfl

/-- `main_v46` holds at boundary 7 what it held at boundary 5: no segment between writes it. -/
theorem kept_main_v46_W7 (c : Dev nD) : W7 m ρ c (Proc.devRef .tc main_v46) = W5 m ρ c (Proc.devRef .tc main_v46) :=
  calc W7 m ρ c (Proc.devRef .tc main_v46)
    _ = W6 m ρ c (Proc.devRef .tc main_v46) := StableHlo.after_of_forall_not_mem (b := Proc.devRef .tc main_v46) _ _ (by nw hostOps2)
    _ = W5 m ρ c (Proc.devRef .tc main_v46) := (W6_arr m ρ c 0).trans (((dat1 (V5 m ρ) c).arrAt_in 0 rfl _).trans (A_eq1 (V5 m ρ) c 0))

/-- `main_arg7` holds at boundary 8 what it held at the launch: no segment between writes it. -/
theorem kept_main_arg7_W8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (by nw hostOps2)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (by nw hostOps1)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by nw hostOps0_2)
    _ = W1 m ρ c (Proc.devRef .tc main_arg7) := StableHlo.after_of_forall_not_mem (b := Proc.devRef .tc main_arg7) _ _ (by nw hostOps0_1)
    _ = W0 m ρ c (Proc.devRef .tc main_arg7) := StableHlo.after_of_forall_not_mem (b := Proc.devRef .tc main_arg7) _ _ (by nw hostOps0)
    _ = m ((c : Thread nD τ).loc main_arg7) := rfl

/-- `main_arg8` holds at boundary 9 what it held at the launch: no segment between writes it. -/
theorem kept_main_arg8_W9 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (by nw hostOps2)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (by nw hostOps1)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by nw hostOps0_2)
    _ = W1 m ρ c (Proc.devRef .tc main_arg8) := StableHlo.after_of_forall_not_mem (b := Proc.devRef .tc main_arg8) _ _ (by nw hostOps0_1)
    _ = W0 m ρ c (Proc.devRef .tc main_arg8) := StableHlo.after_of_forall_not_mem (b := Proc.devRef .tc main_arg8) _ _ (by nw hostOps0)
    _ = m ((c : Thread nD τ).loc main_arg8) := rfl

/-- `main_v3` holds at boundary 9 what it held at boundary 3: no segment between writes it. -/
theorem kept_main_v3_W9 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (by nw hostOps2)
    _ = W5 m ρ c (Proc.devRef .tc main_v3) := W6_of_ne m ρ c main_v3 (by decide)
    _ = W4 m ρ c (Proc.devRef .tc main_v3) := StableHlo.after_of_forall_not_mem (b := Proc.devRef .tc main_v3) _ _ (by nw hostOps1)
    _ = W3 m ρ c (Proc.devRef .tc main_v3) := W4_of_ne m ρ c main_v3 (by decide)

/-- `main_v6` holds at boundary 9 what it held at boundary 3: no segment between writes it. -/
theorem kept_main_v6_W9 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (by nw hostOps2)
    _ = W5 m ρ c (Proc.devRef .tc main_v6) := W6_of_ne m ρ c main_v6 (by decide)
    _ = W4 m ρ c (Proc.devRef .tc main_v6) := StableHlo.after_of_forall_not_mem (b := Proc.devRef .tc main_v6) _ _ (by nw hostOps1)
    _ = W3 m ρ c (Proc.devRef .tc main_v6) := W4_of_ne m ρ c main_v6 (by decide)

/-- `main_v29` holds at boundary 9 what it held at boundary 3: no segment between writes it. -/
theorem kept_main_v29_W9 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (by nw hostOps2)
    _ = W5 m ρ c (Proc.devRef .tc main_v29) := W6_of_ne m ρ c main_v29 (by decide)
    _ = W4 m ρ c (Proc.devRef .tc main_v29) := StableHlo.after_of_forall_not_mem (b := Proc.devRef .tc main_v29) _ _ (by nw hostOps1)
    _ = W3 m ρ c (Proc.devRef .tc main_v29) := W4_of_ne m ρ c main_v29 (by decide)

/-- `main_arg9` holds at boundary 11 what it held at the launch: no segment between writes it. -/
theorem kept_main_arg9_W11 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (by nw hostOps4)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (by nw hostOps2)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by nw hostOps1)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by nw hostOps0_2)
    _ = W1 m ρ c (Proc.devRef .tc main_arg9) := StableHlo.after_of_forall_not_mem (b := Proc.devRef .tc main_arg9) _ _ (by nw hostOps0_1)
    _ = W0 m ρ c (Proc.devRef .tc main_arg9) := StableHlo.after_of_forall_not_mem (b := Proc.devRef .tc main_arg9) _ _ (by nw hostOps0)
    _ = m ((c : Thread nD τ).loc main_arg9) := rfl

/-- `main_arg10` holds at boundary 11 what it held at the launch: no segment between writes it. -/
theorem kept_main_arg10_W11 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (by nw hostOps4)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (by nw hostOps2)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (by nw hostOps1)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by nw hostOps0_2)
    _ = W1 m ρ c (Proc.devRef .tc main_arg10) := StableHlo.after_of_forall_not_mem (b := Proc.devRef .tc main_arg10) _ _ (by nw hostOps0_1)
    _ = W0 m ρ c (Proc.devRef .tc main_arg10) := StableHlo.after_of_forall_not_mem (b := Proc.devRef .tc main_arg10) _ _ (by nw hostOps0)
    _ = m ((c : Thread nD τ).loc main_arg10) := rfl

/-- `main_v75` holds at boundary 12 what it held at boundary 10: no segment between writes it. -/
theorem kept_main_v75_W12 (c : Dev nD) : W12 m ρ c (Proc.devRef .tc main_v75) = W10 m ρ c (Proc.devRef .tc main_v75) :=
  calc W12 m ρ c (Proc.devRef .tc main_v75)
    _ = W11 m ρ c (Proc.devRef .tc main_v75) := StableHlo.after_of_forall_not_mem (b := Proc.devRef .tc main_v75) _ _ (by nw hostOps5)
    _ = W10 m ρ c (Proc.devRef .tc main_v75) := (W11_arr m ρ c 0).trans (((dat4 (V10 m ρ) c).arrAt_in 0 rfl _).trans (A_eq4 (V10 m ρ) c 0))

/-- `main_arg11` holds at boundary 13 what it held at the launch: no segment between writes it. -/
theorem kept_main_arg11_W13 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := StableHlo.after_of_forall_not_mem (b := Proc.devRef .tc main_arg11) _ _ (by nw hostOps5)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (by nw hostOps4)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (by nw hostOps2)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (by nw hostOps1)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by nw hostOps0_2)
    _ = W1 m ρ c (Proc.devRef .tc main_arg11) := StableHlo.after_of_forall_not_mem (b := Proc.devRef .tc main_arg11) _ _ (by nw hostOps0_1)
    _ = W0 m ρ c (Proc.devRef .tc main_arg11) := StableHlo.after_of_forall_not_mem (b := Proc.devRef .tc main_arg11) _ _ (by nw hostOps0)
    _ = m ((c : Thread nD τ).loc main_arg11) := rfl

/-- `main_arg12` holds at boundary 14 what it held at the launch: no segment between writes it. -/
theorem kept_main_arg12_W14 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := StableHlo.after_of_forall_not_mem (b := Proc.devRef .tc main_arg12) _ _ (by nw hostOps5)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (by nw hostOps4)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (by nw hostOps2)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (by nw hostOps1)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by nw hostOps0_2)
    _ = W1 m ρ c (Proc.devRef .tc main_arg12) := StableHlo.after_of_forall_not_mem (b := Proc.devRef .tc main_arg12) _ _ (by nw hostOps0_1)
    _ = W0 m ρ c (Proc.devRef .tc main_arg12) := StableHlo.after_of_forall_not_mem (b := Proc.devRef .tc main_arg12) _ _ (by nw hostOps0)
    _ = m ((c : Thread nD τ).loc main_arg12) := rfl

/-- `main_v3` holds at boundary 14 what it held at boundary 3: no segment between writes it. -/
theorem kept_main_v3_W14 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (by nw hostOps5)
    _ = W10 m ρ c (Proc.devRef .tc main_v3) := W11_of_ne m ρ c main_v3 (by decide)
    _ = W9 m ρ c (Proc.devRef .tc main_v3) := StableHlo.after_of_forall_not_mem (b := Proc.devRef .tc main_v3) _ _ (by nw hostOps4)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (by nw hostOps2)
    _ = W5 m ρ c (Proc.devRef .tc main_v3) := W6_of_ne m ρ c main_v3 (by decide)
    _ = W4 m ρ c (Proc.devRef .tc main_v3) := StableHlo.after_of_forall_not_mem (b := Proc.devRef .tc main_v3) _ _ (by nw hostOps1)
    _ = W3 m ρ c (Proc.devRef .tc main_v3) := W4_of_ne m ρ c main_v3 (by decide)

/-- `main_v6` holds at boundary 14 what it held at boundary 3: no segment between writes it. -/
theorem kept_main_v6_W14 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (by nw hostOps5)
    _ = W10 m ρ c (Proc.devRef .tc main_v6) := W11_of_ne m ρ c main_v6 (by decide)
    _ = W9 m ρ c (Proc.devRef .tc main_v6) := StableHlo.after_of_forall_not_mem (b := Proc.devRef .tc main_v6) _ _ (by nw hostOps4)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (by nw hostOps2)
    _ = W5 m ρ c (Proc.devRef .tc main_v6) := W6_of_ne m ρ c main_v6 (by decide)
    _ = W4 m ρ c (Proc.devRef .tc main_v6) := StableHlo.after_of_forall_not_mem (b := Proc.devRef .tc main_v6) _ _ (by nw hostOps1)
    _ = W3 m ρ c (Proc.devRef .tc main_v6) := W4_of_ne m ρ c main_v6 (by decide)

/-- `main_v29` holds at boundary 14 what it held at boundary 3: no segment between writes it. -/
theorem kept_main_v29_W14 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := StableHlo.after_of_forall_not_mem (b := Proc.devRef .tc main_v29) _ _ (by nw hostOps5)
    _ = W10 m ρ c (Proc.devRef .tc main_v29) := W11_of_ne m ρ c main_v29 (by decide)
    _ = W9 m ρ c (Proc.devRef .tc main_v29) := StableHlo.after_of_forall_not_mem (b := Proc.devRef .tc main_v29) _ _ (by nw hostOps4)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (by nw hostOps2)
    _ = W5 m ρ c (Proc.devRef .tc main_v29) := W6_of_ne m ρ c main_v29 (by decide)
    _ = W4 m ρ c (Proc.devRef .tc main_v29) := StableHlo.after_of_forall_not_mem (b := Proc.devRef .tc main_v29) _ _ (by nw hostOps1)
    _ = W3 m ρ c (Proc.devRef .tc main_v29) := W4_of_ne m ρ c main_v29 (by decide)

/-- `main_arg13` holds at boundary 16 what it held at the launch: no segment between writes it. -/
theorem kept_main_arg13_W16 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (by nw hostOps7)
    _ = W13 m ρ c (Proc.devRef .tc main_arg13) := W14_of_ne m ρ c main_arg13 (by decide)
    _ = W12 m ρ c (Proc.devRef .tc main_arg13) := W13_of_ne m ρ c main_arg13 (by decide)
    _ = W11 m ρ c (Proc.devRef .tc main_arg13) := StableHlo.after_of_forall_not_mem (b := Proc.devRef .tc main_arg13) _ _ (by nw hostOps5)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (by nw hostOps4)
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (by nw hostOps2)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (by nw hostOps1)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (by nw hostOps0_2)
    _ = W1 m ρ c (Proc.devRef .tc main_arg13) := StableHlo.after_of_forall_not_mem (b := Proc.devRef .tc main_arg13) _ _ (by nw hostOps0_1)
    _ = W0 m ρ c (Proc.devRef .tc main_arg13) := StableHlo.after_of_forall_not_mem (b := Proc.devRef .tc main_arg13) _ _ (by nw hostOps0)
    _ = m ((c : Thread nD τ).loc main_arg13) := rfl

/-- `main_arg14` holds at boundary 16 what it held at the launch: no segment between writes it. -/
theorem kept_main_arg14_W16 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (by nw hostOps7)
    _ = W13 m ρ c (Proc.devRef .tc main_arg14) := W14_of_ne m ρ c main_arg14 (by decide)
    _ = W12 m ρ c (Proc.devRef .tc main_arg14) := W13_of_ne m ρ c main_arg14 (by decide)
    _ = W11 m ρ c (Proc.devRef .tc main_arg14) := StableHlo.after_of_forall_not_mem (b := Proc.devRef .tc main_arg14) _ _ (by nw hostOps5)
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (by nw hostOps4)
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (by nw hostOps2)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (by nw hostOps1)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (by nw hostOps0_2)
    _ = W1 m ρ c (Proc.devRef .tc main_arg14) := StableHlo.after_of_forall_not_mem (b := Proc.devRef .tc main_arg14) _ _ (by nw hostOps0_1)
    _ = W0 m ρ c (Proc.devRef .tc main_arg14) := StableHlo.after_of_forall_not_mem (b := Proc.devRef .tc main_arg14) _ _ (by nw hostOps0)
    _ = m ((c : Thread nD τ).loc main_arg14) := rfl

/-- `main_v104` holds at boundary 17 what it held at boundary 15: no segment between writes it. -/
theorem kept_main_v104_W17 (c : Dev nD) : W17 m ρ c (Proc.devRef .tc main_v104) = W15 m ρ c (Proc.devRef .tc main_v104) :=
  calc W17 m ρ c (Proc.devRef .tc main_v104)
    _ = W16 m ρ c (Proc.devRef .tc main_v104) := StableHlo.after_of_forall_not_mem (b := Proc.devRef .tc main_v104) _ _ (by nw hostOps8)
    _ = W15 m ρ c (Proc.devRef .tc main_v104) := (W16_arr m ρ c 0).trans (((dat7 (V15 m ρ) c).arrAt_in 0 rfl _).trans (A_eq7 (V15 m ρ) c 0))

/-- `main_arg2` holds at boundary 18 what it held at the launch: no segment between writes it. -/
theorem kept_main_arg2_W18 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (by nw hostOps8)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (by nw hostOps7)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := StableHlo.after_of_forall_not_mem (b := Proc.devRef .tc main_arg2) _ _ (by nw hostOps5)
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (by nw hostOps4)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (by nw hostOps2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (by nw hostOps1)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by nw hostOps0_2)
    _ = W1 m ρ c (Proc.devRef .tc main_arg2) := StableHlo.after_of_forall_not_mem (b := Proc.devRef .tc main_arg2) _ _ (by nw hostOps0_1)
    _ = W0 m ρ c (Proc.devRef .tc main_arg2) := StableHlo.after_of_forall_not_mem (b := Proc.devRef .tc main_arg2) _ _ (by nw hostOps0)
    _ = m ((c : Thread nD τ).loc main_arg2) := rfl

/-- `main_arg15` holds at boundary 20 what it held at the launch: no segment between writes it. -/
theorem kept_main_arg15_W20 (c : Dev nD) : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (by nw hostOps9)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (by nw hostOps8)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (by nw hostOps7)
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := StableHlo.after_of_forall_not_mem (b := Proc.devRef .tc main_arg15) _ _ (by nw hostOps5)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (by nw hostOps4)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (by nw hostOps2)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (by nw hostOps1)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by nw hostOps0_2)
    _ = W1 m ρ c (Proc.devRef .tc main_arg15) := StableHlo.after_of_forall_not_mem (b := Proc.devRef .tc main_arg15) _ _ (by nw hostOps0_1)
    _ = W0 m ρ c (Proc.devRef .tc main_arg15) := StableHlo.after_of_forall_not_mem (b := Proc.devRef .tc main_arg15) _ _ (by nw hostOps0)
    _ = m ((c : Thread nD τ).loc main_arg15) := rfl

/-- `main_arg16` holds at boundary 20 what it held at the launch: no segment between writes it. -/
theorem kept_main_arg16_W20 (c : Dev nD) : W20 m ρ c (Proc.devRef .tc main_arg16) = m ((c : Thread nD τ).loc main_arg16) :=
  calc W20 m ρ c (Proc.devRef .tc main_arg16)
    _ = W19 m ρ c (Proc.devRef .tc main_arg16) := W20_of_ne m ρ c main_arg16 (by decide)
    _ = W18 m ρ c (Proc.devRef .tc main_arg16) := StableHlo.after_of_forall_not_mem (b := Proc.devRef .tc main_arg16) _ _ (by nw hostOps9)
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (by nw hostOps8)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (by nw hostOps7)
    _ = W13 m ρ c (Proc.devRef .tc main_arg16) := W14_of_ne m ρ c main_arg16 (by decide)
    _ = W12 m ρ c (Proc.devRef .tc main_arg16) := W13_of_ne m ρ c main_arg16 (by decide)
    _ = W11 m ρ c (Proc.devRef .tc main_arg16) := StableHlo.after_of_forall_not_mem (b := Proc.devRef .tc main_arg16) _ _ (by nw hostOps5)
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (by nw hostOps4)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (by nw hostOps2)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (by nw hostOps1)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by nw hostOps0_2)
    _ = W1 m ρ c (Proc.devRef .tc main_arg16) := StableHlo.after_of_forall_not_mem (b := Proc.devRef .tc main_arg16) _ _ (by nw hostOps0_1)
    _ = W0 m ρ c (Proc.devRef .tc main_arg16) := StableHlo.after_of_forall_not_mem (b := Proc.devRef .tc main_arg16) _ _ (by nw hostOps0)
    _ = m ((c : Thread nD τ).loc main_arg16) := rfl

/-- `main_arg17` holds at boundary 20 what it held at the launch: no segment between writes it. -/
theorem kept_main_arg17_W20 (c : Dev nD) : W20 m ρ c (Proc.devRef .tc main_arg17) = m ((c : Thread nD τ).loc main_arg17) :=
  calc W20 m ρ c (Proc.devRef .tc main_arg17)
    _ = W19 m ρ c (Proc.devRef .tc main_arg17) := W20_of_ne m ρ c main_arg17 (by decide)
    _ = W18 m ρ c (Proc.devRef .tc main_arg17) := StableHlo.after_of_forall_not_mem (b := Proc.devRef .tc main_arg17) _ _ (by nw hostOps9)
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (by nw hostOps8)
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (by nw hostOps7)
    _ = W13 m ρ c (Proc.devRef .tc main_arg17) := W14_of_ne m ρ c main_arg17 (by decide)
    _ = W12 m ρ c (Proc.devRef .tc main_arg17) := W13_of_ne m ρ c main_arg17 (by decide)
    _ = W11 m ρ c (Proc.devRef .tc main_arg17) := StableHlo.after_of_forall_not_mem (b := Proc.devRef .tc main_arg17) _ _ (by nw hostOps5)
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (by nw hostOps4)
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (by nw hostOps2)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (by nw hostOps1)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (by nw hostOps0_2)
    _ = W1 m ρ c (Proc.devRef .tc main_arg17) := StableHlo.after_of_forall_not_mem (b := Proc.devRef .tc main_arg17) _ _ (by nw hostOps0_1)
    _ = W0 m ρ c (Proc.devRef .tc main_arg17) := StableHlo.after_of_forall_not_mem (b := Proc.devRef .tc main_arg17) _ _ (by nw hostOps0)
    _ = m ((c : Thread nD τ).loc main_arg17) := rfl

/-- `main_arg18` holds at boundary 20 what it held at the launch: no segment between writes it. -/
theorem kept_main_arg18_W20 (c : Dev nD) : W20 m ρ c (Proc.devRef .tc main_arg18) = m ((c : Thread nD τ).loc main_arg18) :=
  calc W20 m ρ c (Proc.devRef .tc main_arg18)
    _ = W19 m ρ c (Proc.devRef .tc main_arg18) := W20_of_ne m ρ c main_arg18 (by decide)
    _ = W18 m ρ c (Proc.devRef .tc main_arg18) := StableHlo.after_of_forall_not_mem (b := Proc.devRef .tc main_arg18) _ _ (by nw hostOps9)
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (by nw hostOps8)
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (by nw hostOps7)
    _ = W13 m ρ c (Proc.devRef .tc main_arg18) := W14_of_ne m ρ c main_arg18 (by decide)
    _ = W12 m ρ c (Proc.devRef .tc main_arg18) := W13_of_ne m ρ c main_arg18 (by decide)
    _ = W11 m ρ c (Proc.devRef .tc main_arg18) := StableHlo.after_of_forall_not_mem (b := Proc.devRef .tc main_arg18) _ _ (by nw hostOps5)
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (by nw hostOps4)
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (by nw hostOps2)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (by nw hostOps1)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (by nw hostOps0_2)
    _ = W1 m ρ c (Proc.devRef .tc main_arg18) := StableHlo.after_of_forall_not_mem (b := Proc.devRef .tc main_arg18) _ _ (by nw hostOps0_1)
    _ = W0 m ρ c (Proc.devRef .tc main_arg18) := StableHlo.after_of_forall_not_mem (b := Proc.devRef .tc main_arg18) _ _ (by nw hostOps0)
    _ = m ((c : Thread nD τ).loc main_arg18) := rfl

/-- `main_arg15` holds at boundary 21 what it held at the launch: no segment between writes it. -/
theorem kept_main_arg15_W21 (c : Dev nD) : W21 m ρ c (Proc.devRef .tc main_arg15) = m ((c : Thread nD τ).loc main_arg15) :=
  calc W21 m ρ c (Proc.devRef .tc main_arg15)
    _ = W20 m ρ c (Proc.devRef .tc main_arg15) := StableHlo.after_of_forall_not_mem (b := Proc.devRef .tc main_arg15) _ _ (by nw hostOps10)
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (by nw hostOps9)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (by nw hostOps8)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (by nw hostOps7)
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := StableHlo.after_of_forall_not_mem (b := Proc.devRef .tc main_arg15) _ _ (by nw hostOps5)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (by nw hostOps4)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (by nw hostOps2)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (by nw hostOps1)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by nw hostOps0_2)
    _ = W1 m ρ c (Proc.devRef .tc main_arg15) := StableHlo.after_of_forall_not_mem (b := Proc.devRef .tc main_arg15) _ _ (by nw hostOps0_1)
    _ = W0 m ρ c (Proc.devRef .tc main_arg15) := StableHlo.after_of_forall_not_mem (b := Proc.devRef .tc main_arg15) _ _ (by nw hostOps0)
    _ = m ((c : Thread nD τ).loc main_arg15) := rfl

/-- `main_arg16` holds at boundary 21 what it held at the launch: no segment between writes it. -/
theorem kept_main_arg16_W21 (c : Dev nD) : W21 m ρ c (Proc.devRef .tc main_arg16) = m ((c : Thread nD τ).loc main_arg16) :=
  calc W21 m ρ c (Proc.devRef .tc main_arg16)
    _ = W20 m ρ c (Proc.devRef .tc main_arg16) := StableHlo.after_of_forall_not_mem (b := Proc.devRef .tc main_arg16) _ _ (by nw hostOps10)
    _ = W19 m ρ c (Proc.devRef .tc main_arg16) := W20_of_ne m ρ c main_arg16 (by decide)
    _ = W18 m ρ c (Proc.devRef .tc main_arg16) := StableHlo.after_of_forall_not_mem (b := Proc.devRef .tc main_arg16) _ _ (by nw hostOps9)
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (by nw hostOps8)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (by nw hostOps7)
    _ = W13 m ρ c (Proc.devRef .tc main_arg16) := W14_of_ne m ρ c main_arg16 (by decide)
    _ = W12 m ρ c (Proc.devRef .tc main_arg16) := W13_of_ne m ρ c main_arg16 (by decide)
    _ = W11 m ρ c (Proc.devRef .tc main_arg16) := StableHlo.after_of_forall_not_mem (b := Proc.devRef .tc main_arg16) _ _ (by nw hostOps5)
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (by nw hostOps4)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (by nw hostOps2)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (by nw hostOps1)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by nw hostOps0_2)
    _ = W1 m ρ c (Proc.devRef .tc main_arg16) := StableHlo.after_of_forall_not_mem (b := Proc.devRef .tc main_arg16) _ _ (by nw hostOps0_1)
    _ = W0 m ρ c (Proc.devRef .tc main_arg16) := StableHlo.after_of_forall_not_mem (b := Proc.devRef .tc main_arg16) _ _ (by nw hostOps0)
    _ = m ((c : Thread nD τ).loc main_arg16) := rfl

/-- `main_arg17` holds at boundary 21 what it held at the launch: no segment between writes it. -/
theorem kept_main_arg17_W21 (c : Dev nD) : W21 m ρ c (Proc.devRef .tc main_arg17) = m ((c : Thread nD τ).loc main_arg17) :=
  calc W21 m ρ c (Proc.devRef .tc main_arg17)
    _ = W20 m ρ c (Proc.devRef .tc main_arg17) := StableHlo.after_of_forall_not_mem (b := Proc.devRef .tc main_arg17) _ _ (by nw hostOps10)
    _ = W19 m ρ c (Proc.devRef .tc main_arg17) := W20_of_ne m ρ c main_arg17 (by decide)
    _ = W18 m ρ c (Proc.devRef .tc main_arg17) := StableHlo.after_of_forall_not_mem (b := Proc.devRef .tc main_arg17) _ _ (by nw hostOps9)
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (by nw hostOps8)
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (by nw hostOps7)
    _ = W13 m ρ c (Proc.devRef .tc main_arg17) := W14_of_ne m ρ c main_arg17 (by decide)
    _ = W12 m ρ c (Proc.devRef .tc main_arg17) := W13_of_ne m ρ c main_arg17 (by decide)
    _ = W11 m ρ c (Proc.devRef .tc main_arg17) := StableHlo.after_of_forall_not_mem (b := Proc.devRef .tc main_arg17) _ _ (by nw hostOps5)
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (by nw hostOps4)
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (by nw hostOps2)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (by nw hostOps1)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (by nw hostOps0_2)
    _ = W1 m ρ c (Proc.devRef .tc main_arg17) := StableHlo.after_of_forall_not_mem (b := Proc.devRef .tc main_arg17) _ _ (by nw hostOps0_1)
    _ = W0 m ρ c (Proc.devRef .tc main_arg17) := StableHlo.after_of_forall_not_mem (b := Proc.devRef .tc main_arg17) _ _ (by nw hostOps0)
    _ = m ((c : Thread nD τ).loc main_arg17) := rfl

/-- `main_arg18` holds at boundary 21 what it held at the launch: no segment between writes it. -/
theorem kept_main_arg18_W21 (c : Dev nD) : W21 m ρ c (Proc.devRef .tc main_arg18) = m ((c : Thread nD τ).loc main_arg18) :=
  calc W21 m ρ c (Proc.devRef .tc main_arg18)
    _ = W20 m ρ c (Proc.devRef .tc main_arg18) := StableHlo.after_of_forall_not_mem (b := Proc.devRef .tc main_arg18) _ _ (by nw hostOps10)
    _ = W19 m ρ c (Proc.devRef .tc main_arg18) := W20_of_ne m ρ c main_arg18 (by decide)
    _ = W18 m ρ c (Proc.devRef .tc main_arg18) := StableHlo.after_of_forall_not_mem (b := Proc.devRef .tc main_arg18) _ _ (by nw hostOps9)
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (by nw hostOps8)
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (by nw hostOps7)
    _ = W13 m ρ c (Proc.devRef .tc main_arg18) := W14_of_ne m ρ c main_arg18 (by decide)
    _ = W12 m ρ c (Proc.devRef .tc main_arg18) := W13_of_ne m ρ c main_arg18 (by decide)
    _ = W11 m ρ c (Proc.devRef .tc main_arg18) := StableHlo.after_of_forall_not_mem (b := Proc.devRef .tc main_arg18) _ _ (by nw hostOps5)
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (by nw hostOps4)
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (by nw hostOps2)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (by nw hostOps1)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (by nw hostOps0_2)
    _ = W1 m ρ c (Proc.devRef .tc main_arg18) := StableHlo.after_of_forall_not_mem (b := Proc.devRef .tc main_arg18) _ _ (by nw hostOps0_1)
    _ = W0 m ρ c (Proc.devRef .tc main_arg18) := StableHlo.after_of_forall_not_mem (b := Proc.devRef .tc main_arg18) _ _ (by nw hostOps0)
    _ = m ((c : Thread nD τ).loc main_arg18) := rfl

/-- `main_arg15` holds at boundary 22 what it held at the launch: no segment between writes it. -/
theorem kept_main_arg15_W22 (c : Dev nD) : W22 m ρ c (Proc.devRef .tc main_arg15) = m ((c : Thread nD τ).loc main_arg15) :=
  calc W22 m ρ c (Proc.devRef .tc main_arg15)
    _ = W21 m ρ c (Proc.devRef .tc main_arg15) := StableHlo.after_of_forall_not_mem (b := Proc.devRef .tc main_arg15) _ _ (by nw hostOps10_1)
    _ = W20 m ρ c (Proc.devRef .tc main_arg15) := StableHlo.after_of_forall_not_mem (b := Proc.devRef .tc main_arg15) _ _ (by nw hostOps10)
    _ = W19 m ρ c (Proc.devRef .tc main_arg15) := W20_of_ne m ρ c main_arg15 (by decide)
    _ = W18 m ρ c (Proc.devRef .tc main_arg15) := StableHlo.after_of_forall_not_mem (b := Proc.devRef .tc main_arg15) _ _ (by nw hostOps9)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (by nw hostOps8)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (by nw hostOps7)
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := StableHlo.after_of_forall_not_mem (b := Proc.devRef .tc main_arg15) _ _ (by nw hostOps5)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (by nw hostOps4)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (by nw hostOps2)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (by nw hostOps1)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by nw hostOps0_2)
    _ = W1 m ρ c (Proc.devRef .tc main_arg15) := StableHlo.after_of_forall_not_mem (b := Proc.devRef .tc main_arg15) _ _ (by nw hostOps0_1)
    _ = W0 m ρ c (Proc.devRef .tc main_arg15) := StableHlo.after_of_forall_not_mem (b := Proc.devRef .tc main_arg15) _ _ (by nw hostOps0)
    _ = m ((c : Thread nD τ).loc main_arg15) := rfl

/-- `main_arg16` holds at boundary 22 what it held at the launch: no segment between writes it. -/
theorem kept_main_arg16_W22 (c : Dev nD) : W22 m ρ c (Proc.devRef .tc main_arg16) = m ((c : Thread nD τ).loc main_arg16) :=
  calc W22 m ρ c (Proc.devRef .tc main_arg16)
    _ = W21 m ρ c (Proc.devRef .tc main_arg16) := StableHlo.after_of_forall_not_mem (b := Proc.devRef .tc main_arg16) _ _ (by nw hostOps10_1)
    _ = W20 m ρ c (Proc.devRef .tc main_arg16) := StableHlo.after_of_forall_not_mem (b := Proc.devRef .tc main_arg16) _ _ (by nw hostOps10)
    _ = W19 m ρ c (Proc.devRef .tc main_arg16) := W20_of_ne m ρ c main_arg16 (by decide)
    _ = W18 m ρ c (Proc.devRef .tc main_arg16) := StableHlo.after_of_forall_not_mem (b := Proc.devRef .tc main_arg16) _ _ (by nw hostOps9)
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (by nw hostOps8)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (by nw hostOps7)
    _ = W13 m ρ c (Proc.devRef .tc main_arg16) := W14_of_ne m ρ c main_arg16 (by decide)
    _ = W12 m ρ c (Proc.devRef .tc main_arg16) := W13_of_ne m ρ c main_arg16 (by decide)
    _ = W11 m ρ c (Proc.devRef .tc main_arg16) := StableHlo.after_of_forall_not_mem (b := Proc.devRef .tc main_arg16) _ _ (by nw hostOps5)
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (by nw hostOps4)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (by nw hostOps2)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (by nw hostOps1)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by nw hostOps0_2)
    _ = W1 m ρ c (Proc.devRef .tc main_arg16) := StableHlo.after_of_forall_not_mem (b := Proc.devRef .tc main_arg16) _ _ (by nw hostOps0_1)
    _ = W0 m ρ c (Proc.devRef .tc main_arg16) := StableHlo.after_of_forall_not_mem (b := Proc.devRef .tc main_arg16) _ _ (by nw hostOps0)
    _ = m ((c : Thread nD τ).loc main_arg16) := rfl

/-- `main_arg17` holds at boundary 22 what it held at the launch: no segment between writes it. -/
theorem kept_main_arg17_W22 (c : Dev nD) : W22 m ρ c (Proc.devRef .tc main_arg17) = m ((c : Thread nD τ).loc main_arg17) :=
  calc W22 m ρ c (Proc.devRef .tc main_arg17)
    _ = W21 m ρ c (Proc.devRef .tc main_arg17) := StableHlo.after_of_forall_not_mem (b := Proc.devRef .tc main_arg17) _ _ (by nw hostOps10_1)
    _ = W20 m ρ c (Proc.devRef .tc main_arg17) := StableHlo.after_of_forall_not_mem (b := Proc.devRef .tc main_arg17) _ _ (by nw hostOps10)
    _ = W19 m ρ c (Proc.devRef .tc main_arg17) := W20_of_ne m ρ c main_arg17 (by decide)
    _ = W18 m ρ c (Proc.devRef .tc main_arg17) := StableHlo.after_of_forall_not_mem (b := Proc.devRef .tc main_arg17) _ _ (by nw hostOps9)
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (by nw hostOps8)
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (by nw hostOps7)
    _ = W13 m ρ c (Proc.devRef .tc main_arg17) := W14_of_ne m ρ c main_arg17 (by decide)
    _ = W12 m ρ c (Proc.devRef .tc main_arg17) := W13_of_ne m ρ c main_arg17 (by decide)
    _ = W11 m ρ c (Proc.devRef .tc main_arg17) := StableHlo.after_of_forall_not_mem (b := Proc.devRef .tc main_arg17) _ _ (by nw hostOps5)
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (by nw hostOps4)
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (by nw hostOps2)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (by nw hostOps1)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (by nw hostOps0_2)
    _ = W1 m ρ c (Proc.devRef .tc main_arg17) := StableHlo.after_of_forall_not_mem (b := Proc.devRef .tc main_arg17) _ _ (by nw hostOps0_1)
    _ = W0 m ρ c (Proc.devRef .tc main_arg17) := StableHlo.after_of_forall_not_mem (b := Proc.devRef .tc main_arg17) _ _ (by nw hostOps0)
    _ = m ((c : Thread nD τ).loc main_arg17) := rfl

/-- `main_arg18` holds at boundary 22 what it held at the launch: no segment between writes it. -/
theorem kept_main_arg18_W22 (c : Dev nD) : W22 m ρ c (Proc.devRef .tc main_arg18) = m ((c : Thread nD τ).loc main_arg18) :=
  calc W22 m ρ c (Proc.devRef .tc main_arg18)
    _ = W21 m ρ c (Proc.devRef .tc main_arg18) := StableHlo.after_of_forall_not_mem (b := Proc.devRef .tc main_arg18) _ _ (by nw hostOps10_1)
    _ = W20 m ρ c (Proc.devRef .tc main_arg18) := StableHlo.after_of_forall_not_mem (b := Proc.devRef .tc main_arg18) _ _ (by nw hostOps10)
    _ = W19 m ρ c (Proc.devRef .tc main_arg18) := W20_of_ne m ρ c main_arg18 (by decide)
    _ = W18 m ρ c (Proc.devRef .tc main_arg18) := StableHlo.after_of_forall_not_mem (b := Proc.devRef .tc main_arg18) _ _ (by nw hostOps9)
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (by nw hostOps8)
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (by nw hostOps7)
    _ = W13 m ρ c (Proc.devRef .tc main_arg18) := W14_of_ne m ρ c main_arg18 (by decide)
    _ = W12 m ρ c (Proc.devRef .tc main_arg18) := W13_of_ne m ρ c main_arg18 (by decide)
    _ = W11 m ρ c (Proc.devRef .tc main_arg18) := StableHlo.after_of_forall_not_mem (b := Proc.devRef .tc main_arg18) _ _ (by nw hostOps5)
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (by nw hostOps4)
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (by nw hostOps2)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (by nw hostOps1)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (by nw hostOps0_2)
    _ = W1 m ρ c (Proc.devRef .tc main_arg18) := StableHlo.after_of_forall_not_mem (b := Proc.devRef .tc main_arg18) _ _ (by nw hostOps0_1)
    _ = W0 m ρ c (Proc.devRef .tc main_arg18) := StableHlo.after_of_forall_not_mem (b := Proc.devRef .tc main_arg18) _ _ (by nw hostOps0)
    _ = m ((c : Thread nD τ).loc main_arg18) := rfl

/-- `main_v116` holds at boundary 19 what it held at boundary 18: no segment between writes it. -/
theorem kept_main_v116_W19 (c : Dev nD) : W19 m ρ c (Proc.devRef .tc main_v116) = W18 m ρ c (Proc.devRef .tc main_v116) :=
  calc W19 m ρ c (Proc.devRef .tc main_v116)
    _ = W18 m ρ c (Proc.devRef .tc main_v116) := StableHlo.after_of_forall_not_mem (b := Proc.devRef .tc main_v116) _ _ (by nw hostOps9)

end Cert.KernelIdeal.Gen

end
-- ==== Proof.KAgg.lean ====
/-
  The aggregation stretch of a GCN layer, as one function: from the layer's linear output, the edge list's source and
  destination words, the edge normalisation and the bias it gathers the source rows (negative indices wrapped by the
  node count), scales each gathered row by its edge's normalisation, scatter-adds the rows at their destinations into
  a zero table, and adds the bias to every row. The three stretches of host operations that follow the three linear
  kernels are this one function of the buffers they read.
-/
import proofs.«420901_j2903397892205_1_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]

/-- One layer's aggregation: `scatter_add(0, dst, gather(hlin, wrap src) · norm) + b`. -/
def aggTerm (hlin : (⟨S100000x128, .f32⟩ : BufTy).Contents (Elt F)) (src dst : (⟨S1700000, .i32⟩ : BufTy).Contents (Elt F))
    (norm : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf
        (Host.gather gather_S100000x128_S1700000x1_S1700000x128_1_0_n_n_0_1_1128 hlin
          (broadcastInDim S1700000x1 ![0] bcast_S1700000_S1700000x1_0
            (select
              (cmpi .slt src (broadcastInDim S1700000 ![] bcast_S_S1700000 (constantI S_ 32 0#32)))
              (addi src (broadcastInDim S1700000 ![] bcast_S_S1700000 (constantI S_ 32 100000#32)))
              src)))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1
      (broadcastInDim S1x128 ![1] bcast_S128_S1x128_1 b))

variable (m : (ℓ : Loc nD τ sig) → Buf (Elt F) ℓ) (ρ : Dev nD → PrngReg)

/-- Layer 1: what the stretch after the first linear kernel leaves in `main_v46`. -/
theorem agg1 (c : Dev nD) : W5 m ρ c (Proc.devRef .tc main_v46)
    = aggTerm (W4 m ρ c (Proc.devRef .tc main_v30)) (W4 m ρ c (Proc.devRef .tc main_v3)) (W4 m ρ c (Proc.devRef .tc main_v6))
        (W4 m ρ c (Proc.devRef .tc main_v29)) (W4 m ρ c (Proc.devRef .tc main_arg4)) := by
  show StableHlo.after hostOps1 (W4 m ρ c) (Proc.devRef .tc main_v46) = _
  simp only [hostOps1]
  after_results_simp
  rfl

/-- Layer 2: what the stretch after the second linear kernel leaves in `main_v75`. -/
theorem agg2 (c : Dev nD) : W10 m ρ c (Proc.devRef .tc main_v75)
    = aggTerm (W9 m ρ c (Proc.devRef .tc main_v59)) (W9 m ρ c (Proc.devRef .tc main_v3)) (W9 m ρ c (Proc.devRef .tc main_v6))
        (W9 m ρ c (Proc.devRef .tc main_v29)) (W9 m ρ c (Proc.devRef .tc main_arg8)) := by
  show StableHlo.after hostOps4 (W9 m ρ c) (Proc.devRef .tc main_v75) = _
  simp only [hostOps4]
  after_results_simp
  rfl

/-- Layer 3: what the stretch after the third linear kernel leaves in `main_v104`. -/
theorem agg3 (c : Dev nD) : W15 m ρ c (Proc.devRef .tc main_v104)
    = aggTerm (W14 m ρ c (Proc.devRef .tc main_v88)) (W14 m ρ c (Proc.devRef .tc main_v3)) (W14 m ρ c (Proc.devRef .tc main_v6))
        (W14 m ρ c (Proc.devRef .tc main_v29)) (W14 m ρ c (Proc.devRef .tc main_arg12)) := by
  show StableHlo.after hostOps7 (W14 m ρ c) (Proc.devRef .tc main_v104) = _
  simp only [hostOps7]
  after_results_simp
  rfl

end Cert.KernelIdeal.Gen

end
-- ==== Proof.RefImports.lean ====
/-
  The reference's operation list and its stage-by-stage reading, brought into the build: every module that speaks of
  the reference's values imports this one.
-/
import proofs.«420901_j2903397892205_1_alg».proof.Proof.RefRunBase
import proofs.«420901_j2903397892205_1_alg».proof.Proof.RefRead
-- ==== Proof.RAgg.lean ====
/-
  The reference's aggregation stages are the same function of their inputs as the kernel program's aggregation
  stretch: the two programs print the same gather, scaling, scatter-add and bias operations, so each layer's
  aggregated features in the reference are `aggTerm` of the reference's own linear output, edge words, normalisation
  and bias.
-/
import proofs.«420901_j2903397892205_1_alg».proof.Proof.KAgg
import proofs.«420901_j2903397892205_1_alg».proof.Proof.RefImports

set_option maxRecDepth 16384

noncomputable section

namespace Cert.KernelIdeal.Gen

open Idealize.ShloMosaic Idealize.ShloMosaic.TcCoe Idealize.SL.Sem

variable {F : FTy → Type} [FloatOps F]

/-- Layer 1 of the reference: `main_v46` is the aggregation of `main_v30`. -/
theorem ragg1 (x0 : (⟨Cert.ReferenceIdeal.S100000x1, .f32⟩ : BufTy).Contents (Elt F)) (x1 : (⟨Cert.ReferenceIdeal.S2x1600000, .i32⟩ : BufTy).Contents (Elt F)) (x3 : (⟨Cert.ReferenceIdeal.S1x128, .f32⟩ : BufTy).Contents (Elt F)) (x4 : (⟨Cert.ReferenceIdeal.S128, .f32⟩ : BufTy).Contents (Elt F)) :
    Cert.ReferenceIdeal.Read.val_main_v46 (F := F) x0 x1 x3 x4
      = aggTerm (Cert.ReferenceIdeal.Read.val_main_v30 (F := F) x0 x3) (Cert.ReferenceIdeal.Read.val_main_v3 (F := F) x1) (Cert.ReferenceIdeal.Read.val_main_v6 (F := F) x1) (Cert.ReferenceIdeal.Read.val_main_v29 (F := F) x1) x4 := by
  simp only [Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_cst_8, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_c_7, Cert.ReferenceIdeal.Read.val_main_v32, Cert.ReferenceIdeal.Read.val_main_v31, Cert.ReferenceIdeal.Read.val_main_c_6]
  rfl

/-- Layer 2 of the reference: `main_v89` is the aggregation of `main_v73`. -/
theorem ragg2 (x0 : (⟨Cert.ReferenceIdeal.S100000x1, .f32⟩ : BufTy).Contents (Elt F)) (x1 : (⟨Cert.ReferenceIdeal.S2x1600000, .i32⟩ : BufTy).Contents (Elt F)) (x3 : (⟨Cert.ReferenceIdeal.S1x128, .f32⟩ : BufTy).Contents (Elt F)) (x4 : (⟨Cert.ReferenceIdeal.S128, .f32⟩ : BufTy).Contents (Elt F)) (x5 : (⟨Cert.ReferenceIdeal.S128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F)) :
    Cert.ReferenceIdeal.Read.val_main_v89 (F := F) x0 x1 x3 x4 x5 x6 x7 x8
      = aggTerm (Cert.ReferenceIdeal.Read.val_main_v73 (F := F) x0 x1 x3 x4 x5 x6 x7) (Cert.ReferenceIdeal.Read.val_main_v3 (F := F) x1) (Cert.ReferenceIdeal.Read.val_main_v6 (F := F) x1) (Cert.ReferenceIdeal.Read.val_main_v29 (F := F) x1) x8 := by
  simp only [Cert.ReferenceIdeal.Read.val_main_v89, Cert.ReferenceIdeal.Read.val_main_v88, Cert.ReferenceIdeal.Read.val_main_v87, Cert.ReferenceIdeal.Read.val_main_v86, Cert.ReferenceIdeal.Read.val_main_v85, Cert.ReferenceIdeal.Read.val_main_v84, Cert.ReferenceIdeal.Read.val_main_cst_16, Cert.ReferenceIdeal.Read.val_main_v83, Cert.ReferenceIdeal.Read.val_main_v82, Cert.ReferenceIdeal.Read.val_main_v81, Cert.ReferenceIdeal.Read.val_main_v80, Cert.ReferenceIdeal.Read.val_main_v79, Cert.ReferenceIdeal.Read.val_main_v78, Cert.ReferenceIdeal.Read.val_main_v77, Cert.ReferenceIdeal.Read.val_main_v76, Cert.ReferenceIdeal.Read.val_main_c_15, Cert.ReferenceIdeal.Read.val_main_v75, Cert.ReferenceIdeal.Read.val_main_v74, Cert.ReferenceIdeal.Read.val_main_c_14]
  rfl

/-- Layer 3 of the reference: `main_v132` is the aggregation of `main_v116`. -/
theorem ragg3 (x0 : (⟨Cert.ReferenceIdeal.S100000x1, .f32⟩ : BufTy).Contents (Elt F)) (x1 : (⟨Cert.ReferenceIdeal.S2x1600000, .i32⟩ : BufTy).Contents (Elt F)) (x3 : (⟨Cert.ReferenceIdeal.S1x128, .f32⟩ : BufTy).Contents (Elt F)) (x4 : (⟨Cert.ReferenceIdeal.S128, .f32⟩ : BufTy).Contents (Elt F)) (x5 : (⟨Cert.ReferenceIdeal.S128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F)) (x9 : (⟨Cert.ReferenceIdeal.S128, .f32⟩ : BufTy).Contents (Elt F)) (x10 : (⟨Cert.ReferenceIdeal.S128, .f32⟩ : BufTy).Contents (Elt F)) (x11 : (⟨Cert.ReferenceIdeal.S128x128, .f32⟩ : BufTy).Contents (Elt F)) (x12 : (⟨Cert.ReferenceIdeal.S128, .f32⟩ : BufTy).Contents (Elt F)) :
    Cert.ReferenceIdeal.Read.val_main_v132 (F := F) x0 x1 x3 x4 x5 x6 x7 x8 x9 x10 x11 x12
      = aggTerm (Cert.ReferenceIdeal.Read.val_main_v116 (F := F) x0 x1 x3 x4 x5 x6 x7 x8 x9 x10 x11) (Cert.ReferenceIdeal.Read.val_main_v3 (F := F) x1) (Cert.ReferenceIdeal.Read.val_main_v6 (F := F) x1) (Cert.ReferenceIdeal.Read.val_main_v29 (F := F) x1) x12 := by
  simp only [Cert.ReferenceIdeal.Read.val_main_v132, Cert.ReferenceIdeal.Read.val_main_v131, Cert.ReferenceIdeal.Read.val_main_v130, Cert.ReferenceIdeal.Read.val_main_v129, Cert.ReferenceIdeal.Read.val_main_v128, Cert.ReferenceIdeal.Read.val_main_v127, Cert.ReferenceIdeal.Read.val_main_cst_24, Cert.ReferenceIdeal.Read.val_main_v126, Cert.ReferenceIdeal.Read.val_main_v125, Cert.ReferenceIdeal.Read.val_main_v124, Cert.ReferenceIdeal.Read.val_main_v123, Cert.ReferenceIdeal.Read.val_main_v122, Cert.ReferenceIdeal.Read.val_main_v121, Cert.ReferenceIdeal.Read.val_main_v120, Cert.ReferenceIdeal.Read.val_main_v119, Cert.ReferenceIdeal.Read.val_main_c_23, Cert.ReferenceIdeal.Read.val_main_v118, Cert.ReferenceIdeal.Read.val_main_v117, Cert.ReferenceIdeal.Read.val_main_c_22]
  rfl

end Cert.KernelIdeal.Gen

end
-- ==== Proof.KPre.lean ====
/-
  The edge words: what the kernel program's first stretches of host operations leave in `main_v3` (sources, with the
  self loops appended) and `main_v6` (destinations) is what the reference's own first operations compute from the edge list.
-/
import proofs.«420901_j2903397892205_1_alg».proof.Proof.Gen.KernelIdeal.Frame
import proofs.«420901_j2903397892205_1_alg».proof.Proof.RefImports
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The source words. -/
theorem k_v3 (c : Dev nD) : W3 m ρ c (Proc.devRef .tc main_v3)
    = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  simp only [Cert.ReferenceIdeal.Read.val_main_v3, Cert.ReferenceIdeal.Read.val_main_v2, Cert.ReferenceIdeal.Read.val_main_v1, Cert.ReferenceIdeal.Read.val_main_v0]
  rfl

/-- The destination words. -/
theorem k_v6 (c : Dev nD) : W3 m ρ c (Proc.devRef .tc main_v6)
    = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  simp only [Cert.ReferenceIdeal.Read.val_main_v6, Cert.ReferenceIdeal.Read.val_main_v5, Cert.ReferenceIdeal.Read.val_main_v4, Cert.ReferenceIdeal.Read.val_main_v0]
  rfl

end Cert.KernelIdeal.Gen

end
-- ==== Proof.KPre29.lean ====
/-
  The edge normalisation: what the kernel program's first three stretches of host operations leave in main_v29 — for
  each edge (self loops appended) the product of its two endpoints' inverse square-root degrees, zero where a degree is
  zero — is what the reference's own first operations compute from the edge list.

  The value is read stretch by stretch, each stretch from ANY contents that hold the earlier values it reads: the first
  stretch gives the two endpoint words, the positive-degree mask, the inverse square roots of the degrees and the zero
  constant; the second selects between the inverse square root and zero; the third gathers that array at the two
  endpoints of each edge and multiplies. A stretch's value is then a short term over the earlier values, each of which
  stays one name, so the endpoint words and the degrees, read several times over, are never written out again.
-/
import proofs.«420901_j2903397892205_1_alg».proof.Proof.Gen.KernelIdeal.Frame
import proofs.«420901_j2903397892205_1_alg».proof.Proof.RefImports
import proofs.«420901_j2903397892205_1_alg».proof.Proof.Carry
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first stretch: the edge words, the degrees and their inverse square roots -/

/-- The source words after the first stretch, from any contents whose edge list is x1. -/
theorem st1_v3 (V : Valuation τ sig (Elt F)) (x1 : (⟨Cert.ReferenceIdeal.S2x1600000, .i32⟩ : BufTy).Contents (Elt F)) (h1 : V (Proc.devRef .tc main_arg1) = x1) :
    StableHlo.after hostOps0 V (Proc.devRef .tc main_v3) = Cert.ReferenceIdeal.Read.val_main_v3 (F := F) x1 := by
  subst h1
  simp only [hostOps0]
  after_results
  simp only [Cert.ReferenceIdeal.Read.val_main_v3, Cert.ReferenceIdeal.Read.val_main_v2, Cert.ReferenceIdeal.Read.val_main_v1, Cert.ReferenceIdeal.Read.val_main_v0]
  rfl

/-- The destination words after the first stretch. -/
theorem st1_v6 (V : Valuation τ sig (Elt F)) (x1 : (⟨Cert.ReferenceIdeal.S2x1600000, .i32⟩ : BufTy).Contents (Elt F)) (h1 : V (Proc.devRef .tc main_arg1) = x1) :
    StableHlo.after hostOps0 V (Proc.devRef .tc main_v6) = Cert.ReferenceIdeal.Read.val_main_v6 (F := F) x1 := by
  subst h1
  simp only [hostOps0]
  after_results
  simp only [Cert.ReferenceIdeal.Read.val_main_v6, Cert.ReferenceIdeal.Read.val_main_v5, Cert.ReferenceIdeal.Read.val_main_v4, Cert.ReferenceIdeal.Read.val_main_v0]
  rfl

/-- Which nodes have a positive degree, after the first stretch. -/
theorem st1_v12 (V : Valuation τ sig (Elt F)) (x1 : (⟨Cert.ReferenceIdeal.S2x1600000, .i32⟩ : BufTy).Contents (Elt F)) (h1 : V (Proc.devRef .tc main_arg1) = x1) :
    StableHlo.after hostOps0 V (Proc.devRef .tc main_v12) = Cert.ReferenceIdeal.Read.val_main_v12 (F := F) x1 := by
  subst h1
  simp only [hostOps0]
  after_results
  simp only [Cert.ReferenceIdeal.Read.val_main_v12, Cert.ReferenceIdeal.Read.val_main_v11, Cert.ReferenceIdeal.Read.val_main_cst_1, Cert.ReferenceIdeal.Read.val_main_v10, Cert.ReferenceIdeal.Read.val_main_v9, Cert.ReferenceIdeal.Read.val_main_v8, Cert.ReferenceIdeal.Read.val_main_cst_0, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v0]
  rfl

/-- The inverse square roots of the degrees, after the first stretch. -/
theorem st1_v13 (V : Valuation τ sig (Elt F)) (x1 : (⟨Cert.ReferenceIdeal.S2x1600000, .i32⟩ : BufTy).Contents (Elt F)) (h1 : V (Proc.devRef .tc main_arg1) = x1) :
    StableHlo.after hostOps0 V (Proc.devRef .tc main_v13) = Cert.ReferenceIdeal.Read.val_main_v13 (F := F) x1 := by
  subst h1
  simp only [hostOps0]
  after_results
  simp only [Cert.ReferenceIdeal.Read.val_main_v13, Cert.ReferenceIdeal.Read.val_main_v10, Cert.ReferenceIdeal.Read.val_main_v9, Cert.ReferenceIdeal.Read.val_main_v8, Cert.ReferenceIdeal.Read.val_main_cst_0, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v0]
  rfl

/-- The zero the second stretch substitutes where a degree is zero. -/
theorem st1_cst_2 (V : Valuation τ sig (Elt F)) :
    StableHlo.after hostOps0 V (Proc.devRef .tc main_cst_2) = Cert.ReferenceIdeal.Read.val_main_cst_2 (F := F) := by
  simp only [hostOps0]
  after_results
  rfl

/-! ## The second stretch: the inverse square-root degree, zero where the degree is zero -/

theorem st2_v14 (V : Valuation τ sig (Elt F)) (x1 : (⟨Cert.ReferenceIdeal.S2x1600000, .i32⟩ : BufTy).Contents (Elt F))
    (h12 : V (Proc.devRef .tc main_v12) = Cert.ReferenceIdeal.Read.val_main_v12 (F := F) x1)
    (h13 : V (Proc.devRef .tc main_v13) = Cert.ReferenceIdeal.Read.val_main_v13 (F := F) x1)
    (hc : V (Proc.devRef .tc main_cst_2) = Cert.ReferenceIdeal.Read.val_main_cst_2 (F := F)) :
    StableHlo.after hostOps0_1 V (Proc.devRef .tc main_v14) = Cert.ReferenceIdeal.Read.val_main_v14 (F := F) x1 := by
  simp only [hostOps0_1]
  after_results_simp
  rw [h12, h13, hc]
  rfl

/-! ## The third stretch: each edge's two endpoints' values gathered and multiplied -/

theorem st3_v29 (V : Valuation τ sig (Elt F)) (x1 : (⟨Cert.ReferenceIdeal.S2x1600000, .i32⟩ : BufTy).Contents (Elt F))
    (h3 : V (Proc.devRef .tc main_v3) = Cert.ReferenceIdeal.Read.val_main_v3 (F := F) x1)
    (h6 : V (Proc.devRef .tc main_v6) = Cert.ReferenceIdeal.Read.val_main_v6 (F := F) x1)
    (h14 : V (Proc.devRef .tc main_v14) = Cert.ReferenceIdeal.Read.val_main_v14 (F := F) x1) :
    StableHlo.after hostOps0_2 V (Proc.devRef .tc main_v29) = Cert.ReferenceIdeal.Read.val_main_v29 (F := F) x1 := by
  simp only [hostOps0_2]
  after_results_simp
  rw [h3, h6, h14]
  simp only [Cert.ReferenceIdeal.Read.val_main_v29, Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_c_5, Cert.ReferenceIdeal.Read.val_main_v23, Cert.ReferenceIdeal.Read.val_main_v22, Cert.ReferenceIdeal.Read.val_main_c_4, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_c_3, Cert.ReferenceIdeal.Read.val_main_v16, Cert.ReferenceIdeal.Read.val_main_v15, Cert.ReferenceIdeal.Read.val_main_c]
  rfl

/-! ## The three stretches in a row, from the launch -/

/-- The edge normalisation. -/
theorem k_v29 (c : Dev nD) : W3 m ρ c (Proc.devRef .tc main_v29)
    = Cert.ReferenceIdeal.Read.val_main_v29 (F := F) (m ((c : Thread nD τ).loc main_arg1)) := by
  have w1_3 := st1_v3 (W0 m ρ c) (m ((c : Thread nD τ).loc main_arg1)) rfl
  have w1_6 := st1_v6 (W0 m ρ c) (m ((c : Thread nD τ).loc main_arg1)) rfl
  have w1_12 := st1_v12 (W0 m ρ c) (m ((c : Thread nD τ).loc main_arg1)) rfl
  have w1_13 := st1_v13 (W0 m ρ c) (m ((c : Thread nD τ).loc main_arg1)) rfl
  have w1_c := st1_cst_2 (F := F) (W0 m ρ c)
  have w2_14 := st2_v14 (W1 m ρ c) (m ((c : Thread nD τ).loc main_arg1)) w1_12 w1_13 w1_c
  have w2_3 : W2 m ρ c (Proc.devRef .tc main_v3) = _ :=
    (StableHlo.after_of_forall_not_mem (b := Proc.devRef .tc main_v3) _ _ (by nw hostOps0_1)).trans w1_3
  have w2_6 : W2 m ρ c (Proc.devRef .tc main_v6) = _ :=
    (StableHlo.after_of_forall_not_mem (b := Proc.devRef .tc main_v6) _ _ (by nw hostOps0_1)).trans w1_6
  exact st3_v29 (W2 m ρ c) (m ((c : Thread nD τ).loc main_arg1)) w2_3 w2_6 w2_14

end Cert.KernelIdeal.Gen

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.RegLin0.lean ====
/-
  The first linear layer (region 0 of the idealized kernel): from the contents the region finds, the array it leaves.

  The input has one column and the weight one row, so the product is an outer product written as a contraction over a
  coordinate of extent 1. The region walks the 100000 rows of the input in 20 blocks of 5000 rows. At block t it holds
  rows 5000·t … 5000·t + 4999 of the input column and the whole 1 × 128 weight row, and leaves in the result's rows
  5000·t … 5000·t + 4999 the product of the two: the change of float format before the product is the identity on the
  extended reals, and the product into a zero accumulator is, entry by entry, the sum over the contracted coordinate.
  The 20 row blocks tile the result, so the result array ends holding, at (p, q), ∑ k < 1, input (p, k) · weight (k, q).
-/
import proofs.«420901_j2903397892205_1_alg».proof.Proof.Gen.KernelIdeal.Frame
import proofs.«420901_j2903397892205_1_alg».proof.Proof.LibRowDims
import Idealize.ShloMosaic.Lib.Pipeline.Value
import Idealize.ShloMosaic.Lib.Tactic

set_option maxRecDepth 16384

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The body reads and writes its blocks whole: at offsets zero on both axes. -/
theorem lin0_offsets_zero : (![0, 0] : Fin 2 → Nat) = fun _ => 0 := funext fun a => by fin_cases a <;> rfl

/-- The product's dimension numbers are those of a plain [5000, 1] × [1, 128] contraction. -/
theorem lin0_dims_plain : dot_S5000x1_S1x128_S5000x128_1_0_0_1_n_n = DotDims.plain 5000 1 128 := rfl

/-- What the body stores, entry by entry: row p of the input block against column q of the weight row. -/
theorem lin0_payload_apply (x0 : Vec Ideal S5000x1 .f32) (x1 : Vec Ideal S1x128 .f32) (p : Fin 5000) (q : Fin 128) :
    k0_pay1 (F := Ideal) x0 x1 (ix2 p q)
      = ∑ k : Fin 1, (x0 : S5000x1.Idx → EReal) (ix2 p k) * (x1 : S1x128.Idx → EReal) (ix2 k q) := by
  unfold k0_pay1
  -- the two changes of float format are identities on the extended reals
  rw [lin0_dims_plain]
  exact RowDims.matmul_plain_zero_apply none _ _ p q

/-- The product of the input column A and the weight row W, entry by entry. -/
abbrev lin0_prod (A : S100000x1.Idx → EReal) (W : S1x128.Idx → EReal) : S100000x128.Idx → EReal :=
  fun i => ∑ k : Fin 1, A (ix2 (i 0) k) * W (ix2 k (i 1))

/-- If row p of an input block is row (i 0) of A, and column q of the weight block is column (i 1) of W, the body's
    entry (p, q) is the product's entry i. -/
theorem lin0_block_point (A : S100000x1.Idx → EReal) (W : S1x128.Idx → EReal)
    (x0 : Vec Ideal S5000x1 .f32) (x1 : Vec Ideal S1x128 .f32) (p : Fin 5000) (q : Fin 128) (i : S100000x128.Idx)
    (h0 : ∀ k : Fin 1, (x0 : S5000x1.Idx → EReal) (ix2 p k) = A (ix2 (i 0) k))
    (h1 : ∀ k : Fin 1, (x1 : S1x128.Idx → EReal) (ix2 k q) = W (ix2 k (i 1))) :
    k0_pay1 (F := Ideal) x0 x1 (ix2 p q) = lin0_prod A W i := by
  rw [lin0_payload_apply]
  exact Finset.sum_congr rfl fun k _ => by rw [h0 k, h1 k]

/-- The block indices at point t: the input's and the result's row block is t, their column block 0; the weight's
    block is (0, 0) at every point. -/
theorem lin0_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the product: an entry (y0, y1) of the block reads row 5000·t + y0 of the
    input, which is row y0 of the input's block at t, and column y1 of the whole weight row. -/
theorem lin0_flushed (c : Dev nD) (A : S100000x1.Idx → EReal) (W : S1x128.Idx → EReal)
    (hA : V c main_arg0 = A) (hW : V c main_arg3 = W) (t : Fin cfg0.N) :
    (dat0 V c).flushed 2 t = ((cfg0.win 2).blk t).view.read (Elt Ideal) (lin0_prod A W) := by
  show (cfg0.win 2).cut (grid0.coords t) ((dat0 V c).after 2 t) = _
  rw [after0_2]
  unfold out0_2
  rw [View.canon_unit_zero lin0_offsets_zero]
  simp only [View.ld_unit_zero (S := S5000x1) lin0_offsets_zero, View.ld_unit_zero (S := S1x128) lin0_offsets_zero]
  obtain ⟨e0, e1, e2, e3, e4, e5⟩ := lin0_block_indices t
  funext j
  show k0_pay1 (F := Ideal) (iblk0 V c 0 t) (iblk0 V c 1 t) j = lin0_prod A W (((cfg0.win 2).blk t).view.emb j)
  refine (congrArg (k0_pay1 (F := Ideal) (iblk0 V c 0 t) (iblk0 V c 1 t)) (eq_ix2 j)).trans ?_
  refine lin0_block_point A W _ _ (j 0) (j 1) _ (fun k => ?_) (fun k => ?_)
  · -- the input's block and the result's block start at the same row, 5000·t
    subst hA
    show V c main_arg0 (((cfg0.win 0).blk t).view.emb (ix2 (j 0) k))
      = V c main_arg0 (ix2 ((((cfg0.win 2).blk t).view.emb j) 0) k)
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      omega
    | ⟨1, _⟩ => show win0_0.index t (1 : Fin 2) * 1 + 1 * k.val = k.val; omega
  · -- the weight's block is the whole weight row; the result's block spans all 128 columns
    subst hW
    show V c main_arg3 (((cfg0.win 1).blk t).view.emb (ix2 k (j 1)))
      = V c main_arg3 (ix2 k ((((cfg0.win 2).blk t).view.emb j) 1))
    refine congrArg (V c main_arg3) ?_
    funext a; apply Fin.ext
    match a with
    | ⟨0, _⟩ => show win0_1.index t (0 : Fin 2) * 1 + 1 * k.val = k.val; omega
    | ⟨1, _⟩ =>
      show win0_1.index t (1 : Fin 2) * 128 + 1 * (j 1).val = win0_2.index t (1 : Fin 2) * 128 + 1 * (j 1).val
      omega

/-- An index of the result is in point t's block iff each coordinate is in the block's range on its axis. -/
theorem lin0_mem_block (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the result: row r lies in the block of point r / 5000. -/
theorem lin0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := lin0_block_indices t
  refine ⟨t, flush0_2 t, ?_⟩
  rw [lin0_mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the product of the input column and the weight row the region found. -/
theorem lin0_eq_of (c : Dev nD) (A : S100000x1.Idx → EReal) (W : S1x128.Idx → EReal)
    (hA : V c main_arg0 = A) (hW : V c main_arg3 = W) :
    (dat0 V c).arrAt 2 cfg0.N = lin0_prod A W :=
  (dat0 V c).arrAt_eq_of_cover 2 (lin0_prod A W) (fun t _ => lin0_flushed V c A W hA hW t) lin0_cover

/-- The same at an entry (p, q): ∑ k < 1, A (p, k) · W (k, q). -/
theorem lin0_apply_of (c : Dev nD) (A : S100000x1.Idx → EReal) (W : S1x128.Idx → EReal)
    (hA : V c main_arg0 = A) (hW : V c main_arg3 = W) (p : Fin 100000) (q : Fin 128) :
    (dat0 V c).arrAt 2 cfg0.N (ix2 p q) = ∑ k : Fin 1, A (ix2 p k) * W (ix2 k q) :=
  congrFun (lin0_eq_of V c A W hA hW) (ix2 p q)

end Cert.KernelIdeal.RegVal

end
-- ==== Proof.RegLin3.lean ====
/-
  The second linear layer (region 3 of the idealized kernel): from the contents the region finds, the array it leaves.

  The region walks the 100000 rows of the activations in 20 blocks of 5000 rows. At block t it holds rows
  5000·t … 5000·t + 4999 of the activations (all 128 columns) and the whole 128 × 128 weight, and leaves in the
  result's rows 5000·t … 5000·t + 4999 the product of the two: the change of float format before the product is the
  identity on the extended reals, and the product into a zero accumulator is, entry by entry, the sum over the
  contracted coordinate. The 20 row blocks tile the result, so the result array ends holding, at (p, q),
  ∑ k, activations (p, k) · weight (k, q).
-/
import proofs.«420901_j2903397892205_1_alg».proof.Proof.Gen.KernelIdeal.Frame
import proofs.«420901_j2903397892205_1_alg».proof.Proof.LibRowDims
import Idealize.ShloMosaic.Lib.Pipeline.Value
import Idealize.ShloMosaic.Lib.Tactic

set_option maxRecDepth 16384

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The body reads and writes its blocks whole: at offsets zero on both axes. -/
theorem lin3_offsets_zero : (![0, 0] : Fin 2 → Nat) = fun _ => 0 := funext fun a => by fin_cases a <;> rfl

/-- The product's dimension numbers are those of a plain [5000, 128] × [128, 128] contraction. -/
theorem lin3_dims_plain : dot_S5000x128_S128x128_S5000x128_1_0_0_1_n_n = DotDims.plain 5000 128 128 := rfl

/-- What the body stores, entry by entry: row p of the row block against column q of the weight. -/
theorem lin3_payload_apply (x0 : Vec Ideal S5000x128 .f32) (x1 : Vec Ideal S128x128 .f32) (p : Fin 5000) (q : Fin 128) :
    k3_pay1 (F := Ideal) x0 x1 (ix2 p q)
      = ∑ k : Fin 128, (x0 : S5000x128.Idx → EReal) (ix2 p k) * (x1 : S128x128.Idx → EReal) (ix2 k q) := by
  unfold k3_pay1
  -- the reshape to the same shape and the two changes of float format are identities on the extended reals
  rw [shapeCast_self, lin3_dims_plain]
  exact RowDims.matmul_plain_zero_apply none _ _ p q

/-- The matrix product of the activations A and the weight W, entry by entry. -/
abbrev lin3_prod (A : S100000x128.Idx → EReal) (W : S128x128.Idx → EReal) : S100000x128.Idx → EReal :=
  fun i => ∑ k : Fin 128, A (ix2 (i 0) k) * W (ix2 k (i 1))

/-- If row p of a row block is row (i 0) of A, and column q of the weight block is column (i 1) of W, the body's
    entry (p, q) is the product's entry i. -/
theorem lin3_block_point (A : S100000x128.Idx → EReal) (W : S128x128.Idx → EReal)
    (x0 : Vec Ideal S5000x128 .f32) (x1 : Vec Ideal S128x128 .f32) (p : Fin 5000) (q : Fin 128) (i : S100000x128.Idx)
    (h0 : ∀ k : Fin 128, (x0 : S5000x128.Idx → EReal) (ix2 p k) = A (ix2 (i 0) k))
    (h1 : ∀ k : Fin 128, (x1 : S128x128.Idx → EReal) (ix2 k q) = W (ix2 k (i 1))) :
    k3_pay1 (F := Ideal) x0 x1 (ix2 p q) = lin3_prod A W i := by
  rw [lin3_payload_apply]
  exact Finset.sum_congr rfl fun k _ => by rw [h0 k, h1 k]

/-- The block indices at point t: the activations' and the result's row block is t, their column block 0; the weight's
    block is (0, 0) at every point. -/
theorem lin3_block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is row block t of the product: an entry (y0, y1) of the block reads row 5000·t + y0 of the
    activations, which is row y0 of the activations' block at t, and column y1 of the whole weight. -/
theorem lin3_flushed (c : Dev nD) (A : S100000x128.Idx → EReal) (W : S128x128.Idx → EReal)
    (hA : V c main_v58 = A) (hW : V c main_arg7 = W) (t : Fin cfg3.N) :
    (dat3 V c).flushed 2 t = ((cfg3.win 2).blk t).view.read (Elt Ideal) (lin3_prod A W) := by
  show (cfg3.win 2).cut (grid3.coords t) ((dat3 V c).after 2 t) = _
  rw [after3_2]
  unfold out3_2
  rw [View.canon_unit_zero lin3_offsets_zero]
  simp only [View.ld_unit_zero (S := S5000x128) lin3_offsets_zero, View.ld_unit_zero (S := S128x128) lin3_offsets_zero]
  obtain ⟨e0, e1, e2, e3, e4, e5⟩ := lin3_block_indices t
  funext j
  show k3_pay1 (F := Ideal) (iblk3 V c 0 t) (iblk3 V c 1 t) j = lin3_prod A W (((cfg3.win 2).blk t).view.emb j)
  refine (congrArg (k3_pay1 (F := Ideal) (iblk3 V c 0 t) (iblk3 V c 1 t)) (eq_ix2 j)).trans ?_
  refine lin3_block_point A W _ _ (j 0) (j 1) _ (fun k => ?_) (fun k => ?_)
  · -- the activations' block and the result's block start at the same row, 5000·t
    subst hA
    show V c main_v58 (((cfg3.win 0).blk t).view.emb (ix2 (j 0) k))
      = V c main_v58 (ix2 ((((cfg3.win 2).blk t).view.emb j) 0) k)
    refine congrArg (V c main_v58) ?_
    funext a; apply Fin.ext
    match a with
    | ⟨0, _⟩ =>
      show win3_0.index t (0 : Fin 2) * 5000 + 1 * (j 0).val = win3_2.index t (0 : Fin 2) * 5000 + 1 * (j 0).val
      omega
    | ⟨1, _⟩ => show win3_0.index t (1 : Fin 2) * 128 + 1 * k.val = k.val; omega
  · -- the weight's block is the whole weight; the result's block spans all 128 columns
    subst hW
    show V c main_arg7 (((cfg3.win 1).blk t).view.emb (ix2 k (j 1)))
      = V c main_arg7 (ix2 k ((((cfg3.win 2).blk t).view.emb j) 1))
    refine congrArg (V c main_arg7) ?_
    funext a; apply Fin.ext
    match a with
    | ⟨0, _⟩ => show win3_1.index t (0 : Fin 2) * 128 + 1 * k.val = k.val; omega
    | ⟨1, _⟩ =>
      show win3_1.index t (1 : Fin 2) * 128 + 1 * (j 1).val = win3_2.index t (1 : Fin 2) * 128 + 1 * (j 1).val
      omega

/-- An index of the result is in point t's block iff each coordinate is in the block's range on its axis. -/
theorem lin3_mem_block (t : Fin cfg3.N) (i : S100000x128.Idx) :
    i ∈ ((cfg3.win 2).blk t).view.set
      ↔ ∀ a : Fin 2, win3_2.index t a * S5000x128.size a ≤ (i a).val
          ∧ (i a).val < win3_2.index t a * S5000x128.size a + S5000x128.size a := by
  show i ∈ ((View.whole main_v59).slice (win3_2.rect t)).set ↔ _
  rw [View.set_slice_whole, Rect.mem_set_unit]
  exact Iff.rfl

/-- The 20 row blocks tile the result: row r lies in the block of point r / 5000. -/
theorem lin3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := lin3_block_indices t
  refine ⟨t, flush3_2 t, ?_⟩
  rw [lin3_mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The result array after the region: the product of the activations and the weight the region found. -/
theorem lin3_eq_of (c : Dev nD) (A : S100000x128.Idx → EReal) (W : S128x128.Idx → EReal)
    (hA : V c main_v58 = A) (hW : V c main_arg7 = W) :
    (dat3 V c).arrAt 2 cfg3.N = lin3_prod A W :=
  (dat3 V c).arrAt_eq_of_cover 2 (lin3_prod A W) (fun t _ => lin3_flushed V c A W hA hW t) lin3_cover

/-- The same at an entry (p, q): ∑ k, A (p, k) · W (k, q). -/
theorem lin3_apply_of (c : Dev nD) (A : S100000x128.Idx → EReal) (W : S128x128.Idx → EReal)
    (hA : V c main_v58 = A) (hW : V c main_arg7 = W) (p : Fin 100000) (q : Fin 128) :
    (dat3 V c).arrAt 2 cfg3.N (ix2 p q) = ∑ k : Fin 128, A (ix2 p k) * W (ix2 k q) :=
  congrFun (lin3_eq_of V c A W hA hW) (ix2 p q)

end Cert.KernelIdeal.RegVal

end
-- ==== Proof.RegLin6.lean ====
/-
  The third linear layer (region 6 of the idealized kernel): from the contents the region finds, the array it leaves.

  The region walks the 100000 rows of the activations in 20 blocks of 5000 rows. At block t it holds rows
  5000·t … 5000·t + 4999 of the activations (all 128 columns) and the whole 128 × 128 weight, and leaves in the
  result's rows 5000·t … 5000·t + 4999 the product of the two: the change of float format before the product is the
  identity on the extended reals, and the product into a zero accumulator is, entry by entry, the sum over the
  contracted coordinate. The 20 row blocks tile the result, so the result array ends holding, at (p, q),
  ∑ k, activations (p, k) · weight (k, q).
-/
import proofs.«420901_j2903397892205_1_alg».proof.Proof.Gen.KernelIdeal.Frame
import proofs.«420901_j2903397892205_1_alg».proof.Proof.LibRowDims
import Idealize.ShloMosaic.Lib.Pipeline.Value
import Idealize.ShloMosaic.Lib.Tactic

set_option maxRecDepth 16384

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The body reads and writes its blocks whole: at offsets zero on both axes. -/
theorem lin6_offsets_zero : (![0, 0] : Fin 2 → Nat) = fun _ => 0 := funext fun a => by fin_cases a <;> rfl

/-- The product's dimension numbers are those of a plain [5000, 128] × [128, 128] contraction. -/
theorem lin6_dims_plain : dot_S5000x128_S128x128_S5000x128_1_0_0_1_n_n = DotDims.plain 5000 128 128 := rfl

/-- What the body stores, entry by entry: row p of the row block against column q of the weight. -/
theorem lin6_payload_apply (x0 : Vec Ideal S5000x128 .f32) (x1 : Vec Ideal S128x128 .f32) (p : Fin 5000) (q : Fin 128) :
    k6_pay1 (F := Ideal) x0 x1 (ix2 p q)
      = ∑ k : Fin 128, (x0 : S5000x128.Idx → EReal) (ix2 p k) * (x1 : S128x128.Idx → EReal) (ix2 k q) := by
  unfold k6_pay1
  -- the reshape to the same shape and the two changes of float format are identities on the extended reals
  rw [shapeCast_self, lin6_dims_plain]
  exact RowDims.matmul_plain_zero_apply none _ _ p q

/-- The matrix product of the activations A and the weight W, entry by entry. -/
abbrev lin6_prod (A : S100000x128.Idx → EReal) (W : S128x128.Idx → EReal) : S100000x128.Idx → EReal :=
  fun i => ∑ k : Fin 128, A (ix2 (i 0) k) * W (ix2 k (i 1))

/-- If row p of a row block is row (i 0) of A, and column q of the weight block is column (i 1) of W, the body's
    entry (p, q) is the product's entry i. -/
theorem lin6_block_point (A : S100000x128.Idx → EReal) (W : S128x128.Idx → EReal)
    (x0 : Vec Ideal S5000x128 .f32) (x1 : Vec Ideal S128x128 .f32) (p : Fin 5000) (q : Fin 128) (i : S100000x128.Idx)
    (h0 : ∀ k : Fin 128, (x0 : S5000x128.Idx → EReal) (ix2 p k) = A (ix2 (i 0) k))
    (h1 : ∀ k : Fin 128, (x1 : S128x128.Idx → EReal) (ix2 k q) = W (ix2 k (i 1))) :
    k6_pay1 (F := Ideal) x0 x1 (ix2 p q) = lin6_prod A W i := by
  rw [lin6_payload_apply]
  exact Finset.sum_congr rfl fun k _ => by rw [h0 k, h1 k]

/-- The block indices at point t: the activations' and the result's row block is t, their column block 0; the weight's
    block is (0, 0) at every point. -/
theorem lin6_block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is row block t of the product: an entry (y0, y1) of the block reads row 5000·t + y0 of the
    activations, which is row y0 of the activations' block at t, and column y1 of the whole weight. -/
theorem lin6_flushed (c : Dev nD) (A : S100000x128.Idx → EReal) (W : S128x128.Idx → EReal)
    (hA : V c main_v87 = A) (hW : V c main_arg11 = W) (t : Fin cfg6.N) :
    (dat6 V c).flushed 2 t = ((cfg6.win 2).blk t).view.read (Elt Ideal) (lin6_prod A W) := by
  show (cfg6.win 2).cut (grid6.coords t) ((dat6 V c).after 2 t) = _
  rw [after6_2]
  unfold out6_2
  rw [View.canon_unit_zero lin6_offsets_zero]
  simp only [View.ld_unit_zero (S := S5000x128) lin6_offsets_zero, View.ld_unit_zero (S := S128x128) lin6_offsets_zero]
  obtain ⟨e0, e1, e2, e3, e4, e5⟩ := lin6_block_indices t
  funext j
  show k6_pay1 (F := Ideal) (iblk6 V c 0 t) (iblk6 V c 1 t) j = lin6_prod A W (((cfg6.win 2).blk t).view.emb j)
  refine (congrArg (k6_pay1 (F := Ideal) (iblk6 V c 0 t) (iblk6 V c 1 t)) (eq_ix2 j)).trans ?_
  refine lin6_block_point A W _ _ (j 0) (j 1) _ (fun k => ?_) (fun k => ?_)
  · -- the activations' block and the result's block start at the same row, 5000·t
    subst hA
    show V c main_v87 (((cfg6.win 0).blk t).view.emb (ix2 (j 0) k))
      = V c main_v87 (ix2 ((((cfg6.win 2).blk t).view.emb j) 0) k)
    refine congrArg (V c main_v87) ?_
    funext a; apply Fin.ext
    match a with
    | ⟨0, _⟩ =>
      show win6_0.index t (0 : Fin 2) * 5000 + 1 * (j 0).val = win6_2.index t (0 : Fin 2) * 5000 + 1 * (j 0).val
      omega
    | ⟨1, _⟩ => show win6_0.index t (1 : Fin 2) * 128 + 1 * k.val = k.val; omega
  · -- the weight's block is the whole weight; the result's block spans all 128 columns
    subst hW
    show V c main_arg11 (((cfg6.win 1).blk t).view.emb (ix2 k (j 1)))
      = V c main_arg11 (ix2 k ((((cfg6.win 2).blk t).view.emb j) 1))
    refine congrArg (V c main_arg11) ?_
    funext a; apply Fin.ext
    match a with
    | ⟨0, _⟩ => show win6_1.index t (0 : Fin 2) * 128 + 1 * k.val = k.val; omega
    | ⟨1, _⟩ =>
      show win6_1.index t (1 : Fin 2) * 128 + 1 * (j 1).val = win6_2.index t (1 : Fin 2) * 128 + 1 * (j 1).val
      omega

/-- An index of the result is in point t's block iff each coordinate is in the block's range on its axis. -/
theorem lin6_mem_block (t : Fin cfg6.N) (i : S100000x128.Idx) :
    i ∈ ((cfg6.win 2).blk t).view.set
      ↔ ∀ a : Fin 2, win6_2.index t a * S5000x128.size a ≤ (i a).val
          ∧ (i a).val < win6_2.index t a * S5000x128.size a + S5000x128.size a := by
  show i ∈ ((View.whole main_v88).slice (win6_2.rect t)).set ↔ _
  rw [View.set_slice_whole, Rect.mem_set_unit]
  exact Iff.rfl

/-- The 20 row blocks tile the result: row r lies in the block of point r / 5000. -/
theorem lin6_cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨e0, e1, e2, e3, e4, e5⟩ := lin6_block_indices t
  refine ⟨t, flush6_2 t, ?_⟩
  rw [lin6_mem_block]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- The result array after the region: the product of the activations and the weight the region found. -/
theorem lin6_eq_of (c : Dev nD) (A : S100000x128.Idx → EReal) (W : S128x128.Idx → EReal)
    (hA : V c main_v87 = A) (hW : V c main_arg11 = W) :
    (dat6 V c).arrAt 2 cfg6.N = lin6_prod A W :=
  (dat6 V c).arrAt_eq_of_cover 2 (lin6_prod A W) (fun t _ => lin6_flushed V c A W hA hW t) lin6_cover

/-- The same at an entry (p, q): ∑ k, A (p, k) · W (k, q). -/
theorem lin6_apply_of (c : Dev nD) (A : S100000x128.Idx → EReal) (W : S128x128.Idx → EReal)
    (hA : V c main_v87 = A) (hW : V c main_arg11 = W) (p : Fin 100000) (q : Fin 128) :
    (dat6 V c).arrAt 2 cfg6.N (ix2 p q) = ∑ k : Fin 128, A (ix2 p k) * W (ix2 k q) :=
  congrFun (lin6_eq_of V c A W hA hW) (ix2 p q)

end Cert.KernelIdeal.RegVal

end
-- ==== Proof.KLin.lean ====
/-
  The three linear layers of the idealized kernel against the reference's three contractions.

  Each linear region leaves in its result array the matrix product of the two arrays it finds: entry (p, q) is the sum
  over k of left (p, k) · right (k, q). The reference's contraction of the same two arrays is, entry by entry, the
  same sum with the same factors in the same order, so the two arrays are equal term by term: no law of arithmetic is
  used. The weights reach their regions as launched, and the first region's input too.
-/
import proofs.«420901_j2903397892205_1_alg».proof.Proof.Gen.KernelIdeal.Frame
import proofs.«420901_j2903397892205_1_alg».proof.Proof.RegLin0
import proofs.«420901_j2903397892205_1_alg».proof.Proof.RegLin3
import proofs.«420901_j2903397892205_1_alg».proof.Proof.RegLin6
import proofs.«420901_j2903397892205_1_alg».proof.Proof.Kept
import proofs.«420901_j2903397892205_1_alg».proof.Proof.RefImports

set_option maxRecDepth 16384

noncomputable section

open scoped BigOperators

namespace Cert.KernelIdeal.Gen

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-! ## The three products against the reference's contractions, over arrays of literal type -/

/-- The first layer's product is the reference's contraction of the input column with the weight row: both are, entry by
    entry, the sum over the one contracted coordinate, the left factor read at (row, k) and the right at (k, column). -/
theorem lin0_prod_eq_ref (A : S100000x1.Idx → EReal) (W : S1x128.Idx → EReal) :
    RegVal.lin0_prod A W = Cert.ReferenceIdeal.Read.val_main_v30 (F := Ideal) A W := by
  funext i
  rw [Cert.ReferenceIdeal.Read.val_main_v30_apply]
  refine Finset.sum_congr rfl fun k _ => ?_
  have el : (ix2 (i 0) k : S100000x1.Idx) = Cert.ReferenceIdeal.Read.lidx_main_v30 i k :=
    funext fun a => by match a with | ⟨0, _⟩ => rfl | ⟨1, _⟩ => rfl
  have er : (ix2 k (i 1) : S1x128.Idx) = Cert.ReferenceIdeal.Read.ridx_main_v30 i k :=
    funext fun a => by match a with | ⟨0, _⟩ => rfl | ⟨1, _⟩ => rfl
  rw [el, er]

/-- The second layer's product of an activation array with the weight is the reference's contraction of the same two. -/
theorem lin3_prod_eq_ref (x0 : (⟨Cert.ReferenceIdeal.S100000x1, .f32⟩ : BufTy).Contents (Elt Ideal))
    (x1 : (⟨Cert.ReferenceIdeal.S2x1600000, .i32⟩ : BufTy).Contents (Elt Ideal))
    (x3 : (⟨Cert.ReferenceIdeal.S1x128, .f32⟩ : BufTy).Contents (Elt Ideal))
    (x4 x5 x6 : (⟨Cert.ReferenceIdeal.S128, .f32⟩ : BufTy).Contents (Elt Ideal)) (W : S128x128.Idx → EReal) :
    RegVal.lin3_prod (Cert.ReferenceIdeal.Read.val_main_v72 (F := Ideal) x0 x1 x3 x4 x5 x6) W
      = Cert.ReferenceIdeal.Read.val_main_v73 (F := Ideal) x0 x1 x3 x4 x5 x6 W := by
  funext i
  rw [Cert.ReferenceIdeal.Read.val_main_v73_apply]
  refine Finset.sum_congr rfl fun k _ => ?_
  have el : (ix2 (i 0) k : S100000x128.Idx) = Cert.ReferenceIdeal.Read.lidx_main_v73 i k :=
    funext fun a => by match a with | ⟨0, _⟩ => rfl | ⟨1, _⟩ => rfl
  have er : (ix2 k (i 1) : S128x128.Idx) = Cert.ReferenceIdeal.Read.ridx_main_v73 i k :=
    funext fun a => by match a with | ⟨0, _⟩ => rfl | ⟨1, _⟩ => rfl
  rw [el, er]

/-- The third layer's product of an activation array with the weight is the reference's contraction of the same two. -/
theorem lin6_prod_eq_ref (x0 : (⟨Cert.ReferenceIdeal.S100000x1, .f32⟩ : BufTy).Contents (Elt Ideal))
    (x1 : (⟨Cert.ReferenceIdeal.S2x1600000, .i32⟩ : BufTy).Contents (Elt Ideal))
    (x3 : (⟨Cert.ReferenceIdeal.S1x128, .f32⟩ : BufTy).Contents (Elt Ideal))
    (x4 x5 x6 : (⟨Cert.ReferenceIdeal.S128, .f32⟩ : BufTy).Contents (Elt Ideal))
    (x7 : (⟨Cert.ReferenceIdeal.S128x128, .f32⟩ : BufTy).Contents (Elt Ideal))
    (x8 x9 x10 : (⟨Cert.ReferenceIdeal.S128, .f32⟩ : BufTy).Contents (Elt Ideal)) (W : S128x128.Idx → EReal) :
    RegVal.lin6_prod (Cert.ReferenceIdeal.Read.val_main_v115 (F := Ideal) x0 x1 x3 x4 x5 x6 x7 x8 x9 x10) W
      = Cert.ReferenceIdeal.Read.val_main_v116 (F := Ideal) x0 x1 x3 x4 x5 x6 x7 x8 x9 x10 W := by
  funext i
  rw [Cert.ReferenceIdeal.Read.val_main_v116_apply]
  refine Finset.sum_congr rfl fun k _ => ?_
  have el : (ix2 (i 0) k : S100000x128.Idx) = Cert.ReferenceIdeal.Read.lidx_main_v116 i k :=
    funext fun a => by match a with | ⟨0, _⟩ => rfl | ⟨1, _⟩ => rfl
  have er : (ix2 k (i 1) : S128x128.Idx) = Cert.ReferenceIdeal.Read.ridx_main_v116 i k :=
    funext fun a => by match a with | ⟨0, _⟩ => rfl | ⟨1, _⟩ => rfl
  rw [el, er]

/-! ## The three result buffers of the kernel's run -/

/-- After the first linear region the buffer of its result holds the reference's first contraction of the launch
    arguments: the region finds both arguments as launched. -/
theorem k_v30 (c : Dev nD) :
    W4 m ρ c (Proc.devRef .tc main_v30)
      = Cert.ReferenceIdeal.Read.val_main_v30 (F := Ideal) (m ((c : Thread nD τ).loc main_arg0)) (m ((c : Thread nD τ).loc main_arg3)) :=
  (W4_arr m ρ c 2).trans
    ((RegVal.lin0_eq_of (V3 m ρ) c _ _ (kept_main_arg0_W3 m ρ c) (kept_main_arg3_W3 m ρ c)).trans
      (lin0_prod_eq_ref _ _))

/-- After the second linear region: if the region found the reference's activations, its result buffer holds the
    reference's contraction of them with the weight as launched. -/
theorem k_v59 (c : Dev nD) (x0 : (⟨Cert.ReferenceIdeal.S100000x1, .f32⟩ : BufTy).Contents (Elt Ideal))
    (x1 : (⟨Cert.ReferenceIdeal.S2x1600000, .i32⟩ : BufTy).Contents (Elt Ideal))
    (x3 : (⟨Cert.ReferenceIdeal.S1x128, .f32⟩ : BufTy).Contents (Elt Ideal))
    (x4 x5 x6 : (⟨Cert.ReferenceIdeal.S128, .f32⟩ : BufTy).Contents (Elt Ideal))
    (h : W8 m ρ c (Proc.devRef .tc main_v58) = Cert.ReferenceIdeal.Read.val_main_v72 (F := Ideal) x0 x1 x3 x4 x5 x6) :
    W9 m ρ c (Proc.devRef .tc main_v59)
      = Cert.ReferenceIdeal.Read.val_main_v73 (F := Ideal) x0 x1 x3 x4 x5 x6 (m ((c : Thread nD τ).loc main_arg7)) :=
  (W9_arr m ρ c 2).trans
    ((RegVal.lin3_eq_of (V8 m ρ) c _ _ h (kept_main_arg7_W8 m ρ c)).trans
      (lin3_prod_eq_ref x0 x1 x3 x4 x5 x6 _))

/-- After the third linear region: if the region found the reference's activations, its result buffer holds the
    reference's contraction of them with the weight as launched. -/
theorem k_v88 (c : Dev nD) (x0 : (⟨Cert.ReferenceIdeal.S100000x1, .f32⟩ : BufTy).Contents (Elt Ideal))
    (x1 : (⟨Cert.ReferenceIdeal.S2x1600000, .i32⟩ : BufTy).Contents (Elt Ideal))
    (x3 : (⟨Cert.ReferenceIdeal.S1x128, .f32⟩ : BufTy).Contents (Elt Ideal))
    (x4 x5 x6 : (⟨Cert.ReferenceIdeal.S128, .f32⟩ : BufTy).Contents (Elt Ideal))
    (x7 : (⟨Cert.ReferenceIdeal.S128x128, .f32⟩ : BufTy).Contents (Elt Ideal))
    (x8 x9 x10 : (⟨Cert.ReferenceIdeal.S128, .f32⟩ : BufTy).Contents (Elt Ideal))
    (h : W13 m ρ c (Proc.devRef .tc main_v87)
      = Cert.ReferenceIdeal.Read.val_main_v115 (F := Ideal) x0 x1 x3 x4 x5 x6 x7 x8 x9 x10) :
    W14 m ρ c (Proc.devRef .tc main_v88)
      = Cert.ReferenceIdeal.Read.val_main_v116 (F := Ideal) x0 x1 x3 x4 x5 x6 x7 x8 x9 x10 (m ((c : Thread nD τ).loc main_arg11)) :=
  (W14_arr m ρ c 2).trans
    ((RegVal.lin6_eq_of (V13 m ρ) c _ _ h (kept_main_arg11_W13 m ρ c)).trans
      (lin6_prod_eq_ref x0 x1 x3 x4 x5 x6 x7 x8 x9 x10 _))

end Cert.KernelIdeal.Gen

end
-- ==== Proof.KBnLib.lean ====
/- Reading a broadcast at an index: a scalar constant broadcast to a `[1,128]` row is the constant at every lane, and a
   `[128]` vector broadcast to a `[1,128]` row is the vector, lane by lane. Used by the three batch-normalisation layers. -/
import proofs.«420901_j2903397892205_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Gen

open Cert.KernelIdeal Cert.KernelIdeal.Gen Idealize.ShloMosaic Idealize.ShloMosaic.TcCoe Idealize.ShloMosaic.ValueIdx
open Idealize.ShloMosaic.StableHlo Idealize.SL.Sem

/-- A row vector `[1,128]` of extended reals. -/
abbrev Row := (⟨S1x128, .f32⟩ : BufTy).Contents (Elt Ideal)
/-- A vector `[128]` of extended reals. -/
abbrev Lane := (⟨S128, .f32⟩ : BufTy).Contents (Elt Ideal)

/-- A scalar constant broadcast to a row reads as the constant at every lane. -/
theorem bcast_const_row (b : BitVec 32) (q : Fin 128) :
    (broadcastInDim S1x128 ![] bcast_S_S1x128 (constant (F := Ideal) S_ .f32 b) : Row) (ix2 0 q) = Ideal.ofBits .f32 b :=
  broadcastInDim_apply _ bcast_S_S1x128 _ (ix2 0 q) ix0 (fun a => a.elim0)

/-- A `[128]` vector broadcast to a `[1,128]` row reads at lane `q` as the vector at `q`. -/
theorem bcast_lane_row (x : Lane) (q : Fin 128) :
    (broadcastInDim S1x128 ![1] bcast_S128_S1x128_1 x : Row) (ix2 0 q) = x (ix1 q) :=
  broadcastInDim_apply _ bcast_S128_S1x128_1 x (ix2 0 q) (ix1 q) (fun a => match a with
    | ⟨0, _⟩ => by show q.val = if (128 : Nat) = 1 then 0 else q.val; rw [if_neg (by decide)])

end Cert.KernelIdeal.Gen

end
-- ==== Proof.RegStats1.lean ====
/-
  THE VALUE of the first batch-statistics region, at the ideal values: its two `[1, 128]` result arrays are, column by
  column, the sum and the sum of squares of the `[100000, 128]` input array over all its rows,

      result₁ (0, q) = ∑ p : Fin 100000, A (p, q)        result₂ (0, q) = ∑ p : Fin 100000, A (p, q) * A (p, q),

  where `A` is what the input array holds when the region is entered. The grid has 20 points; point `t` reads rows
  `5000 t … 5000 t + 4999`, the first point resets both accumulators to zero, every point adds its block's column sums,
  and the accumulators are written back after the last point only. Over the extended reals addition is associative and
  commutative, so the ordered accumulation is the sum over all rows.
-/
import proofs.«420901_j2903397892205_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.RegVal

open Cert.KernelIdeal Cert.KernelIdeal.Gen Idealize.ShloMosaic.ValueIdx

/-! ## What one grid point leaves in the two accumulator blocks

At the first point the body stores the zero block in each accumulator and then adds to it; at every other point it adds
to what the point before left. Read back through the covering store, the first accumulator holds
`acc + (column sums of the 5000 × 128 input block)` and the second `acc + (column sums of its entrywise squares)`,
with `acc` the zero block at the first point. -/

section Pieces
variable {F : FTy → Type} [FloatOps F]

/-- The zero offset of a rank-2 block. -/
theorem stats1_hz : (![0, 0] : Fin 2 → Nat) = fun _ => 0 := funext fun a => by fin_cases a <;> rfl

/-- A later point, first accumulator: the carried block plus the block's column sums. -/
theorem stats1_out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero stats1_hz]
  simp only [View.readAt_eq_ld, h1.read_unread, h2.read_unread, View.ld_unit_zero (S := S5000x128) stats1_hz,
    View.ld_unit_zero (S := S1x128) stats1_hz]

/-- A later point, second accumulator: the carried block plus the column sums of the squares. -/
theorem stats1_out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero stats1_hz]
  simp only [View.readAt_eq_ld, h1.read_unread, h3.read_unread, View.ld_unit_zero (S := S5000x128) stats1_hz,
    View.ld_unit_zero (S := S1x128) stats1_hz]

/-- The first point, first accumulator: the zero block plus the block's column sums. -/
theorem stats1_out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) stats1_hz]
  simp only [View.readAt_eq_ld, h1.read_unread, View.ld_unit_zero (S := S5000x128) stats1_hz,
    View.readCov_unit_zero (S := S1x128) _ stats1_hz]

/-- The first point, second accumulator: the zero block plus the column sums of the squares. -/
theorem stats1_out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) stats1_hz]
  simp only [View.readAt_eq_ld, h1.read_unread, View.ld_unit_zero (S := S5000x128) stats1_hz,
    View.readCov_unit_zero (S := S1x128) _ stats1_hz]

end Pieces

/-! ## The two updates at an index, over the extended reals

At column `q` the reduction over the row axis is the sum over the 5000 rows; the cast between `[128]` and `[1, 128]`
keeps the column; the zero word is the extended real `0`. -/

section Payloads

/-- Inserting row `r` into the column index `q` gives the index `(r, q)` of the block. -/
theorem stats1_lift_rows (q : Fin 128) (r : Fin 5000) :
    Shape.Reduces.lift reduces_S5000x128_S128 (ix1 q) r = (ix2 r q : S5000x128.Idx) := by
  funext a; match a with | ⟨0, _⟩ => exact Fin.ext rfl | ⟨1, _⟩ => exact Fin.ext rfl

/-- The reset value of the first accumulator is `0`. -/
theorem stats1_pay1_apply (q : Fin 128) : (k1_pay1 (F := Ideal)) (ix2 0 q) = (0 : EReal) :=
  Ideal.ofBits_zero_f32

/-- The reset value of the second accumulator is `0`. -/
theorem stats1_pay2_apply (q : Fin 128) : (k1_pay2 (F := Ideal)) (ix2 0 q) = (0 : EReal) :=
  Ideal.ofBits_zero_f32

/-- The sum update at column `q`: `xo q + ∑ r, x (r, q)`. -/
theorem stats1_pay4_apply (x : S5000x128.Idx → EReal) (xo : S1x128.Idx → EReal) (q : Fin 128) :
    k1_pay4 (F := Ideal) x xo (ix2 0 q) = xo (ix2 0 q) + ∑ r : Fin 5000, x (ix2 r q) := by
  unfold k1_pay4 k1_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  refine (congrFun (shapeCast_self x _) _).trans ?_
  exact congrArg x (stats1_lift_rows q r)

/-- The sum-of-squares update at column `q`: `xo q + ∑ r, x (r, q) * x (r, q)`. -/
theorem stats1_pay5_apply (x : S5000x128.Idx → EReal) (xo : S1x128.Idx → EReal) (q : Fin 128) :
    k1_pay5 (F := Ideal) x xo (ix2 0 q) = xo (ix2 0 q) + ∑ r : Fin 5000, x (ix2 r q) * x (ix2 r q) := by
  unfold k1_pay5 k1_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  have e : shapeCast S5000x128 x shapeCasts_S5000x128_S5000x128 (Shape.Reduces.lift reduces_S5000x128_S128 (ix1 q) r) = x (ix2 r q) :=
    (congrFun (shapeCast_self x _) _).trans (congrArg x (stats1_lift_rows q r))
  exact congrArg₂ (· * ·) e e

end Payloads

/-! ## The running sums, and the result arrays

Point `t` reads rows `5000 t … 5000 t + 4999` of the input array `A`. By induction on the point, after point `n` the
accumulators hold, at column `q`, `∑ p < 5000 (n + 1), A (p, q)` and `∑ p < 5000 (n + 1), A (p, q) * A (p, q)`. The
accumulators are written back once, after the last point (`n = 19`), and their one block is the whole `[1, 128]` result
array; `5000 * 20 = 100000` is every row. -/

section Value
variable (V : (c : Dev nD) → (b : Ref sig .tc) → Buf (Elt Ideal) ((c : Thread nD τ).loc b))

/-- The input block at point `t`, at its literal type. -/
abbrev stats1_xblk (c : Dev nD) (t : Fin cfg1.N) : S5000x128.Idx → EReal := iblk1 V c 0 t

/-- The input window's block index at point `t` is `(t, 0)`. -/
theorem stats1_idx : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry `(r, q)` of the block at point `t` is entry `(5000 t + r, q)` of the array. -/
theorem stats1_xblk_apply (c : Dev nD) (A : S100000x128.Idx → EReal) (hA : V c main_v46 = A) (t : Fin cfg1.N)
    (r : Fin 5000) (q : Fin 128) (hp : 5000 * t.val + r.val < 100000) :
    stats1_xblk V c t (ix2 r q) = A (ix2 ⟨5000 * t.val + r.val, hp⟩ q) := by
  subst hA
  obtain ⟨e0, e1⟩ := stats1_idx t
  show V c main_v46 (((cfg1.win 0).blk t).view.emb (ix2 r q)) = V c main_v46 (ix2 ⟨_, hp⟩ q)
  congr 1
  funext a; apply Fin.ext
  match a with
  | ⟨0, _⟩ => show win1_0.index t (0 : Fin 2) * 5000 + 1 * r.val = 5000 * t.val + r.val; omega
  | ⟨1, _⟩ => show win1_0.index t (1 : Fin 2) * 128 + 1 * q.val = q.val; omega

/-- Column q of the array as a function of the row number, G applied entrywise, zero past the last row. -/
def stats1_colG (G : EReal → EReal) (A : S100000x128.Idx → EReal) (q : Fin 128) (p : ℕ) : EReal :=
  if h : p < 100000 then G (A (ix2 ⟨p, h⟩ q)) else 0

/-- The block's column sum of `G` of its entries is the sum of the column over rows `5000 t ≤ p < 5000 t + 5000`. -/
theorem stats1_blk_sum (G : EReal → EReal) (c : Dev nD) (A : S100000x128.Idx → EReal) (hA : V c main_v46 = A)
    (t : Fin cfg1.N) (q : Fin 128) :
    ∑ r : Fin 5000, G (stats1_xblk V c t (ix2 r q)) = ∑ x ∈ Finset.range 5000, stats1_colG G A q (t.val * 5000 + x) := by
  have hN : t.val < 20 := lt_of_lt_of_eq t.isLt N_1
  rw [← Fin.sum_univ_eq_sum_range (fun x => stats1_colG G A q (t.val * 5000 + x)) 5000]
  refine Finset.sum_congr rfl fun r _ => ?_
  have hr : r.val < 5000 := r.isLt
  have hp : 5000 * t.val + r.val < 100000 := by omega
  rw [stats1_xblk_apply V c A hA t r q hp]
  have e : t.val * 5000 + r.val = 5000 * t.val + r.val := by omega
  show _ = stats1_colG G A q (t.val * 5000 + r.val)
  rw [e]
  exact (show stats1_colG G A q (5000 * t.val + r.val) = G (A (ix2 ⟨5000 * t.val + r.val, hp⟩ q)) from dif_pos hp).symm

/-- THE INVARIANT: after point `n` the accumulators hold the column's sum, and its sum of squares, over the first
    `5000 (n + 1)` rows. -/
theorem stats1_inv (c : Dev nD) (A : S100000x128.Idx → EReal) (hA : V c main_v46 = A) (q : Fin 128) :
    ∀ (n : ℕ) (h : n < cfg1.N),
      (outsAt1 V c n h).1 (ix2 0 q) = ∑ p ∈ Finset.range ((n + 1) * 5000), stats1_colG id A q p
      ∧ (outsAt1 V c n h).2 (ix2 0 q) = ∑ p ∈ Finset.range ((n + 1) * 5000), stats1_colG (fun x => x * x) A q p
  | 0, h => by
    constructor
    · rw [outsAt1_A V c ⟨0, h⟩ rfl]; dsimp only
      refine (congrFun (stats1_out_A_1 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (stats1_xblk V c ⟨0, h⟩)) (ix2 0 q)).trans ?_
      refine (stats1_pay4_apply (stats1_xblk V c ⟨0, h⟩) (k1_pay1 (F := Ideal)) q).trans ?_
      rw [stats1_pay1_apply, zero_add]
      refine (stats1_blk_sum V id c A hA ⟨0, h⟩ q).trans ?_
      simp only [Nat.zero_mul, Nat.zero_add, Nat.one_mul]
    · rw [outsAt1_A V c ⟨0, h⟩ rfl]; dsimp only
      refine (congrFun (stats1_out_A_2 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (stats1_xblk V c ⟨0, h⟩)) (ix2 0 q)).trans ?_
      refine (stats1_pay5_apply (stats1_xblk V c ⟨0, h⟩) (k1_pay2 (F := Ideal)) q).trans ?_
      rw [stats1_pay2_apply, zero_add]
      refine (stats1_blk_sum V (fun x => x * x) c A hA ⟨0, h⟩ q).trans ?_
      simp only [Nat.zero_mul, Nat.zero_add, Nat.one_mul]
  | n + 1, h => by
    have hN : cfg1.N = 20 := N_1
    have hB : ¬(⟨n + 1, h⟩ : Fin cfg1.N).val % 20 = 0 := by dsimp only; omega
    obtain ⟨ih1, ih2⟩ := stats1_inv c A hA q n (Nat.lt_of_succ_lt h)
    have hsplit : (n + 1 + 1) * 5000 = (n + 1) * 5000 + 5000 := by omega
    constructor
    · rw [outsAt1_B V c ⟨n + 1, h⟩ hB]; dsimp only
      refine (congrFun (stats1_out_B_1 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (stats1_xblk V c ⟨n + 1, h⟩) (outsAt1 V c n (Nat.lt_of_succ_lt h)).1 (outsAt1 V c n (Nat.lt_of_succ_lt h)).2) (ix2 0 q)).trans ?_
      refine (stats1_pay4_apply (stats1_xblk V c ⟨n + 1, h⟩) (outsAt1 V c n (Nat.lt_of_succ_lt h)).1 q).trans ?_
      rw [ih1, hsplit, Finset.sum_range_add]
      exact congrArg₂ (· + ·) rfl (stats1_blk_sum V id c A hA ⟨n + 1, h⟩ q)
    · rw [outsAt1_B V c ⟨n + 1, h⟩ hB]; dsimp only
      refine (congrFun (stats1_out_B_2 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (stats1_xblk V c ⟨n + 1, h⟩) (outsAt1 V c n (Nat.lt_of_succ_lt h)).1 (outsAt1 V c n (Nat.lt_of_succ_lt h)).2) (ix2 0 q)).trans ?_
      refine (stats1_pay5_apply (stats1_xblk V c ⟨n + 1, h⟩) (outsAt1 V c n (Nat.lt_of_succ_lt h)).2 q).trans ?_
      rw [ih2, hsplit, Finset.sum_range_add]
      exact congrArg₂ (· + ·) rfl (stats1_blk_sum V (fun x => x * x) c A hA ⟨n + 1, h⟩ q)

/-- The last grid point. -/
abbrev stats1_tlast : Fin cfg1.N := ⟨19, by rw [show cfg1.N = 20 from N_1]; decide⟩

/-- What the two accumulators hold after the last point, as contents of the result arrays. -/
abbrev stats1_res_1 (c : Dev nD) : Buf (Elt Ideal) ((c : Thread nD τ).loc main_v47_0) := (outsAt1 V c 19 stats1_tlast.isLt).1
abbrev stats1_res_2 (c : Dev nD) : Buf (Elt Ideal) ((c : Thread nD τ).loc main_v47_1) := (outsAt1 V c 19 stats1_tlast.isLt).2

/-- The one write-back of the first accumulator, at the last point, writes the whole result array. -/
theorem stats1_flushed_1 (c : Dev nD) (t : Fin cfg1.N) (hf : (cfg1.win 1).flush t = true) :
    (dat1 V c).flushed 1 t = ((cfg1.win 1).blk t).view.read (Elt Ideal) (stats1_res_1 V c) := by
  have hN : cfg1.N = 20 := N_1
  have h19 : t.val = 19 := by have := (flush1_1 t).mp hf; have := t.isLt; omega
  obtain rfl : t = stats1_tlast := Fin.ext h19
  show (cfg1.win 1).cut (grid1.coords stats1_tlast) ((dat1 V c).after 1 stats1_tlast) = _
  rw [after1_1]
  have hz' : (fun a => win1_1.index stats1_tlast a * main_v47_0.ty.shape.size a) = fun _ => 0 := funext fun a => by fin_cases a <;> decide
  exact (Memref.read_access_unit_zero (Elt Ideal) main_v47_0 hz' (fun a => by rw [congrFun hz' a]; simp) (stats1_res_1 V c)).symm

/-- The one write-back of the second accumulator, at the last point, writes the whole result array. -/
theorem stats1_flushed_2 (c : Dev nD) (t : Fin cfg1.N) (hf : (cfg1.win 2).flush t = true) :
    (dat1 V c).flushed 2 t = ((cfg1.win 2).blk t).view.read (Elt Ideal) (stats1_res_2 V c) := by
  have hN : cfg1.N = 20 := N_1
  have h19 : t.val = 19 := by have := (flush1_2 t).mp hf; have := t.isLt; omega
  obtain rfl : t = stats1_tlast := Fin.ext h19
  show (cfg1.win 2).cut (grid1.coords stats1_tlast) ((dat1 V c).after 2 stats1_tlast) = _
  rw [after1_2]
  have hz' : (fun a => win1_2.index stats1_tlast a * main_v47_1.ty.shape.size a) = fun _ => 0 := funext fun a => by fin_cases a <;> decide
  exact (Memref.read_access_unit_zero (Elt Ideal) main_v47_1 hz' (fun a => by rw [congrFun hz' a]; simp) (stats1_res_2 V c)).symm

/-- The first result array ends holding the first accumulator after the last point. -/
theorem stats1_final_1 (c : Dev nD) : (dat1 V c).arrAt 1 cfg1.N = stats1_res_1 V c :=
  (dat1 V c).arrAt_eq_of_cover 1 (stats1_res_1 V c) (stats1_flushed_1 V c) fun i =>
    ⟨stats1_tlast, (flush1_1 stats1_tlast).mpr rfl, by
      show i ∈ ((View.whole main_v47_0).slice (win1_1.rect stats1_tlast)).set
      rw [View.set_slice_whole, Rect.mem_set_unit]
      intro a
      have h0 : (i 0 : Nat) < 1 := (i 0).isLt
      have h1 : (i 1 : Nat) < 128 := (i 1).isLt
      match a with
      | ⟨0, _⟩ => show win1_1.index stats1_tlast 0 * win1_1.size 0 ≤ (i 0 : Nat) ∧ (i 0 : Nat) < win1_1.index stats1_tlast 0 * win1_1.size 0 + win1_1.xsize (grid1.coords stats1_tlast) 0
                  rw [show win1_1.index stats1_tlast 0 * win1_1.size 0 = 0 from by decide +kernel, show win1_1.xsize (grid1.coords stats1_tlast) 0 = 1 from by decide +kernel]; omega
      | ⟨1, _⟩ => show win1_1.index stats1_tlast 1 * win1_1.size 1 ≤ (i 1 : Nat) ∧ (i 1 : Nat) < win1_1.index stats1_tlast 1 * win1_1.size 1 + win1_1.xsize (grid1.coords stats1_tlast) 1
                  rw [show win1_1.index stats1_tlast 1 * win1_1.size 1 = 0 from by decide +kernel, show win1_1.xsize (grid1.coords stats1_tlast) 1 = 128 from by decide +kernel]; omega⟩

/-- The second result array ends holding the second accumulator after the last point. -/
theorem stats1_final_2 (c : Dev nD) : (dat1 V c).arrAt 2 cfg1.N = stats1_res_2 V c :=
  (dat1 V c).arrAt_eq_of_cover 2 (stats1_res_2 V c) (stats1_flushed_2 V c) fun i =>
    ⟨stats1_tlast, (flush1_2 stats1_tlast).mpr rfl, by
      show i ∈ ((View.whole main_v47_1).slice (win1_2.rect stats1_tlast)).set
      rw [View.set_slice_whole, Rect.mem_set_unit]
      intro a
      have h0 : (i 0 : Nat) < 1 := (i 0).isLt
      have h1 : (i 1 : Nat) < 128 := (i 1).isLt
      match a with
      | ⟨0, _⟩ => show win1_2.index stats1_tlast 0 * win1_2.size 0 ≤ (i 0 : Nat) ∧ (i 0 : Nat) < win1_2.index stats1_tlast 0 * win1_2.size 0 + win1_2.xsize (grid1.coords stats1_tlast) 0
                  rw [show win1_2.index stats1_tlast 0 * win1_2.size 0 = 0 from by decide +kernel, show win1_2.xsize (grid1.coords stats1_tlast) 0 = 1 from by decide +kernel]; omega
      | ⟨1, _⟩ => show win1_2.index stats1_tlast 1 * win1_2.size 1 ≤ (i 1 : Nat) ∧ (i 1 : Nat) < win1_2.index stats1_tlast 1 * win1_2.size 1 + win1_2.xsize (grid1.coords stats1_tlast) 1
                  rw [show win1_2.index stats1_tlast 1 * win1_2.size 1 = 0 from by decide +kernel, show win1_2.xsize (grid1.coords stats1_tlast) 1 = 128 from by decide +kernel]; omega⟩

/-- Over all `100000` rows the zero-extended column sums to the sum over the array's rows. -/
theorem stats1_colG_total (G : EReal → EReal) (A : S100000x128.Idx → EReal) (q : Fin 128) :
    ∑ p ∈ Finset.range 100000, stats1_colG G A q p = ∑ p : Fin 100000, G (A (ix2 p q)) := by
  rw [← Fin.sum_univ_eq_sum_range (fun p => stats1_colG G A q p) 100000]
  exact Finset.sum_congr rfl fun p _ => (show stats1_colG G A q p.val = G (A (ix2 ⟨p.val, p.isLt⟩ q)) from dif_pos p.isLt)

/-- The first result array of the statistics region: the column sums of its input array. -/
theorem stats1_sum_of (c : Dev nD) (A : S100000x128.Idx → EReal) (hA : V c main_v46 = A) (q : Fin 128) :
    (dat1 V c).arrAt 1 cfg1.N (ix2 0 q) = ∑ p : Fin 100000, A (ix2 p q) := by
  rw [stats1_final_1 V c]
  refine ((stats1_inv V c A hA q 19 stats1_tlast.isLt).1).trans ?_
  exact stats1_colG_total id A q

/-- The second result array: the column sums of the squares. -/
theorem stats1_sumsq_of (c : Dev nD) (A : S100000x128.Idx → EReal) (hA : V c main_v46 = A) (q : Fin 128) :
    (dat1 V c).arrAt 2 cfg1.N (ix2 0 q) = ∑ p : Fin 100000, A (ix2 p q) * A (ix2 p q) := by
  rw [stats1_final_2 V c]
  refine ((stats1_inv V c A hA q 19 stats1_tlast.isLt).2).trans ?_
  exact stats1_colG_total (fun x => x * x) A q

end Value

end Cert.KernelIdeal.RegVal

end
-- ==== Proof.RegBn2.lean ====
/- Region 2 of the program is a batch normalisation followed by a clamp at zero. Its result array of
   100000 rows and 128 lanes holds, at row p and lane q,
     max (g q * (a p q - mean q) * rsqrt (var q + eps) + beta q) 0,
   where a is the region's [100000,128] operand and mean, var, g, beta are its four [1,128] rows.
   The rows are cut into 20 blocks of 5000; grid point t computes block t from block t of a and from
   the four whole rows, so every block is the restriction of one function of the whole arrays, and the
   blocks tile the result. -/
import proofs.«420901_j2903397892205_1_alg».proof.Proof.Gen.KernelIdeal.Frame
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The offsets of an access to a whole buffer are zero on both axes. -/
theorem hz_r2 : (![0, 0] : Fin 2 → Nat) = fun _ => 0 := funext fun a => by fin_cases a <;> rfl

/-- A [1,128] row broadcast to [5000,128] reads, at row r and lane q, the row's lane q. -/
theorem bcRow_r2 (x : FVec Ideal S1x128 .f32) (r : Fin 5000) (q : Fin 128) :
    broadcastTo S5000x128 x broadcasts_S1x128_S5000x128 (ix2 r q) = x (ix2 0 q) := by
  refine broadcastTo_apply x _ (ix2 r q) (ix2 0 q) fun a => ?_
  match a with
  | ⟨0, _⟩ => rfl
  | ⟨1, _⟩ => rfl

/-- The body's stored value at row r and lane q of a block: the entry minus the mean, scaled by g and by
    the reciprocal square root of var + eps, shifted by beta, clamped below at zero. The casts to the same
    shape are identities and every broadcast row is read at lane q. -/
theorem pay_r2 (x0 : Vec Ideal S5000x128 .f32) (x1 x2 x3 x4 : Vec Ideal S1x128 .f32) (r : Fin 5000) (q : Fin 128) :
    (k2_pay1 x0 x1 x2 x3 x4 : S5000x128.Idx → EReal) (ix2 r q)
      = max (x3 (ix2 0 q) * (x0 (ix2 r q) - x1 (ix2 0 q))
              * Ideal.rsqrt (x2 (ix2 0 q) + Ideal.ofBits .f32 0x3727C5AC#32)
              + x4 (ix2 0 q)) (Ideal.ofBits .f32 0x00000000#32) := by
  unfold k2_pay1
  simp only [shapeCast_self]
  rw [maximumf_apply, addf_apply, mulf_apply, mulf_apply, subf_apply, bcRow_r2, bcRow_r2, bcRow_r2, bcRow_r2]
  rfl

/-- The result at row p and lane q, from the operand A and the rows M (mean), Vr (variance), G (scale), B (shift). -/
def bnRelu_r2 (A : S100000x128.Idx → EReal) (M Vr G B : S1x128.Idx → EReal) (p : Fin 100000) (q : Fin 128) : EReal :=
  max (G (ix2 0 q) * (A (ix2 p q) - M (ix2 0 q))
        * Ideal.rsqrt (Vr (ix2 0 q) + Ideal.ofBits .f32 0x3727C5AC#32)
        + B (ix2 0 q)) (Ideal.ofBits .f32 0x00000000#32)

/-- The whole result array as one function of the five arrays, index by index. -/
def bnArr_r2 (A : S100000x128.Idx → EReal) (M Vr G B : S1x128.Idx → EReal) : S100000x128.Idx → EReal :=
  fun i => bnRelu_r2 A M Vr G B ⟨(i 0).val, idx2_lt0 i⟩ ⟨(i 1).val, idx2_lt1 i⟩

/-- The block indices over the 20 grid points: the operand's and the result's windows sit at block (t, 0),
    the four rows' windows at block (0, 0). -/
theorem idx_facts_r2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The operand's block at point t is rows 5000 t to 5000 t + 4999 of the operand. -/
theorem iblk0_r2 (c : Dev nD) (A : S100000x128.Idx → EReal) (hA : V c main_v46 = A) (t : Fin cfg2.N)
    (x : S5000x128.Idx) (k : S100000x128.Idx)
    (hk0 : (k 0).val = 5000 * t.val + (x 0).val) (hk1 : (k 1).val = (x 1).val) :
    (iblk2 V c 0 t : Vec Ideal S5000x128 .f32) x = A k := by
  obtain ⟨e0, e1, -⟩ := idx_facts_r2 t
  unfold iblk2
  rw [View.read_apply]
  show V c main_v46 _ = A k
  rw [hA]
  congr 1
  funext a
  apply Fin.ext
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- The mean's block at every point is the whole row. -/
theorem iblk1_r2 (c : Dev nD) (R : S1x128.Idx → EReal) (hR : V c main_v49 = R) (t : Fin cfg2.N) (x : S1x128.Idx) :
    (iblk2 V c 1 t : Vec Ideal S1x128 .f32) x = R x := by
  obtain ⟨-, -, -, -, e0, e1, -⟩ := idx_facts_r2 t
  unfold iblk2
  rw [View.read_apply]
  show V c main_v49 _ = R x
  rw [hR]
  congr 1
  funext a
  apply Fin.ext
  match a with
  | ⟨0, _⟩ => show win2_1.index t (0 : Fin 2) * 1 + 1 * (x 0).val = (x 0).val; omega
  | ⟨1, _⟩ => show win2_1.index t (1 : Fin 2) * 128 + 1 * (x 1).val = (x 1).val; omega

/-- The variance's block at every point is the whole row. -/
theorem iblk2_r2 (c : Dev nD) (R : S1x128.Idx → EReal) (hR : V c main_v55 = R) (t : Fin cfg2.N) (x : S1x128.Idx) :
    (iblk2 V c 2 t : Vec Ideal S1x128 .f32) x = R x := by
  obtain ⟨-, -, -, -, -, -, e0, e1, -⟩ := idx_facts_r2 t
  unfold iblk2
  rw [View.read_apply]
  show V c main_v55 _ = R x
  rw [hR]
  congr 1
  funext a
  apply Fin.ext
  match a with
  | ⟨0, _⟩ => show win2_2.index t (0 : Fin 2) * 1 + 1 * (x 0).val = (x 0).val; omega
  | ⟨1, _⟩ => show win2_2.index t (1 : Fin 2) * 128 + 1 * (x 1).val = (x 1).val; omega

/-- The scale's block at every point is the whole row. -/
theorem iblk3_r2 (c : Dev nD) (R : S1x128.Idx → EReal) (hR : V c main_v56 = R) (t : Fin cfg2.N) (x : S1x128.Idx) :
    (iblk2 V c 3 t : Vec Ideal S1x128 .f32) x = R x := by
  obtain ⟨-, -, -, -, -, -, -, -, e0, e1, -⟩ := idx_facts_r2 t
  unfold iblk2
  rw [View.read_apply]
  show V c main_v56 _ = R x
  rw [hR]
  congr 1
  funext a
  apply Fin.ext
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- The shift's block at every point is the whole row. -/
theorem iblk4_r2 (c : Dev nD) (R : S1x128.Idx → EReal) (hR : V c main_v57 = R) (t : Fin cfg2.N) (x : S1x128.Idx) :
    (iblk2 V c 4 t : Vec Ideal S1x128 .f32) x = R x := by
  obtain ⟨-, -, -, -, -, -, -, -, -, -, e0, e1⟩ := idx_facts_r2 t
  unfold iblk2
  rw [View.read_apply]
  show V c main_v57 _ = R x
  rw [hR]
  congr 1
  funext a
  apply Fin.ext
  match a with
  | ⟨0, _⟩ => show win2_4.index t (0 : Fin 2) * 1 + 1 * (x 0).val = (x 0).val; omega
  | ⟨1, _⟩ => show win2_4.index t (1 : Fin 2) * 128 + 1 * (x 1).val = (x 1).val; omega

/-- Row r and lane q of point t's result block sit at row 5000 t + r and lane q of the result array. -/
theorem emb_out_r2 (t : Fin cfg2.N) (r : Fin 5000) (q : Fin 128) (p : Fin 100000) (hp : p.val = 5000 * t.val + r.val) :
    ((cfg2.win 5).blk t).view.emb (ix2 r q) = (ix2 p q : S100000x128.Idx) := by
  obtain ⟨-, -, e0, e1, -⟩ := idx_facts_r2 t
  funext a
  apply Fin.ext
  match a with
  | ⟨0, _⟩ => show win2_5.index t (0 : Fin 2) * 5000 + 1 * r.val = p.val; omega
  | ⟨1, _⟩ => show win2_5.index t (1 : Fin 2) * 128 + 1 * q.val = q.val; omega

/-- What point t writes back is block t of the whole result array: the one store covers the block, its
    value at row r and lane q is the closed form over the input blocks, and each input block is its array
    read at row 5000 t + r (the operand) or at the row's lane (the four rows). -/
theorem flushed_r2 (c : Dev nD) (A : S100000x128.Idx → EReal) (M Vr G B : S1x128.Idx → EReal)
    (hA : V c main_v46 = A) (hM : V c main_v49 = M) (hV : V c main_v55 = Vr) (hG : V c main_v56 = G) (hB : V c main_v57 = B)
    (t : Fin cfg2.N) :
    (dat2 V c).flushed 5 t = ((cfg2.win 5).blk t).view.read (Elt Ideal) (bnArr_r2 A M Vr G B) := by
  show (cfg2.win 5).cut (grid2.coords t) ((dat2 V c).after 5 t) = _
  rw [after2_5]
  unfold out2_5
  rw [View.canon_unit_zero hz_r2]
  simp only [View.ld_unit_zero (S := S5000x128) hz_r2, View.ld_unit_zero (S := S1x128) hz_r2]
  funext j
  obtain ⟨r, q, rfl⟩ : ∃ (r : Fin 5000) (q : Fin 128), j = ix2 r q := ⟨j 0, j 1, eq_ix2 j⟩
  have hN : cfg2.N = 20 := N_2
  have ht : t.val < 20 := hN ▸ t.isLt
  have hr : r.val < 5000 := r.isLt
  rw [View.read_apply, emb_out_r2 t r q ⟨5000 * t.val + r.val, by omega⟩ rfl]
  show k2_pay1 (iblk2 V c 0 t) (iblk2 V c 1 t) (iblk2 V c 2 t) (iblk2 V c 3 t) (iblk2 V c 4 t) (ix2 r q)
      = bnRelu_r2 A M Vr G B ⟨5000 * t.val + r.val, by omega⟩ q
  refine (pay_r2 (iblk2 V c 0 t) (iblk2 V c 1 t) (iblk2 V c 2 t) (iblk2 V c 3 t) (iblk2 V c 4 t) r q).trans ?_
  unfold bnRelu_r2
  rw [iblk0_r2 V c A hA t (ix2 r q) (ix2 ⟨5000 * t.val + r.val, by omega⟩ q) rfl rfl,
    iblk1_r2 V c M hM t (ix2 0 q), iblk2_r2 V c Vr hV t (ix2 0 q),
    iblk3_r2 V c G hG t (ix2 0 q), iblk4_r2 V c B hB t (ix2 0 q)]

/-- An index of the result array is in point t's block iff each coordinate is in the block's range on its axis. -/
theorem mem_blk_r2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v58).slice (win2_5.rect t)).set ↔ _
  rw [View.set_slice_whole, Rect.mem_set_unit]
  exact Iff.rfl

/-- The blocks tile the result array: row p is in the block of point p / 5000, and every point writes back. -/
theorem cover_r2 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, e0, e1, -⟩ := idx_facts_r2 t
  refine ⟨t, flush2_5 t, ?_⟩
  rw [mem_blk_r2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after the region is the whole function: every block written back is its restriction
    and the blocks cover the array. -/
theorem bn2_arr (c : Dev nD) (A : S100000x128.Idx → EReal) (M Vr G B : S1x128.Idx → EReal)
    (hA : V c main_v46 = A) (hM : V c main_v49 = M) (hV : V c main_v55 = Vr) (hG : V c main_v56 = G) (hB : V c main_v57 = B) :
    (dat2 V c).arrAt 5 cfg2.N = bnArr_r2 A M Vr G B :=
  (dat2 V c).arrAt_eq_of_cover 5 (bnArr_r2 A M Vr G B) (fun t _ => flushed_r2 V c A M Vr G B hA hM hV hG hB t) cover_r2

/-- The result at row p and lane q. -/
theorem bn2_apply_of (c : Dev nD) (A : S100000x128.Idx → EReal) (M Vr G B : S1x128.Idx → EReal)
    (hA : V c main_v46 = A) (hM : V c main_v49 = M) (hV : V c main_v55 = Vr) (hG : V c main_v56 = G) (hB : V c main_v57 = B)
    (p : Fin 100000) (q : Fin 128) :
    (dat2 V c).arrAt 5 cfg2.N (ix2 p q)
      = max (G (ix2 0 q) * (A (ix2 p q) - M (ix2 0 q))
              * Ideal.rsqrt (Vr (ix2 0 q) + Ideal.ofBits .f32 0x3727C5AC#32)
              + B (ix2 0 q)) (Ideal.ofBits .f32 0x00000000#32) := by
  rw [bn2_arr V c A M Vr G B hA hM hV hG hB]
  rfl

end Cert.KernelIdeal.RegVal

end
-- ==== Proof.KBn1.lean ====
/- Layer 1's batch normalisation on the kernel side: the statistics region's column sums, the host stretch that turns
   them into the mean and the variance `max (E[a²] − E[a]², 0)` and broadcasts the scale and the shift, and the
   normalisation region, composed into one closed form of the region's result in the aggregate at the statistics
   region's entry and the two arguments. -/
import proofs.«420901_j2903397892205_1_alg».proof.Proof.KBnLib
import proofs.«420901_j2903397892205_1_alg».proof.Proof.Kept
import proofs.«420901_j2903397892205_1_alg».proof.Proof.RegStats1
import proofs.«420901_j2903397892205_1_alg».proof.Proof.RegBn2

set_option maxRecDepth 16384

noncomputable section

namespace Cert.KernelIdeal.Gen

open Cert.KernelIdeal Cert.KernelIdeal.Gen Idealize.ShloMosaic Idealize.ShloMosaic.TcCoe Idealize.ShloMosaic.ValueIdx
open Idealize.ShloMosaic.StableHlo Idealize.SL.Sem Cert.KernelIdeal.RegVal

variable (m : (ℓ : Loc nD τ sig) → Buf (Elt Ideal) ℓ) (ρ : Dev nD → PrngReg)

/-! ### Layer 1: the host stretch between the statistics region and the normalisation region -/

/-- The mean row: the column sums divided by the row count. -/
theorem W7_v49_apply (c : Dev nD) (q : Fin 128) :
    (W7 m ρ c (Proc.devRef .tc main_v49) : Row) (ix2 0 q)
      = Ideal.div ((W6 m ρ c (Proc.devRef .tc main_v47_0) : Row) (ix2 0 q)) (Ideal.ofBits .f32 0x47C35000#32) := by
  have h : (W7 m ρ c (Proc.devRef .tc main_v49) : Row)
      = Host.divf (F := Ideal) (W6 m ρ c (Proc.devRef .tc main_v47_0) : Row)
          (broadcastInDim S1x128 ![] bcast_S_S1x128 (constant S_ .f32 0x47C35000#32)) := by
    show StableHlo.after hostOps2 (W6 m ρ c) (Proc.devRef .tc main_v49) = _
    simp only [hostOps2]
    after_results_simp
  rw [h]
  show Ideal.div _ _ = _
  rw [bcast_const_row]

/-- The variance row: the mean of the squares minus the squared mean, clamped at zero. -/
theorem W7_v55_apply (c : Dev nD) (q : Fin 128) :
    (W7 m ρ c (Proc.devRef .tc main_v55) : Row) (ix2 0 q)
      = max (Ideal.div ((W6 m ρ c (Proc.devRef .tc main_v47_1) : Row) (ix2 0 q)) (Ideal.ofBits .f32 0x47C35000#32)
              - Ideal.div ((W6 m ρ c (Proc.devRef .tc main_v47_0) : Row) (ix2 0 q)) (Ideal.ofBits .f32 0x47C35000#32)
                * Ideal.div ((W6 m ρ c (Proc.devRef .tc main_v47_0) : Row) (ix2 0 q)) (Ideal.ofBits .f32 0x47C35000#32))
            (Ideal.ofBits .f32 0x00000000#32) := by
  have h : (W7 m ρ c (Proc.devRef .tc main_v55) : Row)
      = maximumf (F := Ideal)
          (subf (Host.divf (W6 m ρ c (Proc.devRef .tc main_v47_1) : Row)
                  (broadcastInDim S1x128 ![] bcast_S_S1x128 (constant S_ .f32 0x47C35000#32)))
            (mulf (Host.divf (W6 m ρ c (Proc.devRef .tc main_v47_0) : Row)
                    (broadcastInDim S1x128 ![] bcast_S_S1x128 (constant S_ .f32 0x47C35000#32)))
                  (Host.divf (W6 m ρ c (Proc.devRef .tc main_v47_0) : Row)
                    (broadcastInDim S1x128 ![] bcast_S_S1x128 (constant S_ .f32 0x47C35000#32)))))
          (broadcastInDim S1x128 ![] bcast_S_S1x128 (constant S_ .f32 0x00000000#32)) := by
    show StableHlo.after hostOps2 (W6 m ρ c) (Proc.devRef .tc main_v55) = _
    simp only [hostOps2]
    after_results_simp
  rw [h]
  show max (Ideal.div _ _ - Ideal.div _ _ * Ideal.div _ _) _ = _
  rw [bcast_const_row, bcast_const_row]

/-- The scale row is the scale argument, lane by lane. -/
theorem W7_v56_apply (c : Dev nD) (q : Fin 128) :
    (W7 m ρ c (Proc.devRef .tc main_v56) : Row) (ix2 0 q) = (W6 m ρ c (Proc.devRef .tc main_arg5) : Lane) (ix1 q) := by
  have h : (W7 m ρ c (Proc.devRef .tc main_v56) : Row)
      = broadcastInDim S1x128 ![1] bcast_S128_S1x128_1 (W6 m ρ c (Proc.devRef .tc main_arg5) : Lane) := by
    show StableHlo.after hostOps2 (W6 m ρ c) (Proc.devRef .tc main_v56) = _
    simp only [hostOps2]
    after_results_simp
  rw [h, bcast_lane_row]

/-- The shift row is the shift argument, lane by lane. -/
theorem W7_v57_apply (c : Dev nD) (q : Fin 128) :
    (W7 m ρ c (Proc.devRef .tc main_v57) : Row) (ix2 0 q) = (W6 m ρ c (Proc.devRef .tc main_arg6) : Lane) (ix1 q) := by
  have h : (W7 m ρ c (Proc.devRef .tc main_v57) : Row)
      = broadcastInDim S1x128 ![1] bcast_S128_S1x128_1 (W6 m ρ c (Proc.devRef .tc main_arg6) : Lane) := by
    show StableHlo.after hostOps2 (W6 m ρ c) (Proc.devRef .tc main_v57) = _
    simp only [hostOps2]
    after_results_simp
  rw [h, bcast_lane_row]

/-- Layer 1's normalised, rectified activations at the normalisation region's exit, from the aggregate `A` at the
    statistics region's entry and the scale and shift arguments: batch normalisation over the rows with the variance
    `max (E[a²] − E[a]², 0)`, then `max · 0`. -/
theorem kbn1 (c : Dev nD) (A : S100000x128.Idx → EReal) (hA : W5 m ρ c (Proc.devRef .tc main_v46) = A) (G B : S128.Idx → EReal)
    (hG : m ((c : Thread nD τ).loc main_arg5) = G) (hB : m ((c : Thread nD τ).loc main_arg6) = B) (p : Fin 100000) (q : Fin 128) :
    W8 m ρ c (Proc.devRef .tc main_v58) (ix2 p q)
      = max (G (ix1 q) * (A (ix2 p q) - Ideal.div (∑ p', A (ix2 p' q)) (Ideal.ofBits .f32 0x47C35000#32))
              * Ideal.rsqrt (max (Ideal.div (∑ p', A (ix2 p' q) * A (ix2 p' q)) (Ideal.ofBits .f32 0x47C35000#32)
                                  - Ideal.div (∑ p', A (ix2 p' q)) (Ideal.ofBits .f32 0x47C35000#32)
                                    * Ideal.div (∑ p', A (ix2 p' q)) (Ideal.ofBits .f32 0x47C35000#32))
                                 (Ideal.ofBits .f32 0x00000000#32)
                             + Ideal.ofBits .f32 0x3727C5AC#32)
              + B (ix1 q)) (Ideal.ofBits .f32 0x00000000#32) := by
  have s0 : (W6 m ρ c (Proc.devRef .tc main_v47_0) : Row) (ix2 0 q) = ∑ p', A (ix2 p' q) :=
    (congrFun (W6_arr m ρ c 1) (ix2 0 q)).trans (stats1_sum_of (V5 m ρ) c A hA q)
  have s1 : (W6 m ρ c (Proc.devRef .tc main_v47_1) : Row) (ix2 0 q) = ∑ p', A (ix2 p' q) * A (ix2 p' q) :=
    (congrFun (W6_arr m ρ c 2) (ix2 0 q)).trans (stats1_sumsq_of (V5 m ρ) c A hA q)
  have hg : (W6 m ρ c (Proc.devRef .tc main_arg5) : Lane) = G := (kept_main_arg5_W6 m ρ c).trans hG
  have hb : (W6 m ρ c (Proc.devRef .tc main_arg6) : Lane) = B := (kept_main_arg6_W6 m ρ c).trans hB
  refine (congrFun (W8_arr m ρ c 5) (ix2 p q)).trans ?_
  rw [bn2_apply_of (V7 m ρ) c A (W7 m ρ c (Proc.devRef .tc main_v49)) (W7 m ρ c (Proc.devRef .tc main_v55))
        (W7 m ρ c (Proc.devRef .tc main_v56)) (W7 m ρ c (Proc.devRef .tc main_v57))
        ((kept_main_v46_W7 m ρ c).trans hA) rfl rfl rfl rfl p q,
      W7_v49_apply, W7_v55_apply, W7_v56_apply, W7_v57_apply, s0, s1, hg, hb]

end Cert.KernelIdeal.Gen

end
-- ==== Proof.RegStats4.lean ====
/-
  THE VALUE of the second batch-statistics region, at the ideal values: its two `[1, 128]` result arrays are, column by
  column, the sum and the sum of squares of the `[100000, 128]` input array over all its rows,

      result₁ (0, q) = ∑ p : Fin 100000, A (p, q)        result₂ (0, q) = ∑ p : Fin 100000, A (p, q) * A (p, q),

  where `A` is what the input array holds when the region is entered. The grid has 20 points; point `t` reads rows
  `5000 t … 5000 t + 4999`, the first point resets both accumulators to zero, every point adds its block's column sums,
  and the accumulators are written back after the last point only. Over the extended reals addition is associative and
  commutative, so the ordered accumulation is the sum over all rows.
-/
import proofs.«420901_j2903397892205_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.RegVal

open Cert.KernelIdeal Cert.KernelIdeal.Gen Idealize.ShloMosaic.ValueIdx

/-! ## What one grid point leaves in the two accumulator blocks

At the first point the body stores the zero block in each accumulator and then adds to it; at every other point it adds
to what the point before left. Read back through the covering store, the first accumulator holds
`acc + (column sums of the 5000 × 128 input block)` and the second `acc + (column sums of its entrywise squares)`,
with `acc` the zero block at the first point. -/

section Pieces
variable {F : FTy → Type} [FloatOps F]

/-- The zero offset of a rank-2 block. -/
theorem stats4_hz : (![0, 0] : Fin 2 → Nat) = fun _ => 0 := funext fun a => by fin_cases a <;> rfl

/-- A later point, first accumulator: the carried block plus the block's column sums. -/
theorem stats4_out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero stats4_hz]
  simp only [View.readAt_eq_ld, h1.read_unread, h2.read_unread, View.ld_unit_zero (S := S5000x128) stats4_hz,
    View.ld_unit_zero (S := S1x128) stats4_hz]

/-- A later point, second accumulator: the carried block plus the column sums of the squares. -/
theorem stats4_out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero stats4_hz]
  simp only [View.readAt_eq_ld, h1.read_unread, h3.read_unread, View.ld_unit_zero (S := S5000x128) stats4_hz,
    View.ld_unit_zero (S := S1x128) stats4_hz]

/-- The first point, first accumulator: the zero block plus the block's column sums. -/
theorem stats4_out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) stats4_hz]
  simp only [View.readAt_eq_ld, h1.read_unread, View.ld_unit_zero (S := S5000x128) stats4_hz,
    View.readCov_unit_zero (S := S1x128) _ stats4_hz]

/-- The first point, second accumulator: the zero block plus the column sums of the squares. -/
theorem stats4_out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) stats4_hz]
  simp only [View.readAt_eq_ld, h1.read_unread, View.ld_unit_zero (S := S5000x128) stats4_hz,
    View.readCov_unit_zero (S := S1x128) _ stats4_hz]

end Pieces

/-! ## The two updates at an index, over the extended reals

At column `q` the reduction over the row axis is the sum over the 5000 rows; the cast between `[128]` and `[1, 128]`
keeps the column; the zero word is the extended real `0`. -/

section Payloads

/-- Inserting row `r` into the column index `q` gives the index `(r, q)` of the block. -/
theorem stats4_lift_rows (q : Fin 128) (r : Fin 5000) :
    Shape.Reduces.lift reduces_S5000x128_S128 (ix1 q) r = (ix2 r q : S5000x128.Idx) := by
  funext a; match a with | ⟨0, _⟩ => exact Fin.ext rfl | ⟨1, _⟩ => exact Fin.ext rfl

/-- The reset value of the first accumulator is `0`. -/
theorem stats4_pay1_apply (q : Fin 128) : (k4_pay1 (F := Ideal)) (ix2 0 q) = (0 : EReal) :=
  Ideal.ofBits_zero_f32

/-- The reset value of the second accumulator is `0`. -/
theorem stats4_pay2_apply (q : Fin 128) : (k4_pay2 (F := Ideal)) (ix2 0 q) = (0 : EReal) :=
  Ideal.ofBits_zero_f32

/-- The sum update at column `q`: `xo q + ∑ r, x (r, q)`. -/
theorem stats4_pay4_apply (x : S5000x128.Idx → EReal) (xo : S1x128.Idx → EReal) (q : Fin 128) :
    k4_pay4 (F := Ideal) x xo (ix2 0 q) = xo (ix2 0 q) + ∑ r : Fin 5000, x (ix2 r q) := by
  unfold k4_pay4 k4_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  refine (congrFun (shapeCast_self x _) _).trans ?_
  exact congrArg x (stats4_lift_rows q r)

/-- The sum-of-squares update at column `q`: `xo q + ∑ r, x (r, q) * x (r, q)`. -/
theorem stats4_pay5_apply (x : S5000x128.Idx → EReal) (xo : S1x128.Idx → EReal) (q : Fin 128) :
    k4_pay5 (F := Ideal) x xo (ix2 0 q) = xo (ix2 0 q) + ∑ r : Fin 5000, x (ix2 r q) * x (ix2 r q) := by
  unfold k4_pay5 k4_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  have e : shapeCast S5000x128 x shapeCasts_S5000x128_S5000x128 (Shape.Reduces.lift reduces_S5000x128_S128 (ix1 q) r) = x (ix2 r q) :=
    (congrFun (shapeCast_self x _) _).trans (congrArg x (stats4_lift_rows q r))
  exact congrArg₂ (· * ·) e e

end Payloads

/-! ## The running sums, and the result arrays

Point `t` reads rows `5000 t … 5000 t + 4999` of the input array `A`. By induction on the point, after point `n` the
accumulators hold, at column `q`, `∑ p < 5000 (n + 1), A (p, q)` and `∑ p < 5000 (n + 1), A (p, q) * A (p, q)`. The
accumulators are written back once, after the last point (`n = 19`), and their one block is the whole `[1, 128]` result
array; `5000 * 20 = 100000` is every row. -/

section Value
variable (V : (c : Dev nD) → (b : Ref sig .tc) → Buf (Elt Ideal) ((c : Thread nD τ).loc b))

/-- The input block at point `t`, at its literal type. -/
abbrev stats4_xblk (c : Dev nD) (t : Fin cfg4.N) : S5000x128.Idx → EReal := iblk4 V c 0 t

/-- The input window's block index at point `t` is `(t, 0)`. -/
theorem stats4_idx : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry `(r, q)` of the block at point `t` is entry `(5000 t + r, q)` of the array. -/
theorem stats4_xblk_apply (c : Dev nD) (A : S100000x128.Idx → EReal) (hA : V c main_v75 = A) (t : Fin cfg4.N)
    (r : Fin 5000) (q : Fin 128) (hp : 5000 * t.val + r.val < 100000) :
    stats4_xblk V c t (ix2 r q) = A (ix2 ⟨5000 * t.val + r.val, hp⟩ q) := by
  subst hA
  obtain ⟨e0, e1⟩ := stats4_idx t
  show V c main_v75 (((cfg4.win 0).blk t).view.emb (ix2 r q)) = V c main_v75 (ix2 ⟨_, hp⟩ q)
  congr 1
  funext a; apply Fin.ext
  match a with
  | ⟨0, _⟩ => show win4_0.index t (0 : Fin 2) * 5000 + 1 * r.val = 5000 * t.val + r.val; omega
  | ⟨1, _⟩ => show win4_0.index t (1 : Fin 2) * 128 + 1 * q.val = q.val; omega

/-- Column q of the array as a function of the row number, G applied entrywise, zero past the last row. -/
def stats4_colG (G : EReal → EReal) (A : S100000x128.Idx → EReal) (q : Fin 128) (p : ℕ) : EReal :=
  if h : p < 100000 then G (A (ix2 ⟨p, h⟩ q)) else 0

/-- The block's column sum of `G` of its entries is the sum of the column over rows `5000 t ≤ p < 5000 t + 5000`. -/
theorem stats4_blk_sum (G : EReal → EReal) (c : Dev nD) (A : S100000x128.Idx → EReal) (hA : V c main_v75 = A)
    (t : Fin cfg4.N) (q : Fin 128) :
    ∑ r : Fin 5000, G (stats4_xblk V c t (ix2 r q)) = ∑ x ∈ Finset.range 5000, stats4_colG G A q (t.val * 5000 + x) := by
  have hN : t.val < 20 := lt_of_lt_of_eq t.isLt N_4
  rw [← Fin.sum_univ_eq_sum_range (fun x => stats4_colG G A q (t.val * 5000 + x)) 5000]
  refine Finset.sum_congr rfl fun r _ => ?_
  have hr : r.val < 5000 := r.isLt
  have hp : 5000 * t.val + r.val < 100000 := by omega
  rw [stats4_xblk_apply V c A hA t r q hp]
  have e : t.val * 5000 + r.val = 5000 * t.val + r.val := by omega
  show _ = stats4_colG G A q (t.val * 5000 + r.val)
  rw [e]
  exact (show stats4_colG G A q (5000 * t.val + r.val) = G (A (ix2 ⟨5000 * t.val + r.val, hp⟩ q)) from dif_pos hp).symm

/-- THE INVARIANT: after point `n` the accumulators hold the column's sum, and its sum of squares, over the first
    `5000 (n + 1)` rows. -/
theorem stats4_inv (c : Dev nD) (A : S100000x128.Idx → EReal) (hA : V c main_v75 = A) (q : Fin 128) :
    ∀ (n : ℕ) (h : n < cfg4.N),
      (outsAt4 V c n h).1 (ix2 0 q) = ∑ p ∈ Finset.range ((n + 1) * 5000), stats4_colG id A q p
      ∧ (outsAt4 V c n h).2 (ix2 0 q) = ∑ p ∈ Finset.range ((n + 1) * 5000), stats4_colG (fun x => x * x) A q p
  | 0, h => by
    constructor
    · rw [outsAt4_A V c ⟨0, h⟩ rfl]; dsimp only
      refine (congrFun (stats4_out_A_1 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (stats4_xblk V c ⟨0, h⟩)) (ix2 0 q)).trans ?_
      refine (stats4_pay4_apply (stats4_xblk V c ⟨0, h⟩) (k4_pay1 (F := Ideal)) q).trans ?_
      rw [stats4_pay1_apply, zero_add]
      refine (stats4_blk_sum V id c A hA ⟨0, h⟩ q).trans ?_
      simp only [Nat.zero_mul, Nat.zero_add, Nat.one_mul]
    · rw [outsAt4_A V c ⟨0, h⟩ rfl]; dsimp only
      refine (congrFun (stats4_out_A_2 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (stats4_xblk V c ⟨0, h⟩)) (ix2 0 q)).trans ?_
      refine (stats4_pay5_apply (stats4_xblk V c ⟨0, h⟩) (k4_pay2 (F := Ideal)) q).trans ?_
      rw [stats4_pay2_apply, zero_add]
      refine (stats4_blk_sum V (fun x => x * x) c A hA ⟨0, h⟩ q).trans ?_
      simp only [Nat.zero_mul, Nat.zero_add, Nat.one_mul]
  | n + 1, h => by
    have hN : cfg4.N = 20 := N_4
    have hB : ¬(⟨n + 1, h⟩ : Fin cfg4.N).val % 20 = 0 := by dsimp only; omega
    obtain ⟨ih1, ih2⟩ := stats4_inv c A hA q n (Nat.lt_of_succ_lt h)
    have hsplit : (n + 1 + 1) * 5000 = (n + 1) * 5000 + 5000 := by omega
    constructor
    · rw [outsAt4_B V c ⟨n + 1, h⟩ hB]; dsimp only
      refine (congrFun (stats4_out_B_1 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (stats4_xblk V c ⟨n + 1, h⟩) (outsAt4 V c n (Nat.lt_of_succ_lt h)).1 (outsAt4 V c n (Nat.lt_of_succ_lt h)).2) (ix2 0 q)).trans ?_
      refine (stats4_pay4_apply (stats4_xblk V c ⟨n + 1, h⟩) (outsAt4 V c n (Nat.lt_of_succ_lt h)).1 q).trans ?_
      rw [ih1, hsplit, Finset.sum_range_add]
      exact congrArg₂ (· + ·) rfl (stats4_blk_sum V id c A hA ⟨n + 1, h⟩ q)
    · rw [outsAt4_B V c ⟨n + 1, h⟩ hB]; dsimp only
      refine (congrFun (stats4_out_B_2 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (stats4_xblk V c ⟨n + 1, h⟩) (outsAt4 V c n (Nat.lt_of_succ_lt h)).1 (outsAt4 V c n (Nat.lt_of_succ_lt h)).2) (ix2 0 q)).trans ?_
      refine (stats4_pay5_apply (stats4_xblk V c ⟨n + 1, h⟩) (outsAt4 V c n (Nat.lt_of_succ_lt h)).2 q).trans ?_
      rw [ih2, hsplit, Finset.sum_range_add]
      exact congrArg₂ (· + ·) rfl (stats4_blk_sum V (fun x => x * x) c A hA ⟨n + 1, h⟩ q)

/-- The last grid point. -/
abbrev stats4_tlast : Fin cfg4.N := ⟨19, by rw [show cfg4.N = 20 from N_4]; decide⟩

/-- What the two accumulators hold after the last point, as contents of the result arrays. -/
abbrev stats4_res_1 (c : Dev nD) : Buf (Elt Ideal) ((c : Thread nD τ).loc main_v76_0) := (outsAt4 V c 19 stats4_tlast.isLt).1
abbrev stats4_res_2 (c : Dev nD) : Buf (Elt Ideal) ((c : Thread nD τ).loc main_v76_1) := (outsAt4 V c 19 stats4_tlast.isLt).2

/-- The one write-back of the first accumulator, at the last point, writes the whole result array. -/
theorem stats4_flushed_1 (c : Dev nD) (t : Fin cfg4.N) (hf : (cfg4.win 1).flush t = true) :
    (dat4 V c).flushed 1 t = ((cfg4.win 1).blk t).view.read (Elt Ideal) (stats4_res_1 V c) := by
  have hN : cfg4.N = 20 := N_4
  have h19 : t.val = 19 := by have := (flush4_1 t).mp hf; have := t.isLt; omega
  obtain rfl : t = stats4_tlast := Fin.ext h19
  show (cfg4.win 1).cut (grid4.coords stats4_tlast) ((dat4 V c).after 1 stats4_tlast) = _
  rw [after4_1]
  have hz' : (fun a => win4_1.index stats4_tlast a * main_v76_0.ty.shape.size a) = fun _ => 0 := funext fun a => by fin_cases a <;> decide
  exact (Memref.read_access_unit_zero (Elt Ideal) main_v76_0 hz' (fun a => by rw [congrFun hz' a]; simp) (stats4_res_1 V c)).symm

/-- The one write-back of the second accumulator, at the last point, writes the whole result array. -/
theorem stats4_flushed_2 (c : Dev nD) (t : Fin cfg4.N) (hf : (cfg4.win 2).flush t = true) :
    (dat4 V c).flushed 2 t = ((cfg4.win 2).blk t).view.read (Elt Ideal) (stats4_res_2 V c) := by
  have hN : cfg4.N = 20 := N_4
  have h19 : t.val = 19 := by have := (flush4_2 t).mp hf; have := t.isLt; omega
  obtain rfl : t = stats4_tlast := Fin.ext h19
  show (cfg4.win 2).cut (grid4.coords stats4_tlast) ((dat4 V c).after 2 stats4_tlast) = _
  rw [after4_2]
  have hz' : (fun a => win4_2.index stats4_tlast a * main_v76_1.ty.shape.size a) = fun _ => 0 := funext fun a => by fin_cases a <;> decide
  exact (Memref.read_access_unit_zero (Elt Ideal) main_v76_1 hz' (fun a => by rw [congrFun hz' a]; simp) (stats4_res_2 V c)).symm

/-- The first result array ends holding the first accumulator after the last point. -/
theorem stats4_final_1 (c : Dev nD) : (dat4 V c).arrAt 1 cfg4.N = stats4_res_1 V c :=
  (dat4 V c).arrAt_eq_of_cover 1 (stats4_res_1 V c) (stats4_flushed_1 V c) fun i =>
    ⟨stats4_tlast, (flush4_1 stats4_tlast).mpr rfl, by
      show i ∈ ((View.whole main_v76_0).slice (win4_1.rect stats4_tlast)).set
      rw [View.set_slice_whole, Rect.mem_set_unit]
      intro a
      have h0 : (i 0 : Nat) < 1 := (i 0).isLt
      have h1 : (i 1 : Nat) < 128 := (i 1).isLt
      match a with
      | ⟨0, _⟩ => show win4_1.index stats4_tlast 0 * win4_1.size 0 ≤ (i 0 : Nat) ∧ (i 0 : Nat) < win4_1.index stats4_tlast 0 * win4_1.size 0 + win4_1.xsize (grid4.coords stats4_tlast) 0
                  rw [show win4_1.index stats4_tlast 0 * win4_1.size 0 = 0 from by decide +kernel, show win4_1.xsize (grid4.coords stats4_tlast) 0 = 1 from by decide +kernel]; omega
      | ⟨1, _⟩ => show win4_1.index stats4_tlast 1 * win4_1.size 1 ≤ (i 1 : Nat) ∧ (i 1 : Nat) < win4_1.index stats4_tlast 1 * win4_1.size 1 + win4_1.xsize (grid4.coords stats4_tlast) 1
                  rw [show win4_1.index stats4_tlast 1 * win4_1.size 1 = 0 from by decide +kernel, show win4_1.xsize (grid4.coords stats4_tlast) 1 = 128 from by decide +kernel]; omega⟩

/-- The second result array ends holding the second accumulator after the last point. -/
theorem stats4_final_2 (c : Dev nD) : (dat4 V c).arrAt 2 cfg4.N = stats4_res_2 V c :=
  (dat4 V c).arrAt_eq_of_cover 2 (stats4_res_2 V c) (stats4_flushed_2 V c) fun i =>
    ⟨stats4_tlast, (flush4_2 stats4_tlast).mpr rfl, by
      show i ∈ ((View.whole main_v76_1).slice (win4_2.rect stats4_tlast)).set
      rw [View.set_slice_whole, Rect.mem_set_unit]
      intro a
      have h0 : (i 0 : Nat) < 1 := (i 0).isLt
      have h1 : (i 1 : Nat) < 128 := (i 1).isLt
      match a with
      | ⟨0, _⟩ => show win4_2.index stats4_tlast 0 * win4_2.size 0 ≤ (i 0 : Nat) ∧ (i 0 : Nat) < win4_2.index stats4_tlast 0 * win4_2.size 0 + win4_2.xsize (grid4.coords stats4_tlast) 0
                  rw [show win4_2.index stats4_tlast 0 * win4_2.size 0 = 0 from by decide +kernel, show win4_2.xsize (grid4.coords stats4_tlast) 0 = 1 from by decide +kernel]; omega
      | ⟨1, _⟩ => show win4_2.index stats4_tlast 1 * win4_2.size 1 ≤ (i 1 : Nat) ∧ (i 1 : Nat) < win4_2.index stats4_tlast 1 * win4_2.size 1 + win4_2.xsize (grid4.coords stats4_tlast) 1
                  rw [show win4_2.index stats4_tlast 1 * win4_2.size 1 = 0 from by decide +kernel, show win4_2.xsize (grid4.coords stats4_tlast) 1 = 128 from by decide +kernel]; omega⟩

/-- Over all `100000` rows the zero-extended column sums to the sum over the array's rows. -/
theorem stats4_colG_total (G : EReal → EReal) (A : S100000x128.Idx → EReal) (q : Fin 128) :
    ∑ p ∈ Finset.range 100000, stats4_colG G A q p = ∑ p : Fin 100000, G (A (ix2 p q)) := by
  rw [← Fin.sum_univ_eq_sum_range (fun p => stats4_colG G A q p) 100000]
  exact Finset.sum_congr rfl fun p _ => (show stats4_colG G A q p.val = G (A (ix2 ⟨p.val, p.isLt⟩ q)) from dif_pos p.isLt)

/-- The first result array of the statistics region: the column sums of its input array. -/
theorem stats4_sum_of (c : Dev nD) (A : S100000x128.Idx → EReal) (hA : V c main_v75 = A) (q : Fin 128) :
    (dat4 V c).arrAt 1 cfg4.N (ix2 0 q) = ∑ p : Fin 100000, A (ix2 p q) := by
  rw [stats4_final_1 V c]
  refine ((stats4_inv V c A hA q 19 stats4_tlast.isLt).1).trans ?_
  exact stats4_colG_total id A q

/-- The second result array: the column sums of the squares. -/
theorem stats4_sumsq_of (c : Dev nD) (A : S100000x128.Idx → EReal) (hA : V c main_v75 = A) (q : Fin 128) :
    (dat4 V c).arrAt 2 cfg4.N (ix2 0 q) = ∑ p : Fin 100000, A (ix2 p q) * A (ix2 p q) := by
  rw [stats4_final_2 V c]
  refine ((stats4_inv V c A hA q 19 stats4_tlast.isLt).2).trans ?_
  exact stats4_colG_total (fun x => x * x) A q

end Value

end Cert.KernelIdeal.RegVal

end
-- ==== Proof.RegBn5.lean ====
/- Region 5 of the program is a batch normalisation followed by a clamp at zero. Its result array of
   100000 rows and 128 lanes holds, at row p and lane q,
     max (g q * (a p q - mean q) * rsqrt (var q + eps) + beta q) 0,
   where a is the region's [100000,128] operand and mean, var, g, beta are its four [1,128] rows.
   The rows are cut into 20 blocks of 5000; grid point t computes block t from block t of a and from
   the four whole rows, so every block is the restriction of one function of the whole arrays, and the
   blocks tile the result. -/
import proofs.«420901_j2903397892205_1_alg».proof.Proof.Gen.KernelIdeal.Frame
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The offsets of an access to a whole buffer are zero on both axes. -/
theorem hz_r5 : (![0, 0] : Fin 2 → Nat) = fun _ => 0 := funext fun a => by fin_cases a <;> rfl

/-- A [1,128] row broadcast to [5000,128] reads, at row r and lane q, the row's lane q. -/
theorem bcRow_r5 (x : FVec Ideal S1x128 .f32) (r : Fin 5000) (q : Fin 128) :
    broadcastTo S5000x128 x broadcasts_S1x128_S5000x128 (ix2 r q) = x (ix2 0 q) := by
  refine broadcastTo_apply x _ (ix2 r q) (ix2 0 q) fun a => ?_
  match a with
  | ⟨0, _⟩ => rfl
  | ⟨1, _⟩ => rfl

/-- The body's stored value at row r and lane q of a block: the entry minus the mean, scaled by g and by
    the reciprocal square root of var + eps, shifted by beta, clamped below at zero. The casts to the same
    shape are identities and every broadcast row is read at lane q. -/
theorem pay_r5 (x0 : Vec Ideal S5000x128 .f32) (x1 x2 x3 x4 : Vec Ideal S1x128 .f32) (r : Fin 5000) (q : Fin 128) :
    (k5_pay1 x0 x1 x2 x3 x4 : S5000x128.Idx → EReal) (ix2 r q)
      = max (x3 (ix2 0 q) * (x0 (ix2 r q) - x1 (ix2 0 q))
              * Ideal.rsqrt (x2 (ix2 0 q) + Ideal.ofBits .f32 0x3727C5AC#32)
              + x4 (ix2 0 q)) (Ideal.ofBits .f32 0x00000000#32) := by
  unfold k5_pay1
  simp only [shapeCast_self]
  rw [maximumf_apply, addf_apply, mulf_apply, mulf_apply, subf_apply, bcRow_r5, bcRow_r5, bcRow_r5, bcRow_r5]
  rfl

/-- The result at row p and lane q, from the operand A and the rows M (mean), Vr (variance), G (scale), B (shift). -/
def bnRelu_r5 (A : S100000x128.Idx → EReal) (M Vr G B : S1x128.Idx → EReal) (p : Fin 100000) (q : Fin 128) : EReal :=
  max (G (ix2 0 q) * (A (ix2 p q) - M (ix2 0 q))
        * Ideal.rsqrt (Vr (ix2 0 q) + Ideal.ofBits .f32 0x3727C5AC#32)
        + B (ix2 0 q)) (Ideal.ofBits .f32 0x00000000#32)

/-- The whole result array as one function of the five arrays, index by index. -/
def bnArr_r5 (A : S100000x128.Idx → EReal) (M Vr G B : S1x128.Idx → EReal) : S100000x128.Idx → EReal :=
  fun i => bnRelu_r5 A M Vr G B ⟨(i 0).val, idx2_lt0 i⟩ ⟨(i 1).val, idx2_lt1 i⟩

/-- The block indices over the 20 grid points: the operand's and the result's windows sit at block (t, 0),
    the four rows' windows at block (0, 0). -/
theorem idx_facts_r5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The operand's block at point t is rows 5000 t to 5000 t + 4999 of the operand. -/
theorem iblk0_r5 (c : Dev nD) (A : S100000x128.Idx → EReal) (hA : V c main_v75 = A) (t : Fin cfg5.N)
    (x : S5000x128.Idx) (k : S100000x128.Idx)
    (hk0 : (k 0).val = 5000 * t.val + (x 0).val) (hk1 : (k 1).val = (x 1).val) :
    (iblk5 V c 0 t : Vec Ideal S5000x128 .f32) x = A k := by
  obtain ⟨e0, e1, -⟩ := idx_facts_r5 t
  unfold iblk5
  rw [View.read_apply]
  show V c main_v75 _ = A k
  rw [hA]
  congr 1
  funext a
  apply Fin.ext
  match a with
  | ⟨0, _⟩ => show win5_0.index t (0 : Fin 2) * 5000 + 1 * (x 0).val = (k 0).val; omega
  | ⟨1, _⟩ => show win5_0.index t (1 : Fin 2) * 128 + 1 * (x 1).val = (k 1).val; omega

/-- The mean's block at every point is the whole row. -/
theorem iblk1_r5 (c : Dev nD) (R : S1x128.Idx → EReal) (hR : V c main_v78 = R) (t : Fin cfg5.N) (x : S1x128.Idx) :
    (iblk5 V c 1 t : Vec Ideal S1x128 .f32) x = R x := by
  obtain ⟨-, -, -, -, e0, e1, -⟩ := idx_facts_r5 t
  unfold iblk5
  rw [View.read_apply]
  show V c main_v78 _ = R x
  rw [hR]
  congr 1
  funext a
  apply Fin.ext
  match a with
  | ⟨0, _⟩ => show win5_1.index t (0 : Fin 2) * 1 + 1 * (x 0).val = (x 0).val; omega
  | ⟨1, _⟩ => show win5_1.index t (1 : Fin 2) * 128 + 1 * (x 1).val = (x 1).val; omega

/-- The variance's block at every point is the whole row. -/
theorem iblk2_r5 (c : Dev nD) (R : S1x128.Idx → EReal) (hR : V c main_v84 = R) (t : Fin cfg5.N) (x : S1x128.Idx) :
    (iblk5 V c 2 t : Vec Ideal S1x128 .f32) x = R x := by
  obtain ⟨-, -, -, -, -, -, e0, e1, -⟩ := idx_facts_r5 t
  unfold iblk5
  rw [View.read_apply]
  show V c main_v84 _ = R x
  rw [hR]
  congr 1
  funext a
  apply Fin.ext
  match a with
  | ⟨0, _⟩ => show win5_2.index t (0 : Fin 2) * 1 + 1 * (x 0).val = (x 0).val; omega
  | ⟨1, _⟩ => show win5_2.index t (1 : Fin 2) * 128 + 1 * (x 1).val = (x 1).val; omega

/-- The scale's block at every point is the whole row. -/
theorem iblk3_r5 (c : Dev nD) (R : S1x128.Idx → EReal) (hR : V c main_v85 = R) (t : Fin cfg5.N) (x : S1x128.Idx) :
    (iblk5 V c 3 t : Vec Ideal S1x128 .f32) x = R x := by
  obtain ⟨-, -, -, -, -, -, -, -, e0, e1, -⟩ := idx_facts_r5 t
  unfold iblk5
  rw [View.read_apply]
  show V c main_v85 _ = R x
  rw [hR]
  congr 1
  funext a
  apply Fin.ext
  match a with
  | ⟨0, _⟩ => show win5_3.index t (0 : Fin 2) * 1 + 1 * (x 0).val = (x 0).val; omega
  | ⟨1, _⟩ => show win5_3.index t (1 : Fin 2) * 128 + 1 * (x 1).val = (x 1).val; omega

/-- The shift's block at every point is the whole row. -/
theorem iblk4_r5 (c : Dev nD) (R : S1x128.Idx → EReal) (hR : V c main_v86 = R) (t : Fin cfg5.N) (x : S1x128.Idx) :
    (iblk5 V c 4 t : Vec Ideal S1x128 .f32) x = R x := by
  obtain ⟨-, -, -, -, -, -, -, -, -, -, e0, e1⟩ := idx_facts_r5 t
  unfold iblk5
  rw [View.read_apply]
  show V c main_v86 _ = R x
  rw [hR]
  congr 1
  funext a
  apply Fin.ext
  match a with
  | ⟨0, _⟩ => show win5_4.index t (0 : Fin 2) * 1 + 1 * (x 0).val = (x 0).val; omega
  | ⟨1, _⟩ => show win5_4.index t (1 : Fin 2) * 128 + 1 * (x 1).val = (x 1).val; omega

/-- Row r and lane q of point t's result block sit at row 5000 t + r and lane q of the result array. -/
theorem emb_out_r5 (t : Fin cfg5.N) (r : Fin 5000) (q : Fin 128) (p : Fin 100000) (hp : p.val = 5000 * t.val + r.val) :
    ((cfg5.win 5).blk t).view.emb (ix2 r q) = (ix2 p q : S100000x128.Idx) := by
  obtain ⟨-, -, e0, e1, -⟩ := idx_facts_r5 t
  funext a
  apply Fin.ext
  match a with
  | ⟨0, _⟩ => show win5_5.index t (0 : Fin 2) * 5000 + 1 * r.val = p.val; omega
  | ⟨1, _⟩ => show win5_5.index t (1 : Fin 2) * 128 + 1 * q.val = q.val; omega

/-- What point t writes back is block t of the whole result array: the one store covers the block, its
    value at row r and lane q is the closed form over the input blocks, and each input block is its array
    read at row 5000 t + r (the operand) or at the row's lane (the four rows). -/
theorem flushed_r5 (c : Dev nD) (A : S100000x128.Idx → EReal) (M Vr G B : S1x128.Idx → EReal)
    (hA : V c main_v75 = A) (hM : V c main_v78 = M) (hV : V c main_v84 = Vr) (hG : V c main_v85 = G) (hB : V c main_v86 = B)
    (t : Fin cfg5.N) :
    (dat5 V c).flushed 5 t = ((cfg5.win 5).blk t).view.read (Elt Ideal) (bnArr_r5 A M Vr G B) := by
  show (cfg5.win 5).cut (grid5.coords t) ((dat5 V c).after 5 t) = _
  rw [after5_5]
  unfold out5_5
  rw [View.canon_unit_zero hz_r5]
  simp only [View.ld_unit_zero (S := S5000x128) hz_r5, View.ld_unit_zero (S := S1x128) hz_r5]
  funext j
  obtain ⟨r, q, rfl⟩ : ∃ (r : Fin 5000) (q : Fin 128), j = ix2 r q := ⟨j 0, j 1, eq_ix2 j⟩
  have hN : cfg5.N = 20 := N_5
  have ht : t.val < 20 := hN ▸ t.isLt
  have hr : r.val < 5000 := r.isLt
  rw [View.read_apply, emb_out_r5 t r q ⟨5000 * t.val + r.val, by omega⟩ rfl]
  show k5_pay1 (iblk5 V c 0 t) (iblk5 V c 1 t) (iblk5 V c 2 t) (iblk5 V c 3 t) (iblk5 V c 4 t) (ix2 r q)
      = bnRelu_r5 A M Vr G B ⟨5000 * t.val + r.val, by omega⟩ q
  refine (pay_r5 (iblk5 V c 0 t) (iblk5 V c 1 t) (iblk5 V c 2 t) (iblk5 V c 3 t) (iblk5 V c 4 t) r q).trans ?_
  unfold bnRelu_r5
  rw [iblk0_r5 V c A hA t (ix2 r q) (ix2 ⟨5000 * t.val + r.val, by omega⟩ q) rfl rfl,
    iblk1_r5 V c M hM t (ix2 0 q), iblk2_r5 V c Vr hV t (ix2 0 q),
    iblk3_r5 V c G hG t (ix2 0 q), iblk4_r5 V c B hB t (ix2 0 q)]

/-- An index of the result array is in point t's block iff each coordinate is in the block's range on its axis. -/
theorem mem_blk_r5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v87).slice (win5_5.rect t)).set ↔ _
  rw [View.set_slice_whole, Rect.mem_set_unit]
  exact Iff.rfl

/-- The blocks tile the result array: row p is in the block of point p / 5000, and every point writes back. -/
theorem cover_r5 (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  have hN : cfg5.N = 20 := N_5
  obtain ⟨t, ht⟩ : ∃ t : Fin cfg5.N, t.val = (i 0).val / 5000 := ⟨⟨(i 0).val / 5000, by rw [hN]; omega⟩, rfl⟩
  obtain ⟨-, -, e0, e1, -⟩ := idx_facts_r5 t
  refine ⟨t, flush5_5 t, ?_⟩
  rw [mem_blk_r5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The result array after the region is the whole function: every block written back is its restriction
    and the blocks cover the array. -/
theorem bn5_arr (c : Dev nD) (A : S100000x128.Idx → EReal) (M Vr G B : S1x128.Idx → EReal)
    (hA : V c main_v75 = A) (hM : V c main_v78 = M) (hV : V c main_v84 = Vr) (hG : V c main_v85 = G) (hB : V c main_v86 = B) :
    (dat5 V c).arrAt 5 cfg5.N = bnArr_r5 A M Vr G B :=
  (dat5 V c).arrAt_eq_of_cover 5 (bnArr_r5 A M Vr G B) (fun t _ => flushed_r5 V c A M Vr G B hA hM hV hG hB t) cover_r5

/-- The result at row p and lane q. -/
theorem bn5_apply_of (c : Dev nD) (A : S100000x128.Idx → EReal) (M Vr G B : S1x128.Idx → EReal)
    (hA : V c main_v75 = A) (hM : V c main_v78 = M) (hV : V c main_v84 = Vr) (hG : V c main_v85 = G) (hB : V c main_v86 = B)
    (p : Fin 100000) (q : Fin 128) :
    (dat5 V c).arrAt 5 cfg5.N (ix2 p q)
      = max (G (ix2 0 q) * (A (ix2 p q) - M (ix2 0 q))
              * Ideal.rsqrt (Vr (ix2 0 q) + Ideal.ofBits .f32 0x3727C5AC#32)
              + B (ix2 0 q)) (Ideal.ofBits .f32 0x00000000#32) := by
  rw [bn5_arr V c A M Vr G B hA hM hV hG hB]
  rfl

end Cert.KernelIdeal.RegVal

end
-- ==== Proof.KBn4.lean ====
/- Layer 2's batch normalisation on the kernel side: the statistics region's column sums, the host stretch that turns
   them into the mean and the variance `max (E[a²] − E[a]², 0)` and broadcasts the scale and the shift, and the
   normalisation region, composed into one closed form of the region's result in the aggregate at the statistics
   region's entry and the two arguments. -/
import proofs.«420901_j2903397892205_1_alg».proof.Proof.KBnLib
import proofs.«420901_j2903397892205_1_alg».proof.Proof.Kept
import proofs.«420901_j2903397892205_1_alg».proof.Proof.RegStats4
import proofs.«420901_j2903397892205_1_alg».proof.Proof.RegBn5

set_option maxRecDepth 16384

noncomputable section

namespace Cert.KernelIdeal.Gen

open Cert.KernelIdeal Cert.KernelIdeal.Gen Idealize.ShloMosaic Idealize.ShloMosaic.TcCoe Idealize.ShloMosaic.ValueIdx
open Idealize.ShloMosaic.StableHlo Idealize.SL.Sem Cert.KernelIdeal.RegVal

variable (m : (ℓ : Loc nD τ sig) → Buf (Elt Ideal) ℓ) (ρ : Dev nD → PrngReg)

/-! ### Layer 2: the host stretch between the statistics region and the normalisation region -/

/-- The mean row: the column sums divided by the row count. -/
theorem W12_v78_apply (c : Dev nD) (q : Fin 128) :
    (W12 m ρ c (Proc.devRef .tc main_v78) : Row) (ix2 0 q)
      = Ideal.div ((W11 m ρ c (Proc.devRef .tc main_v76_0) : Row) (ix2 0 q)) (Ideal.ofBits .f32 0x47C35000#32) := by
  have h : (W12 m ρ c (Proc.devRef .tc main_v78) : Row)
      = Host.divf (F := Ideal) (W11 m ρ c (Proc.devRef .tc main_v76_0) : Row)
          (broadcastInDim S1x128 ![] bcast_S_S1x128 (constant S_ .f32 0x47C35000#32)) := by
    show StableHlo.after hostOps5 (W11 m ρ c) (Proc.devRef .tc main_v78) = _
    simp only [hostOps5]
    after_results_simp
  rw [h]
  show Ideal.div _ _ = _
  rw [bcast_const_row]

/-- The variance row: the mean of the squares minus the squared mean, clamped at zero. -/
theorem W12_v84_apply (c : Dev nD) (q : Fin 128) :
    (W12 m ρ c (Proc.devRef .tc main_v84) : Row) (ix2 0 q)
      = max (Ideal.div ((W11 m ρ c (Proc.devRef .tc main_v76_1) : Row) (ix2 0 q)) (Ideal.ofBits .f32 0x47C35000#32)
              - Ideal.div ((W11 m ρ c (Proc.devRef .tc main_v76_0) : Row) (ix2 0 q)) (Ideal.ofBits .f32 0x47C35000#32)
                * Ideal.div ((W11 m ρ c (Proc.devRef .tc main_v76_0) : Row) (ix2 0 q)) (Ideal.ofBits .f32 0x47C35000#32))
            (Ideal.ofBits .f32 0x00000000#32) := by
  have h : (W12 m ρ c (Proc.devRef .tc main_v84) : Row)
      = maximumf (F := Ideal)
          (subf (Host.divf (W11 m ρ c (Proc.devRef .tc main_v76_1) : Row)
                  (broadcastInDim S1x128 ![] bcast_S_S1x128 (constant S_ .f32 0x47C35000#32)))
            (mulf (Host.divf (W11 m ρ c (Proc.devRef .tc main_v76_0) : Row)
                    (broadcastInDim S1x128 ![] bcast_S_S1x128 (constant S_ .f32 0x47C35000#32)))
                  (Host.divf (W11 m ρ c (Proc.devRef .tc main_v76_0) : Row)
                    (broadcastInDim S1x128 ![] bcast_S_S1x128 (constant S_ .f32 0x47C35000#32)))))
          (broadcastInDim S1x128 ![] bcast_S_S1x128 (constant S_ .f32 0x00000000#32)) := by
    show StableHlo.after hostOps5 (W11 m ρ c) (Proc.devRef .tc main_v84) = _
    simp only [hostOps5]
    after_results_simp
  rw [h]
  show max (Ideal.div _ _ - Ideal.div _ _ * Ideal.div _ _) _ = _
  rw [bcast_const_row, bcast_const_row]

/-- The scale row is the scale argument, lane by lane. -/
theorem W12_v85_apply (c : Dev nD) (q : Fin 128) :
    (W12 m ρ c (Proc.devRef .tc main_v85) : Row) (ix2 0 q) = (W11 m ρ c (Proc.devRef .tc main_arg9) : Lane) (ix1 q) := by
  have h : (W12 m ρ c (Proc.devRef .tc main_v85) : Row)
      = broadcastInDim S1x128 ![1] bcast_S128_S1x128_1 (W11 m ρ c (Proc.devRef .tc main_arg9) : Lane) := by
    show StableHlo.after hostOps5 (W11 m ρ c) (Proc.devRef .tc main_v85) = _
    simp only [hostOps5]
    after_results_simp
  rw [h, bcast_lane_row]

/-- The shift row is the shift argument, lane by lane. -/
theorem W12_v86_apply (c : Dev nD) (q : Fin 128) :
    (W12 m ρ c (Proc.devRef .tc main_v86) : Row) (ix2 0 q) = (W11 m ρ c (Proc.devRef .tc main_arg10) : Lane) (ix1 q) := by
  have h : (W12 m ρ c (Proc.devRef .tc main_v86) : Row)
      = broadcastInDim S1x128 ![1] bcast_S128_S1x128_1 (W11 m ρ c (Proc.devRef .tc main_arg10) : Lane) := by
    show StableHlo.after hostOps5 (W11 m ρ c) (Proc.devRef .tc main_v86) = _
    simp only [hostOps5]
    after_results_simp
  rw [h, bcast_lane_row]

/-- Layer 2's normalised, rectified activations at the normalisation region's exit, from the aggregate `A` at the
    statistics region's entry and the scale and shift arguments: batch normalisation over the rows with the variance
    `max (E[a²] − E[a]², 0)`, then `max · 0`. -/
theorem kbn2 (c : Dev nD) (A : S100000x128.Idx → EReal) (hA : W10 m ρ c (Proc.devRef .tc main_v75) = A) (G B : S128.Idx → EReal)
    (hG : m ((c : Thread nD τ).loc main_arg9) = G) (hB : m ((c : Thread nD τ).loc main_arg10) = B) (p : Fin 100000) (q : Fin 128) :
    W13 m ρ c (Proc.devRef .tc main_v87) (ix2 p q)
      = max (G (ix1 q) * (A (ix2 p q) - Ideal.div (∑ p', A (ix2 p' q)) (Ideal.ofBits .f32 0x47C35000#32))
              * Ideal.rsqrt (max (Ideal.div (∑ p', A (ix2 p' q) * A (ix2 p' q)) (Ideal.ofBits .f32 0x47C35000#32)
                                  - Ideal.div (∑ p', A (ix2 p' q)) (Ideal.ofBits .f32 0x47C35000#32)
                                    * Ideal.div (∑ p', A (ix2 p' q)) (Ideal.ofBits .f32 0x47C35000#32))
                                 (Ideal.ofBits .f32 0x00000000#32)
                             + Ideal.ofBits .f32 0x3727C5AC#32)
              + B (ix1 q)) (Ideal.ofBits .f32 0x00000000#32) := by
  have s0 : (W11 m ρ c (Proc.devRef .tc main_v76_0) : Row) (ix2 0 q) = ∑ p', A (ix2 p' q) :=
    (congrFun (W11_arr m ρ c 1) (ix2 0 q)).trans (stats4_sum_of (V10 m ρ) c A hA q)
  have s1 : (W11 m ρ c (Proc.devRef .tc main_v76_1) : Row) (ix2 0 q) = ∑ p', A (ix2 p' q) * A (ix2 p' q) :=
    (congrFun (W11_arr m ρ c 2) (ix2 0 q)).trans (stats4_sumsq_of (V10 m ρ) c A hA q)
  have hg : (W11 m ρ c (Proc.devRef .tc main_arg9) : Lane) = G := (kept_main_arg9_W11 m ρ c).trans hG
  have hb : (W11 m ρ c (Proc.devRef .tc main_arg10) : Lane) = B := (kept_main_arg10_W11 m ρ c).trans hB
  refine (congrFun (W13_arr m ρ c 5) (ix2 p q)).trans ?_
  rw [bn5_apply_of (V12 m ρ) c A (W12 m ρ c (Proc.devRef .tc main_v78)) (W12 m ρ c (Proc.devRef .tc main_v84))
        (W12 m ρ c (Proc.devRef .tc main_v85)) (W12 m ρ c (Proc.devRef .tc main_v86))
        ((kept_main_v75_W12 m ρ c).trans hA) rfl rfl rfl rfl p q,
      W12_v78_apply, W12_v84_apply, W12_v85_apply, W12_v86_apply, s0, s1, hg, hb]

end Cert.KernelIdeal.Gen

end
-- ==== Proof.RegStats7.lean ====
/-
  THE VALUE of the third batch-statistics region, at the ideal values: its two `[1, 128]` result arrays are, column by
  column, the sum and the sum of squares of the `[100000, 128]` input array over all its rows,

      result₁ (0, q) = ∑ p : Fin 100000, A (p, q)        result₂ (0, q) = ∑ p : Fin 100000, A (p, q) * A (p, q),

  where `A` is what the input array holds when the region is entered. The grid has 20 points; point `t` reads rows
  `5000 t … 5000 t + 4999`, the first point resets both accumulators to zero, every point adds its block's column sums,
  and the accumulators are written back after the last point only. Over the extended reals addition is associative and
  commutative, so the ordered accumulation is the sum over all rows.
-/
import proofs.«420901_j2903397892205_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.RegVal

open Cert.KernelIdeal Cert.KernelIdeal.Gen Idealize.ShloMosaic.ValueIdx

/-! ## What one grid point leaves in the two accumulator blocks

At the first point the body stores the zero block in each accumulator and then adds to it; at every other point it adds
to what the point before left. Read back through the covering store, the first accumulator holds
`acc + (column sums of the 5000 × 128 input block)` and the second `acc + (column sums of its entrywise squares)`,
with `acc` the zero block at the first point. -/

section Pieces
variable {F : FTy → Type} [FloatOps F]

/-- The zero offset of a rank-2 block. -/
theorem stats7_hz : (![0, 0] : Fin 2 → Nat) = fun _ => 0 := funext fun a => by fin_cases a <;> rfl

/-- A later point, first accumulator: the carried block plus the block's column sums. -/
theorem stats7_out_B_1 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond7_0 i) (x : Vec F S5000x128 .f32) (xo1 xo2 : Vec F S1x128 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words
  rw [View.canon_unit_zero stats7_hz]
  simp only [View.readAt_eq_ld, h1.read_unread, h2.read_unread, View.ld_unit_zero (S := S5000x128) stats7_hz,
    View.ld_unit_zero (S := S1x128) stats7_hz]

/-- A later point, second accumulator: the carried block plus the column sums of the squares. -/
theorem stats7_out_B_2 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond7_0 i) (x : Vec F S5000x128 .f32) (xo1 xo2 : Vec F S1x128 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero stats7_hz]
  simp only [View.readAt_eq_ld, h1.read_unread, h3.read_unread, View.ld_unit_zero (S := S5000x128) stats7_hz,
    View.ld_unit_zero (S := S1x128) stats7_hz]

/-- The first point, first accumulator: the zero block plus the block's column sums. -/
theorem stats7_out_A_1 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond7_0 i) (x : Vec F S5000x128 .f32) :
    out7_A_1 c i a1 h1 a2 h2 a3 h3 hc x = k7_pay4 x (k7_pay1 (F := F)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x128) stats7_hz]
  simp only [View.readAt_eq_ld, h1.read_unread, View.ld_unit_zero (S := S5000x128) stats7_hz,
    View.readCov_unit_zero (S := S1x128) _ stats7_hz]

/-- The first point, second accumulator: the zero block plus the column sums of the squares. -/
theorem stats7_out_A_2 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond7_0 i) (x : Vec F S5000x128 .f32) :
    out7_A_2 c i a1 h1 a2 h2 a3 h3 hc x = k7_pay5 x (k7_pay2 (F := F)) := by
  unfold out7_A_2
  rw [View.read_writes_eq_canon _ _ _ (cover7_A_2 c i a1 h1 a2 h2 a3 h3 hc x)]
  unfold kernelRun7_A
  dsimp only
  sl_unfold_words
  rw [View.canon_cons_unit_zero (S := S1x128) stats7_hz]
  simp only [View.readAt_eq_ld, h1.read_unread, View.ld_unit_zero (S := S5000x128) stats7_hz,
    View.readCov_unit_zero (S := S1x128) _ stats7_hz]

end Pieces

/-! ## The two updates at an index, over the extended reals

At column `q` the reduction over the row axis is the sum over the 5000 rows; the cast between `[128]` and `[1, 128]`
keeps the column; the zero word is the extended real `0`. -/

section Payloads

/-- Inserting row `r` into the column index `q` gives the index `(r, q)` of the block. -/
theorem stats7_lift_rows (q : Fin 128) (r : Fin 5000) :
    Shape.Reduces.lift reduces_S5000x128_S128 (ix1 q) r = (ix2 r q : S5000x128.Idx) := by
  funext a; match a with | ⟨0, _⟩ => exact Fin.ext rfl | ⟨1, _⟩ => exact Fin.ext rfl

/-- The reset value of the first accumulator is `0`. -/
theorem stats7_pay1_apply (q : Fin 128) : (k7_pay1 (F := Ideal)) (ix2 0 q) = (0 : EReal) :=
  Ideal.ofBits_zero_f32

/-- The reset value of the second accumulator is `0`. -/
theorem stats7_pay2_apply (q : Fin 128) : (k7_pay2 (F := Ideal)) (ix2 0 q) = (0 : EReal) :=
  Ideal.ofBits_zero_f32

/-- The sum update at column `q`: `xo q + ∑ r, x (r, q)`. -/
theorem stats7_pay4_apply (x : S5000x128.Idx → EReal) (xo : S1x128.Idx → EReal) (q : Fin 128) :
    k7_pay4 (F := Ideal) x xo (ix2 0 q) = xo (ix2 0 q) + ∑ r : Fin 5000, x (ix2 r q) := by
  unfold k7_pay4 k7_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  refine (congrFun (shapeCast_self x _) _).trans ?_
  exact congrArg x (stats7_lift_rows q r)

/-- The sum-of-squares update at column `q`: `xo q + ∑ r, x (r, q) * x (r, q)`. -/
theorem stats7_pay5_apply (x : S5000x128.Idx → EReal) (xo : S1x128.Idx → EReal) (q : Fin 128) :
    k7_pay5 (F := Ideal) x xo (ix2 0 q) = xo (ix2 0 q) + ∑ r : Fin 5000, x (ix2 r q) * x (ix2 r q) := by
  unfold k7_pay5 k7_pay3
  refine congrArg₂ (· + ·) (congrFun (shapeCast_self xo _) (ix2 0 q)) ?_
  refine (shapeCast_a_1a_apply _ _ 0 q).trans ?_
  refine (Ideal.multiReduction_add_single _ _ _ _ _ (ix1 q)).trans ?_
  refine Finset.sum_congr rfl fun r _ => ?_
  have e : shapeCast S5000x128 x shapeCasts_S5000x128_S5000x128 (Shape.Reduces.lift reduces_S5000x128_S128 (ix1 q) r) = x (ix2 r q) :=
    (congrFun (shapeCast_self x _) _).trans (congrArg x (stats7_lift_rows q r))
  exact congrArg₂ (· * ·) e e

end Payloads

/-! ## The running sums, and the result arrays

Point `t` reads rows `5000 t … 5000 t + 4999` of the input array `A`. By induction on the point, after point `n` the
accumulators hold, at column `q`, `∑ p < 5000 (n + 1), A (p, q)` and `∑ p < 5000 (n + 1), A (p, q) * A (p, q)`. The
accumulators are written back once, after the last point (`n = 19`), and their one block is the whole `[1, 128]` result
array; `5000 * 20 = 100000` is every row. -/

section Value
variable (V : (c : Dev nD) → (b : Ref sig .tc) → Buf (Elt Ideal) ((c : Thread nD τ).loc b))

/-- The input block at point `t`, at its literal type. -/
abbrev stats7_xblk (c : Dev nD) (t : Fin cfg7.N) : S5000x128.Idx → EReal := iblk7 V c 0 t

/-- The input window's block index at point `t` is `(t, 0)`. -/
theorem stats7_idx : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Entry `(r, q)` of the block at point `t` is entry `(5000 t + r, q)` of the array. -/
theorem stats7_xblk_apply (c : Dev nD) (A : S100000x128.Idx → EReal) (hA : V c main_v104 = A) (t : Fin cfg7.N)
    (r : Fin 5000) (q : Fin 128) (hp : 5000 * t.val + r.val < 100000) :
    stats7_xblk V c t (ix2 r q) = A (ix2 ⟨5000 * t.val + r.val, hp⟩ q) := by
  subst hA
  obtain ⟨e0, e1⟩ := stats7_idx t
  show V c main_v104 (((cfg7.win 0).blk t).view.emb (ix2 r q)) = V c main_v104 (ix2 ⟨_, hp⟩ q)
  congr 1
  funext a; apply Fin.ext
  match a with
  | ⟨0, _⟩ => show win7_0.index t (0 : Fin 2) * 5000 + 1 * r.val = 5000 * t.val + r.val; omega
  | ⟨1, _⟩ => show win7_0.index t (1 : Fin 2) * 128 + 1 * q.val = q.val; omega

/-- Column q of the array as a function of the row number, G applied entrywise, zero past the last row. -/
def stats7_colG (G : EReal → EReal) (A : S100000x128.Idx → EReal) (q : Fin 128) (p : ℕ) : EReal :=
  if h : p < 100000 then G (A (ix2 ⟨p, h⟩ q)) else 0

/-- The block's column sum of `G` of its entries is the sum of the column over rows `5000 t ≤ p < 5000 t + 5000`. -/
theorem stats7_blk_sum (G : EReal → EReal) (c : Dev nD) (A : S100000x128.Idx → EReal) (hA : V c main_v104 = A)
    (t : Fin cfg7.N) (q : Fin 128) :
    ∑ r : Fin 5000, G (stats7_xblk V c t (ix2 r q)) = ∑ x ∈ Finset.range 5000, stats7_colG G A q (t.val * 5000 + x) := by
  have hN : t.val < 20 := lt_of_lt_of_eq t.isLt N_7
  rw [← Fin.sum_univ_eq_sum_range (fun x => stats7_colG G A q (t.val * 5000 + x)) 5000]
  refine Finset.sum_congr rfl fun r _ => ?_
  have hr : r.val < 5000 := r.isLt
  have hp : 5000 * t.val + r.val < 100000 := by omega
  rw [stats7_xblk_apply V c A hA t r q hp]
  have e : t.val * 5000 + r.val = 5000 * t.val + r.val := by omega
  show _ = stats7_colG G A q (t.val * 5000 + r.val)
  rw [e]
  exact (show stats7_colG G A q (5000 * t.val + r.val) = G (A (ix2 ⟨5000 * t.val + r.val, hp⟩ q)) from dif_pos hp).symm

/-- THE INVARIANT: after point `n` the accumulators hold the column's sum, and its sum of squares, over the first
    `5000 (n + 1)` rows. -/
theorem stats7_inv (c : Dev nD) (A : S100000x128.Idx → EReal) (hA : V c main_v104 = A) (q : Fin 128) :
    ∀ (n : ℕ) (h : n < cfg7.N),
      (outsAt7 V c n h).1 (ix2 0 q) = ∑ p ∈ Finset.range ((n + 1) * 5000), stats7_colG id A q p
      ∧ (outsAt7 V c n h).2 (ix2 0 q) = ∑ p ∈ Finset.range ((n + 1) * 5000), stats7_colG (fun x => x * x) A q p
  | 0, h => by
    constructor
    · rw [outsAt7_A V c ⟨0, h⟩ rfl]; dsimp only
      refine (congrFun (stats7_out_A_1 (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) ((hcond7_0 ⟨0, h⟩).mpr rfl) (stats7_xblk V c ⟨0, h⟩)) (ix2 0 q)).trans ?_
      refine (stats7_pay4_apply (stats7_xblk V c ⟨0, h⟩) (k7_pay1 (F := Ideal)) q).trans ?_
      rw [stats7_pay1_apply, zero_add]
      refine (stats7_blk_sum V id c A hA ⟨0, h⟩ q).trans ?_
      simp only [Nat.zero_mul, Nat.zero_add, Nat.one_mul]
    · rw [outsAt7_A V c ⟨0, h⟩ rfl]; dsimp only
      refine (congrFun (stats7_out_A_2 (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) ((hcond7_0 ⟨0, h⟩).mpr rfl) (stats7_xblk V c ⟨0, h⟩)) (ix2 0 q)).trans ?_
      refine (stats7_pay5_apply (stats7_xblk V c ⟨0, h⟩) (k7_pay2 (F := Ideal)) q).trans ?_
      rw [stats7_pay2_apply, zero_add]
      refine (stats7_blk_sum V (fun x => x * x) c A hA ⟨0, h⟩ q).trans ?_
      simp only [Nat.zero_mul, Nat.zero_add, Nat.one_mul]
  | n + 1, h => by
    have hN : cfg7.N = 20 := N_7
    have hB : ¬(⟨n + 1, h⟩ : Fin cfg7.N).val % 20 = 0 := by dsimp only; omega
    obtain ⟨ih1, ih2⟩ := stats7_inv c A hA q n (Nat.lt_of_succ_lt h)
    have hsplit : (n + 1 + 1) * 5000 = (n + 1) * 5000 + 5000 := by omega
    constructor
    · rw [outsAt7_B V c ⟨n + 1, h⟩ hB]; dsimp only
      refine (congrFun (stats7_out_B_1 (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (fun hh => hB ((hcond7_0 ⟨n + 1, h⟩).mp hh)) (stats7_xblk V c ⟨n + 1, h⟩) (outsAt7 V c n (Nat.lt_of_succ_lt h)).1 (outsAt7 V c n (Nat.lt_of_succ_lt h)).2) (ix2 0 q)).trans ?_
      refine (stats7_pay4_apply (stats7_xblk V c ⟨n + 1, h⟩) (outsAt7 V c n (Nat.lt_of_succ_lt h)).1 q).trans ?_
      rw [ih1, hsplit, Finset.sum_range_add]
      exact congrArg₂ (· + ·) rfl (stats7_blk_sum V id c A hA ⟨n + 1, h⟩ q)
    · rw [outsAt7_B V c ⟨n + 1, h⟩ hB]; dsimp only
      refine (congrFun (stats7_out_B_2 (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (fun hh => hB ((hcond7_0 ⟨n + 1, h⟩).mp hh)) (stats7_xblk V c ⟨n + 1, h⟩) (outsAt7 V c n (Nat.lt_of_succ_lt h)).1 (outsAt7 V c n (Nat.lt_of_succ_lt h)).2) (ix2 0 q)).trans ?_
      refine (stats7_pay5_apply (stats7_xblk V c ⟨n + 1, h⟩) (outsAt7 V c n (Nat.lt_of_succ_lt h)).2 q).trans ?_
      rw [ih2, hsplit, Finset.sum_range_add]
      exact congrArg₂ (· + ·) rfl (stats7_blk_sum V (fun x => x * x) c A hA ⟨n + 1, h⟩ q)

/-- The last grid point. -/
abbrev stats7_tlast : Fin cfg7.N := ⟨19, by rw [show cfg7.N = 20 from N_7]; decide⟩

/-- What the two accumulators hold after the last point, as contents of the result arrays. -/
abbrev stats7_res_1 (c : Dev nD) : Buf (Elt Ideal) ((c : Thread nD τ).loc main_v105_0) := (outsAt7 V c 19 stats7_tlast.isLt).1
abbrev stats7_res_2 (c : Dev nD) : Buf (Elt Ideal) ((c : Thread nD τ).loc main_v105_1) := (outsAt7 V c 19 stats7_tlast.isLt).2

/-- The one write-back of the first accumulator, at the last point, writes the whole result array. -/
theorem stats7_flushed_1 (c : Dev nD) (t : Fin cfg7.N) (hf : (cfg7.win 1).flush t = true) :
    (dat7 V c).flushed 1 t = ((cfg7.win 1).blk t).view.read (Elt Ideal) (stats7_res_1 V c) := by
  have hN : cfg7.N = 20 := N_7
  have h19 : t.val = 19 := by have := (flush7_1 t).mp hf; have := t.isLt; omega
  obtain rfl : t = stats7_tlast := Fin.ext h19
  show (cfg7.win 1).cut (grid7.coords stats7_tlast) ((dat7 V c).after 1 stats7_tlast) = _
  rw [after7_1]
  have hz' : (fun a => win7_1.index stats7_tlast a * main_v105_0.ty.shape.size a) = fun _ => 0 := funext fun a => by fin_cases a <;> decide
  exact (Memref.read_access_unit_zero (Elt Ideal) main_v105_0 hz' (fun a => by rw [congrFun hz' a]; simp) (stats7_res_1 V c)).symm

/-- The one write-back of the second accumulator, at the last point, writes the whole result array. -/
theorem stats7_flushed_2 (c : Dev nD) (t : Fin cfg7.N) (hf : (cfg7.win 2).flush t = true) :
    (dat7 V c).flushed 2 t = ((cfg7.win 2).blk t).view.read (Elt Ideal) (stats7_res_2 V c) := by
  have hN : cfg7.N = 20 := N_7
  have h19 : t.val = 19 := by have := (flush7_2 t).mp hf; have := t.isLt; omega
  obtain rfl : t = stats7_tlast := Fin.ext h19
  show (cfg7.win 2).cut (grid7.coords stats7_tlast) ((dat7 V c).after 2 stats7_tlast) = _
  rw [after7_2]
  have hz' : (fun a => win7_2.index stats7_tlast a * main_v105_1.ty.shape.size a) = fun _ => 0 := funext fun a => by fin_cases a <;> decide
  exact (Memref.read_access_unit_zero (Elt Ideal) main_v105_1 hz' (fun a => by rw [congrFun hz' a]; simp) (stats7_res_2 V c)).symm

/-- The first result array ends holding the first accumulator after the last point. -/
theorem stats7_final_1 (c : Dev nD) : (dat7 V c).arrAt 1 cfg7.N = stats7_res_1 V c :=
  (dat7 V c).arrAt_eq_of_cover 1 (stats7_res_1 V c) (stats7_flushed_1 V c) fun i =>
    ⟨stats7_tlast, (flush7_1 stats7_tlast).mpr rfl, by
      show i ∈ ((View.whole main_v105_0).slice (win7_1.rect stats7_tlast)).set
      rw [View.set_slice_whole, Rect.mem_set_unit]
      intro a
      have h0 : (i 0 : Nat) < 1 := (i 0).isLt
      have h1 : (i 1 : Nat) < 128 := (i 1).isLt
      match a with
      | ⟨0, _⟩ => show win7_1.index stats7_tlast 0 * win7_1.size 0 ≤ (i 0 : Nat) ∧ (i 0 : Nat) < win7_1.index stats7_tlast 0 * win7_1.size 0 + win7_1.xsize (grid7.coords stats7_tlast) 0
                  rw [show win7_1.index stats7_tlast 0 * win7_1.size 0 = 0 from by decide +kernel, show win7_1.xsize (grid7.coords stats7_tlast) 0 = 1 from by decide +kernel]; omega
      | ⟨1, _⟩ => show win7_1.index stats7_tlast 1 * win7_1.size 1 ≤ (i 1 : Nat) ∧ (i 1 : Nat) < win7_1.index stats7_tlast 1 * win7_1.size 1 + win7_1.xsize (grid7.coords stats7_tlast) 1
                  rw [show win7_1.index stats7_tlast 1 * win7_1.size 1 = 0 from by decide +kernel, show win7_1.xsize (grid7.coords stats7_tlast) 1 = 128 from by decide +kernel]; omega⟩

/-- The second result array ends holding the second accumulator after the last point. -/
theorem stats7_final_2 (c : Dev nD) : (dat7 V c).arrAt 2 cfg7.N = stats7_res_2 V c :=
  (dat7 V c).arrAt_eq_of_cover 2 (stats7_res_2 V c) (stats7_flushed_2 V c) fun i =>
    ⟨stats7_tlast, (flush7_2 stats7_tlast).mpr rfl, by
      show i ∈ ((View.whole main_v105_1).slice (win7_2.rect stats7_tlast)).set
      rw [View.set_slice_whole, Rect.mem_set_unit]
      intro a
      have h0 : (i 0 : Nat) < 1 := (i 0).isLt
      have h1 : (i 1 : Nat) < 128 := (i 1).isLt
      match a with
      | ⟨0, _⟩ => show win7_2.index stats7_tlast 0 * win7_2.size 0 ≤ (i 0 : Nat) ∧ (i 0 : Nat) < win7_2.index stats7_tlast 0 * win7_2.size 0 + win7_2.xsize (grid7.coords stats7_tlast) 0
                  rw [show win7_2.index stats7_tlast 0 * win7_2.size 0 = 0 from by decide +kernel, show win7_2.xsize (grid7.coords stats7_tlast) 0 = 1 from by decide +kernel]; omega
      | ⟨1, _⟩ => show win7_2.index stats7_tlast 1 * win7_2.size 1 ≤ (i 1 : Nat) ∧ (i 1 : Nat) < win7_2.index stats7_tlast 1 * win7_2.size 1 + win7_2.xsize (grid7.coords stats7_tlast) 1
                  rw [show win7_2.index stats7_tlast 1 * win7_2.size 1 = 0 from by decide +kernel, show win7_2.xsize (grid7.coords stats7_tlast) 1 = 128 from by decide +kernel]; omega⟩

/-- Over all `100000` rows the zero-extended column sums to the sum over the array's rows. -/
theorem stats7_colG_total (G : EReal → EReal) (A : S100000x128.Idx → EReal) (q : Fin 128) :
    ∑ p ∈ Finset.range 100000, stats7_colG G A q p = ∑ p : Fin 100000, G (A (ix2 p q)) := by
  rw [← Fin.sum_univ_eq_sum_range (fun p => stats7_colG G A q p) 100000]
  exact Finset.sum_congr rfl fun p _ => (show stats7_colG G A q p.val = G (A (ix2 ⟨p.val, p.isLt⟩ q)) from dif_pos p.isLt)

/-- The first result array of the statistics region: the column sums of its input array. -/
theorem stats7_sum_of (c : Dev nD) (A : S100000x128.Idx → EReal) (hA : V c main_v104 = A) (q : Fin 128) :
    (dat7 V c).arrAt 1 cfg7.N (ix2 0 q) = ∑ p : Fin 100000, A (ix2 p q) := by
  rw [stats7_final_1 V c]
  refine ((stats7_inv V c A hA q 19 stats7_tlast.isLt).1).trans ?_
  exact stats7_colG_total id A q

/-- The second result array: the column sums of the squares. -/
theorem stats7_sumsq_of (c : Dev nD) (A : S100000x128.Idx → EReal) (hA : V c main_v104 = A) (q : Fin 128) :
    (dat7 V c).arrAt 2 cfg7.N (ix2 0 q) = ∑ p : Fin 100000, A (ix2 p q) * A (ix2 p q) := by
  rw [stats7_final_2 V c]
  refine ((stats7_inv V c A hA q 19 stats7_tlast.isLt).2).trans ?_
  exact stats7_colG_total (fun x => x * x) A q

end Value

end Cert.KernelIdeal.RegVal

end
-- ==== Proof.RegBn8.lean ====
/- Region 8 of the program is a batch normalisation followed by a clamp at zero. Its result array of
   100000 rows and 128 lanes holds, at row p and lane q,
     max (g q * (a p q - mean q) * rsqrt (var q + eps) + beta q) 0,
   where a is the region's [100000,128] operand and mean, var, g, beta are its four [1,128] rows.
   The rows are cut into 20 blocks of 5000; grid point t computes block t from block t of a and from
   the four whole rows, so every block is the restriction of one function of the whole arrays, and the
   blocks tile the result. -/
import proofs.«420901_j2903397892205_1_alg».proof.Proof.Gen.KernelIdeal.Frame
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The offsets of an access to a whole buffer are zero on both axes. -/
theorem hz_r8 : (![0, 0] : Fin 2 → Nat) = fun _ => 0 := funext fun a => by fin_cases a <;> rfl

/-- A [1,128] row broadcast to [5000,128] reads, at row r and lane q, the row's lane q. -/
theorem bcRow_r8 (x : FVec Ideal S1x128 .f32) (r : Fin 5000) (q : Fin 128) :
    broadcastTo S5000x128 x broadcasts_S1x128_S5000x128 (ix2 r q) = x (ix2 0 q) := by
  refine broadcastTo_apply x _ (ix2 r q) (ix2 0 q) fun a => ?_
  match a with
  | ⟨0, _⟩ => rfl
  | ⟨1, _⟩ => rfl

/-- The body's stored value at row r and lane q of a block: the entry minus the mean, scaled by g and by
    the reciprocal square root of var + eps, shifted by beta, clamped below at zero. The casts to the same
    shape are identities and every broadcast row is read at lane q. -/
theorem pay_r8 (x0 : Vec Ideal S5000x128 .f32) (x1 x2 x3 x4 : Vec Ideal S1x128 .f32) (r : Fin 5000) (q : Fin 128) :
    (k8_pay1 x0 x1 x2 x3 x4 : S5000x128.Idx → EReal) (ix2 r q)
      = max (x3 (ix2 0 q) * (x0 (ix2 r q) - x1 (ix2 0 q))
              * Ideal.rsqrt (x2 (ix2 0 q) + Ideal.ofBits .f32 0x3727C5AC#32)
              + x4 (ix2 0 q)) (Ideal.ofBits .f32 0x00000000#32) := by
  unfold k8_pay1
  simp only [shapeCast_self]
  rw [maximumf_apply, addf_apply, mulf_apply, mulf_apply, subf_apply, bcRow_r8, bcRow_r8, bcRow_r8, bcRow_r8]
  rfl

/-- The result at row p and lane q, from the operand A and the rows M (mean), Vr (variance), G (scale), B (shift). -/
def bnRelu_r8 (A : S100000x128.Idx → EReal) (M Vr G B : S1x128.Idx → EReal) (p : Fin 100000) (q : Fin 128) : EReal :=
  max (G (ix2 0 q) * (A (ix2 p q) - M (ix2 0 q))
        * Ideal.rsqrt (Vr (ix2 0 q) + Ideal.ofBits .f32 0x3727C5AC#32)
        + B (ix2 0 q)) (Ideal.ofBits .f32 0x00000000#32)

/-- The whole result array as one function of the five arrays, index by index. -/
def bnArr_r8 (A : S100000x128.Idx → EReal) (M Vr G B : S1x128.Idx → EReal) : S100000x128.Idx → EReal :=
  fun i => bnRelu_r8 A M Vr G B ⟨(i 0).val, idx2_lt0 i⟩ ⟨(i 1).val, idx2_lt1 i⟩

/-- The block indices over the 20 grid points: the operand's and the result's windows sit at block (t, 0),
    the four rows' windows at block (0, 0). -/
theorem idx_facts_r8 : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The operand's block at point t is rows 5000 t to 5000 t + 4999 of the operand. -/
theorem iblk0_r8 (c : Dev nD) (A : S100000x128.Idx → EReal) (hA : V c main_v104 = A) (t : Fin cfg8.N)
    (x : S5000x128.Idx) (k : S100000x128.Idx)
    (hk0 : (k 0).val = 5000 * t.val + (x 0).val) (hk1 : (k 1).val = (x 1).val) :
    (iblk8 V c 0 t : Vec Ideal S5000x128 .f32) x = A k := by
  obtain ⟨e0, e1, -⟩ := idx_facts_r8 t
  unfold iblk8
  rw [View.read_apply]
  show V c main_v104 _ = A k
  rw [hA]
  congr 1
  funext a
  apply Fin.ext
  match a with
  | ⟨0, _⟩ => show win8_0.index t (0 : Fin 2) * 5000 + 1 * (x 0).val = (k 0).val; omega
  | ⟨1, _⟩ => show win8_0.index t (1 : Fin 2) * 128 + 1 * (x 1).val = (k 1).val; omega

/-- The mean's block at every point is the whole row. -/
theorem iblk1_r8 (c : Dev nD) (R : S1x128.Idx → EReal) (hR : V c main_v107 = R) (t : Fin cfg8.N) (x : S1x128.Idx) :
    (iblk8 V c 1 t : Vec Ideal S1x128 .f32) x = R x := by
  obtain ⟨-, -, -, -, e0, e1, -⟩ := idx_facts_r8 t
  unfold iblk8
  rw [View.read_apply]
  show V c main_v107 _ = R x
  rw [hR]
  congr 1
  funext a
  apply Fin.ext
  match a with
  | ⟨0, _⟩ => show win8_1.index t (0 : Fin 2) * 1 + 1 * (x 0).val = (x 0).val; omega
  | ⟨1, _⟩ => show win8_1.index t (1 : Fin 2) * 128 + 1 * (x 1).val = (x 1).val; omega

/-- The variance's block at every point is the whole row. -/
theorem iblk2_r8 (c : Dev nD) (R : S1x128.Idx → EReal) (hR : V c main_v113 = R) (t : Fin cfg8.N) (x : S1x128.Idx) :
    (iblk8 V c 2 t : Vec Ideal S1x128 .f32) x = R x := by
  obtain ⟨-, -, -, -, -, -, e0, e1, -⟩ := idx_facts_r8 t
  unfold iblk8
  rw [View.read_apply]
  show V c main_v113 _ = R x
  rw [hR]
  congr 1
  funext a
  apply Fin.ext
  match a with
  | ⟨0, _⟩ => show win8_2.index t (0 : Fin 2) * 1 + 1 * (x 0).val = (x 0).val; omega
  | ⟨1, _⟩ => show win8_2.index t (1 : Fin 2) * 128 + 1 * (x 1).val = (x 1).val; omega

/-- The scale's block at every point is the whole row. -/
theorem iblk3_r8 (c : Dev nD) (R : S1x128.Idx → EReal) (hR : V c main_v114 = R) (t : Fin cfg8.N) (x : S1x128.Idx) :
    (iblk8 V c 3 t : Vec Ideal S1x128 .f32) x = R x := by
  obtain ⟨-, -, -, -, -, -, -, -, e0, e1, -⟩ := idx_facts_r8 t
  unfold iblk8
  rw [View.read_apply]
  show V c main_v114 _ = R x
  rw [hR]
  congr 1
  funext a
  apply Fin.ext
  match a with
  | ⟨0, _⟩ => show win8_3.index t (0 : Fin 2) * 1 + 1 * (x 0).val = (x 0).val; omega
  | ⟨1, _⟩ => show win8_3.index t (1 : Fin 2) * 128 + 1 * (x 1).val = (x 1).val; omega

/-- The shift's block at every point is the whole row. -/
theorem iblk4_r8 (c : Dev nD) (R : S1x128.Idx → EReal) (hR : V c main_v115 = R) (t : Fin cfg8.N) (x : S1x128.Idx) :
    (iblk8 V c 4 t : Vec Ideal S1x128 .f32) x = R x := by
  obtain ⟨-, -, -, -, -, -, -, -, -, -, e0, e1⟩ := idx_facts_r8 t
  unfold iblk8
  rw [View.read_apply]
  show V c main_v115 _ = R x
  rw [hR]
  congr 1
  funext a
  apply Fin.ext
  match a with
  | ⟨0, _⟩ => show win8_4.index t (0 : Fin 2) * 1 + 1 * (x 0).val = (x 0).val; omega
  | ⟨1, _⟩ => show win8_4.index t (1 : Fin 2) * 128 + 1 * (x 1).val = (x 1).val; omega

/-- Row r and lane q of point t's result block sit at row 5000 t + r and lane q of the result array. -/
theorem emb_out_r8 (t : Fin cfg8.N) (r : Fin 5000) (q : Fin 128) (p : Fin 100000) (hp : p.val = 5000 * t.val + r.val) :
    ((cfg8.win 5).blk t).view.emb (ix2 r q) = (ix2 p q : S100000x128.Idx) := by
  obtain ⟨-, -, e0, e1, -⟩ := idx_facts_r8 t
  funext a
  apply Fin.ext
  match a with
  | ⟨0, _⟩ => show win8_5.index t (0 : Fin 2) * 5000 + 1 * r.val = p.val; omega
  | ⟨1, _⟩ => show win8_5.index t (1 : Fin 2) * 128 + 1 * q.val = q.val; omega

/-- What point t writes back is block t of the whole result array: the one store covers the block, its
    value at row r and lane q is the closed form over the input blocks, and each input block is its array
    read at row 5000 t + r (the operand) or at the row's lane (the four rows). -/
theorem flushed_r8 (c : Dev nD) (A : S100000x128.Idx → EReal) (M Vr G B : S1x128.Idx → EReal)
    (hA : V c main_v104 = A) (hM : V c main_v107 = M) (hV : V c main_v113 = Vr) (hG : V c main_v114 = G) (hB : V c main_v115 = B)
    (t : Fin cfg8.N) :
    (dat8 V c).flushed 5 t = ((cfg8.win 5).blk t).view.read (Elt Ideal) (bnArr_r8 A M Vr G B) := by
  show (cfg8.win 5).cut (grid8.coords t) ((dat8 V c).after 5 t) = _
  rw [after8_5]
  unfold out8_5
  rw [View.canon_unit_zero hz_r8]
  simp only [View.ld_unit_zero (S := S5000x128) hz_r8, View.ld_unit_zero (S := S1x128) hz_r8]
  funext j
  obtain ⟨r, q, rfl⟩ : ∃ (r : Fin 5000) (q : Fin 128), j = ix2 r q := ⟨j 0, j 1, eq_ix2 j⟩
  have hN : cfg8.N = 20 := N_8
  have ht : t.val < 20 := hN ▸ t.isLt
  have hr : r.val < 5000 := r.isLt
  rw [View.read_apply, emb_out_r8 t r q ⟨5000 * t.val + r.val, by omega⟩ rfl]
  show k8_pay1 (iblk8 V c 0 t) (iblk8 V c 1 t) (iblk8 V c 2 t) (iblk8 V c 3 t) (iblk8 V c 4 t) (ix2 r q)
      = bnRelu_r8 A M Vr G B ⟨5000 * t.val + r.val, by omega⟩ q
  refine (pay_r8 (iblk8 V c 0 t) (iblk8 V c 1 t) (iblk8 V c 2 t) (iblk8 V c 3 t) (iblk8 V c 4 t) r q).trans ?_
  unfold bnRelu_r8
  rw [iblk0_r8 V c A hA t (ix2 r q) (ix2 ⟨5000 * t.val + r.val, by omega⟩ q) rfl rfl,
    iblk1_r8 V c M hM t (ix2 0 q), iblk2_r8 V c Vr hV t (ix2 0 q),
    iblk3_r8 V c G hG t (ix2 0 q), iblk4_r8 V c B hB t (ix2 0 q)]

/-- An index of the result array is in point t's block iff each coordinate is in the block's range on its axis. -/
theorem mem_blk_r8 (t : Fin cfg8.N) (i : S100000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v116).slice (win8_5.rect t)).set ↔ _
  rw [View.set_slice_whole, Rect.mem_set_unit]
  exact Iff.rfl

/-- The blocks tile the result array: row p is in the block of point p / 5000, and every point writes back. -/
theorem cover_r8 (i : S100000x128.Idx) :
    ∃ t : Fin cfg8.N, (cfg8.win 5).flush t = true ∧ i ∈ ((cfg8.win 5).blk t).view.set := by
  have hi0 : (i 0).val < 100000 := idx2_lt0 i
  have hi1 : (i 1).val < 128 := idx2_lt1 i
  have hN : cfg8.N = 20 := N_8
  obtain ⟨t, ht⟩ : ∃ t : Fin cfg8.N, t.val = (i 0).val / 5000 := ⟨⟨(i 0).val / 5000, by rw [hN]; omega⟩, rfl⟩
  obtain ⟨-, -, e0, e1, -⟩ := idx_facts_r8 t
  refine ⟨t, flush8_5 t, ?_⟩
  rw [mem_blk_r8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

/-- The result array after the region is the whole function: every block written back is its restriction
    and the blocks cover the array. -/
theorem bn8_arr (c : Dev nD) (A : S100000x128.Idx → EReal) (M Vr G B : S1x128.Idx → EReal)
    (hA : V c main_v104 = A) (hM : V c main_v107 = M) (hV : V c main_v113 = Vr) (hG : V c main_v114 = G) (hB : V c main_v115 = B) :
    (dat8 V c).arrAt 5 cfg8.N = bnArr_r8 A M Vr G B :=
  (dat8 V c).arrAt_eq_of_cover 5 (bnArr_r8 A M Vr G B) (fun t _ => flushed_r8 V c A M Vr G B hA hM hV hG hB t) cover_r8

/-- The result at row p and lane q. -/
theorem bn8_apply_of (c : Dev nD) (A : S100000x128.Idx → EReal) (M Vr G B : S1x128.Idx → EReal)
    (hA : V c main_v104 = A) (hM : V c main_v107 = M) (hV : V c main_v113 = Vr) (hG : V c main_v114 = G) (hB : V c main_v115 = B)
    (p : Fin 100000) (q : Fin 128) :
    (dat8 V c).arrAt 5 cfg8.N (ix2 p q)
      = max (G (ix2 0 q) * (A (ix2 p q) - M (ix2 0 q))
              * Ideal.rsqrt (Vr (ix2 0 q) + Ideal.ofBits .f32 0x3727C5AC#32)
              + B (ix2 0 q)) (Ideal.ofBits .f32 0x00000000#32) := by
  rw [bn8_arr V c A M Vr G B hA hM hV hG hB]
  rfl

end Cert.KernelIdeal.RegVal

end
-- ==== Proof.KBn7.lean ====
/- Layer 3's batch normalisation on the kernel side: the statistics region's column sums, the host stretch that turns
   them into the mean and the variance `max (E[a²] − E[a]², 0)` and broadcasts the scale and the shift, and the
   normalisation region, composed into one closed form of the region's result in the aggregate at the statistics
   region's entry and the two arguments. -/
import proofs.«420901_j2903397892205_1_alg».proof.Proof.KBnLib
import proofs.«420901_j2903397892205_1_alg».proof.Proof.Kept
import proofs.«420901_j2903397892205_1_alg».proof.Proof.RegStats7
import proofs.«420901_j2903397892205_1_alg».proof.Proof.RegBn8

set_option maxRecDepth 16384

noncomputable section

namespace Cert.KernelIdeal.Gen

open Cert.KernelIdeal Cert.KernelIdeal.Gen Idealize.ShloMosaic Idealize.ShloMosaic.TcCoe Idealize.ShloMosaic.ValueIdx
open Idealize.ShloMosaic.StableHlo Idealize.SL.Sem Cert.KernelIdeal.RegVal

variable (m : (ℓ : Loc nD τ sig) → Buf (Elt Ideal) ℓ) (ρ : Dev nD → PrngReg)

/-! ### Layer 3: the host stretch between the statistics region and the normalisation region -/

/-- The mean row: the column sums divided by the row count. -/
theorem W17_v107_apply (c : Dev nD) (q : Fin 128) :
    (W17 m ρ c (Proc.devRef .tc main_v107) : Row) (ix2 0 q)
      = Ideal.div ((W16 m ρ c (Proc.devRef .tc main_v105_0) : Row) (ix2 0 q)) (Ideal.ofBits .f32 0x47C35000#32) := by
  have h : (W17 m ρ c (Proc.devRef .tc main_v107) : Row)
      = Host.divf (F := Ideal) (W16 m ρ c (Proc.devRef .tc main_v105_0) : Row)
          (broadcastInDim S1x128 ![] bcast_S_S1x128 (constant S_ .f32 0x47C35000#32)) := by
    show StableHlo.after hostOps8 (W16 m ρ c) (Proc.devRef .tc main_v107) = _
    simp only [hostOps8]
    after_results_simp
  rw [h]
  show Ideal.div _ _ = _
  rw [bcast_const_row]

/-- The variance row: the mean of the squares minus the squared mean, clamped at zero. -/
theorem W17_v113_apply (c : Dev nD) (q : Fin 128) :
    (W17 m ρ c (Proc.devRef .tc main_v113) : Row) (ix2 0 q)
      = max (Ideal.div ((W16 m ρ c (Proc.devRef .tc main_v105_1) : Row) (ix2 0 q)) (Ideal.ofBits .f32 0x47C35000#32)
              - Ideal.div ((W16 m ρ c (Proc.devRef .tc main_v105_0) : Row) (ix2 0 q)) (Ideal.ofBits .f32 0x47C35000#32)
                * Ideal.div ((W16 m ρ c (Proc.devRef .tc main_v105_0) : Row) (ix2 0 q)) (Ideal.ofBits .f32 0x47C35000#32))
            (Ideal.ofBits .f32 0x00000000#32) := by
  have h : (W17 m ρ c (Proc.devRef .tc main_v113) : Row)
      = maximumf (F := Ideal)
          (subf (Host.divf (W16 m ρ c (Proc.devRef .tc main_v105_1) : Row)
                  (broadcastInDim S1x128 ![] bcast_S_S1x128 (constant S_ .f32 0x47C35000#32)))
            (mulf (Host.divf (W16 m ρ c (Proc.devRef .tc main_v105_0) : Row)
                    (broadcastInDim S1x128 ![] bcast_S_S1x128 (constant S_ .f32 0x47C35000#32)))
                  (Host.divf (W16 m ρ c (Proc.devRef .tc main_v105_0) : Row)
                    (broadcastInDim S1x128 ![] bcast_S_S1x128 (constant S_ .f32 0x47C35000#32)))))
          (broadcastInDim S1x128 ![] bcast_S_S1x128 (constant S_ .f32 0x00000000#32)) := by
    show StableHlo.after hostOps8 (W16 m ρ c) (Proc.devRef .tc main_v113) = _
    simp only [hostOps8]
    after_results_simp
  rw [h]
  show max (Ideal.div _ _ - Ideal.div _ _ * Ideal.div _ _) _ = _
  rw [bcast_const_row, bcast_const_row]

/-- The scale row is the scale argument, lane by lane. -/
theorem W17_v114_apply (c : Dev nD) (q : Fin 128) :
    (W17 m ρ c (Proc.devRef .tc main_v114) : Row) (ix2 0 q) = (W16 m ρ c (Proc.devRef .tc main_arg13) : Lane) (ix1 q) := by
  have h : (W17 m ρ c (Proc.devRef .tc main_v114) : Row)
      = broadcastInDim S1x128 ![1] bcast_S128_S1x128_1 (W16 m ρ c (Proc.devRef .tc main_arg13) : Lane) := by
    show StableHlo.after hostOps8 (W16 m ρ c) (Proc.devRef .tc main_v114) = _
    simp only [hostOps8]
    after_results_simp
  rw [h, bcast_lane_row]

/-- The shift row is the shift argument, lane by lane. -/
theorem W17_v115_apply (c : Dev nD) (q : Fin 128) :
    (W17 m ρ c (Proc.devRef .tc main_v115) : Row) (ix2 0 q) = (W16 m ρ c (Proc.devRef .tc main_arg14) : Lane) (ix1 q) := by
  have h : (W17 m ρ c (Proc.devRef .tc main_v115) : Row)
      = broadcastInDim S1x128 ![1] bcast_S128_S1x128_1 (W16 m ρ c (Proc.devRef .tc main_arg14) : Lane) := by
    show StableHlo.after hostOps8 (W16 m ρ c) (Proc.devRef .tc main_v115) = _
    simp only [hostOps8]
    after_results_simp
  rw [h, bcast_lane_row]

/-- Layer 3's normalised, rectified activations at the normalisation region's exit, from the aggregate `A` at the
    statistics region's entry and the scale and shift arguments: batch normalisation over the rows with the variance
    `max (E[a²] − E[a]², 0)`, then `max · 0`. -/
theorem kbn3 (c : Dev nD) (A : S100000x128.Idx → EReal) (hA : W15 m ρ c (Proc.devRef .tc main_v104) = A) (G B : S128.Idx → EReal)
    (hG : m ((c : Thread nD τ).loc main_arg13) = G) (hB : m ((c : Thread nD τ).loc main_arg14) = B) (p : Fin 100000) (q : Fin 128) :
    W18 m ρ c (Proc.devRef .tc main_v116) (ix2 p q)
      = max (G (ix1 q) * (A (ix2 p q) - Ideal.div (∑ p', A (ix2 p' q)) (Ideal.ofBits .f32 0x47C35000#32))
              * Ideal.rsqrt (max (Ideal.div (∑ p', A (ix2 p' q) * A (ix2 p' q)) (Ideal.ofBits .f32 0x47C35000#32)
                                  - Ideal.div (∑ p', A (ix2 p' q)) (Ideal.ofBits .f32 0x47C35000#32)
                                    * Ideal.div (∑ p', A (ix2 p' q)) (Ideal.ofBits .f32 0x47C35000#32))
                                 (Ideal.ofBits .f32 0x00000000#32)
                             + Ideal.ofBits .f32 0x3727C5AC#32)
              + B (ix1 q)) (Ideal.ofBits .f32 0x00000000#32) := by
  have s0 : (W16 m ρ c (Proc.devRef .tc main_v105_0) : Row) (ix2 0 q) = ∑ p', A (ix2 p' q) :=
    (congrFun (W16_arr m ρ c 1) (ix2 0 q)).trans (stats7_sum_of (V15 m ρ) c A hA q)
  have s1 : (W16 m ρ c (Proc.devRef .tc main_v105_1) : Row) (ix2 0 q) = ∑ p', A (ix2 p' q) * A (ix2 p' q) :=
    (congrFun (W16_arr m ρ c 2) (ix2 0 q)).trans (stats7_sumsq_of (V15 m ρ) c A hA q)
  have hg : (W16 m ρ c (Proc.devRef .tc main_arg13) : Lane) = G := (kept_main_arg13_W16 m ρ c).trans hG
  have hb : (W16 m ρ c (Proc.devRef .tc main_arg14) : Lane) = B := (kept_main_arg14_W16 m ρ c).trans hB
  refine (congrFun (W18_arr m ρ c 5) (ix2 p q)).trans ?_
  rw [bn8_apply_of (V17 m ρ) c A (W17 m ρ c (Proc.devRef .tc main_v107)) (W17 m ρ c (Proc.devRef .tc main_v113))
        (W17 m ρ c (Proc.devRef .tc main_v114)) (W17 m ρ c (Proc.devRef .tc main_v115))
        ((kept_main_v104_W17 m ρ c).trans hA) rfl rfl rfl rfl p q,
      W17_v107_apply, W17_v113_apply, W17_v114_apply, W17_v115_apply, s0, s1, hg, hb]

end Cert.KernelIdeal.Gen

end
-- ==== Proof.RegPool9.lean ====
/-
  The pooling region (region 9) read as values, at the ideal instance, for any entry contents `V`.

  The region walks the 100000 rows in 20 blocks of 5000. At each block it forms the one-hot matrix
  `onehot (r, g) = 1` if the batch word of row `r` is `g`, else `0` (the comparison of the batch column,
  broadcast along the 64 columns, with the column number, converted to a float; the narrowing to sixteen bits is the
  identity on the extended reals), and adds to two accumulators, zeroed at the first block:
    sum   (g, q) += ∑ r, onehot (r, g) · h (r, q)       (a product contracting the row axis of both operands)
    count (g, 0) += ∑ r, onehot (r, g) · 1
  Both accumulators are written back once, after the last block, and each block is its whole array. So the arrays end at
    sum   (g, q) = ∑ p : Fin 100000, [batch p = g] · h (p, q)
    count (g, 0) = ∑ p : Fin 100000, [batch p = g]
  by induction on the block: after block `n` the accumulators hold the sums over the first `5000 (n + 1)` rows.
  The column number at column `g` is the word `BitVec.ofNat 32 g`.
-/
import proofs.«420901_j2903397892205_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.RegVal

open Cert.KernelIdeal Cert.KernelIdeal.Gen Idealize.ShloMosaic.ValueIdx

namespace Pool9

section Pieces
variable {F : FTy → Type} [FloatOps F]

theorem hz2 : (![0, 0] : Fin 2 → Nat) = fun _ => 0 := funext fun a => by fin_cases a <;> rfl

/-- At an accumulating point the sum block is left at the carried block plus this point's product. -/
theorem pool_out_B_2 (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : ¬cond9_0 i)
    (x0 : Vec F S5000x128 .f32) (x1 : Vec F S5000x1 .i32) (xo2 : Vec F S64x128 .f32) (xo3 : Vec F S64x1 .f32) :
    out9_B_2 c i a1 h1 a2 h2 a3 h3 a4 h4 hc x0 x1 xo2 xo3 = k9_pay4 x0 x1 xo2 := by
  unfold out9_B_2
  rw [View.read_writes_eq_canon _ _ _ (cover9_B_2 c i a1 h1 a2 h2 a3 h3 a4 h4 hc x0 x1 xo2 xo3)]
  unfold kernelRun9_B
  dsimp only
  sl_unfold_words
  rw [View.canon_unit_zero hz2]
  simp only [View.readAt_eq_ld, h1.read_unread, h2.read_unread, h3.read_unread, View.ld_unit_zero (S := S5000x128) hz2,
    View.ld_unit_zero (S := S5000x1) hz2, View.ld_unit_zero (S := S64x128) hz2]

/-- At an accumulating point the count block is left at the carried block plus this point's count. -/
theorem pool_out_B_3 (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : ¬cond9_0 i)
    (x0 : Vec F S5000x128 .f32) (x1 : Vec F S5000x1 .i32) (xo2 : Vec F S64x128 .f32) (xo3 : Vec F S64x1 .f32) :
    out9_B_3 c i a1 h1 a2 h2 a3 h3 a4 h4 hc x0 x1 xo2 xo3 = k9_pay5 x1 xo3 := by
  unfold out9_B_3
  rw [View.read_writes_eq_canon _ _ _ (cover9_B_3 c i a1 h1 a2 h2 a3 h3 a4 h4 hc x0 x1 xo2 xo3)]
  unfold kernelRun9_B
  dsimp only
  sl_unfold_words
  rw [View.canon_unit_zero hz2]
  simp only [View.readAt_eq_ld, h1.read_unread, h2.read_unread, h4.read_unread,
    View.ld_unit_zero (S := S5000x1) hz2, View.ld_unit_zero (S := S64x1) hz2]

/-- At the resetting point the sum block is left at the zero block plus this point's product. -/
theorem pool_out_A_2 (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : cond9_0 i)
    (x0 : Vec F S5000x128 .f32) (x1 : Vec F S5000x1 .i32) :
    out9_A_2 c i a1 h1 a2 h2 a3 h3 a4 h4 hc x0 x1 = k9_pay4 x0 x1 (k9_pay1 (F := F)) := by
  unfold out9_A_2
  rw [View.read_writes_eq_canon _ _ _ (cover9_A_2 c i a1 h1 a2 h2 a3 h3 a4 h4 hc x0 x1)]
  unfold kernelRun9_A
  dsimp only
  sl_unfold_words
  rw [View.canon_cons_unit_zero (S := S64x128) hz2]
  simp only [View.readAt_eq_ld, h1.read_unread, h2.read_unread, View.readCov_unit_zero (S := S64x128) _ hz2, View.ld_unit_zero (S := S5000x128) hz2,
    View.ld_unit_zero (S := S5000x1) hz2]

/-- At the resetting point the count block is left at the zero block plus this point's count. -/
theorem pool_out_A_3 (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : cond9_0 i)
    (x0 : Vec F S5000x128 .f32) (x1 : Vec F S5000x1 .i32) :
    out9_A_3 c i a1 h1 a2 h2 a3 h3 a4 h4 hc x0 x1 = k9_pay5 x1 (k9_pay2 (F := F)) := by
  unfold out9_A_3
  rw [View.read_writes_eq_canon _ _ _ (cover9_A_3 c i a1 h1 a2 h2 a3 h3 a4 h4 hc x0 x1)]
  unfold kernelRun9_A
  dsimp only
  sl_unfold_words
  rw [View.canon_cons_unit_zero (S := S64x1) hz2]
  simp only [View.readAt_eq_ld, h1.read_unread, h2.read_unread, View.readCov_unit_zero (S := S64x1) _ hz2,
    View.ld_unit_zero (S := S5000x1) hz2]

end Pieces

section Payloads

/-- The iota along axis 1 of a [1,64] block holds the column number. -/
theorem iota_col (g : Fin 64) :
    iota .tc S1x64 32 [1] iota_S1x64_d1_w32 (ix2 (0 : Fin 1) g) = BitVec.ofNat 32 g.val := by
  unfold iota
  show BitVec.ofNat 32 (0 * 64 + g.val) = _
  rw [Nat.zero_mul, Nat.zero_add]

/-- The batch word of row `r`, broadcast along the 64 columns. -/
theorem bcast_batch (v6 : S5000x1.Idx → BitVec 32) (r : Fin 5000) (g : Fin 64) :
    broadcastTo S5000x64 (shapeCast S5000x1 v6 shapeCasts_S5000x1_S5000x1) broadcasts_S5000x1_S5000x64 (ix2 r g)
      = v6 (ix2 r 0) := by
  rw [shapeCast_self]
  refine broadcastTo_apply v6 broadcasts_S5000x1_S5000x64 (ix2 r g) (ix2 r 0) fun a => ?_
  match a with
  | ⟨0, _⟩ => show r.val = if (5000 : Nat) = 1 then 0 else r.val; rw [if_neg (by decide)]
  | ⟨1, _⟩ => show (0 : Nat) = if (1 : Nat) = 1 then 0 else g.val; rw [if_pos rfl]

/-- The column number, broadcast along the 5000 rows. -/
theorem bcast_iota (r : Fin 5000) (g : Fin 64) :
    broadcastTo S5000x64 (iota .tc S1x64 32 [1] iota_S1x64_d1_w32) broadcasts_S1x64_S5000x64 (ix2 r g)
      = BitVec.ofNat 32 g.val := by
  refine (broadcastTo_apply (iota .tc S1x64 32 [1] iota_S1x64_d1_w32) broadcasts_S1x64_S5000x64 (ix2 r g) (ix2 (0 : Fin 1) g) fun a => ?_).trans (iota_col g)
  match a with
  | ⟨0, _⟩ => show (0 : Nat) = if (1 : Nat) = 1 then 0 else r.val; rw [if_pos rfl]
  | ⟨1, _⟩ => show g.val = if (64 : Nat) = 1 then 0 else g.val; rw [if_neg (by decide)]

/-- A one-bit comparison result, zero-extended and read as a signed integer, is 1 or 0. -/
theorem eq_word_toReal (x y : BitVec 32) :
    ((((IntOp.cmpi .eq x y).setWidth 32).toInt : ℝ) : EReal) = if x = y then (1 : EReal) else 0 := by
  unfold IntOp.cmpi
  by_cases h : x = y
  · subst h; simp
  · rw [if_neg h]
    have : (x == y) = false := by simpa using h
    simp [this]

/-- The one-hot block: entry (r, g) is 1 when row `r`'s batch word is `g`, else 0. -/
theorem onehot_apply (v6 : S5000x1.Idx → BitVec 32) (r : Fin 5000) (g : Fin 64) :
    k9_pay3 (F := Ideal) v6 (ix2 r g) = if v6 (ix2 r 0) = BitVec.ofNat 32 g.val then (1 : EReal) else 0 := by
  unfold k9_pay3
  show ((((IntOp.cmpi .eq
      (broadcastTo S5000x64 (shapeCast S5000x1 v6 shapeCasts_S5000x1_S5000x1) broadcasts_S5000x1_S5000x64 (ix2 r g))
      (broadcastTo S5000x64 (iota .tc S1x64 32 [1] iota_S1x64_d1_w32) broadcasts_S1x64_S5000x64 (ix2 r g))).setWidth 32).toInt : ℝ) : EReal) = _
  rw [bcast_batch, bcast_iota]
  exact eq_word_toReal _ _

end Payloads

section Products

theorem sumDot_lhs_0 (j : S64x128.Idx) (k : dot_S5000x64_S5000x128_S64x128_0_0_1_1_n_n.contr.Idx) :
    (dot_S5000x64_S5000x128_S64x128_0_0_1_1_n_n.lhsIdx j k 0).val = (k ⟨0, by decide⟩).val :=
  dot_S5000x64_S5000x128_S64x128_0_0_1_1_n_n.lhsIdx_val_of_single rfl j k
theorem sumDot_lhs_1 (j : S64x128.Idx) (k : dot_S5000x64_S5000x128_S64x128_0_0_1_1_n_n.contr.Idx) :
    (dot_S5000x64_S5000x128_S64x128_0_0_1_1_n_n.lhsIdx j k 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem sumDot_rhs_0 (j : S64x128.Idx) (k : dot_S5000x64_S5000x128_S64x128_0_0_1_1_n_n.contr.Idx) :
    (dot_S5000x64_S5000x128_S64x128_0_0_1_1_n_n.rhsIdx j k 0).val = (k ⟨0, by decide⟩).val :=
  dot_S5000x64_S5000x128_S64x128_0_0_1_1_n_n.rhsIdx_val_of_single rfl j k
theorem sumDot_rhs_1 (j : S64x128.Idx) (k : dot_S5000x64_S5000x128_S64x128_0_0_1_1_n_n.contr.Idx) :
    (dot_S5000x64_S5000x128_S64x128_0_0_1_1_n_n.rhsIdx j k 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product contracting the row axis of both operands, into the zero block: entry (g, q) is the sum over the
    rows `k` of `lhs (k, g) · rhs (k, q)`. -/
theorem sumDot_apply (lhs : S5000x64.Idx → EReal) (rhs : S5000x128.Idx → EReal) (g : Fin 64) (q : Fin 128) :
    FloatOps.matmul (F := Ideal) (φ₁ := .bf16) (φ₂ := .bf16) dot_S5000x64_S5000x128_S64x128_0_0_1_1_n_n none lhs rhs (constant S64x128 .f32 0x00000000#32) (ix2 g q)
      = ∑ k : Fin 5000, lhs (ix2 k g) * rhs (ix2 k q) := by
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g q) ((contrEquiv1 dot_S5000x64_S5000x128_S64x128_0_0_1_1_n_n 5000 rfl rfl).symm k) = ix2 k g := funext fun a => Fin.ext (by
    match a with
    | ⟨0, _⟩ => exact (sumDot_lhs_0 _ _).trans hk
    | ⟨1, _⟩ => exact sumDot_lhs_1 _ _)
  have er : dot_S5000x64_S5000x128_S64x128_0_0_1_1_n_n.rhsIdx (ix2 g q) ((contrEquiv1 dot_S5000x64_S5000x128_S64x128_0_0_1_1_n_n 5000 rfl rfl).symm k) = ix2 k q := funext fun a => Fin.ext (by
    match a with
    | ⟨0, _⟩ => exact (sumDot_rhs_0 _ _).trans hk
    | ⟨1, _⟩ => exact sumDot_rhs_1 _ _)
  rw [el, er]

theorem cntDot_lhs_0 (j : S64x1.Idx) (k : dot_S5000x64_S5000x1_S64x1_0_0_1_1_n_n.contr.Idx) :
    (dot_S5000x64_S5000x1_S64x1_0_0_1_1_n_n.lhsIdx j k 0).val = (k ⟨0, by decide⟩).val :=
  dot_S5000x64_S5000x1_S64x1_0_0_1_1_n_n.lhsIdx_val_of_single rfl j k
theorem cntDot_lhs_1 (j : S64x1.Idx) (k : dot_S5000x64_S5000x1_S64x1_0_0_1_1_n_n.contr.Idx) :
    (dot_S5000x64_S5000x1_S64x1_0_0_1_1_n_n.lhsIdx j k 1).val = (j 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem cntDot_rhs_0 (j : S64x1.Idx) (k : dot_S5000x64_S5000x1_S64x1_0_0_1_1_n_n.contr.Idx) :
    (dot_S5000x64_S5000x1_S64x1_0_0_1_1_n_n.rhsIdx j k 0).val = (k ⟨0, by decide⟩).val :=
  dot_S5000x64_S5000x1_S64x1_0_0_1_1_n_n.rhsIdx_val_of_single rfl j k
theorem cntDot_rhs_1 (j : S64x1.Idx) (k : dot_S5000x64_S5000x1_S64x1_0_0_1_1_n_n.contr.Idx) :
    (dot_S5000x64_S5000x1_S64x1_0_0_1_1_n_n.rhsIdx j k 1).val = (j 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The product contracting the row axis of both operands, into the zero block: entry (g, q) is the sum over the
    rows `k` of `lhs (k, g) · rhs (k, q)`. -/
theorem cntDot_apply (lhs : S5000x64.Idx → EReal) (rhs : S5000x1.Idx → EReal) (g : Fin 64) (q : Fin 1) :
    FloatOps.matmul (F := Ideal) (φ₁ := .bf16) (φ₂ := .bf16) dot_S5000x64_S5000x1_S64x1_0_0_1_1_n_n none lhs rhs (constant S64x1 .f32 0x00000000#32) (ix2 g q)
      = ∑ k : Fin 5000, lhs (ix2 k g) * rhs (ix2 k q) := by
  rw [Ideal.matmul_constant_zero_apply, ← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g q) ((contrEquiv1 dot_S5000x64_S5000x1_S64x1_0_0_1_1_n_n 5000 rfl rfl).symm k) = ix2 k g := funext fun a => Fin.ext (by
    match a with
    | ⟨0, _⟩ => exact (cntDot_lhs_0 _ _).trans hk
    | ⟨1, _⟩ => exact cntDot_lhs_1 _ _)
  have er : dot_S5000x64_S5000x1_S64x1_0_0_1_1_n_n.rhsIdx (ix2 g q) ((contrEquiv1 dot_S5000x64_S5000x1_S64x1_0_0_1_1_n_n 5000 rfl rfl).symm k) = ix2 k q := funext fun a => Fin.ext (by
    match a with
    | ⟨0, _⟩ => exact (cntDot_rhs_0 _ _).trans hk
    | ⟨1, _⟩ => exact cntDot_rhs_1 _ _)
  rw [el, er]

/-- The sum payload: the carried entry plus, over the block's rows whose batch word is `g`, their entries in column `q`. -/
theorem pay4_apply (v3 : S5000x128.Idx → EReal) (v6 : S5000x1.Idx → BitVec 32) (v16 : S64x128.Idx → EReal) (g : Fin 64) (q : Fin 128) :
    k9_pay4 (F := Ideal) v3 v6 v16 (ix2 g q)
      = v16 (ix2 g q) + ∑ r : Fin 5000, (if v6 (ix2 r 0) = BitVec.ofNat 32 g.val then (1 : EReal) else 0) * v3 (ix2 r q) := by
  unfold k9_pay4
  rw [shapeCast_self, shapeCast_self]
  show v16 (ix2 g q) + FloatOps.matmul (F := Ideal) (φ₁ := .bf16) (φ₂ := .bf16) dot_S5000x64_S5000x128_S64x128_0_0_1_1_n_n none (k9_pay3 (F := Ideal) v6) v3 (constant S64x128 .f32 0x00000000#32) (ix2 g q) = _
  refine congrArg (v16 (ix2 g q) + ·) ((sumDot_apply (k9_pay3 (F := Ideal) v6) v3 g q).trans ?_)
  exact Finset.sum_congr rfl fun r _ => congrArg (· * v3 (ix2 r q)) (onehot_apply v6 r g)

/-- The count payload: the carried entry plus the number of the block's rows whose batch word is `g`. -/
theorem pay5_apply (v6 : S5000x1.Idx → BitVec 32) (v21 : S64x1.Idx → EReal) (g : Fin 64) :
    k9_pay5 (F := Ideal) v6 v21 (ix2 g (0 : Fin 1))
      = v21 (ix2 g 0) + ∑ r : Fin 5000, (if v6 (ix2 r 0) = BitVec.ofNat 32 g.val then (1 : EReal) else 0) := by
  unfold k9_pay5
  rw [shapeCast_self]
  show v21 (ix2 g 0) + FloatOps.matmul (F := Ideal) (φ₁ := .bf16) (φ₂ := .bf16) dot_S5000x64_S5000x1_S64x1_0_0_1_1_n_n none (k9_pay3 (F := Ideal) v6)
      (broadcast S5000x1 (Scalar.ofBits (F := Ideal) .bf16 0x3F80#16)) (constant S64x1 .f32 0x00000000#32) (ix2 g 0) = _
  refine congrArg (v21 (ix2 g 0) + ·) ((cntDot_apply (k9_pay3 (F := Ideal) v6) (broadcast S5000x1 (Scalar.ofBits (F := Ideal) .bf16 0x3F80#16)) g 0).trans ?_)
  refine Finset.sum_congr rfl fun r _ => ?_
  rw [onehot_apply v6 r g]
  show _ * Ideal.ofBits .bf16 0x3F80#16 = _
  rw [show Ideal.ofBits .bf16 0x3F80#16 = 1 from IdealRules.sign_bit.ideal_onePat .bf16, mul_one]

end Products

section Sums

/-- A function on the first `N` naturals, extended by zero. -/
def ext0 {N : ℕ} (f : Fin N → EReal) (i : ℕ) : EReal := if h : i < N then f ⟨i, h⟩ else 0

/-- The sum over `Fin N` is the sum of the extension over the first `N` naturals. -/
theorem sum_ext0 {N : ℕ} (f : Fin N → EReal) : ∑ i ∈ Finset.range N, ext0 f i = ∑ p : Fin N, f p := by
  rw [Finset.sum_range]
  exact Finset.sum_congr rfl fun p _ => by unfold ext0; rw [dif_pos p.isLt]

/-- The sum over one block of `b` consecutive rows starting at `s`. -/
theorem sum_block_ext0 {N : ℕ} (f : Fin N → EReal) (s b : ℕ) (h : s + b ≤ N) :
    ∑ r ∈ Finset.range b, ext0 f (s + r) = ∑ r : Fin b, f ⟨s + r.val, by have := r.isLt; omega⟩ := by
  rw [Finset.sum_range]
  exact Finset.sum_congr rfl fun r _ => by unfold ext0; rw [dif_pos (by have := r.isLt; omega)]

end Sums

section Region
variable (V : (c : Dev nD) → (b : Ref sig .tc) → Buf (Elt Ideal) ((c : Thread nD τ).loc b))

theorem idx9_0 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)
theorem idx9_1 : ∀ t : Fin cfg9.N, win9_1.index t (0 : Fin 2) = t.val ∧ win9_1.index t (1 : Fin 2) = 0 :=
  (by decide +kernel : ∀ t : Fin grid9.N, win9_1.index t (0 : Fin 2) = t.val ∧ win9_1.index t (1 : Fin 2) = 0)

theorem N9 : cfg9.N = 20 := N_9

/-- Row `r` of block `t` is row `5000 t + r` of the array. -/
abbrev rowOf (t : Fin cfg9.N) (r : Fin 5000) : Fin 100000 :=
  ⟨5000 * t.val + r.val, by have := t.isLt; have := r.isLt; have := N9; omega⟩

/-- The blocks of point `t`, at their literal types. -/
abbrev hblk (c : Dev nD) (t : Fin cfg9.N) : S5000x128.Idx → EReal := iblk9 V c 0 t
abbrev bblk (c : Dev nD) (t : Fin cfg9.N) : S5000x1.Idx → BitVec 32 := iblk9 V c 1 t

/-- The node-feature block of point `t`, read off the array. -/
theorem hblk_apply (c : Dev nD) (H : S100000x128.Idx → EReal) (hH : V c main_v116 = H) (t : Fin cfg9.N)
    (r : Fin 5000) (q : Fin 128) :
    hblk V c t (ix2 r q) = H (ix2 (rowOf t r) q) := by
  unfold hblk iblk9
  rw [View.read_apply]
  show V c main_v116 _ = H _
  rw [hH]
  congr 1
  funext a
  apply Fin.ext
  match a with
  | ⟨0, _⟩ => show win9_0.index t 0 * 5000 + 1 * r.val = 5000 * t.val + r.val; rw [(idx9_0 t).1]; omega
  | ⟨1, _⟩ => show win9_0.index t 1 * 128 + 1 * q.val = q.val; rw [(idx9_0 t).2]; omega

/-- The batch-word block of point `t`, read off the array. -/
theorem bblk_apply (c : Dev nD) (Bt : S100000x1.Idx → BitVec 32) (hB : V c main_v117 = Bt) (t : Fin cfg9.N)
    (r : Fin 5000) :
    bblk V c t (ix2 r 0) = Bt (ix2 (rowOf t r) 0) := by
  unfold bblk iblk9
  rw [View.read_apply]
  show V c main_v117 _ = Bt _
  rw [hB]
  congr 1
  funext a
  apply Fin.ext
  match a with
  | ⟨0, _⟩ => show win9_1.index t 0 * 5000 + 1 * r.val = 5000 * t.val + r.val; rw [(idx9_1 t).1]; omega
  | ⟨1, _⟩ => show win9_1.index t 1 * 1 + 1 * 0 = 0; rw [(idx9_1 t).2]

end Region

section Invariant
variable (V : (c : Dev nD) → (b : Ref sig .tc) → Buf (Elt Ideal) ((c : Thread nD τ).loc b))

/-- The accumulators after point `n`, at their literal types. -/
abbrev sacc (c : Dev nD) (n : ℕ) (h : n < cfg9.N) : S64x128.Idx → EReal := (outsAt9 V c n h).1
abbrev cacc (c : Dev nD) (n : ℕ) (h : n < cfg9.N) : S64x1.Idx → EReal := (outsAt9 V c n h).2

/-- Row `p` counts for graph `g` when its batch word is `g`. -/
abbrev wt (Bt : S100000x1.Idx → BitVec 32) (g : Fin 64) (p : Fin 100000) : EReal :=
  if Bt (ix2 p 0) = BitVec.ofNat 32 g.val then (1 : EReal) else 0

/-- One more block of 5000 rows. -/
theorem sum_step (f : Fin 100000 → EReal) (n : ℕ) (hn : 5000 * n + 5000 ≤ 100000) :
    ∑ i ∈ Finset.range (5000 * (n + 1)), ext0 f i
      = ∑ i ∈ Finset.range (5000 * n), ext0 f i + ∑ r : Fin 5000, f ⟨5000 * n + r.val, by have := r.isLt; omega⟩ := by
  rw [Nat.mul_succ, Finset.sum_range_add, sum_block_ext0 f (5000 * n) 5000 hn]

/-- After point `n` the sum block holds the weighted sum over the first `5000 (n + 1)` rows. -/
theorem sacc_eq (c : Dev nD) (H : S100000x128.Idx → EReal) (Bt : S100000x1.Idx → BitVec 32)
    (hH : V c main_v116 = H) (hB : V c main_v117 = Bt) (g : Fin 64) (q : Fin 128) :
    ∀ (n : ℕ) (h : n < cfg9.N),
      sacc V c n h (ix2 g q) = ∑ i ∈ Finset.range (5000 * (n + 1)), ext0 (fun p : Fin 100000 => wt Bt g p * H (ix2 p q)) i
  | 0, h => by
    have hN : cfg9.N = 20 := N9
    unfold sacc
    rw [outsAt9_A V c ⟨0, h⟩ rfl]
    dsimp only
    refine (congrFun (pool_out_A_2 (F := Ideal) c (grid9.coords ⟨0, h⟩) (ms9_0 ⟨0, h⟩) (hs9_0 ⟨0, h⟩) (ms9_1 ⟨0, h⟩) (hs9_1 ⟨0, h⟩)
      (ms9_2 ⟨0, h⟩) (hs9_2 ⟨0, h⟩) (ms9_3 ⟨0, h⟩) (hs9_3 ⟨0, h⟩) ((hcond9_0 ⟨0, h⟩).mpr rfl) (hblk V c ⟨0, h⟩) (bblk V c ⟨0, h⟩)) (ix2 g q)).trans ?_
    refine (pay4_apply (hblk V c ⟨0, h⟩) (bblk V c ⟨0, h⟩) (k9_pay1 (F := Ideal)) g q).trans ?_
    rw [sum_step _ 0 (by omega)]
    have e0 : ∑ i ∈ Finset.range (5000 * 0), ext0 (fun p : Fin 100000 => wt Bt g p * H (ix2 p q)) i = 0 := by
      rw [Nat.mul_zero]; exact Finset.sum_range_zero _
    rw [e0]
    refine congrArg₂ (· + ·) ?_ (Finset.sum_congr rfl fun r _ => ?_)
    · show Ideal.ofBits .f32 0x00000000#32 = 0
      exact Ideal.ofBits_zero_f32
    · rw [bblk_apply V c Bt hB ⟨0, h⟩ r, hblk_apply V c H hH ⟨0, h⟩ r q]
  | n + 1, h => by
    have hN : cfg9.N = 20 := N9
    have hB' : ¬(⟨n + 1, h⟩ : Fin cfg9.N).val % 20 = 0 := by dsimp only; omega
    unfold sacc
    rw [outsAt9_B V c ⟨n + 1, h⟩ hB']
    dsimp only
    refine (congrFun (pool_out_B_2 (F := Ideal) c (grid9.coords ⟨n + 1, h⟩) (ms9_0 ⟨n + 1, h⟩) (hs9_0 ⟨n + 1, h⟩) (ms9_1 ⟨n + 1, h⟩) (hs9_1 ⟨n + 1, h⟩)
      (ms9_2 ⟨n + 1, h⟩) (hs9_2 ⟨n + 1, h⟩) (ms9_3 ⟨n + 1, h⟩) (hs9_3 ⟨n + 1, h⟩) (fun h' => hB' ((hcond9_0 ⟨n + 1, h⟩).mp h'))
      (hblk V c ⟨n + 1, h⟩) (bblk V c ⟨n + 1, h⟩) (sacc V c n (Nat.lt_of_succ_lt h)) (cacc V c n (Nat.lt_of_succ_lt h))) (ix2 g q)).trans ?_
    refine (pay4_apply (hblk V c ⟨n + 1, h⟩) (bblk V c ⟨n + 1, h⟩) (sacc V c n (Nat.lt_of_succ_lt h)) g q).trans ?_
    rw [sacc_eq c H Bt hH hB g q n (Nat.lt_of_succ_lt h), sum_step _ (n + 1) (by omega)]
    refine congrArg (_ + ·) (Finset.sum_congr rfl fun r _ => ?_)
    rw [bblk_apply V c Bt hB ⟨n + 1, h⟩ r, hblk_apply V c H hH ⟨n + 1, h⟩ r q]

end Invariant

section CountInvariant
variable (V : (c : Dev nD) → (b : Ref sig .tc) → Buf (Elt Ideal) ((c : Thread nD τ).loc b))

/-- After point `n` the count block holds the number of the first `5000 (n + 1)` rows whose batch word is `g`. -/
theorem cacc_eq (c : Dev nD) (Bt : S100000x1.Idx → BitVec 32) (hB : V c main_v117 = Bt) (g : Fin 64) :
    ∀ (n : ℕ) (h : n < cfg9.N),
      cacc V c n h (ix2 g (0 : Fin 1)) = ∑ i ∈ Finset.range (5000 * (n + 1)), ext0 (fun p : Fin 100000 => wt Bt g p) i
  | 0, h => by
    have hN : cfg9.N = 20 := N9
    unfold cacc
    rw [outsAt9_A V c ⟨0, h⟩ rfl]
    dsimp only
    refine (congrFun (pool_out_A_3 (F := Ideal) c (grid9.coords ⟨0, h⟩) (ms9_0 ⟨0, h⟩) (hs9_0 ⟨0, h⟩) (ms9_1 ⟨0, h⟩) (hs9_1 ⟨0, h⟩)
      (ms9_2 ⟨0, h⟩) (hs9_2 ⟨0, h⟩) (ms9_3 ⟨0, h⟩) (hs9_3 ⟨0, h⟩) ((hcond9_0 ⟨0, h⟩).mpr rfl) (hblk V c ⟨0, h⟩) (bblk V c ⟨0, h⟩)) (ix2 g 0)).trans ?_
    refine (pay5_apply (bblk V c ⟨0, h⟩) (k9_pay2 (F := Ideal)) g).trans ?_
    rw [sum_step _ 0 (by omega)]
    have e0 : ∑ i ∈ Finset.range (5000 * 0), ext0 (fun p : Fin 100000 => wt Bt g p) i = 0 := by
      rw [Nat.mul_zero]; exact Finset.sum_range_zero _
    rw [e0]
    refine congrArg₂ (· + ·) ?_ (Finset.sum_congr rfl fun r _ => ?_)
    · show Ideal.ofBits .f32 0x00000000#32 = 0
      exact Ideal.ofBits_zero_f32
    · rw [bblk_apply V c Bt hB ⟨0, h⟩ r]
  | n + 1, h => by
    have hN : cfg9.N = 20 := N9
    have hB' : ¬(⟨n + 1, h⟩ : Fin cfg9.N).val % 20 = 0 := by dsimp only; omega
    unfold cacc
    rw [outsAt9_B V c ⟨n + 1, h⟩ hB']
    dsimp only
    refine (congrFun (pool_out_B_3 (F := Ideal) c (grid9.coords ⟨n + 1, h⟩) (ms9_0 ⟨n + 1, h⟩) (hs9_0 ⟨n + 1, h⟩) (ms9_1 ⟨n + 1, h⟩) (hs9_1 ⟨n + 1, h⟩)
      (ms9_2 ⟨n + 1, h⟩) (hs9_2 ⟨n + 1, h⟩) (ms9_3 ⟨n + 1, h⟩) (hs9_3 ⟨n + 1, h⟩) (fun h' => hB' ((hcond9_0 ⟨n + 1, h⟩).mp h'))
      (hblk V c ⟨n + 1, h⟩) (bblk V c ⟨n + 1, h⟩) (sacc V c n (Nat.lt_of_succ_lt h)) (cacc V c n (Nat.lt_of_succ_lt h))) (ix2 g 0)).trans ?_
    refine (pay5_apply (bblk V c ⟨n + 1, h⟩) (cacc V c n (Nat.lt_of_succ_lt h)) g).trans ?_
    rw [cacc_eq c Bt hB g n (Nat.lt_of_succ_lt h), sum_step _ (n + 1) (by omega)]
    refine congrArg (_ + ·) (Finset.sum_congr rfl fun r _ => ?_)
    rw [bblk_apply V c Bt hB ⟨n + 1, h⟩ r]

end CountInvariant

section Final
variable (V : (c : Dev nD) → (b : Ref sig .tc) → Buf (Elt Ideal) ((c : Thread nD τ).loc b))

theorem lt19 : 19 < cfg9.N := by rw [N9]; decide

/-- The last point, the only one after which the accumulators are written back. -/
abbrev t19 : Fin cfg9.N := ⟨19, lt19⟩

/-- The accumulators after the last point, as contents of the result arrays (each block is its whole array). -/
abbrev result2 (c : Dev nD) : Buf (Elt Ideal) ((c : Thread nD τ).loc main_v118_0) := sacc V c 19 lt19
abbrev result3 (c : Dev nD) : Buf (Elt Ideal) ((c : Thread nD τ).loc main_v118_1) := cacc V c 19 lt19

/-- The one write-back of the sum block, at point 19, writes the accumulator: block (0, 0) of the [64,128] array is the array. -/
theorem flushed2_eq (c : Dev nD) (t : Fin cfg9.N) (hf : (cfg9.win 2).flush t = true) :
    (dat9 V c).flushed 2 t = ((cfg9.win 2).blk t).view.read (Elt Ideal) (result2 V c) := by
  have hN : cfg9.N = 20 := N9
  have h19 : t.val = 19 := by have := (flush9_2 t).mp hf; have := t.isLt; omega
  obtain rfl : t = t19 := Fin.ext h19
  show (cfg9.win 2).cut (grid9.coords t19) ((dat9 V c).after 2 t19) = _
  rw [after9_2]
  have hz' : (fun a => win9_2.index t19 a * main_v118_0.ty.shape.size a) = fun _ => 0 := funext fun a => by fin_cases a <;> decide
  exact (Memref.read_access_unit_zero (Elt Ideal) main_v118_0 hz' (fun a => by rw [congrFun hz' a]; simp) (result2 V c)).symm

/-- So the sum array ends holding the accumulator after point 19. -/
theorem final2 (c : Dev nD) : (dat9 V c).arrAt 2 cfg9.N = result2 V c :=
  (dat9 V c).arrAt_eq_of_cover 2 (result2 V c) (flushed2_eq V c) fun i =>
    ⟨t19, (flush9_2 t19).mpr rfl, by
      show i ∈ ((View.whole main_v118_0).slice (win9_2.rect t19)).set
      rw [View.set_slice_whole, Rect.mem_set_unit]
      intro a
      have h0 : (i 0 : Nat) < 64 := (i 0).isLt
      have h1 : (i 1 : Nat) < 128 := (i 1).isLt
      match a with
      | ⟨0, _⟩ => show win9_2.index t19 0 * win9_2.size 0 ≤ (i 0 : Nat) ∧ (i 0 : Nat) < win9_2.index t19 0 * win9_2.size 0 + win9_2.xsize (grid9.coords t19) 0
                  rw [show win9_2.index t19 0 * win9_2.size 0 = 0 from by decide +kernel, show win9_2.xsize (grid9.coords t19) 0 = 64 from by decide +kernel]; omega
      | ⟨1, _⟩ => show win9_2.index t19 1 * win9_2.size 1 ≤ (i 1 : Nat) ∧ (i 1 : Nat) < win9_2.index t19 1 * win9_2.size 1 + win9_2.xsize (grid9.coords t19) 1
                  rw [show win9_2.index t19 1 * win9_2.size 1 = 0 from by decide +kernel, show win9_2.xsize (grid9.coords t19) 1 = 128 from by decide +kernel]; omega⟩

/-- The one write-back of the count block, at point 19, writes the accumulator. -/
theorem flushed3_eq (c : Dev nD) (t : Fin cfg9.N) (hf : (cfg9.win 3).flush t = true) :
    (dat9 V c).flushed 3 t = ((cfg9.win 3).blk t).view.read (Elt Ideal) (result3 V c) := by
  have hN : cfg9.N = 20 := N9
  have h19 : t.val = 19 := by have := (flush9_3 t).mp hf; have := t.isLt; omega
  obtain rfl : t = t19 := Fin.ext h19
  show (cfg9.win 3).cut (grid9.coords t19) ((dat9 V c).after 3 t19) = _
  rw [after9_3]
  have hz' : (fun a => win9_3.index t19 a * main_v118_1.ty.shape.size a) = fun _ => 0 := funext fun a => by fin_cases a <;> decide
  exact (Memref.read_access_unit_zero (Elt Ideal) main_v118_1 hz' (fun a => by rw [congrFun hz' a]; simp) (result3 V c)).symm

/-- So the count array ends holding the accumulator after point 19. -/
theorem final3 (c : Dev nD) : (dat9 V c).arrAt 3 cfg9.N = result3 V c :=
  (dat9 V c).arrAt_eq_of_cover 3 (result3 V c) (flushed3_eq V c) fun i =>
    ⟨t19, (flush9_3 t19).mpr rfl, by
      show i ∈ ((View.whole main_v118_1).slice (win9_3.rect t19)).set
      rw [View.set_slice_whole, Rect.mem_set_unit]
      intro a
      have h0 : (i 0 : Nat) < 64 := (i 0).isLt
      have h1 : (i 1 : Nat) < 1 := (i 1).isLt
      match a with
      | ⟨0, _⟩ => show win9_3.index t19 0 * win9_3.size 0 ≤ (i 0 : Nat) ∧ (i 0 : Nat) < win9_3.index t19 0 * win9_3.size 0 + win9_3.xsize (grid9.coords t19) 0
                  rw [show win9_3.index t19 0 * win9_3.size 0 = 0 from by decide +kernel, show win9_3.xsize (grid9.coords t19) 0 = 64 from by decide +kernel]; omega
      | ⟨1, _⟩ => show win9_3.index t19 1 * win9_3.size 1 ≤ (i 1 : Nat) ∧ (i 1 : Nat) < win9_3.index t19 1 * win9_3.size 1 + win9_3.xsize (grid9.coords t19) 1
                  rw [show win9_3.index t19 1 * win9_3.size 1 = 0 from by decide +kernel, show win9_3.xsize (grid9.coords t19) 1 = 1 from by decide +kernel]; omega⟩

end Final

end Pool9

section Results
variable (V : (c : Dev nD) → (b : Ref sig .tc) → Buf (Elt Ideal) ((c : Thread nD τ).loc b))

open Pool9

/-- THE POOL REGION'S SUM: entry (g, q) of the sum array is the sum, over the rows whose batch word is `g`, of their
    entries in column `q`. -/
theorem pool9_sum_of (c : Dev nD) (H : S100000x128.Idx → EReal) (Bt : S100000x1.Idx → BitVec 32)
    (hH : V c main_v116 = H) (hB : V c main_v117 = Bt) (g : Fin 64) (q : Fin 128) :
    (dat9 V c).arrAt 2 cfg9.N (ix2 g q)
      = ∑ p : Fin 100000, (if Bt (ix2 p 0) = BitVec.ofNat 32 g.val then (1 : EReal) else 0) * H (ix2 p q) := by
  rw [final2 V c]
  show sacc V c 19 lt19 (ix2 g q) = _
  rw [sacc_eq V c H Bt hH hB g q 19 lt19]
  exact sum_ext0 (fun p : Fin 100000 => wt Bt g p * H (ix2 p q))

/-- THE POOL REGION'S COUNT: entry (g, 0) of the count array is the number of rows whose batch word is `g`. -/
theorem pool9_cnt_of (c : Dev nD) (Bt : S100000x1.Idx → BitVec 32) (hB : V c main_v117 = Bt) (g : Fin 64) :
    (dat9 V c).arrAt 3 cfg9.N (ix2 g (0 : Fin 1))
      = ∑ p : Fin 100000, (if Bt (ix2 p 0) = BitVec.ofNat 32 g.val then (1 : EReal) else 0) := by
  rw [final3 V c]
  show cacc V c 19 lt19 (ix2 g 0) = _
  rw [cacc_eq V c Bt hB g 19 lt19]
  exact sum_ext0 (fun p : Fin 100000 => wt Bt g p)

end Results

end Cert.KernelIdeal.RegVal

end
-- ==== Proof.RefPool.lean ====
/-
  The reference's mean pool, read entry by entry. Node `p` of the 100000 carries a graph word `x2 p`; graph `g` of the
  64 collects the nodes whose word is `g`. Two accumulations into zero tables run over the nodes — the feature rows
  added at the row their graph word names, and ones added at the entry it names — and the pooled entry `(g, q)` is the
  first over the second, the second taken at least `1`. Read at `(g, q)`:

      (∑ p, [x2 p = g] · H (p, q)) / max (∑ p, [x2 p = g]) 1

  with `[·]` the one-hot weight `1` or `0`. A scatter index is read signed and is not clamped, so a word that is not the
  word of a graph `g < 64` lands nowhere; and for `g < 64` the signed reading of a 32-bit word is `g` exactly when the
  word is the word of `g`.
-/
import proofs.«420901_j2903397892205_1_alg».proof.Proof.RefImports
import proofs.«420901_j2903397892205_1_alg».proof.Proof.LibRowDims
import Idealize.ShloMosaic.Lib.ValueIdxRank1

noncomputable section

open scoped BigOperators

namespace Cert.RefPool

open Idealize.ShloMosaic Idealize.ShloMosaic.ValueIdx Idealize.ShloMosaic.RowDims

/-! ## A vector scatter-add -/

/-- The dimension numbers of `x.at[idx].add(u)` for a vector `[N]`, scatter indices `[R, 1]` and updates `[R]`. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update entry `r` reads its one start-index component at `(r, 0)` of the scatter indices. -/
theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the vector's one axis the window starts at the scatter index of the update's entry, read signed. -/
theorem vecScatter_start {N R w : Nat} (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The one axis is an inserted axis: its window coordinate is `0`. -/
theorem vecScatter_window {N R : Nat} (wf : ScatterDims.WF ⟨1, ![N]⟩ ⟨2, ![R, 1]⟩ ⟨1, ![R]⟩ [] [0] [0] 1) (r : Fin R) :
    (vecScatter N R wf).window (ix1 r) 0 = 0 := rfl

/-- Update entry `r` lands on entry `a` of the vector exactly when its start index, read signed, is `a`. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs0 := vecScatter_start wf idx r
  have hw0 := vecScatter_window wf r
  unfold ScatterDims.resultIdx?
  constructor
  · -- landed at a: the window is inside the vector, and its coordinate is a
    intro h
    split at h
    · rename_i hin
      have e0 := congrArg (fun f => (f 0).val) (Option.some.inj h)
      simp only [hs0, hw0] at e0
      have h0 := hin 0
      rw [hs0, hw0] at h0
      have ea : ((ix1 a : (⟨1, ![N]⟩ : Shape).Idx) 0).val = a.val := rfl
      rw [ea] at e0
      omega
    · exact absurd h (by simp)
  · -- the start index is an entry of the vector: the window is inside, at a
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs0, hw0, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs0, hw0, hv]; omega

/-- The accumulated vector at `a`: the vector's entry plus the updates' entries `r` whose start index is `a`. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  rw [Finset.sum_filter, ← Equiv.sum_comp (idxEquiv1 (n := R)).symm]
  refine Finset.sum_congr rfl fun r _ => ?_
  show (if (vecScatter N R wf).resultIdx? (ix1 r) idx = some (ix1 a) then upd (ix1 r) else 0) = _
  simp only [vecScatter_resultIdx?_eq_some_iff]

/-- A 32-bit word read signed is the small natural `g` exactly when it is the word of `g`. -/
theorem toInt_eq_natCast_iff (v : BitVec 32) (g : Nat) (hg : g < 64) : v.toInt = (g : Int) ↔ v = BitVec.ofNat 32 g := by
  have hv := v.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega), if_pos (by omega)]

open Cert.ReferenceIdeal Cert.ReferenceIdeal.Gen Cert.ReferenceIdeal.Read

/-! ## The reference's two scatter-adds by graph -/

/-- The row accumulation into a zero table, with the scatter indices the graph words: entry `(g, q)` is the sum of the
    updates' entries `(p, q)`, each weighted `1` when node `p`'s graph word is `g` and `0` otherwise. -/
theorem sums_apply (Z : S64x128.Idx → EReal) (hZ : ∀ i, Z i = 0) (x2 : S100000.Idx → BitVec 32)
    (I : IVec S100000x1 32) (hI : ∀ p : Fin 100000, I (ix2 p 0) = x2 (ix1 p)) (H : S100000x128.Idx → EReal)
    (g : Fin 64) (q : Fin 128) :
    Host.scatterAdd (F := Ideal) (φ := .f32) scatter_S64x128_S100000x1_S100000x128_1_0_0_1 Z I H (ix2 g q)
      = ∑ p : Fin 100000, (if x2 (ix1 p) = BitVec.ofNat 32 g.val then (1 : EReal) else 0) * H (ix2 p q) := by
  show Ideal.hostScatterAdd (rowScatter 64 128 100000 Facts₀.scatter_S64x128_S100000x1_S100000x128_1_0_0_1_wf) Z I H (ix2 g q) = _
  rw [rowScatterAdd_apply, hZ, zero_add]
  refine Finset.sum_congr rfl fun p _ => ?_
  rw [hI p]
  by_cases h : x2 (ix1 p) = BitVec.ofNat 32 g.val
  · rw [if_pos ((toInt_eq_natCast_iff _ _ g.isLt).2 h), if_pos h, one_mul]
  · rw [if_neg (fun h' => h ((toInt_eq_natCast_iff _ _ g.isLt).1 h')), if_neg h, zero_mul]

/-- The accumulation of ones into a zero vector, with the same scatter indices: entry `g` is the number of nodes whose
    graph word is `g`, as the sum of the one-hot weights. -/
theorem counts_apply (Z : S64.Idx → EReal) (hZ : ∀ i, Z i = 0) (x2 : S100000.Idx → BitVec 32)
    (I : IVec S100000x1 32) (hI : ∀ p : Fin 100000, I (ix2 p 0) = x2 (ix1 p)) (O : S100000.Idx → EReal) (hO : ∀ i, O i = 1)
    (g : Fin 64) :
    Host.scatterAdd (F := Ideal) (φ := .f32) scatter_S64_S100000x1_S100000_n_0_0_1 Z I O (ix1 g)
      = ∑ p : Fin 100000, (if x2 (ix1 p) = BitVec.ofNat 32 g.val then (1 : EReal) else 0) := by
  show Ideal.hostScatterAdd (vecScatter 64 100000 Facts₀.scatter_S64_S100000x1_S100000_n_0_0_1_wf) Z I O (ix1 g) = _
  rw [vecScatterAdd_apply, hZ, zero_add]
  refine Finset.sum_congr rfl fun p _ => ?_
  rw [hI p, hO]
  by_cases h : x2 (ix1 p) = BitVec.ofNat 32 g.val
  · rw [if_pos ((toInt_eq_natCast_iff _ _ g.isLt).2 h), if_pos h]
  · rw [if_neg (fun h' => h ((toInt_eq_natCast_iff _ _ g.isLt).1 h')), if_neg h]

/-- The f32 pattern `0x3F800000` is the extended real `1`. -/
theorem ofBits_one_f32 : Ideal.ofBits .f32 0x3F800000#32 = 1 := by
  simp [Ideal.ofBits, Ideal.ieee, -EReal.coe_mul]; norm_num

/-! ## The reference's mean pool -/

/-- The reference's segment mean at graph `g`, feature `q`: the one-hot weighted sum of the node features over the
    one-hot count, the count taken at least `1`. -/
theorem ref_pool_apply (x0 : (⟨S100000x1, .f32⟩ : BufTy).Contents (Elt Ideal)) (x1 : (⟨S2x1600000, .i32⟩ : BufTy).Contents (Elt Ideal))
    (x2 : (⟨S100000, .i32⟩ : BufTy).Contents (Elt Ideal)) (x3 : (⟨S1x128, .f32⟩ : BufTy).Contents (Elt Ideal))
    (x4 x5 x6 : (⟨S128, .f32⟩ : BufTy).Contents (Elt Ideal)) (x7 : (⟨S128x128, .f32⟩ : BufTy).Contents (Elt Ideal))
    (x8 x9 x10 : (⟨S128, .f32⟩ : BufTy).Contents (Elt Ideal)) (x11 : (⟨S128x128, .f32⟩ : BufTy).Contents (Elt Ideal))
    (x12 x13 x14 : (⟨S128, .f32⟩ : BufTy).Contents (Elt Ideal)) (g : Fin 64) (q : Fin 128) :
    val_main_v170 (F := Ideal) x0 x1 x2 x3 x4 x5 x6 x7 x8 x9 x10 x11 x12 x13 x14 (ix2 g q)
      = Ideal.div
          (∑ p : Fin 100000, (if x2 (ix1 p) = BitVec.ofNat 32 g.val then (1 : EReal) else 0)
            * val_main_v158 (F := Ideal) x0 x1 x3 x4 x5 x6 x7 x8 x9 x10 x11 x12 x13 x14 (ix2 p q))
          (max (∑ p : Fin 100000, (if x2 (ix1 p) = BitVec.ofNat 32 g.val then (1 : EReal) else 0))
            (Ideal.ofBits .f32 0x3F800000#32)) := by
  -- the scatter indices of both accumulations are the graph words, one per node
  have hI1 : ∀ p : Fin 100000, val_main_v161 (F := Ideal) x2 (ix2 p 0) = x2 (ix1 p) := by
    intro p
    rw [val_main_v161_apply]
    exact congrArg x2 (funext fun a => match a with | ⟨0, _⟩ => rfl)
  have hI2 : ∀ p : Fin 100000, val_main_v164 (F := Ideal) x2 (ix2 p 0) = x2 (ix1 p) := by
    intro p
    rw [val_main_v164_apply]
    exact congrArg x2 (funext fun a => match a with | ⟨0, _⟩ => rfl)
  -- the two tables start at zero, and the counted updates are ones
  have hZ1 : ∀ i, val_main_v160 (F := Ideal) i = 0 := by
    intro i
    rw [val_main_v160_apply, val_main_cst_31_apply, Ideal.ofBits_def, Ideal.ofBits_zero_f32]
  have hZ2 : ∀ i, val_main_v163 (F := Ideal) i = 0 := by
    intro i
    rw [val_main_v163_apply, val_main_cst_32_apply, Ideal.ofBits_def, Ideal.ofBits_zero_f32]
  have hO : ∀ i, val_main_v159 (F := Ideal) i = 1 := by
    intro i
    rw [val_main_v159_apply, val_main_cst_30_apply, Ideal.ofBits_def, ofBits_one_f32]
  -- the divisor at (g, q) is the count of graph g, at least one
  have hden : val_main_v169 (F := Ideal) x2 (ix2 g q)
      = max (∑ p : Fin 100000, (if x2 (ix1 p) = BitVec.ofNat 32 g.val then (1 : EReal) else 0))
          (Ideal.ofBits .f32 0x3F800000#32) := by
    rw [val_main_v169_apply, val_main_v168_apply, val_main_v167_apply, Ideal.maximumf_def, val_main_v166_apply,
      val_main_cst_33_apply, Ideal.ofBits_def]
    have hg : idx_main_v168 (idx_main_v169 (ix2 g q : S64x128.Idx)) = ix1 g :=
      funext fun a => match a with | ⟨0, _⟩ => rfl
    rw [hg]
    unfold val_main_v162
    rw [counts_apply _ hZ1 x2 _ hI1 _ hO g]
  rw [val_main_v170_apply, Ideal.hostDivf_def, hden]
  unfold val_main_v165
  rw [sums_apply _ hZ2 x2 _ hI2 _ g q]

end Cert.RefPool

end
-- ==== Proof.KPool.lean ====
/-
  From the pool kernel to the program's result, at the ideal instance.

  After the pool kernel the host divides the per-graph sums by the per-graph counts, the count taken at least one (the
  mean pool), and applies the head `relu (P · W₁ + b₁) · W₂ + b₂`. The reference computes the same head of its own
  segment mean. The kernel's two arrays are the one-hot weighted sums and counts over the batch column, which is the
  batch vector viewed as a one-column matrix; so, the node features entering the pool kernel being the reference's last
  node stage, the two mean pools agree entry by entry, and the results are the same head of the same array.
-/
import proofs.«420901_j2903397892205_1_alg».proof.Proof.Gen.KernelIdeal.Frame
import proofs.«420901_j2903397892205_1_alg».proof.Proof.RegPool9
import proofs.«420901_j2903397892205_1_alg».proof.Proof.Kept
import proofs.«420901_j2903397892205_1_alg».proof.Proof.RefImports
import proofs.«420901_j2903397892205_1_alg».proof.Proof.RefPool
import Idealize.ShloMosaic.Lib.StableHlo.Run
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Gen

open Cert.KernelIdeal Cert.KernelIdeal.Gen Idealize.ShloMosaic Idealize.ShloMosaic.TcCoe Idealize.SL.Sem Idealize.ShloMosaic.ValueIdx Idealize.ShloMosaic.StableHlo

section Terms
variable {F : FTy → Type} [FloatOps F]

/-- The mean pool: the per-graph sums over the per-graph counts, the count taken at least one. -/
def poolTerm (S : (⟨S64x128, .f32⟩ : BufTy).Contents (Elt F)) (C : (⟨S64x1, .f32⟩ : BufTy).Contents (Elt F)) :
    (⟨S64x128, .f32⟩ : BufTy).Contents (Elt F) :=
  Host.divf S (broadcastInDim S64x128 ![0, 1] bcast_S64x1_S64x128_0_1
    (maximumf C (broadcastInDim S64x1 ![] bcast_S_S64x1 (constant S_ .f32 0x3F800000#32))))

/-- The head: `relu (P · W₁ + b₁) · W₂ + b₂` of the pooled array `P`. -/
def poolHeadTerm (P : (⟨S64x128, .f32⟩ : BufTy).Contents (Elt F)) (w1 : (⟨S128x128, .f32⟩ : BufTy).Contents (Elt F))
    (b1 : (⟨S128, .f32⟩ : BufTy).Contents (Elt F)) (w2 : (⟨S128x16, .f32⟩ : BufTy).Contents (Elt F))
    (b2 : (⟨S16, .f32⟩ : BufTy).Contents (Elt F)) : (⟨S64x16, .f32⟩ : BufTy).Contents (Elt F) :=
  addf
    (Host.dotGeneral dot_S64x128_S128x16_S64x16_1_0_0_1_n_n none
      (maximumf
        (addf (Host.dotGeneral dot_S64x128_S128x128_S64x128_1_0_0_1_n_n none P w1)
          (broadcastInDim S64x128 ![0, 1] bcast_S1x128_S64x128_0_1 (broadcastInDim S1x128 ![1] bcast_S128_S1x128_1 b1)))
        (broadcastInDim S64x128 ![] bcast_S_S64x128 (constant S_ .f32 0x00000000#32)))
      w2)
    (broadcastInDim S64x16 ![0, 1] bcast_S1x16_S64x16_0_1 (broadcastInDim S1x16 ![1] bcast_S16_S1x16_1 b2))

variable (m : (ℓ : Loc nD τ sig) → Buf (Elt F) ℓ) (ρ : Dev nD → PrngReg)

/-- What the host operations after the pool kernel leave in `main_v131`: the head of the mean pool of the kernel's two arrays. -/
theorem pool_tail_v131 (c : Dev nD) : W23 m ρ c (Proc.devRef .tc main_v131)
    = poolHeadTerm (poolTerm (W20 m ρ c (Proc.devRef .tc main_v118_0)) (W20 m ρ c (Proc.devRef .tc main_v118_1)))
        (W20 m ρ c (Proc.devRef .tc main_arg15)) (W20 m ρ c (Proc.devRef .tc main_arg16))
        (W20 m ρ c (Proc.devRef .tc main_arg17)) (W20 m ρ c (Proc.devRef .tc main_arg18)) := by
  show StableHlo.after hostOps10_2 (StableHlo.after hostOps10_1 (StableHlo.after hostOps10 (W20 m ρ c))) (Proc.devRef .tc main_v131) = _
  simp only [hostOps10, hostOps10_1, hostOps10_2]
  after_results_simp
  simp only [TRef.ofBuf, TRef.toBuf, cast_eq]
  rfl

end Terms

section RefHead
variable {F : FTy → Type} [FloatOps F]

/-- The reference's result is the same head of its own mean pool. -/
theorem pool_ref_v179 (x0 : (⟨S100000x1, .f32⟩ : BufTy).Contents (Elt F)) (x1 : (⟨S2x1600000, .i32⟩ : BufTy).Contents (Elt F))
    (x2 : (⟨S100000, .i32⟩ : BufTy).Contents (Elt F)) (x3 : (⟨S1x128, .f32⟩ : BufTy).Contents (Elt F))
    (x4 x5 x6 : (⟨S128, .f32⟩ : BufTy).Contents (Elt F)) (x7 : (⟨S128x128, .f32⟩ : BufTy).Contents (Elt F))
    (x8 x9 x10 : (⟨S128, .f32⟩ : BufTy).Contents (Elt F)) (x11 : (⟨S128x128, .f32⟩ : BufTy).Contents (Elt F))
    (x12 x13 x14 : (⟨S128, .f32⟩ : BufTy).Contents (Elt F)) (x15 : (⟨S128x128, .f32⟩ : BufTy).Contents (Elt F))
    (x16 : (⟨S128, .f32⟩ : BufTy).Contents (Elt F)) (x17 : (⟨S128x16, .f32⟩ : BufTy).Contents (Elt F))
    (x18 : (⟨S16, .f32⟩ : BufTy).Contents (Elt F)) :
    Cert.ReferenceIdeal.Read.val_main_v179 (F := F) x0 x1 x2 x3 x4 x5 x6 x7 x8 x9 x10 x11 x12 x13 x14 x15 x16 x17 x18
      = poolHeadTerm (Cert.ReferenceIdeal.Read.val_main_v170 (F := F) x0 x1 x2 x3 x4 x5 x6 x7 x8 x9 x10 x11 x12 x13 x14) x15 x16 x17 x18 := by
  unfold Cert.ReferenceIdeal.Read.val_main_v179 Cert.ReferenceIdeal.Read.val_main_v178 Cert.ReferenceIdeal.Read.val_main_v177
    Cert.ReferenceIdeal.Read.val_main_v176 Cert.ReferenceIdeal.Read.val_main_v175 Cert.ReferenceIdeal.Read.val_main_call4_v0
    Cert.ReferenceIdeal.Read.val_main_call4_cst Cert.ReferenceIdeal.Read.val_main_v174 Cert.ReferenceIdeal.Read.val_main_v173
    Cert.ReferenceIdeal.Read.val_main_v172 Cert.ReferenceIdeal.Read.val_main_v171
  rfl

end RefHead

section PoolIdeal

/-- The mean pool at (g, q): the sum there over the count of graph `g`, the count taken at least one. -/
theorem poolTerm_apply (S : S64x128.Idx → EReal) (C : S64x1.Idx → EReal) (g : Fin 64) (q : Fin 128) :
    poolTerm (F := Ideal) S C (ix2 g q)
      = Ideal.div (S (ix2 g q)) (max (C (ix2 g 0)) (Ideal.ofBits .f32 0x3F800000#32)) := by
  unfold poolTerm
  show Ideal.div (S (ix2 g q)) (broadcastInDim S64x128 ![0, 1] bcast_S64x1_S64x128_0_1
    (maximumf (F := Ideal) C (broadcastInDim S64x1 ![] bcast_S_S64x1 (constant S_ .f32 0x3F800000#32))) (ix2 g q)) = _
  refine congrArg (Ideal.div (S (ix2 g q))) ?_
  refine (broadcastInDim_apply ![0, 1] bcast_S64x1_S64x128_0_1
    (maximumf (F := Ideal) C (broadcastInDim S64x1 ![] bcast_S_S64x1 (constant S_ .f32 0x3F800000#32))) (ix2 g q) (ix2 g 0)
    (fun a => match a with
      | ⟨0, _⟩ => by show g.val = if (64 : Nat) = 1 then 0 else g.val; rw [if_neg (by decide)]
      | ⟨1, _⟩ => by show (0 : Nat) = if (1 : Nat) = 1 then 0 else q.val; rw [if_pos rfl])).trans ?_
  rfl

/-- With the two arrays at the one-hot sums and counts over the batch column, the mean pool is the segment mean over
    the batch vector. -/
theorem poolTerm_eq_mean (S : S64x128.Idx → EReal) (C : S64x1.Idx → EReal) (x2 : S100000.Idx → BitVec 32)
    (H : S100000x128.Idx → EReal) (Bt : S100000x1.Idx → BitVec 32) (hBt : ∀ p : Fin 100000, Bt (ix2 p 0) = x2 (ix1 p))
    (hS : ∀ (g : Fin 64) (q : Fin 128), S (ix2 g q)
      = ∑ p : Fin 100000, (if Bt (ix2 p 0) = BitVec.ofNat 32 g.val then (1 : EReal) else 0) * H (ix2 p q))
    (hC : ∀ g : Fin 64, C (ix2 g 0) = ∑ p : Fin 100000, (if Bt (ix2 p 0) = BitVec.ofNat 32 g.val then (1 : EReal) else 0))
    (g : Fin 64) (q : Fin 128) :
    poolTerm (F := Ideal) S C (ix2 g q)
      = Ideal.div (∑ p : Fin 100000, (if x2 (ix1 p) = BitVec.ofNat 32 g.val then (1 : EReal) else 0) * H (ix2 p q))
          (max (∑ p : Fin 100000, (if x2 (ix1 p) = BitVec.ofNat 32 g.val then (1 : EReal) else 0)) (Ideal.ofBits .f32 0x3F800000#32)) := by
  rw [poolTerm_apply, hS, hC]
  simp only [hBt]

/-- A vector viewed as a one-column matrix: entry (p, 0) is entry p. -/
theorem pool_column_apply (x2 : S100000.Idx → BitVec 32) (p : Fin 100000) :
    shapeCast S100000x1 x2 shapeCasts_S100000_S100000x1 (ix2 p 0) = x2 (ix1 p) :=
  shapeCast_apply x2 shapeCasts_S100000_S100000x1 (ix2 p 0) (ix1 p) (by
    rw [Shape.rowMajor_val_one, Shape.rowMajor_val_two]
    show p.val = p.val * 1 + 0
    omega)

variable (m : (ℓ : Loc nD τ sig) → Buf (Elt Ideal) ℓ) (ρ : Dev nD → PrngReg)

/-- The pool kernel's batch column is the batch vector as a one-column matrix. -/
theorem pool_batch_W19 (c : Dev nD) : W19 m ρ c (Proc.devRef .tc main_v117)
    = shapeCast S100000x1 (W18 m ρ c (Proc.devRef .tc main_arg2)) shapeCasts_S100000_S100000x1 := by
  show StableHlo.after hostOps9 (W18 m ρ c) (Proc.devRef .tc main_v117) = _
  simp only [hostOps9]
  after_results_simp
  rfl

/-- From the pool kernel to the program's result: with the node features entering the pool kernel at the reference's
    last node stage, the program's result is the reference's. -/
theorem k_v131 (c : Dev nD) (x0 : (⟨S100000x1, .f32⟩ : BufTy).Contents (Elt Ideal)) (x1 : (⟨S2x1600000, .i32⟩ : BufTy).Contents (Elt Ideal))
    (x3 : (⟨S1x128, .f32⟩ : BufTy).Contents (Elt Ideal))
    (x4 x5 x6 : (⟨S128, .f32⟩ : BufTy).Contents (Elt Ideal)) (x7 : (⟨S128x128, .f32⟩ : BufTy).Contents (Elt Ideal))
    (x8 x9 x10 : (⟨S128, .f32⟩ : BufTy).Contents (Elt Ideal)) (x11 : (⟨S128x128, .f32⟩ : BufTy).Contents (Elt Ideal))
    (x12 x13 x14 : (⟨S128, .f32⟩ : BufTy).Contents (Elt Ideal))
    (hH : W18 m ρ c (Proc.devRef .tc main_v116)
      = Cert.ReferenceIdeal.Read.val_main_v158 (F := Ideal) x0 x1 x3 x4 x5 x6 x7 x8 x9 x10 x11 x12 x13 x14) :
    W23 m ρ c (Proc.devRef .tc main_v131)
      = Cert.ReferenceIdeal.Read.val_main_v179 (F := Ideal) x0 x1 (m ((c : Thread nD τ).loc main_arg2)) x3 x4 x5 x6 x7 x8 x9 x10 x11 x12 x13 x14
          (m ((c : Thread nD τ).loc main_arg15)) (m ((c : Thread nD τ).loc main_arg16)) (m ((c : Thread nD τ).loc main_arg17)) (m ((c : Thread nD τ).loc main_arg18)) := by
  rw [pool_tail_v131 m ρ c, pool_ref_v179, kept_main_arg15_W20, kept_main_arg16_W20, kept_main_arg17_W20, kept_main_arg18_W20]
  refine congrArg (fun P => poolHeadTerm P (m ((c : Thread nD τ).loc main_arg15)) (m ((c : Thread nD τ).loc main_arg16))
    (m ((c : Thread nD τ).loc main_arg17)) (m ((c : Thread nD τ).loc main_arg18))) (funext fun i => ?_)
  obtain ⟨g, q, rfl⟩ : ∃ (g : Fin 64) (q : Fin 128), i = ix2 g q := ⟨i 0, i 1, eq_ix2 i⟩
  have hH19 : V19 m ρ c main_v116
      = Cert.ReferenceIdeal.Read.val_main_v158 (F := Ideal) x0 x1 x3 x4 x5 x6 x7 x8 x9 x10 x11 x12 x13 x14 :=
    (kept_main_v116_W19 m ρ c).trans hH
  have hB19 : V19 m ρ c main_v117
      = shapeCast S100000x1 (m ((c : Thread nD τ).loc main_arg2)) shapeCasts_S100000_S100000x1 := by
    show W19 m ρ c (Proc.devRef .tc main_v117) = _
    rw [pool_batch_W19 m ρ c, kept_main_arg2_W18]
  refine (poolTerm_eq_mean (W20 m ρ c (Proc.devRef .tc main_v118_0)) (W20 m ρ c (Proc.devRef .tc main_v118_1))
    (m ((c : Thread nD τ).loc main_arg2))
    (Cert.ReferenceIdeal.Read.val_main_v158 (F := Ideal) x0 x1 x3 x4 x5 x6 x7 x8 x9 x10 x11 x12 x13 x14)
    (shapeCast S100000x1 (m ((c : Thread nD τ).loc main_arg2)) shapeCasts_S100000_S100000x1)
    (pool_column_apply (m ((c : Thread nD τ).loc main_arg2)))
    (fun g q => ?_) (fun g => ?_) g q).trans ?_
  · exact (congrFun (W20_arr m ρ c 2) (ix2 g q)).trans
      (Cert.KernelIdeal.RegVal.pool9_sum_of (V19 m ρ) c _ _ hH19 hB19 g q)
  · exact (congrFun (W20_arr m ρ c 3) (ix2 g 0)).trans
      (Cert.KernelIdeal.RegVal.pool9_cnt_of (V19 m ρ) c _ hB19 g)
  · exact (Cert.RefPool.ref_pool_apply x0 x1 (m ((c : Thread nD τ).loc main_arg2)) x3 x4 x5 x6 x7 x8 x9 x10 x11 x12 x13 x14 g q).symm

end PoolIdeal

end Cert.KernelIdeal.Gen

end
-- ==== Proof.BNMath.lean ====
/- The real-valued fragment of the extended reals: which extended reals are (coercions of) real numbers, its
   closure under the arithmetic a batch normalisation uses, the float constants of the programs as the reals
   their patterns denote, and the identity between the two textbook forms of a variance,
   max (E[a²] − E[a]², 0) = E[(a − E[a])²], for real data. -/
import Idealize.ShloMosaic.PureOps.Ideal
import Idealize.ShloMosaic.PureOps.Ideal.Laws
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Sqrt
import Mathlib.Tactic.Ring
import Mathlib.Tactic.FieldSimp
import Mathlib.Tactic.Positivity
import Mathlib.Tactic.NormNum

noncomputable section

namespace Cert.BNMath

open Idealize.ShloMosaic

universe u

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_neg {x : EReal} (hx : IsReal x) : IsReal (-x) := by
  obtain ⟨a, rfl⟩ := hx
  exact ⟨-a, (EReal.coe_neg a).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_max {x y : EReal} (hx : IsReal x) (hy : IsReal y) : IsReal (max x y) := by
  rcases max_choice x y with h | h <;> rw [h] <;> assumption

/-- A finite sum of reals is a real. -/
theorem isReal_sum {ι : Type u} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h _ (Finset.mem_insert_self _ _)) (ih (fun i hi => h i (Finset.mem_insert_of_mem hi)))

theorem isReal_sum_univ {ι : Type u} [Fintype ι] (f : ι → EReal) (h : ∀ i, IsReal (f i)) :
    IsReal (∑ i, f i) :=
  isReal_sum Finset.univ f (fun i _ => h i)

/-- Dividing a real by a nonzero real gives a real. -/
theorem isReal_div_coe {x : EReal} (hx : IsReal x) {c : ℝ} (hc : c ≠ 0) :
    IsReal (Ideal.div x ((c : ℝ) : EReal)) := by
  rw [Ideal.div_coe hc]
  exact isReal_mul hx (isReal_coe _)

/-- The reciprocal square root of a positive real is a real. -/
theorem isReal_rsqrt_of_pos {r : ℝ} (hr : 0 < r) : IsReal (Ideal.rsqrt ((r : ℝ) : EReal)) := by
  rw [Ideal.rsqrt_coe, if_neg (not_lt.mpr hr.le), if_neg hr.ne']
  exact isReal_coe _

/-! ### The float constants -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `100000.0 = (2²³ + 4411392) · 2⁻⁷` denotes the real `100000`. -/
theorem ofBits_100000 : Ideal.ofBits .f32 0x47C35000#32 = ((100000 : ℝ) : EReal) := by
  simp [Ideal.ofBits, Ideal.ieee, -EReal.coe_mul]; norm_num

/-- The real the pattern `0x3727C5AC` denotes: `(2²³ + 2606508) · 2⁻⁴⁰ = 10995116 · 2⁻⁴⁰`, about `1.0e-5`. -/
def eps : ℝ := 10995116 / 2 ^ 40

theorem eps_pos : 0 < eps := by
  unfold eps; positivity

theorem ofBits_eps : Ideal.ofBits .f32 0x3727C5AC#32 = ((eps : ℝ) : EReal) := by
  simp [Ideal.ofBits, Ideal.ieee, -EReal.coe_mul]
  rw [eps, div_eq_mul_inv]

theorem isReal_ofBits_zero : IsReal (Ideal.ofBits .f32 0x00000000#32) := ofBits_zero ▸ isReal_zero

theorem isReal_ofBits_one : IsReal (Ideal.ofBits .f32 0x3F800000#32) := ofBits_one ▸ isReal_one

theorem isReal_ofBits_100000 : IsReal (Ideal.ofBits .f32 0x47C35000#32) := ofBits_100000 ▸ isReal_coe _

theorem isReal_ofBits_eps : IsReal (Ideal.ofBits .f32 0x3727C5AC#32) := ofBits_eps ▸ isReal_coe _

/-! ### The two forms of the variance -/

/-- The coercion of the reals commutes with finite sums. -/
theorem coe_sum {ι : Type u} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: the mean of the squares minus the squared mean is the mean of the centred squares,
    since `∑ (bᵢ − m)² = ∑ bᵢ² − 2 m ∑ bᵢ + n m²` and `m = (∑ bᵢ) / n`. -/
theorem var_real {n : ℕ} (hn : 0 < n) (b : Fin n → ℝ) :
    (∑ i, b i * b i) * (1 / (n : ℝ)) - (∑ i, b i) * (1 / (n : ℝ)) * ((∑ i, b i) * (1 / (n : ℝ)))
      = (∑ i, (b i - (∑ j, b j) * (1 / (n : ℝ))) * (b i - (∑ j, b j) * (1 / (n : ℝ)))) * (1 / (n : ℝ)) := by
  have hn' : (n : ℝ) ≠ 0 := by exact_mod_cast hn.ne'
  generalize hm : (∑ j, b j) * (1 / (n : ℝ)) = m
  have h : ∀ i, (b i - m) * (b i - m) = b i * b i - 2 * m * b i + m * m := fun i => by ring
  simp only [h, Finset.sum_add_distrib, Finset.sum_sub_distrib, ← Finset.mul_sum, Finset.sum_const, Finset.card_univ,
    Fintype.card_fin, nsmul_eq_mul]
  subst hm
  field_simp
  ring

/-- For real data both forms of the variance, before the clamp at `0`, are one nonnegative real:
    the mean of the centred squares. -/
theorem var_both {n : ℕ} (hn : 0 < n) (a : Fin n → EReal) (ha : ∀ i, IsReal (a i)) :
    ∃ r : ℝ, 0 ≤ r ∧
      Ideal.div (∑ i, a i * a i) ((n : ℝ) : EReal)
          - Ideal.div (∑ i, a i) ((n : ℝ) : EReal) * Ideal.div (∑ i, a i) ((n : ℝ) : EReal) = ((r : ℝ) : EReal) ∧
      Ideal.div (∑ i, (a i - Ideal.div (∑ j, a j) ((n : ℝ) : EReal))
                        * (a i - Ideal.div (∑ j, a j) ((n : ℝ) : EReal))) ((n : ℝ) : EReal) = ((r : ℝ) : EReal) := by
  have hn' : (n : ℝ) ≠ 0 := by exact_mod_cast hn.ne'
  choose b hb using ha
  obtain rfl : a = fun i => ((b i : ℝ) : EReal) := funext hb
  refine ⟨(∑ i, (b i - (∑ j, b j) * (1 / (n : ℝ))) * (b i - (∑ j, b j) * (1 / (n : ℝ)))) * (1 / (n : ℝ)),
    mul_nonneg (Finset.sum_nonneg fun i _ => mul_self_nonneg _) (by positivity), ?_, ?_⟩
  · rw [← var_real hn b]
    simp only [Ideal.div_coe hn', ← EReal.coe_mul, coe_sum, ← EReal.coe_sub]
  · simp only [Ideal.div_coe hn', ← EReal.coe_mul, coe_sum, ← EReal.coe_sub]

/-- For real data, `max (E[a²] − E[a]², 0) = E[(a − E[a])²]`. -/
theorem var_identity {n : ℕ} (hn : 0 < n) (a : Fin n → EReal) (ha : ∀ i, IsReal (a i)) :
    max (Ideal.div (∑ i, a i * a i) ((n : ℝ) : EReal)
          - Ideal.div (∑ i, a i) ((n : ℝ) : EReal) * Ideal.div (∑ i, a i) ((n : ℝ) : EReal)) 0
      = Ideal.div (∑ i, (a i - Ideal.div (∑ j, a j) ((n : ℝ) : EReal))
                        * (a i - Ideal.div (∑ j, a j) ((n : ℝ) : EReal))) ((n : ℝ) : EReal) := by
  obtain ⟨r, hr, h1, h2⟩ := var_both hn a ha
  rw [h1, h2]
  exact max_eq_left (EReal.coe_nonneg.mpr hr)

/-- That common value is a nonnegative real. -/
theorem var_nonneg_real {n : ℕ} (hn : 0 < n) (a : Fin n → EReal) (ha : ∀ i, IsReal (a i)) :
    ∃ r : ℝ, 0 ≤ r ∧
      max (Ideal.div (∑ i, a i * a i) ((n : ℝ) : EReal)
          - Ideal.div (∑ i, a i) ((n : ℝ) : EReal) * Ideal.div (∑ i, a i) ((n : ℝ) : EReal)) 0
        = ((r : ℝ) : EReal) := by
  obtain ⟨r, hr, h1, _⟩ := var_both hn a ha
  exact ⟨r, hr, by rw [h1]; exact max_eq_left (EReal.coe_nonneg.mpr hr)⟩

/-- A nonnegative real plus a positive real has a real reciprocal square root. -/
theorem isReal_rsqrt_add_of_nonneg {x : EReal} (hx : ∃ r : ℝ, 0 ≤ r ∧ x = ((r : ℝ) : EReal)) {e : ℝ} (he : 0 < e) :
    IsReal (Ideal.rsqrt (x + ((e : ℝ) : EReal))) := by
  obtain ⟨r, hr, rfl⟩ := hx
  rw [← EReal.coe_add]
  exact isReal_rsqrt_of_pos (by linarith)

/-! ### Further closure facts -/

theorem isReal_ite {p : Prop} [Decidable p] {x y : EReal} (hx : IsReal x) (hy : IsReal y) :
    IsReal (if p then x else y) := by
  split <;> assumption

theorem isReal_ne_top {x : EReal} (hx : IsReal x) : x ≠ ⊤ := by
  obtain ⟨a, rfl⟩ := hx; exact EReal.coe_ne_top a

theorem isReal_ne_bot {x : EReal} (hx : IsReal x) : x ≠ ⊥ := by
  obtain ⟨a, rfl⟩ := hx; exact EReal.coe_ne_bot a

/-- An extended real that is neither infinity is a real. -/
theorem isReal_of_ne {x : EReal} (hb : x ≠ ⊥) (ht : x ≠ ⊤) : IsReal x :=
  ⟨x.toReal, (EReal.coe_toReal ht hb).symm⟩

theorem isReal_iff_ne {x : EReal} : IsReal x ↔ x ≠ ⊥ ∧ x ≠ ⊤ :=
  ⟨fun h => ⟨isReal_ne_bot h, isReal_ne_top h⟩, fun h => isReal_of_ne h.1 h.2⟩

theorem isReal_natCast (k : ℕ) : IsReal ((k : ℕ) : EReal) :=
  ⟨(k : ℝ), (EReal.coe_natCast (n := k)).symm⟩

/-- The reciprocal square root of a positive real is a positive real. -/
theorem rsqrt_coe_pos {r : ℝ} (hr : 0 < r) :
    ∃ s : ℝ, 0 < s ∧ Ideal.rsqrt ((r : ℝ) : EReal) = ((s : ℝ) : EReal) := by
  refine ⟨(Real.sqrt r)⁻¹, inv_pos.mpr (Real.sqrt_pos.mpr hr), ?_⟩
  rw [Ideal.rsqrt_coe, if_neg (not_lt.mpr hr.le), if_neg hr.ne']

end Cert.BNMath

end
-- ==== Proof.RefBN.lean ====
/- The reference's batch normalisation with ReLU, read at an index, for each of its three layers.

   A layer takes its pre-activation A (100000 rows, 128 columns), a scale g and a shift b (128 each), and returns
   max (g_q · (A_pq − mean_q) · rsqrt (var_q + ε) + b_q, 0), where mean_q is the column sum over 100000 and var_q is the
   column mean of the squared distances to mean_q. The three layers are the same stages over different arrays, so the
   stages are composed once over arbitrary A, g, b (`bnRelu`) and read there; each layer's output is that composition
   by unfolding. For real A the variance equals max (E[a²] − E[a]², 0), the form stated in `ref_bn1_apply`,
   `ref_bn2_apply`, `ref_bn3_apply`; and for real A, g, b every entry of the output is real. -/
import proofs.«420901_j2903397892205_1_alg».proof.Proof.RefImports
import proofs.«420901_j2903397892205_1_alg».proof.Proof.BNMath
import Idealize.ShloMosaic.Lib.Pipeline.Value
import Idealize.ShloMosaic.Lib.ValueIdx
import Idealize.ShloMosaic.Lib.IdealHost
import Idealize.ShloMosaic.PureOps.Ideal.Laws
import Mathlib.Tactic.NormNum

noncomputable section

namespace Cert.RefBN

open Cert.ReferenceIdeal Cert.ReferenceIdeal.Gen Cert.ReferenceIdeal.Read Idealize.ShloMosaic Idealize.ShloMosaic.ValueIdx Cert.BNMath
open scoped BigOperators

/-! ## One layer's normalisation as a function of its input

The three layers of the reference normalise their pre-activations by the same stages. The stages are
composed here once, over an arbitrary 100000 × 128 array `A`, scale `g` and shift `b`, and read at an index. -/

/-- A 100000 × 128 array of ideal values, and a vector of 128 of them. -/
abbrev Mat : Type := FVec Ideal S100000x128 .f32
abbrev Lane : Type := FVec Ideal S128 .f32

/-- A vector of 128 broadcast along the rows: first to 1 × 128, then to 100000 × 128. -/
def rowBc (y : Lane) : Mat :=
  broadcastInDim S100000x128 ![0, 1] bcast_S1x128_S100000x128_0_1 (broadcastInDim S1x128 ![1] bcast_S128_S1x128_1 y)

/-- A float constant broadcast to a vector of 128. -/
def laneConst (b : BitVec 32) : Lane :=
  broadcastInDim S128 ![] bcast_S_S128 (constant (F := Ideal) S_ .f32 b)

/-- The column means: the sum over the rows, started from the zero constant, divided by the constant 100000. -/
def colMean (A : Mat) : Lane :=
  Host.divf (Host.reduceAdd A (constant (F := Ideal) S_ .f32 0x00000000#32) reducesTo_S100000x128_S128_d0 h_S_)
    (laneConst 0x47C35000#32)

/-- The column variances as the reference takes them: the column means of the centred squares. -/
def colVar (A : Mat) : Lane :=
  colMean (mulf (subf A (rowBc (colMean A))) (subf A (rowBc (colMean A))))

/-- Scale times centred input times the reciprocal root of variance plus epsilon, plus shift, clamped below at zero. -/
def bnRelu (A : Mat) (g b : Lane) : Mat :=
  maximumf
    (addf (mulf (mulf (rowBc g) (subf A (rowBc (colMean A))))
                (rowBc (Host.rsqrt (addf (colVar A) (laneConst 0x3727C5AC#32)))))
          (rowBc b))
    (broadcastInDim S100000x128 ![] bcast_S_S100000x128 (constant (F := Ideal) S_ .f32 0x00000000#32))

/-- The row broadcast reads the vector at the column. -/
theorem rowBc_apply (y : Lane) (p : Fin 100000) (q : Fin 128) : rowBc y (ix2 p q) = y (ix1 q) := by
  unfold rowBc
  rw [broadcastInDim_apply _ bcast_S1x128_S100000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  exact broadcastInDim_apply _ bcast_S128_S1x128_1 y (ix2 (0 : Fin 1) q) (ix1 q) (fun a => match a with
    | ⟨0, _⟩ => by show q.val = if (128 : Nat) = 1 then 0 else q.val; rw [if_neg (by decide)])

/-- A broadcast constant reads the constant's value everywhere. -/
theorem laneConst_apply (b : BitVec 32) (j : S128.Idx) : laneConst b j = Ideal.ofBits .f32 b := by
  unfold laneConst
  rw [broadcastInDim_scalar_apply]
  rfl

/-- The reciprocal square root of a vector is taken entry by entry. -/
theorem hostRsqrt_apply (x : Lane) (j : S128.Idx) : Host.rsqrt x j = Ideal.rsqrt (x j) := rfl

/-- The column mean at column `q`: the sum of the column (the zero it starts from dropped) over 100000. -/
theorem colMean_apply (A : Mat) (q : Fin 128) :
    colMean A (ix1 q) = Ideal.div (∑ k : Fin 100000, A (ix2 k q)) (Ideal.ofBits .f32 0x47C35000#32) := by
  unfold colMean
  rw [hostDivf_apply, laneConst_apply, hostReduceAdd_apply,
    Ideal.hostReduceAdd_single reducesTo_S100000x128_S128_d0 (by decide)]
  rw [constant_apply, ofBits_zero, zero_add]
  refine congrArg (fun x => Ideal.div x (Ideal.ofBits .f32 0x47C35000#32)) ?_
  refine Finset.sum_congr rfl fun k _ => ?_
  exact congrArg A (funext fun a => Fin.ext (by match a with | ⟨0, _⟩ => rfl | ⟨1, _⟩ => rfl))

/-- The column variance at column `q`: the mean of the squared distances to the column mean. -/
theorem colVar_apply (A : Mat) (q : Fin 128) :
    colVar A (ix1 q)
      = Ideal.div (∑ k : Fin 100000,
            (A (ix2 k q) - Ideal.div (∑ j : Fin 100000, A (ix2 j q)) (Ideal.ofBits .f32 0x47C35000#32))
              * (A (ix2 k q) - Ideal.div (∑ j : Fin 100000, A (ix2 j q)) (Ideal.ofBits .f32 0x47C35000#32)))
          (Ideal.ofBits .f32 0x47C35000#32) := by
  unfold colVar
  rw [colMean_apply]
  refine congrArg (fun x => Ideal.div x (Ideal.ofBits .f32 0x47C35000#32)) ?_
  refine Finset.sum_congr rfl fun k _ => ?_
  rw [mulf_apply, subf_apply, rowBc_apply, colMean_apply]

/-- The layer's output at (p, q) with the variance in the reference's own form, the mean of centred squares. -/
theorem bnRelu_apply_centred (A : Mat) (g b : Lane) (p : Fin 100000) (q : Fin 128) :
    bnRelu A g b (ix2 p q)
      = max (g (ix1 q) * (A (ix2 p q) - Ideal.div (∑ k : Fin 100000, A (ix2 k q)) (Ideal.ofBits .f32 0x47C35000#32))
              * Ideal.rsqrt (Ideal.div (∑ k : Fin 100000,
                    (A (ix2 k q) - Ideal.div (∑ j : Fin 100000, A (ix2 j q)) (Ideal.ofBits .f32 0x47C35000#32))
                      * (A (ix2 k q) - Ideal.div (∑ j : Fin 100000, A (ix2 j q)) (Ideal.ofBits .f32 0x47C35000#32)))
                  (Ideal.ofBits .f32 0x47C35000#32) + Ideal.ofBits .f32 0x3727C5AC#32)
              + b (ix1 q)) (Ideal.ofBits .f32 0x00000000#32) := by
  unfold bnRelu
  rw [maximumf_apply, addf_apply, mulf_apply, mulf_apply, subf_apply, rowBc_apply g, rowBc_apply b,
    rowBc_apply (colMean A), rowBc_apply (Host.rsqrt _), hostRsqrt_apply, addf_apply, colVar_apply, colMean_apply,
    laneConst_apply, broadcastInDim_scalar_apply, constant_apply]

/-- The constant 100000 as the cast of the natural number, the form the variance identity is stated with. -/
theorem ofBits_100000_nat : Ideal.ofBits .f32 0x47C35000#32 = (((100000 : ℕ) : ℝ) : EReal) := by
  rw [ofBits_100000, Nat.cast_ofNat]

/-- The layer's output at (p, q) for real input, the variance rewritten as max (E[a²] − E[a]², 0): for real data
    that clamp is the mean of the centred squares the reference computes. -/
theorem bnRelu_apply (A : Mat) (g b : Lane) (hA : ∀ i, IsReal (A i)) (p : Fin 100000) (q : Fin 128) :
    bnRelu A g b (ix2 p q)
      = max (g (ix1 q) * (A (ix2 p q) - Ideal.div (∑ k : Fin 100000, A (ix2 k q)) (Ideal.ofBits .f32 0x47C35000#32))
              * Ideal.rsqrt (max (Ideal.div (∑ k : Fin 100000, A (ix2 k q) * A (ix2 k q)) (Ideal.ofBits .f32 0x47C35000#32)
                                    - Ideal.div (∑ k : Fin 100000, A (ix2 k q)) (Ideal.ofBits .f32 0x47C35000#32)
                                      * Ideal.div (∑ k : Fin 100000, A (ix2 k q)) (Ideal.ofBits .f32 0x47C35000#32))
                                  (Ideal.ofBits .f32 0x00000000#32)
                              + Ideal.ofBits .f32 0x3727C5AC#32)
              + b (ix1 q)) (Ideal.ofBits .f32 0x00000000#32) := by
  rw [bnRelu_apply_centred, ofBits_zero, ofBits_100000_nat,
    var_identity (by norm_num) (fun k : Fin 100000 => A (ix2 k q)) (fun k => hA _)]

/-- For real input, scale and shift, every entry of the layer's output is real: the mean is a real sum over a nonzero
    real, the clamped variance a nonnegative real, so the root's argument is positive. -/
theorem bnRelu_real (A : Mat) (g b : Lane) (hA : ∀ i, IsReal (A i)) (hg : ∀ j, IsReal (g j)) (hb : ∀ j, IsReal (b j))
    (i : S100000x128.Idx) : IsReal (bnRelu A g b i) := by
  obtain ⟨p, q, rfl⟩ : ∃ (p : Fin 100000) (q : Fin 128), i = ix2 p q := ⟨i 0, i 1, eq_ix2 i⟩
  rw [bnRelu_apply A g b hA, ofBits_zero, ofBits_eps, ofBits_100000_nat]
  have hm : IsReal (Ideal.div (∑ k : Fin 100000, A (ix2 k q)) (((100000 : ℕ) : ℝ) : EReal)) :=
    isReal_div_coe (isReal_sum_univ _ fun k => hA _) (by norm_num)
  refine isReal_max (isReal_add (isReal_mul (isReal_mul (hg _) (isReal_sub (hA _) hm)) ?_) (hb _)) ⟨0, rfl⟩
  exact isReal_rsqrt_add_of_nonneg (var_nonneg_real (by norm_num) (fun k : Fin 100000 => A (ix2 k q)) fun k => hA _) eps_pos

/-! ## The three layers

The reference's arguments: `x0` the node features, `x1` the edge list, then per layer a weight, a bias, a scale and a
shift (`x3 x4 x5 x6`, `x7 x8 x9 x10`, `x11 x12 x13 x14`). -/

variable (x0 : (⟨S100000x1, .f32⟩ : BufTy).Contents (Elt Ideal)) (x1 : (⟨S2x1600000, .i32⟩ : BufTy).Contents (Elt Ideal))
  (x3 : (⟨S1x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))
  (x11 : (⟨S128x128, .f32⟩ : BufTy).Contents (Elt Ideal)) (x12 x13 x14 : (⟨S128, .f32⟩ : BufTy).Contents (Elt Ideal))

/-- Layer 1's output is the composed stages at its pre-activation, scale and shift. -/
theorem ref_bn1_eq :
    val_main_v72 (F := Ideal) x0 x1 x3 x4 x5 x6 = bnRelu (val_main_v46 (F := Ideal) x0 x1 x3 x4) x5 x6 := rfl

/-- Layer 1's output at (p, q), for a real pre-activation. -/
theorem ref_bn1_apply (hA : ∀ i, IsReal (val_main_v46 (F := Ideal) x0 x1 x3 x4 i)) (p : Fin 100000) (q : Fin 128) :
    val_main_v72 (F := Ideal) x0 x1 x3 x4 x5 x6 (ix2 p q)
      = max (x5 (ix1 q)
              * (val_main_v46 (F := Ideal) x0 x1 x3 x4 (ix2 p q)
                  - Ideal.div (∑ k : Fin 100000, val_main_v46 (F := Ideal) x0 x1 x3 x4 (ix2 k q)) (Ideal.ofBits .f32 0x47C35000#32))
              * Ideal.rsqrt
                  (max (Ideal.div (∑ k : Fin 100000, val_main_v46 (F := Ideal) x0 x1 x3 x4 (ix2 k q)
                                      * val_main_v46 (F := Ideal) x0 x1 x3 x4 (ix2 k q)) (Ideal.ofBits .f32 0x47C35000#32)
                        - Ideal.div (∑ k : Fin 100000, val_main_v46 (F := Ideal) x0 x1 x3 x4 (ix2 k q)) (Ideal.ofBits .f32 0x47C35000#32)
                          * Ideal.div (∑ k : Fin 100000, val_main_v46 (F := Ideal) x0 x1 x3 x4 (ix2 k q)) (Ideal.ofBits .f32 0x47C35000#32))
                      (Ideal.ofBits .f32 0x00000000#32)
                    + Ideal.ofBits .f32 0x3727C5AC#32)
              + x6 (ix1 q)) (Ideal.ofBits .f32 0x00000000#32) :=
  bnRelu_apply (val_main_v46 (F := Ideal) x0 x1 x3 x4) x5 x6 hA p q

/-- Layer 1's output is real wherever its pre-activation, scale and shift are. -/
theorem ref_bn1_real (hA : ∀ i, IsReal (val_main_v46 (F := Ideal) x0 x1 x3 x4 i)) (hg : ∀ j, IsReal (x5 j))
    (hb : ∀ j, IsReal (x6 j)) : ∀ i, IsReal (val_main_v72 (F := Ideal) x0 x1 x3 x4 x5 x6 i) :=
  bnRelu_real (val_main_v46 (F := Ideal) x0 x1 x3 x4) x5 x6 hA hg hb

/-- Layer 2's output is the composed stages at its pre-activation, scale and shift. -/
theorem ref_bn2_eq :
    val_main_v115 (F := Ideal) x0 x1 x3 x4 x5 x6 x7 x8 x9 x10
      = bnRelu (val_main_v89 (F := Ideal) x0 x1 x3 x4 x5 x6 x7 x8) x9 x10 := rfl

/-- Layer 2's output at (p, q), for a real pre-activation. -/
theorem ref_bn2_apply (hA : ∀ i, IsReal (val_main_v89 (F := Ideal) x0 x1 x3 x4 x5 x6 x7 x8 i)) (p : Fin 100000) (q : Fin 128) :
    val_main_v115 (F := Ideal) x0 x1 x3 x4 x5 x6 x7 x8 x9 x10 (ix2 p q)
      = max (x9 (ix1 q)
              * (val_main_v89 (F := Ideal) x0 x1 x3 x4 x5 x6 x7 x8 (ix2 p q)
                  - Ideal.div (∑ k : Fin 100000, val_main_v89 (F := Ideal) x0 x1 x3 x4 x5 x6 x7 x8 (ix2 k q)) (Ideal.ofBits .f32 0x47C35000#32))
              * Ideal.rsqrt
                  (max (Ideal.div (∑ k : Fin 100000, val_main_v89 (F := Ideal) x0 x1 x3 x4 x5 x6 x7 x8 (ix2 k q)
                                      * val_main_v89 (F := Ideal) x0 x1 x3 x4 x5 x6 x7 x8 (ix2 k q)) (Ideal.ofBits .f32 0x47C35000#32)
                        - Ideal.div (∑ k : Fin 100000, val_main_v89 (F := Ideal) x0 x1 x3 x4 x5 x6 x7 x8 (ix2 k q)) (Ideal.ofBits .f32 0x47C35000#32)
                          * Ideal.div (∑ k : Fin 100000, val_main_v89 (F := Ideal) x0 x1 x3 x4 x5 x6 x7 x8 (ix2 k q)) (Ideal.ofBits .f32 0x47C35000#32))
                      (Ideal.ofBits .f32 0x00000000#32)
                    + Ideal.ofBits .f32 0x3727C5AC#32)
              + x10 (ix1 q)) (Ideal.ofBits .f32 0x00000000#32) :=
  bnRelu_apply (val_main_v89 (F := Ideal) x0 x1 x3 x4 x5 x6 x7 x8) x9 x10 hA p q

/-- Layer 2's output is real wherever its pre-activation, scale and shift are. -/
theorem ref_bn2_real (hA : ∀ i, IsReal (val_main_v89 (F := Ideal) x0 x1 x3 x4 x5 x6 x7 x8 i)) (hg : ∀ j, IsReal (x9 j))
    (hb : ∀ j, IsReal (x10 j)) : ∀ i, IsReal (val_main_v115 (F := Ideal) x0 x1 x3 x4 x5 x6 x7 x8 x9 x10 i) :=
  bnRelu_real (val_main_v89 (F := Ideal) x0 x1 x3 x4 x5 x6 x7 x8) x9 x10 hA hg hb

/-- Layer 3's output is the composed stages at its pre-activation, scale and shift. -/
theorem ref_bn3_eq :
    val_main_v158 (F := Ideal) x0 x1 x3 x4 x5 x6 x7 x8 x9 x10 x11 x12 x13 x14
      = bnRelu (val_main_v132 (F := Ideal) x0 x1 x3 x4 x5 x6 x7 x8 x9 x10 x11 x12) x13 x14 := rfl

/-- Layer 3's output at (p, q), for a real pre-activation. -/
theorem ref_bn3_apply (hA : ∀ i, IsReal (val_main_v132 (F := Ideal) x0 x1 x3 x4 x5 x6 x7 x8 x9 x10 x11 x12 i))
    (p : Fin 100000) (q : Fin 128) :
    val_main_v158 (F := Ideal) x0 x1 x3 x4 x5 x6 x7 x8 x9 x10 x11 x12 x13 x14 (ix2 p q)
      = max (x13 (ix1 q)
              * (val_main_v132 (F := Ideal) x0 x1 x3 x4 x5 x6 x7 x8 x9 x10 x11 x12 (ix2 p q)
                  - Ideal.div (∑ k : Fin 100000, val_main_v132 (F := Ideal) x0 x1 x3 x4 x5 x6 x7 x8 x9 x10 x11 x12 (ix2 k q)) (Ideal.ofBits .f32 0x47C35000#32))
              * Ideal.rsqrt
                  (max (Ideal.div (∑ k : Fin 100000, val_main_v132 (F := Ideal) x0 x1 x3 x4 x5 x6 x7 x8 x9 x10 x11 x12 (ix2 k q)
                                      * val_main_v132 (F := Ideal) x0 x1 x3 x4 x5 x6 x7 x8 x9 x10 x11 x12 (ix2 k q)) (Ideal.ofBits .f32 0x47C35000#32)
                        - Ideal.div (∑ k : Fin 100000, val_main_v132 (F := Ideal) x0 x1 x3 x4 x5 x6 x7 x8 x9 x10 x11 x12 (ix2 k q)) (Ideal.ofBits .f32 0x47C35000#32)
                          * Ideal.div (∑ k : Fin 100000, val_main_v132 (F := Ideal) x0 x1 x3 x4 x5 x6 x7 x8 x9 x10 x11 x12 (ix2 k q)) (Ideal.ofBits .f32 0x47C35000#32))
                      (Ideal.ofBits .f32 0x00000000#32)
                    + Ideal.ofBits .f32 0x3727C5AC#32)
              + x14 (ix1 q)) (Ideal.ofBits .f32 0x00000000#32) :=
  bnRelu_apply (val_main_v132 (F := Ideal) x0 x1 x3 x4 x5 x6 x7 x8 x9 x10 x11 x12) x13 x14 hA p q

/-- Layer 3's output is real wherever its pre-activation, scale and shift are. -/
theorem ref_bn3_real (hA : ∀ i, IsReal (val_main_v132 (F := Ideal) x0 x1 x3 x4 x5 x6 x7 x8 x9 x10 x11 x12 i))
    (hg : ∀ j, IsReal (x13 j)) (hb : ∀ j, IsReal (x14 j)) :
    ∀ i, IsReal (val_main_v158 (F := Ideal) x0 x1 x3 x4 x5 x6 x7 x8 x9 x10 x11 x12 x13 x14 i) :=
  bnRelu_real (val_main_v132 (F := Ideal) x0 x1 x3 x4 x5 x6 x7 x8 x9 x10 x11 x12) x13 x14 hA hg hb

end Cert.RefBN

end
-- ==== Proof.FinLayer.lean ====
/- The aggregated features of each graph-convolution layer are real numbers when their inputs are.
   An entry of a contraction is a finite sum of products; an entry of a gather or of a broadcast is an entry of its
   operand; an entry of a scatter-add is the table's entry plus a finite sum of update entries; sums and products of
   reals are reals. So a layer's aggregation — contract with the weights, gather rows, scale by the edge norm,
   scatter-add into zeros, add the bias — has only real entries. -/
import proofs.«420901_j2903397892205_1_alg».proof.Proof.RefImports
import proofs.«420901_j2903397892205_1_alg».proof.Proof.BNMath

namespace Cert.RefFin

open Cert.ReferenceIdeal Cert.ReferenceIdeal.Gen Cert.ReferenceIdeal.Read Idealize.ShloMosaic Cert.BNMath

/-! ## The operations keep entries real -/

/-- A pointwise product of arrays of reals is an array of reals. -/
theorem real_mulf {s : Shape} {φ : FTy} (x y : FVec Ideal s φ) (hx : ∀ i, IsReal (x i)) (hy : ∀ i, IsReal (y i)) :
    ∀ i, IsReal (mulf x y i) := fun i => isReal_mul (hx i) (hy i)

/-- A pointwise sum of arrays of reals is an array of reals. -/
theorem real_addf {s : Shape} {φ : FTy} (x y : FVec Ideal s φ) (hx : ∀ i, IsReal (x i)) (hy : ∀ i, IsReal (y i)) :
    ∀ i, IsReal (addf x y i) := fun i => isReal_add (hx i) (hy i)

/-- Every entry of a broadcast is an entry of its operand. -/
theorem real_broadcastInDim {s t : Shape} (dims : Fin s.rank → Fin t.rank) (h : s.BroadcastsInDim t dims)
    (x : s.Idx → EReal) (hx : ∀ i, IsReal (x i)) : ∀ j, IsReal (broadcastInDim t dims h x j) := fun _ => hx _

/-- Every entry of a gather is an entry of its operand. -/
theorem real_gather {s si t : Shape} {w : Nat} (d : GatherDims s si t) (x : s.Idx → EReal) (idx : IVec si w)
    (hx : ∀ i, IsReal (x i)) : ∀ j, IsReal (Host.gather d x idx j) := fun _ => hx _

/-- Every entry of a contraction of arrays of reals is a finite sum of products of reals. -/
theorem real_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral d prec lhs rhs j) := by
  intro j
  show IsReal (FloatOps.dotGeneral d prec .single lhs rhs j)
  rw [Ideal.dotGeneral_apply]
  exact isReal_sum _ _ (fun k _ => isReal_mul (hl _) (hr _))

/-- Every entry of a scatter-add is the table's entry plus a finite sum of update entries. -/
theorem real_scatterAdd {s si u : Shape} {φ : FTy} {w : Nat} (d : ScatterDims s si u) (x : FVec Ideal s φ)
    (idx : IVec si w) (upd : FVec Ideal u φ) (hx : ∀ i, IsReal (x i)) (hu : ∀ i, IsReal (upd i)) :
    ∀ i, IsReal (Host.scatterAdd d x idx upd i) := by
  intro i
  show IsReal (Ideal.hostScatterAdd d x idx upd i)
  unfold Ideal.hostScatterAdd
  exact isReal_add (hx i) (isReal_sum _ _ (fun j _ => hu j))

/-- The array of zeros is an array of reals. -/
theorem real_constant_zero {s : Shape} : ∀ i, IsReal (constant (F := Ideal) s .f32 0x00000000#32 i) :=
  fun _ => isReal_ofBits_zero

/-- One graph-convolution aggregation: contract the features with the weights, gather rows, scale each gathered row by a
    real factor, scatter-add the rows into a table of reals, add a bias of reals. Every entry of the result is real. -/
theorem real_layer {sH sW sT sGI sE sSI : Shape} {wg ws : Nat}
    (dd : DotDims sH sW sT) (gd : GatherDims sT sGI sE) (sd : ScatterDims sT sSI sE)
    (H : FVec Ideal sH .f32) (W : FVec Ideal sW .f32) (gi : IVec sGI wg) (nrm : FVec Ideal sE .f32)
    (tbl : FVec Ideal sT .f32) (si : IVec sSI ws) (bias : FVec Ideal sT .f32)
    (hH : ∀ i, IsReal (H i)) (hW : ∀ i, IsReal (W i)) (hn : ∀ i, IsReal (nrm i)) (ht : ∀ i, IsReal (tbl i))
    (hb : ∀ i, IsReal (bias i)) :
    ∀ i, IsReal (addf (Host.scatterAdd sd tbl si (mulf (Host.gather gd (Host.dotGeneral dd none H W) gi) nrm)) bias i) :=
  real_addf _ _
    (real_scatterAdd sd tbl si _ ht
      (real_mulf _ _ (real_gather gd _ gi (real_dotGeneral dd none H W hH hW)) hn))
    hb

/-! ## The three aggregations -/

/-- The first aggregation: when the edge norm and the arguments are real, so is every entry. -/
theorem fin_agg1_of (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 : (⟨S128, .f32⟩ : BufTy).Contents (Elt Ideal))
    (hn : ∀ i, IsReal (val_main_v29 (F := Ideal) x1 i))
    (h0 : ∀ i, IsReal (x0 i)) (h3 : ∀ i, IsReal (x3 i)) (h4 : ∀ i, IsReal (x4 i)) :
    ∀ i, IsReal (val_main_v46 (F := Ideal) x0 x1 x3 x4 i) := by
  have h38 : ∀ i, IsReal (val_main_v38 (F := Ideal) x1 i) := real_broadcastInDim _ _ _ hn
  have h39 : ∀ i, IsReal (val_main_v39 (F := Ideal) x1 i) := real_broadcastInDim _ _ _ h38
  have hc : ∀ i, IsReal (val_main_cst_8 (F := Ideal) i) := real_constant_zero
  have h41 : ∀ i, IsReal (val_main_v41 (F := Ideal) i) := real_broadcastInDim _ _ _ hc
  have h44 : ∀ i, IsReal (val_main_v44 (F := Ideal) x4 i) := real_broadcastInDim _ _ _ h4
  have h45 : ∀ i, IsReal (val_main_v45 (F := Ideal) x4 i) := real_broadcastInDim _ _ _ h44
  unfold val_main_v46 val_main_v43 val_main_v40 val_main_v37 val_main_v30
  exact real_layer _ _ _ x0 x3 _ _ _ _ _ h0 h3 h39 h41 h45

/-- The second aggregation, over the first layer's normalised output. -/
theorem fin_agg2_of (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 x5 x6 : (⟨S128, .f32⟩ : BufTy).Contents (Elt Ideal)) (x7 : (⟨S128x128, .f32⟩ : BufTy).Contents (Elt Ideal)) (x8 : (⟨S128, .f32⟩ : BufTy).Contents (Elt Ideal))
    (hn : ∀ i, IsReal (val_main_v29 (F := Ideal) x1 i))
    (h72 : ∀ i, IsReal (val_main_v72 (F := Ideal) x0 x1 x3 x4 x5 x6 i))
    (h7 : ∀ i, IsReal (x7 i)) (h8 : ∀ i, IsReal (x8 i)) :
    ∀ i, IsReal (val_main_v89 (F := Ideal) x0 x1 x3 x4 x5 x6 x7 x8 i) := by
  have h81 : ∀ i, IsReal (val_main_v81 (F := Ideal) x1 i) := real_broadcastInDim _ _ _ hn
  have h82 : ∀ i, IsReal (val_main_v82 (F := Ideal) x1 i) := real_broadcastInDim _ _ _ h81
  have hc : ∀ i, IsReal (val_main_cst_16 (F := Ideal) i) := real_constant_zero
  have h84 : ∀ i, IsReal (val_main_v84 (F := Ideal) i) := real_broadcastInDim _ _ _ hc
  have h87 : ∀ i, IsReal (val_main_v87 (F := Ideal) x8 i) := real_broadcastInDim _ _ _ h8
  have h88 : ∀ i, IsReal (val_main_v88 (F := Ideal) x8 i) := real_broadcastInDim _ _ _ h87
  unfold val_main_v89 val_main_v86 val_main_v83 val_main_v80 val_main_v73
  exact real_layer _ _ _ _ x7 _ _ _ _ _ h72 h7 h82 h84 h88

/-- The third aggregation, over the second layer's normalised output. -/
theorem fin_agg3_of (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (hn : ∀ i, IsReal (val_main_v29 (F := Ideal) x1 i))
    (h115 : ∀ i, IsReal (val_main_v115 (F := Ideal) x0 x1 x3 x4 x5 x6 x7 x8 x9 x10 i))
    (h11 : ∀ i, IsReal (x11 i)) (h12 : ∀ i, IsReal (x12 i)) :
    ∀ i, IsReal (val_main_v132 (F := Ideal) x0 x1 x3 x4 x5 x6 x7 x8 x9 x10 x11 x12 i) := by
  have h124 : ∀ i, IsReal (val_main_v124 (F := Ideal) x1 i) := real_broadcastInDim _ _ _ hn
  have h125 : ∀ i, IsReal (val_main_v125 (F := Ideal) x1 i) := real_broadcastInDim _ _ _ h124
  have hc : ∀ i, IsReal (val_main_cst_24 (F := Ideal) i) := real_constant_zero
  have h127 : ∀ i, IsReal (val_main_v127 (F := Ideal) i) := real_broadcastInDim _ _ _ hc
  have h130 : ∀ i, IsReal (val_main_v130 (F := Ideal) x12 i) := real_broadcastInDim _ _ _ h12
  have h131 : ∀ i, IsReal (val_main_v131 (F := Ideal) x12 i) := real_broadcastInDim _ _ _ h130
  unfold val_main_v132 val_main_v129 val_main_v126 val_main_v123 val_main_v116
  exact real_layer _ _ _ _ x11 _ _ _ _ _ h115 h11 h125 h127 h131

end Cert.RefFin
-- ==== Proof.FinNorm.lean ====
/- Every entry of the edge normalisation of the graph convolution is a real number.
   The in-degree of a node is zero plus a finite sum of ones; where it is positive its reciprocal square
   root is a positive real, and elsewhere the selection gives zero; a gathered entry is an entry of the
   gather's operand; and the normalisation of an edge is the product of the factors of its two ends. -/
import proofs.«420901_j2903397892205_1_alg».proof.Proof.RefImports
import proofs.«420901_j2903397892205_1_alg».proof.Proof.BNMath

namespace Cert.RefFin

open Idealize.ShloMosaic Cert.ReferenceIdeal Cert.ReferenceIdeal.Read Cert.BNMath

/-- An accumulating scatter of reals into a table of reals: each entry is the table's entry plus a finite
    sum of update entries, hence a real. -/
theorem isReal_scatterAdd {s si u : Shape} {w : Nat} (d : ScatterDims s si u) (x : FVec Ideal s .f32)
    (idx : IVec si w) (upd : FVec Ideal u .f32) (hx : ∀ i, IsReal (x i)) (hu : ∀ j, IsReal (upd j))
    (i : s.Idx) : IsReal (Host.scatterAdd d x idx upd i) := by
  show IsReal (x i + ∑ j ∈ _, upd j)
  exact isReal_add (hx i) (isReal_sum _ _ (fun j _ => hu j))

/-- Every entry of a gather is an entry of its operand. -/
theorem isReal_gather {s si t : Shape} {w : Nat} (d : GatherDims s si t) (x : s.Idx → EReal) (idx : IVec si w)
    (hx : ∀ i, IsReal (x i)) (j : t.Idx) : IsReal (Host.gather d x idx j) :=
  hx _

/-- Where a real is positive its reciprocal square root is a real; elsewhere the selection gives zero. -/
theorem isReal_select_rsqrt {x : EReal} (hx : IsReal x) :
    IsReal (Scalar.select (FloatOps.cmpf (F := Ideal) (φ := .f32) .ogt x (FloatOps.ofBits .f32 0x00000000#32))
      (FloatOps.hostUnary (F := Ideal) (φ := .f32) .rsqrt x) (FloatOps.ofBits (F := Ideal) .f32 0x00000000#32)) := by
  obtain ⟨r, rfl⟩ := hx
  rw [Ideal.hostUnary_rsqrt_def, Ideal.ofBits_def, ofBits_zero, Ideal.cmpf_def]
  unfold Scalar.select Ideal.cmp
  by_cases h : (0 : EReal) < (r : EReal)
  · have hr : 0 < r := by exact_mod_cast h
    simp only [h, decide_true, BitVec.ofBool_true, if_true]
    exact isReal_rsqrt_of_pos hr
  · simp only [h, decide_false, BitVec.ofBool_false]
    exact isReal_zero

/-- The in-degree table: zeros plus a finite sum of ones. -/
theorem fin_v10 (x1 : (⟨S2x1600000, .i32⟩ : BufTy).Contents (Elt Ideal)) :
    ∀ i, IsReal (val_main_v10 (F := Ideal) x1 i) := fun i =>
  isReal_scatterAdd _ _ _ _
    (fun k => by rw [val_main_v8_apply, val_main_cst_0_apply, Ideal.ofBits_def]; exact isReal_ofBits_zero)
    (fun k => by rw [val_main_v7_apply, val_main_cst_apply, Ideal.ofBits_def]; exact isReal_ofBits_one) i

/-- The per-node factor: the reciprocal square root of a positive degree, zero at degree zero. -/
theorem fin_v14 (x1 : (⟨S2x1600000, .i32⟩ : BufTy).Contents (Elt Ideal)) :
    ∀ i, IsReal (val_main_v14 (F := Ideal) x1 i) := fun i => by
  rw [val_main_v14_apply, val_main_v12_apply, val_main_v13_apply, val_main_call0_v1_apply,
    val_main_call0_v0_apply, val_main_cst_2_apply, val_main_v11_apply, val_main_cst_1_apply]
  exact isReal_select_rsqrt (fin_v10 x1 i)

/-- Every entry of the edge normalisation is a real: the product of two gathered per-node factors. -/
theorem fin_v29 (x1 : (⟨S2x1600000, .i32⟩ : BufTy).Contents (Elt Ideal)) :
    ∀ i, IsReal (val_main_v29 (F := Ideal) x1 i) := fun i => by
  rw [val_main_v29_apply, Ideal.mulf_def]
  exact isReal_mul (isReal_gather _ _ _ (fin_v14 x1) i) (isReal_gather _ _ _ (fin_v14 x1) i)

end Cert.RefFin
-- ==== Proof.FinAgg.lean ====
/- The three aggregations of the reference have only real entries: the edge norm is real, so each layer's
   aggregation of real features with real weights and a real bias is real. -/
import proofs.«420901_j2903397892205_1_alg».proof.Proof.FinLayer
import proofs.«420901_j2903397892205_1_alg».proof.Proof.FinNorm

namespace Cert.RefFin

open Cert.ReferenceIdeal Cert.ReferenceIdeal.Gen Cert.ReferenceIdeal.Read Idealize.ShloMosaic Cert.BNMath

/-- The first aggregation has only real entries when the node features, the weights and the bias are real. -/
theorem fin_agg1 (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 : (⟨S128, .f32⟩ : BufTy).Contents (Elt Ideal))
    (h0 : ∀ i, IsReal (x0 i)) (h3 : ∀ i, IsReal (x3 i)) (h4 : ∀ i, IsReal (x4 i)) :
    ∀ i, IsReal (val_main_v46 (F := Ideal) x0 x1 x3 x4 i) :=
  fin_agg1_of x0 x1 x3 x4 (fin_v29 x1) h0 h3 h4

/-- The second aggregation has only real entries when the first layer's output, the weights and the bias are real. -/
theorem fin_agg2 (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 x5 x6 : (⟨S128, .f32⟩ : BufTy).Contents (Elt Ideal)) (x7 : (⟨S128x128, .f32⟩ : BufTy).Contents (Elt Ideal)) (x8 : (⟨S128, .f32⟩ : BufTy).Contents (Elt Ideal))
    (h72 : ∀ i, IsReal (val_main_v72 (F := Ideal) x0 x1 x3 x4 x5 x6 i))
    (h7 : ∀ i, IsReal (x7 i)) (h8 : ∀ i, IsReal (x8 i)) :
    ∀ i, IsReal (val_main_v89 (F := Ideal) x0 x1 x3 x4 x5 x6 x7 x8 i) :=
  fin_agg2_of x0 x1 x3 x4 x5 x6 x7 x8 (fin_v29 x1) h72 h7 h8

/-- The third aggregation has only real entries when the second layer's output, the weights and the bias are real. -/
theorem fin_agg3 (x0 : (⟨S100000x1, .f32⟩ : BufTy).Contents (Elt Ideal)) (x1 : (⟨S2x1600000, .i32⟩ : BufTy).Contents (Elt Ideal)) (x3 : (⟨S1x128, .f32⟩ : BufTy).Contents (Elt Ideal))
    (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (h115 : ∀ i, IsReal (val_main_v115 (F := Ideal) x0 x1 x3 x4 x5 x6 x7 x8 x9 x10 i))
    (h11 : ∀ i, IsReal (x11 i)) (h12 : ∀ i, IsReal (x12 i)) :
    ∀ i, IsReal (val_main_v132 (F := Ideal) x0 x1 x3 x4 x5 x6 x7 x8 x9 x10 x11 x12 i) :=
  fin_agg3_of x0 x1 x3 x4 x5 x6 x7 x8 x9 x10 x11 x12 (fin_v29 x1) h115 h11 h12

end Cert.RefFin
-- ==== Proof.FinPre.lean ====
/- The precondition, read back: the printed all-finite predicate is an `and` of one test per float argument, each test
   the conjunction over all entries of |x| < +∞. Where the predicate is one, every entry of every float argument is
   therefore an extended real that is neither infinity nor the junk value, i.e. a real number. -/
import proofs.«420901_j2903397892205_1_alg».proof.Defs
import proofs.«420901_j2903397892205_1_alg».proof.Proof.Gen.Pre_finite_inputs
import proofs.«420901_j2903397892205_1_alg».proof.Proof.BNMath
import Idealize.ShloMosaic.Lib.ReduceAll

namespace Cert.RefFin

open Idealize.ShloMosaic Cert.BNMath

/-- The f32 pattern of +infinity is the top extended real. -/
theorem ofBits_inf : Ideal.ofBits .f32 0x7F800000#32 = (⊤ : EReal) := by
  simp [Ideal.ofBits, Ideal.ieee]

/-- An extended real whose absolute value is below +infinity is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One all-finite test of the precondition: if every entry of an array has absolute value below +infinity, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1) :
    ∀ i, IsReal (x i) := by
  intro i
  have h1 := Host.reduce_andi_all _ _ hr hu j e i
  exact isReal_of_abs_lt_inf (x i) h1

/-- Where a pointwise `and` of two bit arrays is one, both are. -/
theorem andi_one {s : Shape} (x y : IVec s 1) (j : s.Idx) (h : andi x y j = 1#1) : x j = 1#1 ∧ y j = 1#1 :=
  IntOp.andi_eq_one.1 h

open Cert.Pre_finite_inputs in
/-- The precondition's function is an `and` of one all-finite test per float argument: where it is one, every entry
    of every float argument is a real number. -/
theorem fn_real [Cert.Pre_finite_inputs.Facts]
    (a0 : FVec Ideal S100000x1 .f32) (a1 : IVec S2x1600000 32) (a2 : IVec S100000 32) (a3 : FVec Ideal S1x128 .f32)
    (a4 a5 a6 : FVec Ideal S128 .f32) (a7 : FVec Ideal S128x128 .f32) (a8 a9 a10 : FVec Ideal S128 .f32)
    (a11 : FVec Ideal S128x128 .f32) (a12 a13 a14 : FVec Ideal S128 .f32) (a15 : FVec Ideal S128x128 .f32)
    (a16 : FVec Ideal S128 .f32) (a17 : FVec Ideal S128x16 .f32) (a18 : FVec Ideal S16 .f32)
    (h : fn (F := Ideal) a0 a1 a2 a3 a4 a5 a6 a7 a8 a9 a10 a11 a12 a13 a14 a15 a16 a17 a18 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i)) ∧ (∀ i, IsReal (a15 i)) ∧ (∀ i, IsReal (a16 i))
      ∧ (∀ i, IsReal (a17 i)) ∧ (∀ i, IsReal (a18 i)) := by
  have h0 := congrFun h (fun d => d.elim0)
  dsimp only [fn, fn_part1, fn_part2, fn_part3, fn_part4] at h0
  obtain ⟨h0, r18⟩ := andi_one _ _ _ h0
  obtain ⟨h0, r17⟩ := andi_one _ _ _ h0
  obtain ⟨h0, r16⟩ := andi_one _ _ _ h0
  obtain ⟨h0, r15⟩ := andi_one _ _ _ h0
  obtain ⟨h0, r14⟩ := andi_one _ _ _ h0
  obtain ⟨h0, r13⟩ := andi_one _ _ _ h0
  obtain ⟨h0, r12⟩ := andi_one _ _ _ h0
  obtain ⟨h0, r11⟩ := andi_one _ _ _ h0
  obtain ⟨h0, r10⟩ := andi_one _ _ _ h0
  obtain ⟨h0, r9⟩ := andi_one _ _ _ h0
  obtain ⟨h0, r8⟩ := andi_one _ _ _ h0
  obtain ⟨h0, r7⟩ := andi_one _ _ _ h0
  obtain ⟨h0, r6⟩ := andi_one _ _ _ h0
  obtain ⟨h0, r5⟩ := andi_one _ _ _ h0
  obtain ⟨h0, r4⟩ := andi_one _ _ _ h0
  obtain ⟨r0, r3⟩ := andi_one _ _ _ h0
  exact ⟨all_real a0 _ _ _ _ r0, all_real a3 _ _ _ _ r3, all_real a4 _ _ _ _ r4, all_real a5 _ _ _ _ r5,
    all_real a6 _ _ _ _ r6, all_real a7 _ _ _ _ r7, all_real a8 _ _ _ _ r8, all_real a9 _ _ _ _ r9,
    all_real a10 _ _ _ _ r10, all_real a11 _ _ _ _ r11, all_real a12 _ _ _ _ r12, all_real a13 _ _ _ _ r13,
    all_real a14 _ _ _ _ r14, all_real a15 _ _ _ _ r15, all_real a16 _ _ _ _ r16, all_real a17 _ _ _ _ r17,
    all_real a18 _ _ _ _ r18⟩

/-- Every float argument of the idealized kernel, on a device, holds real numbers only. -/
structure ArgsReal (m : (ℓ : Loc Cert.KernelIdeal.nD Cert.KernelIdeal.τ Cert.KernelIdeal.sig) → Buf (Elt Ideal) ℓ)
    (c : Dev Cert.KernelIdeal.nD) : Prop where
  arg0 : ∀ i, IsReal ((m ((c.tc : Thread Cert.KernelIdeal.nD Cert.KernelIdeal.τ).loc Cert.KernelIdeal.main_arg0) : Cert.KernelIdeal.S100000x1.Idx → EReal) i)
  arg3 : ∀ i, IsReal ((m ((c.tc : Thread Cert.KernelIdeal.nD Cert.KernelIdeal.τ).loc Cert.KernelIdeal.main_arg3) : Cert.KernelIdeal.S1x128.Idx → EReal) i)
  arg4 : ∀ i, IsReal ((m ((c.tc : Thread Cert.KernelIdeal.nD Cert.KernelIdeal.τ).loc Cert.KernelIdeal.main_arg4) : Cert.KernelIdeal.S128.Idx → EReal) i)
  arg5 : ∀ i, IsReal ((m ((c.tc : Thread Cert.KernelIdeal.nD Cert.KernelIdeal.τ).loc Cert.KernelIdeal.main_arg5) : Cert.KernelIdeal.S128.Idx → EReal) i)
  arg6 : ∀ i, IsReal ((m ((c.tc : Thread Cert.KernelIdeal.nD Cert.KernelIdeal.τ).loc Cert.KernelIdeal.main_arg6) : Cert.KernelIdeal.S128.Idx → EReal) i)
  arg7 : ∀ i, IsReal ((m ((c.tc : Thread Cert.KernelIdeal.nD Cert.KernelIdeal.τ).loc Cert.KernelIdeal.main_arg7) : Cert.KernelIdeal.S128x128.Idx → EReal) i)
  arg8 : ∀ i, IsReal ((m ((c.tc : Thread Cert.KernelIdeal.nD Cert.KernelIdeal.τ).loc Cert.KernelIdeal.main_arg8) : Cert.KernelIdeal.S128.Idx → EReal) i)
  arg9 : ∀ i, IsReal ((m ((c.tc : Thread Cert.KernelIdeal.nD Cert.KernelIdeal.τ).loc Cert.KernelIdeal.main_arg9) : Cert.KernelIdeal.S128.Idx → EReal) i)
  arg10 : ∀ i, IsReal ((m ((c.tc : Thread Cert.KernelIdeal.nD Cert.KernelIdeal.τ).loc Cert.KernelIdeal.main_arg10) : Cert.KernelIdeal.S128.Idx → EReal) i)
  arg11 : ∀ i, IsReal ((m ((c.tc : Thread Cert.KernelIdeal.nD Cert.KernelIdeal.τ).loc Cert.KernelIdeal.main_arg11) : Cert.KernelIdeal.S128x128.Idx → EReal) i)
  arg12 : ∀ i, IsReal ((m ((c.tc : Thread Cert.KernelIdeal.nD Cert.KernelIdeal.τ).loc Cert.KernelIdeal.main_arg12) : Cert.KernelIdeal.S128.Idx → EReal) i)
  arg13 : ∀ i, IsReal ((m ((c.tc : Thread Cert.KernelIdeal.nD Cert.KernelIdeal.τ).loc Cert.KernelIdeal.main_arg13) : Cert.KernelIdeal.S128.Idx → EReal) i)
  arg14 : ∀ i, IsReal ((m ((c.tc : Thread Cert.KernelIdeal.nD Cert.KernelIdeal.τ).loc Cert.KernelIdeal.main_arg14) : Cert.KernelIdeal.S128.Idx → EReal) i)
  arg15 : ∀ i, IsReal ((m ((c.tc : Thread Cert.KernelIdeal.nD Cert.KernelIdeal.τ).loc Cert.KernelIdeal.main_arg15) : Cert.KernelIdeal.S128x128.Idx → EReal) i)
  arg16 : ∀ i, IsReal ((m ((c.tc : Thread Cert.KernelIdeal.nD Cert.KernelIdeal.τ).loc Cert.KernelIdeal.main_arg16) : Cert.KernelIdeal.S128.Idx → EReal) i)
  arg17 : ∀ i, IsReal ((m ((c.tc : Thread Cert.KernelIdeal.nD Cert.KernelIdeal.τ).loc Cert.KernelIdeal.main_arg17) : Cert.KernelIdeal.S128x16.Idx → EReal) i)
  arg18 : ∀ i, IsReal ((m ((c.tc : Thread Cert.KernelIdeal.nD Cert.KernelIdeal.τ).loc Cert.KernelIdeal.main_arg18) : Cert.KernelIdeal.S16.Idx → EReal) i)

/-- The precondition makes every float argument real, on every device. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : ArgsReal m c := by
  obtain ⟨h0, h3, h4, h5, h6, h7, h8, h9, h10, h11, h12, h13, h14, h15, h16, h17, h18⟩ := fn_real _ _ _ _ _ _ _ _ _ _ _ _ _ _ _ _ _ _ _ (h c)
  exact ⟨h0, h3, h4, h5, h6, h7, h8, h9, h10, h11, h12, h13, h14, h15, h16, h17, h18⟩

end Cert.RefFin
-- ==== Proof.KChain.lean ====
/-
  The chain from the launch to the result: boundary by boundary, the buffers of the idealized kernel program hold the
  reference's own stage values of the arguments as launched. The edge words and the normalisation are the reference's
  (the same host operations); each linear kernel's product is the reference's contraction; each aggregation stretch is
  the reference's gather, scale, scatter-add and bias (the same operations of equal inputs); each BatchNorm+ReLU —
  column sums and sums of squares accumulated over the row blocks, mean and E[a²] − E[a]² on the host, the affine map
  and the clamp in the kernel — is the reference's, whose variance is the mean of centred squares: the two agree
  because every aggregated feature is a real number when the inputs are; the pooled one-hot products are the
  reference's segment sums, and the head is the same host operations.
-/
import proofs.«420901_j2903397892205_1_alg».proof.Proof.Kept
import proofs.«420901_j2903397892205_1_alg».proof.Proof.KAgg
import proofs.«420901_j2903397892205_1_alg».proof.Proof.RAgg
import proofs.«420901_j2903397892205_1_alg».proof.Proof.KPre
import proofs.«420901_j2903397892205_1_alg».proof.Proof.KPre29
import proofs.«420901_j2903397892205_1_alg».proof.Proof.KLin
import proofs.«420901_j2903397892205_1_alg».proof.Proof.KBn1
import proofs.«420901_j2903397892205_1_alg».proof.Proof.KBn4
import proofs.«420901_j2903397892205_1_alg».proof.Proof.KBn7
import proofs.«420901_j2903397892205_1_alg».proof.Proof.KPool
import proofs.«420901_j2903397892205_1_alg».proof.Proof.RefBN
import proofs.«420901_j2903397892205_1_alg».proof.Proof.FinAgg
import proofs.«420901_j2903397892205_1_alg».proof.Proof.FinPre

set_option maxRecDepth 16384

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

/-- Layer 1's aggregated features. -/
theorem s_v46 (c : Dev nD) : W5 m ρ c (Proc.devRef .tc main_v46)
    = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) := by
  rw [agg1 m ρ c, kept_main_v3_W4 m ρ c, kept_main_v6_W4 m ρ c, kept_main_v29_W4 m ρ c, kept_main_arg4_W4 m ρ c,
    k_v30 m ρ c, k_v3 m ρ c, k_v6 m ρ c, k_v29 m ρ c]
  exact (ragg1 _ _ _ _).symm

/-- Layer 1's activations. -/
theorem s_v58 (c : Dev nD) (hr : Cert.RefFin.ArgsReal m c) : W8 m ρ c (Proc.devRef .tc main_v58)
    = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine funext fun i => ?_
  obtain ⟨p, q, rfl⟩ : ∃ (p : Fin 100000) (q : Fin 128), i = ix2 p q := ⟨i 0, i 1, eq_ix2 i⟩
  exact (kbn1 m ρ c _ (s_v46 m ρ c) _ _ rfl rfl p q).trans
    (Cert.RefBN.ref_bn1_apply _ _ _ _ _ _ (Cert.RefFin.fin_agg1 _ _ _ _ hr.arg0 hr.arg3 hr.arg4) p q).symm

/-- Layer 1's activations are real numbers. -/
theorem real_v72 (c : Dev nD) (hr : Cert.RefFin.ArgsReal m c) :
    ∀ i, Cert.BNMath.IsReal (Cert.ReferenceIdeal.Read.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) i) :=
  Cert.RefBN.ref_bn1_real _ _ _ _ _ _ (Cert.RefFin.fin_agg1 _ _ _ _ hr.arg0 hr.arg3 hr.arg4) hr.arg5 hr.arg6

/-- Layer 2's aggregated features. -/
theorem s_v75 (c : Dev nD) (hr : Cert.RefFin.ArgsReal m c) : W10 m ρ c (Proc.devRef .tc main_v75)
    = Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [agg2 m ρ c, kept_main_v3_W9 m ρ c, kept_main_v6_W9 m ρ c, kept_main_v29_W9 m ρ c, kept_main_arg8_W9 m ρ c,
    k_v59 m ρ c _ _ _ _ _ _ (s_v58 m ρ c hr), k_v3 m ρ c, k_v6 m ρ c, k_v29 m ρ c]
  exact (ragg2 _ _ _ _ _ _ _ _).symm

/-- Layer 2's aggregated features are real numbers. -/
theorem real_v89 (c : Dev nD) (hr : Cert.RefFin.ArgsReal m c) :
    ∀ i, Cert.BNMath.IsReal (Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i) :=
  Cert.RefFin.fin_agg2 _ _ _ _ _ _ _ _ (real_v72 m c hr) hr.arg7 hr.arg8

/-- Layer 2's activations. -/
theorem s_v87 (c : Dev nD) (hr : Cert.RefFin.ArgsReal m c) : W13 m ρ c (Proc.devRef .tc main_v87)
    = Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine funext fun i => ?_
  obtain ⟨p, q, rfl⟩ : ∃ (p : Fin 100000) (q : Fin 128), i = ix2 p q := ⟨i 0, i 1, eq_ix2 i⟩
  exact (kbn2 m ρ c _ (s_v75 m ρ c hr) _ _ rfl rfl p q).trans
    (Cert.RefBN.ref_bn2_apply _ _ _ _ _ _ _ _ _ _ (real_v89 m c hr) p q).symm

/-- Layer 2's activations are real numbers. -/
theorem real_v115 (c : Dev nD) (hr : Cert.RefFin.ArgsReal m c) :
    ∀ i, Cert.BNMath.IsReal (Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i) :=
  Cert.RefBN.ref_bn2_real _ _ _ _ _ _ _ _ _ _ (real_v89 m c hr) hr.arg9 hr.arg10

/-- Layer 3's aggregated features. -/
theorem s_v104 (c : Dev nD) (hr : Cert.RefFin.ArgsReal m c) : W15 m ρ c (Proc.devRef .tc main_v104)
    = Cert.ReferenceIdeal.Read.val_main_v132 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [agg3 m ρ c, kept_main_v3_W14 m ρ c, kept_main_v6_W14 m ρ c, kept_main_v29_W14 m ρ c, kept_main_arg12_W14 m ρ c,
    k_v88 m ρ c _ _ _ _ _ _ _ _ _ _ (s_v87 m ρ c hr), k_v3 m ρ c, k_v6 m ρ c, k_v29 m ρ c]
  exact (ragg3 _ _ _ _ _ _ _ _ _ _ _ _).symm

/-- Layer 3's aggregated features are real numbers. -/
theorem real_v132 (c : Dev nD) (hr : Cert.RefFin.ArgsReal m c) :
    ∀ i, Cert.BNMath.IsReal (Cert.ReferenceIdeal.Read.val_main_v132 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i) :=
  Cert.RefFin.fin_agg3 _ _ _ _ _ _ _ _ _ _ _ _ (real_v115 m c hr) hr.arg11 hr.arg12

/-- Layer 3's activations. -/
theorem s_v116 (c : Dev nD) (hr : Cert.RefFin.ArgsReal m c) : W18 m ρ c (Proc.devRef .tc main_v116)
    = Cert.ReferenceIdeal.Read.val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine funext fun i => ?_
  obtain ⟨p, q, rfl⟩ : ∃ (p : Fin 100000) (q : Fin 128), i = ix2 p q := ⟨i 0, i 1, eq_ix2 i⟩
  exact (kbn3 m ρ c _ (s_v104 m ρ c hr) _ _ rfl rfl p q).trans
    (Cert.RefBN.ref_bn3_apply _ _ _ _ _ _ _ _ _ _ _ _ _ _ (real_v132 m c hr) p q).symm

/-- The result: the kernel program's result buffer at the last boundary is the reference's result stage of the
    arguments as launched. -/
theorem s_v131 (c : Dev nD) (hr : Cert.RefFin.ArgsReal m c) : W23 m ρ c (Proc.devRef .tc main_v131)
    = Cert.ReferenceIdeal.Read.val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  k_v131 m ρ c _ _ _ _ _ _ _ _ _ _ _ _ _ _ (s_v116 m ρ c hr)

end Cert.KernelIdeal.Gen

end
-- ==== Proof.RefStretch1.lean ====
/- The reference's host operations, taken in consecutive stretches, read as a fold over buffer contents.
   For each stretch: the list of its operations; the value its last result holds afterwards, as the stage
   function of the values the stretch finds in the buffers it reads; and the fact that a buffer none of its
   operations writes holds afterwards what it held before. Stretches: the index vectors and the edge
   normalisation; then, for each of the three layers, the linear map, the gather of source rows, the product
   with the normalisation, the scatter-add into destination rows and the bias. -/
import proofs.«420901_j2903397892205_1_alg».proof.Proof.RefImports

set_option maxRecDepth 16384

noncomputable section

namespace Cert.ReferenceIdeal.Stretch

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## The index vectors and the edge normalisation -/

/-- The operations writing main_v0 … main_v29: the source and destination index vectors with the self loops
    appended, the in-degree, its reciprocal square root where positive, and the product of the two ends' factors. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The references the stretch writes, in order. -/
abbrev writesA : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

/-- Every operation of the stretch writes one of the listed references. -/
theorem opsA_writes :
    (opsA (F := F)).Forall fun op => op.writes ⊆ (writesA.map (Proc.devRef (τ := τ) .tc)).toFinset := by
  simp only [opsA, writesA, List.Forall, TRef.nullary, TRef.unary, TRef.binary, TRef.ternary, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A reference the stretch does not write keeps its contents. -/
theorem carryA (U : Valuation τ sig (Elt F)) {r : Ref sig .tc} (hr : r ∉ writesA) :
    after (opsA (F := F)) U (Proc.devRef .tc r) = U (Proc.devRef .tc r) :=
  after_of_writes_sub _ _ opsA_writes hr

/-- The operations writing main_v0 … main_v6: the two index vectors. -/
abbrev opsA₁ : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The operations writing main_cst … main_v29: the normalisation, from the two index vectors. -/
abbrev opsA₂ : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The stretch is its two parts, one after the other. -/
theorem opsA_eq : (opsA (F := F)) = opsA₁ ++ opsA₂ := rfl

/-- After the first part, main_v3 holds the source index vector. -/
theorem stretchA₁_v3 (U : Valuation τ sig (Elt F)) (x1 : (⟨S2x1600000, .i32⟩ : BufTy).Contents (Elt F))
    (h1 : U (Proc.devRef .tc main_arg1) = x1) :
    after opsA₁ U (Proc.devRef .tc main_v3) = val_main_v3 (F := F) x1 := by
  simp only [opsA₁]
  after_results
  rw [h1]
  rfl

/-- After the first part, main_v6 holds the destination index vector. -/
theorem stretchA₁_v6 (U : Valuation τ sig (Elt F)) (x1 : (⟨S2x1600000, .i32⟩ : BufTy).Contents (Elt F))
    (h1 : U (Proc.devRef .tc main_arg1) = x1) :
    after opsA₁ U (Proc.devRef .tc main_v6) = val_main_v6 (F := F) x1 := by
  simp only [opsA₁]
  after_results
  rw [h1]
  rfl

/-- Every operation of the second part writes one of the stretch's references after the first seven. -/
theorem opsA₂_writes :
    (opsA₂ (F := F)).Forall fun op => op.writes ⊆ ((writesA.drop 7).map (Proc.devRef (τ := τ) .tc)).toFinset := by
  simp only [opsA₂, writesA, List.drop, List.Forall, TRef.nullary, TRef.unary, TRef.binary, TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The second part writes neither index vector. -/
theorem carryA₂_v3 (U : Valuation τ sig (Elt F)) :
    after (opsA₂ (F := F)) U (Proc.devRef .tc main_v3) = U (Proc.devRef .tc main_v3) :=
  after_of_writes_sub _ _ opsA₂_writes (by decide)

theorem carryA₂_v6 (U : Valuation τ sig (Elt F)) :
    after (opsA₂ (F := F)) U (Proc.devRef .tc main_v6) = U (Proc.devRef .tc main_v6) :=
  after_of_writes_sub _ _ opsA₂_writes (by decide)

/-- After the second part, main_v29 holds the edge normalisation of the index vectors it found. -/
theorem stretchA₂_v29 (U : Valuation τ sig (Elt F)) (x1 : (⟨S2x1600000, .i32⟩ : BufTy).Contents (Elt F))
    (hv3 : U (Proc.devRef .tc main_v3) = val_main_v3 (F := F) x1)
    (hv6 : U (Proc.devRef .tc main_v6) = val_main_v6 (F := F) x1) :
    after opsA₂ U (Proc.devRef .tc main_v29) = val_main_v29 (F := F) x1 := by
  simp only [opsA₂]
  after_results_simp
  rw [hv3, hv6]
  rfl

/-- After the stretch, main_v3 holds the source index vector. -/
theorem stretchA_v3 (U : Valuation τ sig (Elt F)) (x1 : (⟨S2x1600000, .i32⟩ : BufTy).Contents (Elt F))
    (h1 : U (Proc.devRef .tc main_arg1) = x1) :
    after opsA U (Proc.devRef .tc main_v3) = val_main_v3 (F := F) x1 := by
  rw [opsA_eq, StableHlo.after_append, carryA₂_v3]
  exact stretchA₁_v3 U x1 h1

/-- After the stretch, main_v6 holds the destination index vector. -/
theorem stretchA_v6 (U : Valuation τ sig (Elt F)) (x1 : (⟨S2x1600000, .i32⟩ : BufTy).Contents (Elt F))
    (h1 : U (Proc.devRef .tc main_arg1) = x1) :
    after opsA U (Proc.devRef .tc main_v6) = val_main_v6 (F := F) x1 := by
  rw [opsA_eq, StableHlo.after_append, carryA₂_v6]
  exact stretchA₁_v6 U x1 h1

/-- After the stretch, main_v29 holds the edge normalisation. -/
theorem stretchA_v29 (U : Valuation τ sig (Elt F)) (x1 : (⟨S2x1600000, .i32⟩ : BufTy).Contents (Elt F))
    (h1 : U (Proc.devRef .tc main_arg1) = x1) :
    after opsA U (Proc.devRef .tc main_v29) = val_main_v29 (F := F) x1 := by
  rw [opsA_eq, StableHlo.after_append]
  exact stretchA₂_v29 _ x1 (stretchA₁_v3 U x1 h1) (stretchA₁_v6 U x1 h1)

/-! ## The first layer's aggregate -/

/-- The operations writing main_v30 … main_v46. -/
abbrev opsB : List (HloOp τ sig (Elt F)) :=
  [ binary main_arg0 main_arg3 main_v30 ((fun l r => Host.dotGeneral dot_S100000x1_S1x128_S100000x128_1_0_0_1_n_n none l r) : (⟨S100000x1, .f32⟩ : BufTy).Contents (Elt F) → (⟨S1x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev writesB : List (Ref sig .tc) :=
  [main_v30, main_c_6, main_v31, main_v32, main_c_7, main_v33, main_v34, main_v35, main_v36, main_v37, main_v38, main_v39, main_v40, main_cst_8, main_v41, main_v42, main_v43, main_v44, main_v45, main_v46]

/-- Every operation of the stretch writes one of the listed references. -/
theorem opsB_writes :
    (opsB (F := F)).Forall fun op => op.writes ⊆ (writesB.map (Proc.devRef (τ := τ) .tc)).toFinset := by
  simp only [opsB, writesB, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A reference the stretch does not write keeps its contents. -/
theorem carryB (U : Valuation τ sig (Elt F)) {r : Ref sig .tc} (hr : r ∉ writesB) :
    after (opsB (F := F)) U (Proc.devRef .tc r) = U (Proc.devRef .tc r) :=
  after_of_writes_sub _ _ opsB_writes hr

/-- After the stretch, main_v46 holds the first layer's aggregate. -/
theorem stretchB (U : Valuation τ sig (Elt F))
    (x0 : (⟨S100000x1, .f32⟩ : BufTy).Contents (Elt F))
    (x1 : (⟨S2x1600000, .i32⟩ : BufTy).Contents (Elt F))
    (x3 : (⟨S1x128, .f32⟩ : BufTy).Contents (Elt F))
    (x4 : (⟨S128, .f32⟩ : BufTy).Contents (Elt F))
    (h0 : U (Proc.devRef .tc main_arg0) = x0) (h3 : U (Proc.devRef .tc main_arg3) = x3)
    (h4 : U (Proc.devRef .tc main_arg4) = x4)
    (hv3 : U (Proc.devRef .tc main_v3) = val_main_v3 (F := F) x1)
    (hv6 : U (Proc.devRef .tc main_v6) = val_main_v6 (F := F) x1)
    (hv29 : U (Proc.devRef .tc main_v29) = val_main_v29 (F := F) x1) :
    after opsB U (Proc.devRef .tc main_v46) = val_main_v46 (F := F) x0 x1 x3 x4 := by
  simp only [opsB]
  after_results_simp
  rw [h0, h3, h4, hv3, hv6, hv29]
  rfl

/-! ## The second layer's aggregate -/

/-- The operations writing main_v73 … main_v89. -/
abbrev opsD : List (HloOp τ sig (Elt F)) :=
  [ binary main_v72 main_arg7 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v74 (broadcastInDim S1700000 ![] bcast_S_S1700000 : (⟨S_, .i32⟩ : BufTy).Contents (Elt F) → (⟨S1700000, .i32⟩ : BufTy).Contents (Elt F)),
    binary main_v3 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v76 (broadcastInDim S1700000 ![] bcast_S_S1700000 : (⟨S_, .i32⟩ : BufTy).Contents (Elt F) → (⟨S1700000, .i32⟩ : BufTy).Contents (Elt F)),
    binary main_v3 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v3 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v81 (broadcastInDim S1700000x1 ![0] bcast_S1700000_S1700000x1_0 : (⟨S1700000, .f32⟩ : BufTy).Contents (Elt F) → (⟨S1700000x1, .f32⟩ : BufTy).Contents (Elt F)),
    unary main_v81 main_v82 (broadcastInDim S1700000x128 ![0, 1] bcast_S1700000x1_S1700000x128_0_1 : (⟨S1700000x1, .f32⟩ : BufTy).Contents (Elt F) → (⟨S1700000x128, .f32⟩ : BufTy).Contents (Elt F)),
    binary main_v80 main_v82 main_v83 (mulf : (⟨S1700000x128, .f32⟩ : BufTy).Contents (Elt F) → (⟨S1700000x128, .f32⟩ : BufTy).Contents (Elt F) → (⟨S1700000x128, .f32⟩ : BufTy).Contents (Elt F)),
    nullary main_cst_16 (constant S_ .f32 0x00000000#32),
    unary main_cst_16 main_v84 (broadcastInDim S100000x128 ![] bcast_S_S100000x128 : (⟨S_, .f32⟩ : BufTy).Contents (Elt F) → (⟨S100000x128, .f32⟩ : BufTy).Contents (Elt F)),
    unary main_v6 main_v85 (broadcastInDim S1700000x1 ![0] bcast_S1700000_S1700000x1_0 : (⟨S1700000, .i32⟩ : BufTy).Contents (Elt F) → (⟨S1700000x1, .i32⟩ : BufTy).Contents (Elt F)),
    ternary main_v84 main_v85 main_v83 main_v86 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (addf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev writesD : List (Ref sig .tc) :=
  [main_v73, main_c_14, main_v74, main_v75, main_c_15, main_v76, main_v77, main_v78, main_v79, main_v80, main_v81, main_v82, main_v83, main_cst_16, main_v84, main_v85, main_v86, main_v87, main_v88, main_v89]

/-- Every operation of the stretch writes one of the listed references. -/
theorem opsD_writes :
    (opsD (F := F)).Forall fun op => op.writes ⊆ (writesD.map (Proc.devRef (τ := τ) .tc)).toFinset := by
  simp only [opsD, writesD, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A reference the stretch does not write keeps its contents. -/
theorem carryD (U : Valuation τ sig (Elt F)) {r : Ref sig .tc} (hr : r ∉ writesD) :
    after (opsD (F := F)) U (Proc.devRef .tc r) = U (Proc.devRef .tc r) :=
  after_of_writes_sub _ _ opsD_writes hr

/-- After the stretch, main_v89 holds the second layer's aggregate. -/
theorem stretchD (U : Valuation τ sig (Elt F))
    (x0 : (⟨S100000x1, .f32⟩ : BufTy).Contents (Elt F))
    (x1 : (⟨S2x1600000, .i32⟩ : BufTy).Contents (Elt F))
    (x3 : (⟨S1x128, .f32⟩ : BufTy).Contents (Elt F))
    (x4 : (⟨S128, .f32⟩ : BufTy).Contents (Elt F))
    (x5 : (⟨S128, .f32⟩ : BufTy).Contents (Elt F))
    (x6 : (⟨S128, .f32⟩ : BufTy).Contents (Elt F))
    (x7 : (⟨S128x128, .f32⟩ : BufTy).Contents (Elt F))
    (x8 : (⟨S128, .f32⟩ : BufTy).Contents (Elt F))
    (h7 : U (Proc.devRef .tc main_arg7) = x7) (h8 : U (Proc.devRef .tc main_arg8) = x8)
    (hv3 : U (Proc.devRef .tc main_v3) = val_main_v3 (F := F) x1)
    (hv6 : U (Proc.devRef .tc main_v6) = val_main_v6 (F := F) x1)
    (hv29 : U (Proc.devRef .tc main_v29) = val_main_v29 (F := F) x1)
    (hv72 : U (Proc.devRef .tc main_v72) = val_main_v72 (F := F) x0 x1 x3 x4 x5 x6) :
    after opsD U (Proc.devRef .tc main_v89) = val_main_v89 (F := F) x0 x1 x3 x4 x5 x6 x7 x8 := by
  simp only [opsD]
  after_results_simp
  rw [h7, h8, hv3, hv6, hv29, hv72]
  rfl

/-! ## The third layer's aggregate -/

/-- The operations writing main_v116 … main_v132. -/
abbrev opsF : List (HloOp τ sig (Elt F)) :=
  [ binary main_v115 main_arg11 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_22 (constantI S_ 32 0#32),
    unary main_c_22 main_v117 (broadcastInDim S1700000 ![] bcast_S_S1700000 : (⟨S_, .i32⟩ : BufTy).Contents (Elt F) → (⟨S1700000, .i32⟩ : BufTy).Contents (Elt F)),
    binary main_v3 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v119 (broadcastInDim S1700000 ![] bcast_S_S1700000 : (⟨S_, .i32⟩ : BufTy).Contents (Elt F) → (⟨S1700000, .i32⟩ : BufTy).Contents (Elt F)),
    binary main_v3 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v3 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x128 ![0, 1] bcast_S1700000x1_S1700000x128_0_1 : (⟨S1700000x1, .f32⟩ : BufTy).Contents (Elt F) → (⟨S1700000x128, .f32⟩ : BufTy).Contents (Elt F)),
    binary main_v123 main_v125 main_v126 (mulf : (⟨S1700000x128, .f32⟩ : BufTy).Contents (Elt F) → (⟨S1700000x128, .f32⟩ : BufTy).Contents (Elt F) → (⟨S1700000x128, .f32⟩ : BufTy).Contents (Elt F)),
    nullary main_cst_24 (constant S_ .f32 0x00000000#32),
    unary main_cst_24 main_v127 (broadcastInDim S100000x128 ![] bcast_S_S100000x128 : (⟨S_, .f32⟩ : BufTy).Contents (Elt F) → (⟨S100000x128, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg12 main_v130 (broadcastInDim S1x128 ![1] bcast_S128_S1x128_1 : (⟨S128, .f32⟩ : BufTy).Contents (Elt F) → (⟨S1x128, .f32⟩ : BufTy).Contents (Elt F)),
    unary main_v130 main_v131 (broadcastInDim S100000x128 ![0, 1] bcast_S1x128_S100000x128_0_1 : (⟨S1x128, .f32⟩ : BufTy).Contents (Elt F) → (⟨S100000x128, .f32⟩ : BufTy).Contents (Elt F)),
    binary main_v129 main_v131 main_v132 (addf : (⟨S100000x128, .f32⟩ : BufTy).Contents (Elt F) → (⟨S100000x128, .f32⟩ : BufTy).Contents (Elt F) → (⟨S100000x128, .f32⟩ : BufTy).Contents (Elt F)) ]

/-- The references the stretch writes, in order. -/
abbrev writesF : List (Ref sig .tc) :=
  [main_v116, main_c_22, main_v117, main_v118, main_c_23, main_v119, main_v120, main_v121, main_v122, main_v123, main_v124, main_v125, main_v126, main_cst_24, main_v127, main_v128, main_v129, main_v130, main_v131, main_v132]

/-- Every operation of the stretch writes one of the listed references. -/
theorem opsF_writes :
    (opsF (F := F)).Forall fun op => op.writes ⊆ (writesF.map (Proc.devRef (τ := τ) .tc)).toFinset := by
  simp only [opsF, writesF, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A reference the stretch does not write keeps its contents. -/
theorem carryF (U : Valuation τ sig (Elt F)) {r : Ref sig .tc} (hr : r ∉ writesF) :
    after (opsF (F := F)) U (Proc.devRef .tc r) = U (Proc.devRef .tc r) :=
  after_of_writes_sub _ _ opsF_writes hr

/-- After the stretch, main_v132 holds the third layer's aggregate. -/
theorem stretchF (U : Valuation τ sig (Elt F))
    (x0 : (⟨S100000x1, .f32⟩ : BufTy).Contents (Elt F))
    (x1 : (⟨S2x1600000, .i32⟩ : BufTy).Contents (Elt F))
    (x3 : (⟨S1x128, .f32⟩ : BufTy).Contents (Elt F))
    (x4 : (⟨S128, .f32⟩ : BufTy).Contents (Elt F))
    (x5 : (⟨S128, .f32⟩ : BufTy).Contents (Elt F))
    (x6 : (⟨S128, .f32⟩ : BufTy).Contents (Elt F))
    (x7 : (⟨S128x128, .f32⟩ : BufTy).Contents (Elt F))
    (x8 : (⟨S128, .f32⟩ : BufTy).Contents (Elt F))
    (x9 : (⟨S128, .f32⟩ : BufTy).Contents (Elt F))
    (x10 : (⟨S128, .f32⟩ : BufTy).Contents (Elt F))
    (x11 : (⟨S128x128, .f32⟩ : BufTy).Contents (Elt F))
    (x12 : (⟨S128, .f32⟩ : BufTy).Contents (Elt F))
    (h11 : U (Proc.devRef .tc main_arg11) = x11) (h12 : U (Proc.devRef .tc main_arg12) = x12)
    (hv3 : U (Proc.devRef .tc main_v3) = val_main_v3 (F := F) x1)
    (hv6 : U (Proc.devRef .tc main_v6) = val_main_v6 (F := F) x1)
    (hv29 : U (Proc.devRef .tc main_v29) = val_main_v29 (F := F) x1)
    (hv115 : U (Proc.devRef .tc main_v115) = val_main_v115 (F := F) x0 x1 x3 x4 x5 x6 x7 x8 x9 x10) :
    after opsF U (Proc.devRef .tc main_v132) = val_main_v132 (F := F) x0 x1 x3 x4 x5 x6 x7 x8 x9 x10 x11 x12 := by
  simp only [opsF]
  after_results_simp
  rw [h11, h12, hv3, hv6, hv29, hv115]
  rfl

end Cert.ReferenceIdeal.Stretch

end
-- ==== Proof.RefStretch2.lean ====
/-
  The reference's operation list cut into stretches, second half: for each of four consecutive slices of the list —
  the three layers' column statistics with normalisation and rectifier, and the mean pool with the head — the slice
  itself, the buffers it writes, and two facts about the fold over it from ANY contents `U`: a buffer the slice does
  not write keeps what `U` holds there; and when `U` holds the stage values at the slice's input buffers, the fold
  leaves the stage value at the slice's result buffer. The stage values are the reading module's `val_` terms, so the
  second fact is an unfolding of those definitions against the operations' functions, at any float family.
-/
import proofs.«420901_j2903397892205_1_alg».proof.Proof.RefImports

noncomputable section

namespace Cert.ReferenceIdeal.Stretch

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## Stretch C: the first layer's column statistics, normalisation and rectifier -/

/-- The 33 operations of the stretch, in program order. -/
abbrev opsC : List (HloOp τ sig (Elt F)) :=
  [ nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (subf : (⟨S100000x128, .f32⟩ : BufTy).Contents (Elt F) → (⟨S100000x128, .f32⟩ : BufTy).Contents (Elt F) → (⟨S100000x128, .f32⟩ : BufTy).Contents (Elt F)),
    binary main_v52 main_v52 main_v53 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v53 main_cst_11 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v49 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v46 main_v58 main_v59 (subf : (⟨S100000x128, .f32⟩ : BufTy).Contents (Elt F) → (⟨S100000x128, .f32⟩ : BufTy).Contents (Elt F) → (⟨S100000x128, .f32⟩ : BufTy).Contents (Elt F)),
    unary main_arg5 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v61 main_v59 main_v62 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v63 (broadcastInDim S128 ![] bcast_S_S128 : (⟨S_, .f32⟩ : BufTy).Contents (Elt F) → (⟨S128, .f32⟩ : BufTy).Contents (Elt F)),
    binary main_v56 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v62 main_v67 main_v68 (mulf : (⟨S100000x128, .f32⟩ : BufTy).Contents (Elt F) → (⟨S100000x128, .f32⟩ : BufTy).Contents (Elt F) → (⟨S100000x128, .f32⟩ : BufTy).Contents (Elt F)),
    unary main_arg6 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v71) (TRef.of (T := ⟨S100000x128, .f32⟩) main_call1_v0) (TRef.of (T := ⟨S100000x128, .f32⟩) main_v72) maximumf ]

/-- The buffers the stretch writes, in order. -/
abbrev writesC : List (Ref sig .tc) :=
  [main_cst_9, main_v47, main_cst_10, main_v48, main_v49, main_v50, main_v51, main_v52, main_v53, main_cst_11, main_v54, main_cst_12, main_v55, main_v56, main_v57, main_v58, main_v59, main_v60, main_v61, main_v62, main_cst_13, main_v63, main_v64, main_v65, main_v66, main_v67, main_v68, main_v69, main_v70, main_v71, main_call1_cst, main_call1_v0, main_v72]

/-- Each operation of the stretch writes one of the listed buffers. -/
theorem opsC_writes_sub :
    (opsC (F := F)).Forall fun op => op.writes ⊆ (writesC.map (Proc.devRef (τ := τ) .tc)).toFinset := by
  simp only [opsC, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem carryC (U : Valuation τ sig (Elt F)) {r : Ref sig .tc} (hr : r ∉ writesC) :
    StableHlo.after (opsC (F := F)) U (Proc.devRef .tc r) = U (Proc.devRef .tc r) :=
  after_of_writes_sub opsC U opsC_writes_sub hr

/-- From contents holding the stage values at the stretch's inputs, the stretch leaves the stage value at its result. -/
theorem stretchC (U : Valuation τ sig (Elt F)) (x0 : (⟨S100000x1, .f32⟩ : BufTy).Contents (Elt F)) (x1 : (⟨S2x1600000, .i32⟩ : BufTy).Contents (Elt F)) (x3 : (⟨S1x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F))
    (h0 : U (Proc.devRef .tc main_v46) = val_main_v46 (F := F) x0 x1 x3 x4)
    (h1 : U (Proc.devRef .tc main_arg5) = x5)
    (h2 : U (Proc.devRef .tc main_arg6) = x6) :
    StableHlo.after (opsC (F := F)) U (Proc.devRef .tc main_v72) = val_main_v72 (F := F) x0 x1 x3 x4 x5 x6 := by
  simp only [opsC]
  after_results_simp
  rw [h0, h1, h2]
  rfl

/-! ## Stretch E: the second layer's column statistics, normalisation and rectifier -/

/-- The 33 operations of the stretch, in program order. -/
abbrev opsE : List (HloOp τ sig (Elt F)) :=
  [ nullary main_cst_17 (constant S_ .f32 0x00000000#32),
    binary main_v89 main_cst_17 main_v90 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v91 (broadcastInDim S128 ![] bcast_S_S128 : (⟨S_, .f32⟩ : BufTy).Contents (Elt F) → (⟨S128, .f32⟩ : BufTy).Contents (Elt F)),
    binary main_v90 main_v91 main_v92 (Host.divf : (⟨S128, .f32⟩ : BufTy).Contents (Elt F) → (⟨S128, .f32⟩ : BufTy).Contents (Elt F) → (⟨S128, .f32⟩ : BufTy).Contents (Elt F)),
    unary main_v92 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v89 main_v94 main_v95 (subf : (⟨S100000x128, .f32⟩ : BufTy).Contents (Elt F) → (⟨S100000x128, .f32⟩ : BufTy).Contents (Elt F) → (⟨S100000x128, .f32⟩ : BufTy).Contents (Elt F)),
    binary main_v95 main_v95 main_v96 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v96 main_cst_19 main_v97 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v98 (broadcastInDim S128 ![] bcast_S_S128 : (⟨S_, .f32⟩ : BufTy).Contents (Elt F) → (⟨S128, .f32⟩ : BufTy).Contents (Elt F)),
    binary main_v97 main_v98 main_v99 (Host.divf : (⟨S128, .f32⟩ : BufTy).Contents (Elt F) → (⟨S128, .f32⟩ : BufTy).Contents (Elt F) → (⟨S128, .f32⟩ : BufTy).Contents (Elt F)),
    unary main_v92 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v89 main_v101 main_v102 (subf : (⟨S100000x128, .f32⟩ : BufTy).Contents (Elt F) → (⟨S100000x128, .f32⟩ : BufTy).Contents (Elt F) → (⟨S100000x128, .f32⟩ : BufTy).Contents (Elt F)),
    unary main_arg9 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v104 main_v102 main_v105 (mulf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v106 (broadcastInDim S128 ![] bcast_S_S128 : (⟨S_, .f32⟩ : BufTy).Contents (Elt F) → (⟨S128, .f32⟩ : BufTy).Contents (Elt F)),
    binary main_v99 main_v106 main_v107 (addf : (⟨S128, .f32⟩ : BufTy).Contents (Elt F) → (⟨S128, .f32⟩ : BufTy).Contents (Elt F) → (⟨S128, .f32⟩ : BufTy).Contents (Elt F)),
    unary main_v107 main_v108 (Host.rsqrt : (⟨S128, .f32⟩ : BufTy).Contents (Elt F) → (⟨S128, .f32⟩ : BufTy).Contents (Elt F)),
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v105 main_v110 main_v111 (mulf : (⟨S100000x128, .f32⟩ : BufTy).Contents (Elt F) → (⟨S100000x128, .f32⟩ : BufTy).Contents (Elt F) → (⟨S100000x128, .f32⟩ : BufTy).Contents (Elt F)),
    unary main_arg10 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v111 main_v113 main_v114 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v114) (TRef.of (T := ⟨S100000x128, .f32⟩) main_call2_v0) (TRef.of (T := ⟨S100000x128, .f32⟩) main_v115) maximumf ]

/-- The buffers the stretch writes, in order. -/
abbrev writesE : List (Ref sig .tc) :=
  [main_cst_17, main_v90, main_cst_18, main_v91, main_v92, main_v93, main_v94, main_v95, main_v96, main_cst_19, main_v97, main_cst_20, main_v98, main_v99, main_v100, main_v101, main_v102, main_v103, main_v104, main_v105, main_cst_21, main_v106, main_v107, main_v108, main_v109, main_v110, main_v111, main_v112, main_v113, main_v114, main_call2_cst, main_call2_v0, main_v115]

/-- Each operation of the stretch writes one of the listed buffers. -/
theorem opsE_writes_sub :
    (opsE (F := F)).Forall fun op => op.writes ⊆ (writesE.map (Proc.devRef (τ := τ) .tc)).toFinset := by
  simp only [opsE, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem carryE (U : Valuation τ sig (Elt F)) {r : Ref sig .tc} (hr : r ∉ writesE) :
    StableHlo.after (opsE (F := F)) U (Proc.devRef .tc r) = U (Proc.devRef .tc r) :=
  after_of_writes_sub opsE U opsE_writes_sub hr

/-- From contents holding the stage values at the stretch's inputs, the stretch leaves the stage value at its result. -/
theorem stretchE (U : Valuation τ sig (Elt F)) (x0 : (⟨S100000x1, .f32⟩ : BufTy).Contents (Elt F)) (x1 : (⟨S2x1600000, .i32⟩ : BufTy).Contents (Elt F)) (x3 : (⟨S1x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F))
    (h0 : U (Proc.devRef .tc main_v89) = val_main_v89 (F := F) x0 x1 x3 x4 x5 x6 x7 x8)
    (h1 : U (Proc.devRef .tc main_arg9) = x9)
    (h2 : U (Proc.devRef .tc main_arg10) = x10) :
    StableHlo.after (opsE (F := F)) U (Proc.devRef .tc main_v115) = val_main_v115 (F := F) x0 x1 x3 x4 x5 x6 x7 x8 x9 x10 := by
  simp only [opsE]
  after_results_simp
  rw [h0, h1, h2]
  rfl

/-! ## Stretch G: the third layer's column statistics, normalisation and rectifier -/

/-- The 33 operations of the stretch, in program order. -/
abbrev opsG : List (HloOp τ sig (Elt F)) :=
  [ nullary main_cst_25 (constant S_ .f32 0x00000000#32),
    binary main_v132 main_cst_25 main_v133 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v134 (broadcastInDim S128 ![] bcast_S_S128 : (⟨S_, .f32⟩ : BufTy).Contents (Elt F) → (⟨S128, .f32⟩ : BufTy).Contents (Elt F)),
    binary main_v133 main_v134 main_v135 (Host.divf : (⟨S128, .f32⟩ : BufTy).Contents (Elt F) → (⟨S128, .f32⟩ : BufTy).Contents (Elt F) → (⟨S128, .f32⟩ : BufTy).Contents (Elt F)),
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v132 main_v137 main_v138 (subf : (⟨S100000x128, .f32⟩ : BufTy).Contents (Elt F) → (⟨S100000x128, .f32⟩ : BufTy).Contents (Elt F) → (⟨S100000x128, .f32⟩ : BufTy).Contents (Elt F)),
    binary main_v138 main_v138 main_v139 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v139 main_cst_27 main_v140 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v141 (broadcastInDim S128 ![] bcast_S_S128 : (⟨S_, .f32⟩ : BufTy).Contents (Elt F) → (⟨S128, .f32⟩ : BufTy).Contents (Elt F)),
    binary main_v140 main_v141 main_v142 (Host.divf : (⟨S128, .f32⟩ : BufTy).Contents (Elt F) → (⟨S128, .f32⟩ : BufTy).Contents (Elt F) → (⟨S128, .f32⟩ : BufTy).Contents (Elt F)),
    unary main_v135 main_v143 (broadcastInDim S1x128 ![1] bcast_S128_S1x128_1 : (⟨S128, .f32⟩ : BufTy).Contents (Elt F) → (⟨S1x128, .f32⟩ : BufTy).Contents (Elt F)),
    unary main_v143 main_v144 (broadcastInDim S100000x128 ![0, 1] bcast_S1x128_S100000x128_0_1 : (⟨S1x128, .f32⟩ : BufTy).Contents (Elt F) → (⟨S100000x128, .f32⟩ : BufTy).Contents (Elt F)),
    binary main_v132 main_v144 main_v145 (subf : (⟨S100000x128, .f32⟩ : BufTy).Contents (Elt F) → (⟨S100000x128, .f32⟩ : BufTy).Contents (Elt F) → (⟨S100000x128, .f32⟩ : BufTy).Contents (Elt F)),
    unary main_arg13 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v147 main_v145 main_v148 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v149 (broadcastInDim S128 ![] bcast_S_S128 : (⟨S_, .f32⟩ : BufTy).Contents (Elt F) → (⟨S128, .f32⟩ : BufTy).Contents (Elt F)),
    binary main_v142 main_v149 main_v150 (addf : (⟨S128, .f32⟩ : BufTy).Contents (Elt F) → (⟨S128, .f32⟩ : BufTy).Contents (Elt F) → (⟨S128, .f32⟩ : BufTy).Contents (Elt F)),
    unary main_v150 main_v151 (Host.rsqrt : (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v148 main_v153 main_v154 (mulf : (⟨S100000x128, .f32⟩ : BufTy).Contents (Elt F) → (⟨S100000x128, .f32⟩ : BufTy).Contents (Elt F) → (⟨S100000x128, .f32⟩ : BufTy).Contents (Elt F)),
    unary main_arg14 main_v155 (broadcastInDim S1x128 ![1] bcast_S128_S1x128_1 : (⟨S128, .f32⟩ : BufTy).Contents (Elt F) → (⟨S1x128, .f32⟩ : BufTy).Contents (Elt F)),
    unary main_v155 main_v156 (broadcastInDim S100000x128 ![0, 1] bcast_S1x128_S100000x128_0_1 : (⟨S1x128, .f32⟩ : BufTy).Contents (Elt F) → (⟨S100000x128, .f32⟩ : BufTy).Contents (Elt F)),
    binary main_v154 main_v156 main_v157 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v157) (TRef.of (T := ⟨S100000x128, .f32⟩) main_call3_v0) (TRef.of (T := ⟨S100000x128, .f32⟩) main_v158) maximumf ]

/-- The buffers the stretch writes, in order. -/
abbrev writesG : List (Ref sig .tc) :=
  [main_cst_25, main_v133, main_cst_26, main_v134, main_v135, main_v136, main_v137, main_v138, main_v139, main_cst_27, main_v140, main_cst_28, main_v141, main_v142, main_v143, main_v144, main_v145, main_v146, main_v147, main_v148, main_cst_29, main_v149, main_v150, main_v151, main_v152, main_v153, main_v154, main_v155, main_v156, main_v157, main_call3_cst, main_call3_v0, main_v158]

/-- Each operation of the stretch writes one of the listed buffers. -/
theorem opsG_writes_sub :
    (opsG (F := F)).Forall fun op => op.writes ⊆ (writesG.map (Proc.devRef (τ := τ) .tc)).toFinset := by
  simp only [opsG, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem carryG (U : Valuation τ sig (Elt F)) {r : Ref sig .tc} (hr : r ∉ writesG) :
    StableHlo.after (opsG (F := F)) U (Proc.devRef .tc r) = U (Proc.devRef .tc r) :=
  after_of_writes_sub opsG U opsG_writes_sub hr

/-- From contents holding the stage values at the stretch's inputs, the stretch leaves the stage value at its result. -/
theorem stretchG (U : Valuation τ sig (Elt F)) (x0 : (⟨S100000x1, .f32⟩ : BufTy).Contents (Elt F)) (x1 : (⟨S2x1600000, .i32⟩ : BufTy).Contents (Elt F)) (x3 : (⟨S1x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F))
    (h0 : U (Proc.devRef .tc main_v132) = val_main_v132 (F := F) x0 x1 x3 x4 x5 x6 x7 x8 x9 x10 x11 x12)
    (h1 : U (Proc.devRef .tc main_arg13) = x13)
    (h2 : U (Proc.devRef .tc main_arg14) = x14) :
    StableHlo.after (opsG (F := F)) U (Proc.devRef .tc main_v158) = val_main_v158 (F := F) x0 x1 x3 x4 x5 x6 x7 x8 x9 x10 x11 x12 x13 x14 := by
  simp only [opsG]
  after_results_simp
  rw [h0, h1, h2]
  rfl

/-! ## Stretch H: the mean pool over the graphs and the two-layer head -/

/-- The 27 operations of the stretch, in program order. -/
abbrev opsH : List (HloOp τ sig (Elt F)) :=
  [ nullary main_cst_30 (constant S_ .f32 0x3F800000#32),
    unary main_cst_30 main_v159 (broadcastInDim S100000 ![] bcast_S_S100000 : (⟨S_, .f32⟩ : BufTy).Contents (Elt F) → (⟨S100000, .f32⟩ : BufTy).Contents (Elt F)),
    nullary main_cst_31 (constant S_ .f32 0x00000000#32),
    unary main_cst_31 main_v160 (broadcastInDim S64 ![] bcast_S_S64 : (⟨S_, .f32⟩ : BufTy).Contents (Elt F) → (⟨S64, .f32⟩ : BufTy).Contents (Elt F)),
    unary main_arg2 main_v161 (broadcastInDim S100000x1 ![0] bcast_S100000_S100000x1_0 : (⟨S100000, .i32⟩ : BufTy).Contents (Elt F) → (⟨S100000x1, .i32⟩ : BufTy).Contents (Elt F)),
    ternary main_v160 main_v161 main_v159 main_v162 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_32 (constant S_ .f32 0x00000000#32),
    unary main_cst_32 main_v163 (broadcastInDim S64x128 ![] bcast_S_S64x128 : (⟨S_, .f32⟩ : BufTy).Contents (Elt F) → (⟨S64x128, .f32⟩ : BufTy).Contents (Elt F)),
    unary main_arg2 main_v164 (broadcastInDim S100000x1 ![0] bcast_S100000_S100000x1_0 : (⟨S100000, .i32⟩ : BufTy).Contents (Elt F) → (⟨S100000x1, .i32⟩ : BufTy).Contents (Elt F)),
    ternary main_v163 main_v164 main_v158 main_v165 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_33 (constant S_ .f32 0x3F800000#32),
    unary main_cst_33 main_v166 (broadcastInDim S64 ![] bcast_S_S64 : (⟨S_, .f32⟩ : BufTy).Contents (Elt F) → (⟨S64, .f32⟩ : BufTy).Contents (Elt F)),
    binary main_v162 main_v166 main_v167 (maximumf : (⟨S64, .f32⟩ : BufTy).Contents (Elt F) → (⟨S64, .f32⟩ : BufTy).Contents (Elt F) → (⟨S64, .f32⟩ : BufTy).Contents (Elt F)),
    unary main_v167 main_v168 (broadcastInDim S64x1 ![0] bcast_S64_S64x1_0 : (⟨S64, .f32⟩ : BufTy).Contents (Elt F) → (⟨S64x1, .f32⟩ : BufTy).Contents (Elt F)),
    unary main_v168 main_v169 (broadcastInDim S64x128 ![0, 1] bcast_S64x1_S64x128_0_1 : (⟨S64x1, .f32⟩ : BufTy).Contents (Elt F) → (⟨S64x128, .f32⟩ : BufTy).Contents (Elt F)),
    binary main_v165 main_v169 main_v170 (Host.divf : (⟨S64x128, .f32⟩ : BufTy).Contents (Elt F) → (⟨S64x128, .f32⟩ : BufTy).Contents (Elt F) → (⟨S64x128, .f32⟩ : BufTy).Contents (Elt F)),
    binary main_v170 main_arg15 main_v171 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg16 main_v172 (broadcastInDim S1x128 ![1] bcast_S128_S1x128_1 : (⟨S128, .f32⟩ : BufTy).Contents (Elt F) → (⟨S1x128, .f32⟩ : BufTy).Contents (Elt F)),
    unary main_v172 main_v173 (broadcastInDim S64x128 ![0, 1] bcast_S1x128_S64x128_0_1 : (⟨S1x128, .f32⟩ : BufTy).Contents (Elt F) → (⟨S64x128, .f32⟩ : BufTy).Contents (Elt F)),
    binary main_v171 main_v173 main_v174 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x128, .f32⟩) main_call4_v0) (broadcastInDim S64x128 ![] bcast_S_S64x128),
    TRef.binary (TRef.of (T := ⟨S64x128, .f32⟩) main_v174) (TRef.of (T := ⟨S64x128, .f32⟩) main_call4_v0) (TRef.of (T := ⟨S64x128, .f32⟩) main_v175) maximumf,
    binary main_v175 main_arg17 main_v176 ((fun l r => Host.dotGeneral dot_S64x128_S128x16_S64x16_1_0_0_1_n_n none l r) : (⟨S64x128, .f32⟩ : BufTy).Contents (Elt F) → (⟨S128x16, .f32⟩ : BufTy).Contents (Elt F) → (⟨S64x16, .f32⟩ : BufTy).Contents (Elt F)),
    unary main_arg18 main_v177 (broadcastInDim S1x16 ![1] bcast_S16_S1x16_1 : (⟨S16, .f32⟩ : BufTy).Contents (Elt F) → (⟨S1x16, .f32⟩ : BufTy).Contents (Elt F)),
    unary main_v177 main_v178 (broadcastInDim S64x16 ![0, 1] bcast_S1x16_S64x16_0_1 : (⟨S1x16, .f32⟩ : BufTy).Contents (Elt F) → (⟨S64x16, .f32⟩ : BufTy).Contents (Elt F)),
    binary main_v176 main_v178 main_v179 (addf : (⟨S64x16, .f32⟩ : BufTy).Contents (Elt F) → (⟨S64x16, .f32⟩ : BufTy).Contents (Elt F) → (⟨S64x16, .f32⟩ : BufTy).Contents (Elt F)) ]

/-- The buffers the stretch writes, in order. -/
abbrev writesH : List (Ref sig .tc) :=
  [main_cst_30, main_v159, main_cst_31, main_v160, main_v161, main_v162, main_cst_32, main_v163, main_v164, main_v165, main_cst_33, main_v166, main_v167, main_v168, main_v169, main_v170, main_v171, main_v172, main_v173, main_v174, main_call4_cst, main_call4_v0, main_v175, main_v176, main_v177, main_v178, main_v179]

/-- Each operation of the stretch writes one of the listed buffers. -/
theorem opsH_writes_sub :
    (opsH (F := F)).Forall fun op => op.writes ⊆ (writesH.map (Proc.devRef (τ := τ) .tc)).toFinset := by
  simp only [opsH, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem carryH (U : Valuation τ sig (Elt F)) {r : Ref sig .tc} (hr : r ∉ writesH) :
    StableHlo.after (opsH (F := F)) U (Proc.devRef .tc r) = U (Proc.devRef .tc r) :=
  after_of_writes_sub opsH U opsH_writes_sub hr

/-- From contents holding the stage values at the stretch's inputs, the stretch leaves the stage value at its result. -/
theorem stretchH (U : Valuation τ sig (Elt F)) (x0 : (⟨S100000x1, .f32⟩ : BufTy).Contents (Elt F)) (x1 : (⟨S2x1600000, .i32⟩ : BufTy).Contents (Elt F)) (x2 : (⟨S100000, .i32⟩ : BufTy).Contents (Elt F)) (x3 : (⟨S1x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128x16, .f32⟩ : BufTy).Contents (Elt F)) (x18 : (⟨S16, .f32⟩ : BufTy).Contents (Elt F))
    (h0 : U (Proc.devRef .tc main_v158) = val_main_v158 (F := F) x0 x1 x3 x4 x5 x6 x7 x8 x9 x10 x11 x12 x13 x14)
    (h1 : U (Proc.devRef .tc main_arg2) = x2)
    (h2 : U (Proc.devRef .tc main_arg15) = x15)
    (h3 : U (Proc.devRef .tc main_arg16) = x16)
    (h4 : U (Proc.devRef .tc main_arg17) = x17)
    (h5 : U (Proc.devRef .tc main_arg18) = x18) :
    StableHlo.after (opsH (F := F)) U (Proc.devRef .tc main_v179) = val_main_v179 (F := F) x0 x1 x2 x3 x4 x5 x6 x7 x8 x9 x10 x11 x12 x13 x14 x15 x16 x17 x18 := by
  simp only [opsH]
  after_results_simp
  rw [h0, h1, h2, h3, h4, h5]
  rfl

end Cert.ReferenceIdeal.Stretch

end
-- ==== Proof.RefRun.lean ====
/- The reference's run, assembled by hand. The program is a straight line of 226 operations, so every execution ends
   with each buffer at the fold of the operations over the launch contents. The line is cut into eight consecutive
   stretches (the edge tables and the edge norm; then, for each of the three layers, the aggregation and the
   normalisation; then pooling and the head); each stretch takes the stage values at its input buffers to the stage
   value at its output buffer and leaves every buffer it does not write as it found it. Chaining the eight stretches
   from the launch contents gives the result buffer at the reference's last stage of the arguments, and no operation
   writes an argument. -/
import proofs.«420901_j2903397892205_1_alg».proof.Proof.RefImports
import proofs.«420901_j2903397892205_1_alg».proof.Proof.RefStretch1
import proofs.«420901_j2903397892205_1_alg».proof.Proof.RefStretch2

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Stretch Cert.ReferenceIdeal.Read

variable {F : FTy → Type} [FloatOps F]

/-! ## The run, as a fold of the operations -/

set_option maxRecDepth 8192 in
/-- Every operation of the reference determines its result. -/
theorem ops_fresh : ∀ op ∈ (ops : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every execution of the reference ends with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## The operations, as eight stretches in a row -/

set_option maxRecDepth 8192 in
/-- The operation list is its eight consecutive stretches. -/
theorem ops_split : (ops : List (HloOp τ sig (Elt F)))
    = opsA ++ (opsB ++ (opsC ++ (opsD ++ (opsE ++ (opsF ++ (opsG ++ opsH)))))) := rfl

/-- The fold over all operations is the fold over the stretches, one after the other. -/
theorem after_ops (V : Valuation τ sig (Elt F)) :
    after (ops (F := F)) V
      = after opsH (after opsG (after opsF (after opsE (after opsD (after opsC (after opsB (after opsA V))))))) := by
  rw [ops_split]
  simp only [after_append]

/-! ## Buffers a prefix of the stretches does not write -/

theorem carry2 (V : Valuation τ sig (Elt F)) {r : Ref sig .tc} (hA : r ∉ writesA) (hB : r ∉ writesB) :
    after opsB (after opsA V) (Proc.devRef .tc r) = V (Proc.devRef .tc r) := (carryB _ hB).trans (carryA V hA)
theorem carry3 (V : Valuation τ sig (Elt F)) {r : Ref sig .tc} (hA : r ∉ writesA) (hB : r ∉ writesB) (hC : r ∉ writesC) :
    after opsC (after opsB (after opsA V)) (Proc.devRef .tc r) = V (Proc.devRef .tc r) := (carryC _ hC).trans (carry2 V hA hB)
theorem carry4 (V : Valuation τ sig (Elt F)) {r : Ref sig .tc} (hA : r ∉ writesA) (hB : r ∉ writesB) (hC : r ∉ writesC) (hD : r ∉ writesD) :
    after opsD (after opsC (after opsB (after opsA V))) (Proc.devRef .tc r) = V (Proc.devRef .tc r) :=
  (carryD _ hD).trans (carry3 V hA hB hC)
theorem carry5 (V : Valuation τ sig (Elt F)) {r : Ref sig .tc} (hA : r ∉ writesA) (hB : r ∉ writesB) (hC : r ∉ writesC) (hD : r ∉ writesD)
    (hE : r ∉ writesE) :
    after opsE (after opsD (after opsC (after opsB (after opsA V)))) (Proc.devRef .tc r) = V (Proc.devRef .tc r) :=
  (carryE _ hE).trans (carry4 V hA hB hC hD)
theorem carry6 (V : Valuation τ sig (Elt F)) {r : Ref sig .tc} (hA : r ∉ writesA) (hB : r ∉ writesB) (hC : r ∉ writesC) (hD : r ∉ writesD)
    (hE : r ∉ writesE) (hF : r ∉ writesF) :
    after opsF (after opsE (after opsD (after opsC (after opsB (after opsA V))))) (Proc.devRef .tc r) = V (Proc.devRef .tc r) :=
  (carryF _ hF).trans (carry5 V hA hB hC hD hE)
theorem carry7 (V : Valuation τ sig (Elt F)) {r : Ref sig .tc} (hA : r ∉ writesA) (hB : r ∉ writesB) (hC : r ∉ writesC) (hD : r ∉ writesD)
    (hE : r ∉ writesE) (hF : r ∉ writesF) (hG : r ∉ writesG) :
    after opsG (after opsF (after opsE (after opsD (after opsC (after opsB (after opsA V)))))) (Proc.devRef .tc r)
      = V (Proc.devRef .tc r) :=
  (carryG _ hG).trans (carry6 V hA hB hC hD hE hF)
/-- A buffer no stretch writes keeps its launch contents to the end. -/
theorem carry_ops (V : Valuation τ sig (Elt F)) {r : Ref sig .tc} (hA : r ∉ writesA) (hB : r ∉ writesB) (hC : r ∉ writesC) (hD : r ∉ writesD)
    (hE : r ∉ writesE) (hF : r ∉ writesF) (hG : r ∉ writesG) (hH : r ∉ writesH) :
    after (ops (F := F)) V (Proc.devRef .tc r) = V (Proc.devRef .tc r) := by
  rw [after_ops]
  exact (carryH _ hH).trans (carry7 V hA hB hC hD hE hF hG)

/-- What the first stretch leaves (the edge tables, the edge norm) through the second and third stretches. -/
theorem keepBC (W : Valuation τ sig (Elt F)) {r : Ref sig .tc} (hB : r ∉ writesB) (hC : r ∉ writesC) :
    after opsC (after opsB W) (Proc.devRef .tc r) = W (Proc.devRef .tc r) := (carryC _ hC).trans (carryB W hB)
/-- … and through the fourth and fifth. -/
theorem keepBE (W : Valuation τ sig (Elt F)) {r : Ref sig .tc} (hB : r ∉ writesB) (hC : r ∉ writesC) (hD : r ∉ writesD)
    (hE : r ∉ writesE) :
    after opsE (after opsD (after opsC (after opsB W))) (Proc.devRef .tc r) = W (Proc.devRef .tc r) :=
  (carryE _ hE).trans ((carryD _ hD).trans (keepBC W hB hC))

/-! ## The result buffer, stage by stage -/

/-- After all operations the result buffer holds the reference's last stage at the launch contents of the arguments. -/
theorem after_ops_v179 (V : Valuation τ sig (Elt F)) :
    after (ops (F := F)) V (Proc.devRef .tc main_v179)
      = val_main_v179 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops]
  -- the first stretch: the two edge tables and the edge norm, from the edge list
  have a3 := stretchA_v3 V _ rfl
  have a6 := stretchA_v6 V _ rfl
  have a29 := stretchA_v29 V _ rfl
  -- layer 1: aggregation, then normalisation
  have b46 := stretchB (after opsA V) (V (Proc.devRef .tc main_arg0)) (V (Proc.devRef .tc main_arg1)) (V (Proc.devRef .tc main_arg3)) (V (Proc.devRef .tc main_arg4)) (carryA V (by decide)) (carryA V (by decide)) (carryA V (by decide)) a3 a6 a29
  have c72 := stretchC (after opsB (after opsA V)) (V (Proc.devRef .tc main_arg0)) (V (Proc.devRef .tc main_arg1)) (V (Proc.devRef .tc main_arg3)) (V (Proc.devRef .tc main_arg4)) (V (Proc.devRef .tc main_arg5)) (V (Proc.devRef .tc main_arg6)) b46 (carry2 V (by decide) (by decide)) (carry2 V (by decide) (by decide))
  -- layer 2
  have d89 := stretchD (after opsC (after opsB (after opsA V))) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (carry3 V (by decide) (by decide) (by decide)) (carry3 V (by decide) (by decide) (by decide))
    ((keepBC _ (by decide) (by decide)).trans a3) ((keepBC _ (by decide) (by decide)).trans a6) ((keepBC _ (by decide) (by decide)).trans a29) c72
  have e115 := stretchE (after opsD (after opsC (after opsB (after opsA V)))) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) d89 (carry4 V (by decide) (by decide) (by decide) (by decide)) (carry4 V (by decide) (by decide) (by decide) (by decide))
  -- layer 3
  have f132 := stretchF (after opsE (after opsD (after opsC (after opsB (after opsA V))))) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (carry5 V (by decide) (by decide) (by decide) (by decide) (by decide)) (carry5 V (by decide) (by decide) (by decide) (by decide) (by decide))
    ((keepBE _ (by decide) (by decide) (by decide) (by decide)).trans a3) ((keepBE _ (by decide) (by decide) (by decide) (by decide)).trans a6)
    ((keepBE _ (by decide) (by decide) (by decide) (by decide)).trans a29) e115
  have g158 := stretchG (after opsF (after opsE (after opsD (after opsC (after opsB (after opsA V)))))) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) f132 (carry6 V (by decide) (by decide) (by decide) (by decide) (by decide) (by decide))
    (carry6 V (by decide) (by decide) (by decide) (by decide) (by decide) (by decide))
  -- pooling and the head
  exact stretchH (after opsG (after opsF (after opsE (after opsD (after opsC (after opsB (after opsA V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) g158
    (carry7 V (by decide) (by decide) (by decide) (by decide) (by decide) (by decide) (by decide)) (carry7 V (by decide) (by decide) (by decide) (by decide) (by decide) (by decide) (by decide))
    (carry7 V (by decide) (by decide) (by decide) (by decide) (by decide) (by decide) (by decide)) (carry7 V (by decide) (by decide) (by decide) (by decide) (by decide) (by decide) (by decide))
    (carry7 V (by decide) (by decide) (by decide) (by decide) (by decide) (by decide) (by decide))

/-! ## The run -/

/-- On every device, for any float values, from any memory with zero counters: every weakly fair execution of the
    reference terminates with its result at the last stage of the arguments and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179) = Cert.ReferenceIdeal.Read.val_main_v179 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v179).trans (after_ops_v179 (launchContents m c)),
      (h c main_arg0).trans (carry_ops (launchContents m c) (by decide) (by decide) (by decide) (by decide) (by decide) (by decide) (by decide) (by decide)),
      (h c main_arg1).trans (carry_ops (launchContents m c) (by decide) (by decide) (by decide) (by decide) (by decide) (by decide) (by decide) (by decide)),
      (h c main_arg2).trans (carry_ops (launchContents m c) (by decide) (by decide) (by decide) (by decide) (by decide) (by decide) (by decide) (by decide)),
      (h c main_arg3).trans (carry_ops (launchContents m c) (by decide) (by decide) (by decide) (by decide) (by decide) (by decide) (by decide) (by decide)),
      (h c main_arg4).trans (carry_ops (launchContents m c) (by decide) (by decide) (by decide) (by decide) (by decide) (by decide) (by decide) (by decide)),
      (h c main_arg5).trans (carry_ops (launchContents m c) (by decide) (by decide) (by decide) (by decide) (by decide) (by decide) (by decide) (by decide)),
      (h c main_arg6).trans (carry_ops (launchContents m c) (by decide) (by decide) (by decide) (by decide) (by decide) (by decide) (by decide) (by decide)),
      (h c main_arg7).trans (carry_ops (launchContents m c) (by decide) (by decide) (by decide) (by decide) (by decide) (by decide) (by decide) (by decide)),
      (h c main_arg8).trans (carry_ops (launchContents m c) (by decide) (by decide) (by decide) (by decide) (by decide) (by decide) (by decide) (by decide)),
      (h c main_arg9).trans (carry_ops (launchContents m c) (by decide) (by decide) (by decide) (by decide) (by decide) (by decide) (by decide) (by decide)),
      (h c main_arg10).trans (carry_ops (launchContents m c) (by decide) (by decide) (by decide) (by decide) (by decide) (by decide) (by decide) (by decide)),
      (h c main_arg11).trans (carry_ops (launchContents m c) (by decide) (by decide) (by decide) (by decide) (by decide) (by decide) (by decide) (by decide)),
      (h c main_arg12).trans (carry_ops (launchContents m c) (by decide) (by decide) (by decide) (by decide) (by decide) (by decide) (by decide) (by decide)),
      (h c main_arg13).trans (carry_ops (launchContents m c) (by decide) (by decide) (by decide) (by decide) (by decide) (by decide) (by decide) (by decide)),
      (h c main_arg14).trans (carry_ops (launchContents m c) (by decide) (by decide) (by decide) (by decide) (by decide) (by decide) (by decide) (by decide)),
      (h c main_arg15).trans (carry_ops (launchContents m c) (by decide) (by decide) (by decide) (by decide) (by decide) (by decide) (by decide) (by decide)),
      (h c main_arg16).trans (carry_ops (launchContents m c) (by decide) (by decide) (by decide) (by decide) (by decide) (by decide) (by decide) (by decide)),
      (h c main_arg17).trans (carry_ops (launchContents m c) (by decide) (by decide) (by decide) (by decide) (by decide) (by decide) (by decide) (by decide)),
      (h c main_arg18).trans (carry_ops (launchContents m c) (by decide) (by decide) (by decide) (by decide) (by decide) (by decide) (by decide) (by decide))⟩)
    (run_after m ρ)

end Cert.ReferenceIdeal.Value

end
-- ==== Proof.lean ====
/-
  The certificate of the GCN forward pass (three GCNConv + BatchNorm + ReLU layers, global mean pool, two-layer head):
  the Pallas program — linear, column-statistics, affine+ReLU and one-hot pooling kernels among host gathers and
  scatter-adds — against the plain jnp reference.

  Frames: the two kernel programs' frames are the launch of their 23 segments; the reference's is its run, read.
  The idealization rewrote nothing, so `preserves` holds trivially.
  Values, over the extended reals: boundary by boundary the kernel program's buffers hold the reference's own stage
  values of the arguments (module KChain). What is not the same operations on equal inputs: a linear kernel's row blocks
  against one contraction (the same sum over the contracted coordinate); the BatchNorm statistics — the kernels sum a
  and a² over the 20 row blocks and the host forms max(E[a²] − E[a]², 0), the reference forms the mean of (a − E[a])²:
  equal for real a, and every aggregated feature is real because the inputs are finite (degrees are counts, the
  normalisation is a product of inverse square roots of positive counts or zero, sums and products of reals are real,
  the variance plus a positive epsilon has a real inverse square root); the pooling — the kernel multiplies by a
  one-hot of the batch word and sums, the reference scatter-adds by the batch word, and both divide by max(count, 1).
-/
import proofs.«420901_j2903397892205_1_alg».proof.Defs
import proofs.«420901_j2903397892205_1_alg».proof.Proof.Gen.Kernel
import proofs.«420901_j2903397892205_1_alg».proof.Proof.Gen.Kernel.Frame
import proofs.«420901_j2903397892205_1_alg».proof.Proof.Gen.KernelIdeal
import proofs.«420901_j2903397892205_1_alg».proof.Proof.Gen.KernelIdeal.Frame
import proofs.«420901_j2903397892205_1_alg».proof.Proof.Gen.ReferenceIdeal
import proofs.«420901_j2903397892205_1_alg».proof.Proof.Gen.Pre_finite_inputs
import proofs.«420901_j2903397892205_1_alg».proof.Proof.RunVal
import proofs.«420901_j2903397892205_1_alg».proof.Proof.KChain
import proofs.«420901_j2903397892205_1_alg».proof.Proof.RefRun
import proofs.«420901_j2903397892205_1_alg».proof.Proof.FinPre
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run_val (F := Ideal) m ρ)

theorem preserves : Cert.preserves_Kernel_KernelIdeal := trivial

/-- Both programs end with the reference's result stage of the (agreeing) arguments: the kernel program by the chain
    through its segments, under the precondition that makes every float argument real; the reference by its run. -/
theorem algebraic : Cert.algebraic_KernelIdeal_ReferenceIdeal := by
  intro m ρ m' ρ' hpre hagree
  refine ⟨fun c => Cert.KernelIdeal.Gen.W23 m ρ c (Proc.devRef .tc Cert.KernelIdeal.main_v131), Cert.KernelIdeal.Gen.run_val m ρ, ?_⟩
  refine (θ_run Cert.ReferenceIdeal.defs _ _).mono (fun _ h c => ⟨(h c).1.trans ?_, (h c).2⟩)
    (Cert.ReferenceIdeal.Value.run_val (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
  exact (Cert.KernelIdeal.Gen.s_v131 m ρ c (Cert.RefFin.args_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
